-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![16384, 512]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S16384x512 : Shape := ⟨2, ![16384, 512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel

variable [Facts]

def fn {F : FTy → Type} [FloatOps F] (main_arg0 : FVec F S16384x512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  main_v3
-- ==== Kernel.lean ====
abbrev S1024x512 : Shape := ⟨2, ![1024, 512]⟩
abbrev S1x512 : Shape := ⟨2, ![1, 512]⟩
abbrev S16x1x512 : Shape := ⟨3, ![16, 1, 512]⟩
abbrev S16 : Shape := ⟨1, ![16]⟩
abbrev S_ : Shape := ⟨0, ![]⟩
abbrev S512 : Shape := ⟨1, ![512]⟩
abbrev S1x1x512 : Shape := ⟨3, ![1, 1, 512]⟩
abbrev S1 : Shape := ⟨1, ![1]⟩
abbrev S16x512 : Shape := ⟨2, ![16, 512]⟩

abbrev nBuf : Space → Nat
  | .hbm => 2
  | .vmem => 3
  | .smem => 0
  | _ => 0

abbrev bufTy : (tb : Table) → Fin (tcTables nBuf tb) → BufTy
  | .hbm, ⟨0, _⟩ => ⟨S1024x512, .f32⟩
  | .hbm, ⟨1, _⟩ => ⟨S1x512, .f32⟩
  | .local _ .vmem, ⟨0, _⟩ => ⟨S1024x512, .f32⟩
  | .local _ .vmem, ⟨1, _⟩ => ⟨S1x512, .f32⟩
  | .local _ .vmem, ⟨2, _⟩ => ⟨S16x1x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_127 : BitVec 32 := 0#32
  let c0_i32_125 : BitVec 32 := 0#32
  let c1_i32_126 : BitVec 32 := 1#32
  let v211 : BitVec 32 := Scalar.muli c0_i32_125 c1_i32_126
  let v212 : BitVec 32 := Scalar.addi c0_i32_127 v211
  v212.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_127 : BitVec 32 := 0#32
  let c1_i32_125 : BitVec 32 := 1#32
  let c1_i32_126 : BitVec 32 := 1#32
  let v211 : BitVec 32 := Scalar.muli c1_i32_125 c1_i32_126
  let v212 : BitVec 32 := Scalar.addi c0_i32_127 v211
  v212.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_127 : BitVec 32 := 0#32
  let c2_i32_125 : BitVec 32 := 2#32
  let c1_i32_126 : BitVec 32 := 1#32
  let v211 : BitVec 32 := Scalar.muli c2_i32_125 c1_i32_126
  let v212 : BitVec 32 := Scalar.addi c0_i32_127 v211
  v212.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_127 : BitVec 32 := 0#32
  let c3_i32_125 : BitVec 32 := 3#32
  let c1_i32_126 : BitVec 32 := 1#32
  let v211 : BitVec 32 := Scalar.muli c3_i32_125 c1_i32_126
  let v212 : BitVec 32 := Scalar.addi c0_i32_127 v211
  v212.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_127 : BitVec 32 := 0#32
  let c4_i32_125 : BitVec 32 := 4#32
  let c1_i32_126 : BitVec 32 := 1#32
  let v211 : BitVec 32 := Scalar.muli c4_i32_125 c1_i32_126
  let v212 : BitVec 32 := Scalar.addi c0_i32_127 v211
  v212.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_127 : BitVec 32 := 0#32
  let c5_i32_125 : BitVec 32 := 5#32
  let c1_i32_126 : BitVec 32 := 1#32
  let v211 : BitVec 32 := Scalar.muli c5_i32_125 c1_i32_126
  let v212 : BitVec 32 := Scalar.addi c0_i32_127 v211
  v212.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_127 : BitVec 32 := 0#32
  let c6_i32_125 : BitVec 32 := 6#32
  let c1_i32_126 : BitVec 32 := 1#32
  let v211 : BitVec 32 := Scalar.muli c6_i32_125 c1_i32_126
  let v212 : BitVec 32 := Scalar.addi c0_i32_127 v211
  v212.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_127 : BitVec 32 := 0#32
  let c7_i32_125 : BitVec 32 := 7#32
  let c1_i32_126 : BitVec 32 := 1#32
  let v211 : BitVec 32 := Scalar.muli c7_i32_125 c1_i32_126
  let v212 : BitVec 32 := Scalar.addi c0_i32_127 v211
  v212.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_127 : BitVec 32 := 0#32
  let c8_i32_125 : BitVec 32 := 8#32
  let c1_i32_126 : BitVec 32 := 1#32
  let v211 : BitVec 32 := Scalar.muli c8_i32_125 c1_i32_126
  let v212 : BitVec 32 := Scalar.addi c0_i32_127 v211
  v212.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_127 : BitVec 32 := 0#32
  let c9_i32_125 : BitVec 32 := 9#32
  let c1_i32_126 : BitVec 32 := 1#32
  let v211 : BitVec 32 := Scalar.muli c9_i32_125 c1_i32_126
  let v212 : BitVec 32 := Scalar.addi c0_i32_127 v211
  v212.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_127 : BitVec 32 := 0#32
  let c10_i32_125 : BitVec 32 := 10#32
  let c1_i32_126 : BitVec 32 := 1#32
  let v211 : BitVec 32 := Scalar.muli c10_i32_125 c1_i32_126
  let v212 : BitVec 32 := Scalar.addi c0_i32_127 v211
  v212.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_127 : BitVec 32 := 0#32
  let c11_i32_125 : BitVec 32 := 11#32
  let c1_i32_126 : BitVec 32 := 1#32
  let v211 : BitVec 32 := Scalar.muli c11_i32_125 c1_i32_126
  let v212 : BitVec 32 := Scalar.addi c0_i32_127 v211
  v212.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_127 : BitVec 32 := 0#32
  let c12_i32_125 : BitVec 32 := 12#32
  let c1_i32_126 : BitVec 32 := 1#32
  let v211 : BitVec 32 := Scalar.muli c12_i32_125 c1_i32_126
  let v212 : BitVec 32 := Scalar.addi c0_i32_127 v211
  v212.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_127 : BitVec 32 := 0#32
  let c13_i32_125 : BitVec 32 := 13#32
  let c1_i32_126 : BitVec 32 := 1#32
  let v211 : BitVec 32 := Scalar.muli c13_i32_125 c1_i32_126
  let v212 : BitVec 32 := Scalar.addi c0_i32_127 v211
  v212.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_127 : BitVec 32 := 0#32
  let c14_i32_125 : BitVec 32 := 14#32
  let c1_i32_126 : BitVec 32 := 1#32
  let v211 : BitVec 32 := Scalar.muli c14_i32_125 c1_i32_126
  let v212 : BitVec 32 := Scalar.addi c0_i32_127 v211
  v212.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_127 : BitVec 32 := 0#32
  let c15_i32_125 : BitVec 32 := 15#32
  let c1_i32_126 : BitVec 32 := 1#32
  let v211 : BitVec 32 := Scalar.muli c15_i32_125 c1_i32_126
  let v212 : BitVec 32 := Scalar.addi c0_i32_127 v211
  v212.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v56 : Index := Scalar.indexCast v2
  let c0_18 : Index := 0#32
  let c0_19 : Index := 0#32
  ![v56.toNat, 0, 0]
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_21 : BitVec 32 := 0#32
  let v60 : BitVec 1 := Scalar.cmpi .ne v2 c0_i32_21
  let v61 : BitVec 32 := Scalar.extui v60
  let c0_i32_22 : BitVec 32 := 0#32
  let v62 : BitVec 1 := Scalar.cmpi .ne v61 c0_i32_22
  v62

def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_128 : BitVec 32 := 0#32
  let c0_i32_129 : BitVec 32 := 0#32
  ![v2.toNat, 0, 0]
def k0_dev17 : Nat :=
  let c0_i32_127 : BitVec 32 := 0#32
  let c0_i32_125 : BitVec 32 := 0#32
  let c1_i32_126 : BitVec 32 := 1#32
  let v211 : BitVec 32 := Scalar.muli c0_i32_125 c1_i32_126
  let v212 : BitVec 32 := Scalar.addi c0_i32_127 v211
  v212.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_23 : BitVec 32 := 1#32
  let v63 : BitVec 1 := Scalar.cmpi .ne v2 c1_i32_23
  let v64 : BitVec 32 := Scalar.extui v63
  let c0_i32_24 : BitVec 32 := 0#32
  let v65 : BitVec 1 := Scalar.cmpi .ne v64 c0_i32_24
  v65

def k0_off4 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_128 : BitVec 32 := 0#32
  let c0_i32_129 : BitVec 32 := 0#32
  ![v2.toNat, 0, 0]
def k0_dev18 : Nat :=
  let c0_i32_127 : BitVec 32 := 0#32
  let c1_i32_125 : BitVec 32 := 1#32
  let c1_i32_126 : BitVec 32 := 1#32
  let v211 : BitVec 32 := Scalar.muli c1_i32_125 c1_i32_126
  let v212 : BitVec 32 := Scalar.addi c0_i32_127 v211
  v212.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_25 : BitVec 32 := 2#32
  let v66 : BitVec 1 := Scalar.cmpi .ne v2 c2_i32_25
  let v67 : BitVec 32 := Scalar.extui v66
  let c0_i32_26 : BitVec 32 := 0#32
  let v68 : BitVec 1 := Scalar.cmpi .ne v67 c0_i32_26
  v68

def k0_off6 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_128 : BitVec 32 := 0#32
  let c0_i32_129 : BitVec 32 := 0#32
  ![v2.toNat, 0, 0]
def k0_dev19 : Nat :=
  let c0_i32_127 : BitVec 32 := 0#32
  let c2_i32_125 : BitVec 32 := 2#32
  let c1_i32_126 : BitVec 32 := 1#32
  let v211 : BitVec 32 := Scalar.muli c2_i32_125 c1_i32_126
  let v212 : BitVec 32 := Scalar.addi c0_i32_127 v211
  v212.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_27 : BitVec 32 := 3#32
  let v69 : BitVec 1 := Scalar.cmpi .ne v2 c3_i32_27
  let v70 : BitVec 32 := Scalar.extui v69
  let c0_i32_28 : BitVec 32 := 0#32
  let v71 : BitVec 1 := Scalar.cmpi .ne v70 c0_i32_28
  v71

def k0_off8 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off9 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_128 : BitVec 32 := 0#32
  let c0_i32_129 : BitVec 32 := 0#32
  ![v2.toNat, 0, 0]
def k0_dev20 : Nat :=
  let c0_i32_127 : BitVec 32 := 0#32
  let c3_i32_125 : BitVec 32 := 3#32
  let c1_i32_126 : BitVec 32 := 1#32
  let v211 : BitVec 32 := Scalar.muli c3_i32_125 c1_i32_126
  let v212 : BitVec 32 := Scalar.addi c0_i32_127 v211
  v212.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_29 : BitVec 32 := 4#32
  let v72 : BitVec 1 := Scalar.cmpi .ne v2 c4_i32_29
  let v73 : BitVec 32 := Scalar.extui v72
  let c0_i32_30 : BitVec 32 := 0#32
  let v74 : BitVec 1 := Scalar.cmpi .ne v73 c0_i32_30
  v74

def k0_off10 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off11 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_128 : BitVec 32 := 0#32
  let c0_i32_129 : BitVec 32 := 0#32
  ![v2.toNat, 0, 0]
def k0_dev21 : Nat :=
  let c0_i32_127 : BitVec 32 := 0#32
  let c4_i32_125 : BitVec 32 := 4#32
  let c1_i32_126 : BitVec 32 := 1#32
  let v211 : BitVec 32 := Scalar.muli c4_i32_125 c1_i32_126
  let v212 : BitVec 32 := Scalar.addi c0_i32_127 v211
  v212.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_31 : BitVec 32 := 5#32
  let v75 : BitVec 1 := Scalar.cmpi .ne v2 c5_i32_31
  let v76 : BitVec 32 := Scalar.extui v75
  let c0_i32_32 : BitVec 32 := 0#32
  let v77 : BitVec 1 := Scalar.cmpi .ne v76 c0_i32_32
  v77

def k0_off12 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off13 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_128 : BitVec 32 := 0#32
  let c0_i32_129 : BitVec 32 := 0#32
  ![v2.toNat, 0, 0]
def k0_dev22 : Nat :=
  let c0_i32_127 : BitVec 32 := 0#32
  let c5_i32_125 : BitVec 32 := 5#32
  let c1_i32_126 : BitVec 32 := 1#32
  let v211 : BitVec 32 := Scalar.muli c5_i32_125 c1_i32_126
  let v212 : BitVec 32 := Scalar.addi c0_i32_127 v211
  v212.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_33 : BitVec 32 := 6#32
  let v78 : BitVec 1 := Scalar.cmpi .ne v2 c6_i32_33
  let v79 : BitVec 32 := Scalar.extui v78
  let c0_i32_34 : BitVec 32 := 0#32
  let v80 : BitVec 1 := Scalar.cmpi .ne v79 c0_i32_34
  v80

def k0_off14 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off15 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_128 : BitVec 32 := 0#32
  let c0_i32_129 : BitVec 32 := 0#32
  ![v2.toNat, 0, 0]
def k0_dev23 : Nat :=
  let c0_i32_127 : BitVec 32 := 0#32
  let c6_i32_125 : BitVec 32 := 6#32
  let c1_i32_126 : BitVec 32 := 1#32
  let v211 : BitVec 32 := Scalar.muli c6_i32_125 c1_i32_126
  let v212 : BitVec 32 := Scalar.addi c0_i32_127 v211
  v212.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_35 : BitVec 32 := 7#32
  let v81 : BitVec 1 := Scalar.cmpi .ne v2 c7_i32_35
  let v82 : BitVec 32 := Scalar.extui v81
  let c0_i32_36 : BitVec 32 := 0#32
  let v83 : BitVec 1 := Scalar.cmpi .ne v82 c0_i32_36
  v83

def k0_off16 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off17 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_128 : BitVec 32 := 0#32
  let c0_i32_129 : BitVec 32 := 0#32
  ![v2.toNat, 0, 0]
def k0_dev24 : Nat :=
  let c0_i32_127 : BitVec 32 := 0#32
  let c7_i32_125 : BitVec 32 := 7#32
  let c1_i32_126 : BitVec 32 := 1#32
  let v211 : BitVec 32 := Scalar.muli c7_i32_125 c1_i32_126
  let v212 : BitVec 32 := Scalar.addi c0_i32_127 v211
  v212.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_37 : BitVec 32 := 8#32
  let v84 : BitVec 1 := Scalar.cmpi .ne v2 c8_i32_37
  let v85 : BitVec 32 := Scalar.extui v84
  let c0_i32_38 : BitVec 32 := 0#32
  let v86 : BitVec 1 := Scalar.cmpi .ne v85 c0_i32_38
  v86

def k0_off18 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off19 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_128 : BitVec 32 := 0#32
  let c0_i32_129 : BitVec 32 := 0#32
  ![v2.toNat, 0, 0]
def k0_dev25 : Nat :=
  let c0_i32_127 : BitVec 32 := 0#32
  let c8_i32_125 : BitVec 32 := 8#32
  let c1_i32_126 : BitVec 32 := 1#32
  let v211 : BitVec 32 := Scalar.muli c8_i32_125 c1_i32_126
  let v212 : BitVec 32 := Scalar.addi c0_i32_127 v211
  v212.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_39 : BitVec 32 := 9#32
  let v87 : BitVec 1 := Scalar.cmpi .ne v2 c9_i32_39
  let v88 : BitVec 32 := Scalar.extui v87
  let c0_i32_40 : BitVec 32 := 0#32
  let v89 : BitVec 1 := Scalar.cmpi .ne v88 c0_i32_40
  v89

def k0_off20 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off21 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_128 : BitVec 32 := 0#32
  let c0_i32_129 : BitVec 32 := 0#32
  ![v2.toNat, 0, 0]
def k0_dev26 : Nat :=
  let c0_i32_127 : BitVec 32 := 0#32
  let c9_i32_125 : BitVec 32 := 9#32
  let c1_i32_126 : BitVec 32 := 1#32
  let v211 : BitVec 32 := Scalar.muli c9_i32_125 c1_i32_126
  let v212 : BitVec 32 := Scalar.addi c0_i32_127 v211
  v212.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_41 : BitVec 32 := 10#32
  let v90 : BitVec 1 := Scalar.cmpi .ne v2 c10_i32_41
  let v91 : BitVec 32 := Scalar.extui v90
  let c0_i32_42 : BitVec 32 := 0#32
  let v92 : BitVec 1 := Scalar.cmpi .ne v91 c0_i32_42
  v92

def k0_off22 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off23 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_128 : BitVec 32 := 0#32
  let c0_i32_129 : BitVec 32 := 0#32
  ![v2.toNat, 0, 0]
def k0_dev27 : Nat :=
  let c0_i32_127 : BitVec 32 := 0#32
  let c10_i32_125 : BitVec 32 := 10#32
  let c1_i32_126 : BitVec 32 := 1#32
  let v211 : BitVec 32 := Scalar.muli c10_i32_125 c1_i32_126
  let v212 : BitVec 32 := Scalar.addi c0_i32_127 v211
  v212.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_43 : BitVec 32 := 11#32
  let v93 : BitVec 1 := Scalar.cmpi .ne v2 c11_i32_43
  let v94 : BitVec 32 := Scalar.extui v93
  let c0_i32_44 : BitVec 32 := 0#32
  let v95 : BitVec 1 := Scalar.cmpi .ne v94 c0_i32_44
  v95

def k0_off24 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off25 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_128 : BitVec 32 := 0#32
  let c0_i32_129 : BitVec 32 := 0#32
  ![v2.toNat, 0, 0]
def k0_dev28 : Nat :=
  let c0_i32_127 : BitVec 32 := 0#32
  let c11_i32_125 : BitVec 32 := 11#32
  let c1_i32_126 : BitVec 32 := 1#32
  let v211 : BitVec 32 := Scalar.muli c11_i32_125 c1_i32_126
  let v212 : BitVec 32 := Scalar.addi c0_i32_127 v211
  v212.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_45 : BitVec 32 := 12#32
  let v96 : BitVec 1 := Scalar.cmpi .ne v2 c12_i32_45
  let v97 : BitVec 32 := Scalar.extui v96
  let c0_i32_46 : BitVec 32 := 0#32
  let v98 : BitVec 1 := Scalar.cmpi .ne v97 c0_i32_46
  v98

def k0_off26 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off27 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_128 : BitVec 32 := 0#32
  let c0_i32_129 : BitVec 32 := 0#32
  ![v2.toNat, 0, 0]
def k0_dev29 : Nat :=
  let c0_i32_127 : BitVec 32 := 0#32
  let c12_i32_125 : BitVec 32 := 12#32
  let c1_i32_126 : BitVec 32 := 1#32
  let v211 : BitVec 32 := Scalar.muli c12_i32_125 c1_i32_126
  let v212 : BitVec 32 := Scalar.addi c0_i32_127 v211
  v212.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_47 : BitVec 32 := 13#32
  let v99 : BitVec 1 := Scalar.cmpi .ne v2 c13_i32_47
  let v100 : BitVec 32 := Scalar.extui v99
  let c0_i32_48 : BitVec 32 := 0#32
  let v101 : BitVec 1 := Scalar.cmpi .ne v100 c0_i32_48
  v101

def k0_off28 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off29 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_128 : BitVec 32 := 0#32
  let c0_i32_129 : BitVec 32 := 0#32
  ![v2.toNat, 0, 0]
def k0_dev30 : Nat :=
  let c0_i32_127 : BitVec 32 := 0#32
  let c13_i32_125 : BitVec 32 := 13#32
  let c1_i32_126 : BitVec 32 := 1#32
  let v211 : BitVec 32 := Scalar.muli c13_i32_125 c1_i32_126
  let v212 : BitVec 32 := Scalar.addi c0_i32_127 v211
  v212.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_49 : BitVec 32 := 14#32
  let v102 : BitVec 1 := Scalar.cmpi .ne v2 c14_i32_49
  let v103 : BitVec 32 := Scalar.extui v102
  let c0_i32_50 : BitVec 32 := 0#32
  let v104 : BitVec 1 := Scalar.cmpi .ne v103 c0_i32_50
  v104

def k0_off30 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off31 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_128 : BitVec 32 := 0#32
  let c0_i32_129 : BitVec 32 := 0#32
  ![v2.toNat, 0, 0]
def k0_dev31 : Nat :=
  let c0_i32_127 : BitVec 32 := 0#32
  let c14_i32_125 : BitVec 32 := 14#32
  let c1_i32_126 : BitVec 32 := 1#32
  let v211 : BitVec 32 := Scalar.muli c14_i32_125 c1_i32_126
  let v212 : BitVec 32 := Scalar.addi c0_i32_127 v211
  v212.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_51 : BitVec 32 := 15#32
  let v105 : BitVec 1 := Scalar.cmpi .ne v2 c15_i32_51
  let v106 : BitVec 32 := Scalar.extui v105
  let c0_i32_52 : BitVec 32 := 0#32
  let v107 : BitVec 1 := Scalar.cmpi .ne v106 c0_i32_52
  v107

def k0_off32 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off33 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_128 : BitVec 32 := 0#32
  let c0_i32_129 : BitVec 32 := 0#32
  ![v2.toNat, 0, 0]
def k0_dev32 : Nat :=
  let c0_i32_127 : BitVec 32 := 0#32
  let c15_i32_125 : BitVec 32 := 15#32
  let c1_i32_126 : BitVec 32 := 1#32
  let v211 : BitVec 32 := Scalar.muli c15_i32_125 c1_i32_126
  let v212 : BitVec 32 := Scalar.addi c0_i32_127 v211
  v212.toNat
abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  reduces_S1024x512_S512 : S1024x512.Reduces [0] S512
  shapeCasts_S512_S1x512 : S512.ShapeCasts S1x512
  h_S1x1x512 : 0 < S1x1x512.numel
  shapeCasts_S1x1x512_S1x512 : S1x1x512.ShapeCasts S1x512
  shapeCasts_S1x512_S1x1x512 : S1x512.ShapeCasts S1x1x512
  hamt_15 : (15#32 : BitVec 32).msb = false
  inb_S16_S1_0 : ∀ a, (![0] : Fin 1 → Nat) a + S1.size a ≤ S16.size a
  squeezes_S1_S_ : S1.Squeezes S_
  squeezes_S1x1x512_S1x512 : S1x1x512.Squeezes S1x512
  inb_S16_S1_1 : ∀ a, (![1] : Fin 1 → Nat) a + S1.size a ≤ S16.size a
  inb_S16_S1_2 : ∀ a, (![2] : Fin 1 → Nat) a + S1.size a ≤ S16.size a
  inb_S16_S1_3 : ∀ a, (![3] : Fin 1 → Nat) a + S1.size a ≤ S16.size a
  inb_S16_S1_4 : ∀ a, (![4] : Fin 1 → Nat) a + S1.size a ≤ S16.size a
  inb_S16_S1_5 : ∀ a, (![5] : Fin 1 → Nat) a + S1.size a ≤ S16.size a
  inb_S16_S1_6 : ∀ a, (![6] : Fin 1 → Nat) a + S1.size a ≤ S16.size a
  inb_S16_S1_7 : ∀ a, (![7] : Fin 1 → Nat) a + S1.size a ≤ S16.size a
  inb_S16_S1_8 : ∀ a, (![8] : Fin 1 → Nat) a + S1.size a ≤ S16.size a
  inb_S16_S1_9 : ∀ a, (![9] : Fin 1 → Nat) a + S1.size a ≤ S16.size a
  inb_S16_S1_10 : ∀ a, (![10] : Fin 1 → Nat) a + S1.size a ≤ S16.size a
  inb_S16_S1_11 : ∀ a, (![11] : Fin 1 → Nat) a + S1.size a ≤ S16.size a
  inb_S16_S1_12 : ∀ a, (![12] : Fin 1 → Nat) a + S1.size a ≤ S16.size a
  inb_S16_S1_13 : ∀ a, (![13] : Fin 1 → Nat) a + S1.size a ≤ S16.size a
  inb_S16_S1_14 : ∀ a, (![14] : Fin 1 → Nat) a + S1.size a ≤ S16.size a
  inb_S16_S1_15 : ∀ a, (![15] : Fin 1 → Nat) a + S1.size a ≤ S16.size a
  inb_S16x1x512_S1x1x512_0_0_0 : ∀ a, (![0, 0, 0] : Fin 3 → Nat) a + S1x1x512.size a ≤ S16x1x512.size a
  inb_S16x1x512_S1x1x512_1_0_0 : ∀ a, (![1, 0, 0] : Fin 3 → Nat) a + S1x1x512.size a ≤ S16x1x512.size a
  inb_S16x1x512_S1x1x512_2_0_0 : ∀ a, (![2, 0, 0] : Fin 3 → Nat) a + S1x1x512.size a ≤ S16x1x512.size a
  inb_S16x1x512_S1x1x512_3_0_0 : ∀ a, (![3, 0, 0] : Fin 3 → Nat) a + S1x1x512.size a ≤ S16x1x512.size a
  inb_S16x1x512_S1x1x512_4_0_0 : ∀ a, (![4, 0, 0] : Fin 3 → Nat) a + S1x1x512.size a ≤ S16x1x512.size a
  inb_S16x1x512_S1x1x512_5_0_0 : ∀ a, (![5, 0, 0] : Fin 3 → Nat) a + S1x1x512.size a ≤ S16x1x512.size a
  inb_S16x1x512_S1x1x512_6_0_0 : ∀ a, (![6, 0, 0] : Fin 3 → Nat) a + S1x1x512.size a ≤ S16x1x512.size a
  inb_S16x1x512_S1x1x512_7_0_0 : ∀ a, (![7, 0, 0] : Fin 3 → Nat) a + S1x1x512.size a ≤ S16x1x512.size a
  inb_S16x1x512_S1x1x512_8_0_0 : ∀ a, (![8, 0, 0] : Fin 3 → Nat) a + S1x1x512.size a ≤ S16x1x512.size a
  inb_S16x1x512_S1x1x512_9_0_0 : ∀ a, (![9, 0, 0] : Fin 3 → Nat) a + S1x1x512.size a ≤ S16x1x512.size a
  inb_S16x1x512_S1x1x512_10_0_0 : ∀ a, (![10, 0, 0] : Fin 3 → Nat) a + S1x1x512.size a ≤ S16x1x512.size a
  inb_S16x1x512_S1x1x512_11_0_0 : ∀ a, (![11, 0, 0] : Fin 3 → Nat) a + S1x1x512.size a ≤ S16x1x512.size a
  inb_S16x1x512_S1x1x512_12_0_0 : ∀ a, (![12, 0, 0] : Fin 3 → Nat) a + S1x1x512.size a ≤ S16x1x512.size a
  inb_S16x1x512_S1x1x512_13_0_0 : ∀ a, (![13, 0, 0] : Fin 3 → Nat) a + S1x1x512.size a ≤ S16x1x512.size a
  inb_S16x1x512_S1x1x512_14_0_0 : ∀ a, (![14, 0, 0] : Fin 3 → Nat) a + S1x1x512.size a ≤ S16x1x512.size a
  inb_S16x1x512_S1x1x512_15_0_0 : ∀ a, (![15, 0, 0] : Fin 3 → Nat) a + S1x1x512.size a ≤ S16x1x512.size a
  inb_S16x1x512_S16x1x512_0_0_0 : ∀ a, (![0, 0, 0] : Fin 3 → Nat) a + S16x1x512.size a ≤ S16x1x512.size a
  h_S16x1x512 : 0 < S16x1x512.numel
  shapeCasts_S16x1x512_S16x512 : S16x1x512.ShapeCasts S16x512
  reduces_S16x512_S512 : S16x512.Reduces [0] S512
  inb_S1x512_S1x512_0_0 : ∀ a, (![0, 0] : Fin 2 → Nat) a + S1x512.size a ≤ S1x512.size a
  h_S1x512 : 0 < S1x512.numel
  hcc0_scratch1 : 2 + S16.numel ≤ 34
  hcc0_scratch2 : 18 + S16.numel ≤ 34
  k0_dev1_lt : ∀ d0 : Dev nD, ∀ (k0_h1 : k0_cond1 d0 = 1#1), k0_dev1 < nD
  k0_dev2_lt : ∀ d0 : Dev nD, ∀ (k0_h2 : k0_cond2 d0 = 1#1), k0_dev2 < nD
  k0_dev3_lt : ∀ d0 : Dev nD, ∀ (k0_h3 : k0_cond3 d0 = 1#1), k0_dev3 < nD
  k0_dev4_lt : ∀ d0 : Dev nD, ∀ (k0_h4 : k0_cond4 d0 = 1#1), k0_dev4 < nD
  k0_dev5_lt : ∀ d0 : Dev nD, ∀ (k0_h5 : k0_cond5 d0 = 1#1), k0_dev5 < nD
  k0_dev6_lt : ∀ d0 : Dev nD, ∀ (k0_h6 : k0_cond6 d0 = 1#1), k0_dev6 < nD
  k0_dev7_lt : ∀ d0 : Dev nD, ∀ (k0_h7 : k0_cond7 d0 = 1#1), k0_dev7 < nD
  k0_dev8_lt : ∀ d0 : Dev nD, ∀ (k0_h8 : k0_cond8 d0 = 1#1), k0_dev8 < nD
  k0_dev9_lt : ∀ d0 : Dev nD, ∀ (k0_h9 : k0_cond9 d0 = 1#1), k0_dev9 < nD
  k0_dev10_lt : ∀ d0 : Dev nD, ∀ (k0_h10 : k0_cond10 d0 = 1#1), k0_dev10 < nD
  k0_dev11_lt : ∀ d0 : Dev nD, ∀ (k0_h11 : k0_cond11 d0 = 1#1), k0_dev11 < nD
  k0_dev12_lt : ∀ d0 : Dev nD, ∀ (k0_h12 : k0_cond12 d0 = 1#1), k0_dev12 < nD
  k0_dev13_lt : ∀ d0 : Dev nD, ∀ (k0_h13 : k0_cond13 d0 = 1#1), k0_dev13 < nD
  k0_dev14_lt : ∀ d0 : Dev nD, ∀ (k0_h14 : k0_cond14 d0 = 1#1), k0_dev14 < nD
  k0_dev15_lt : ∀ d0 : Dev nD, ∀ (k0_h15 : k0_cond15 d0 = 1#1), k0_dev15 < nD
  k0_dev16_lt : ∀ d0 : Dev nD, ∀ (k0_h16 : k0_cond16 d0 = 1#1), k0_dev16 < nD
  k0_off1_inb : ∀ d0 : Dev nD, ∀ a, (k0_off1 d0) a + S1x1x512.size a ≤ S16x1x512.size a
  k0_off2_inb : ∀ d0 : Dev nD, ∀ (k0_h17 : k0_cond17 d0 = 1#1), ∀ a, (k0_off2 d0) a + S1.size a ≤ S16.size a
  k0_off3_inb : ∀ d0 : Dev nD, ∀ (k0_h17 : k0_cond17 d0 = 1#1), ∀ a, (k0_off3 d0) a + S1x1x512.size a ≤ S16x1x512.size a
  k0_dev17_lt : ∀ d0 : Dev nD, ∀ (k0_h17 : k0_cond17 d0 = 1#1), k0_dev17 < nD
  k0_off4_inb : ∀ d0 : Dev nD, ∀ (k0_h18 : k0_cond18 d0 = 1#1), ∀ a, (k0_off4 d0) a + S1.size a ≤ S16.size a
  k0_off5_inb : ∀ d0 : Dev nD, ∀ (k0_h18 : k0_cond18 d0 = 1#1), ∀ a, (k0_off5 d0) a + S1x1x512.size a ≤ S16x1x512.size a
  k0_dev18_lt : ∀ d0 : Dev nD, ∀ (k0_h18 : k0_cond18 d0 = 1#1), k0_dev18 < nD
  k0_off6_inb : ∀ d0 : Dev nD, ∀ (k0_h19 : k0_cond19 d0 = 1#1), ∀ a, (k0_off6 d0) a + S1.size a ≤ S16.size a
  k0_off7_inb : ∀ d0 : Dev nD, ∀ (k0_h19 : k0_cond19 d0 = 1#1), ∀ a, (k0_off7 d0) a + S1x1x512.size a ≤ S16x1x512.size a
  k0_dev19_lt : ∀ d0 : Dev nD, ∀ (k0_h19 : k0_cond19 d0 = 1#1), k0_dev19 < nD
  k0_off8_inb : ∀ d0 : Dev nD, ∀ (k0_h20 : k0_cond20 d0 = 1#1), ∀ a, (k0_off8 d0) a + S1.size a ≤ S16.size a
  k0_off9_inb : ∀ d0 : Dev nD, ∀ (k0_h20 : k0_cond20 d0 = 1#1), ∀ a, (k0_off9 d0) a + S1x1x512.size a ≤ S16x1x512.size a
  k0_dev20_lt : ∀ d0 : Dev nD, ∀ (k0_h20 : k0_cond20 d0 = 1#1), k0_dev20 < nD
  k0_off10_inb : ∀ d0 : Dev nD, ∀ (k0_h21 : k0_cond21 d0 = 1#1), ∀ a, (k0_off10 d0) a + S1.size a ≤ S16.size a
  k0_off11_inb : ∀ d0 : Dev nD, ∀ (k0_h21 : k0_cond21 d0 = 1#1), ∀ a, (k0_off11 d0) a + S1x1x512.size a ≤ S16x1x512.size a
  k0_dev21_lt : ∀ d0 : Dev nD, ∀ (k0_h21 : k0_cond21 d0 = 1#1), k0_dev21 < nD
  k0_off12_inb : ∀ d0 : Dev nD, ∀ (k0_h22 : k0_cond22 d0 = 1#1), ∀ a, (k0_off12 d0) a + S1.size a ≤ S16.size a
  k0_off13_inb : ∀ d0 : Dev nD, ∀ (k0_h22 : k0_cond22 d0 = 1#1), ∀ a, (k0_off13 d0) a + S1x1x512.size a ≤ S16x1x512.size a
  k0_dev22_lt : ∀ d0 : Dev nD, ∀ (k0_h22 : k0_cond22 d0 = 1#1), k0_dev22 < nD
  k0_off14_inb : ∀ d0 : Dev nD, ∀ (k0_h23 : k0_cond23 d0 = 1#1), ∀ a, (k0_off14 d0) a + S1.size a ≤ S16.size a
  k0_off15_inb : ∀ d0 : Dev nD, ∀ (k0_h23 : k0_cond23 d0 = 1#1), ∀ a, (k0_off15 d0) a + S1x1x512.size a ≤ S16x1x512.size a
  k0_dev23_lt : ∀ d0 : Dev nD, ∀ (k0_h23 : k0_cond23 d0 = 1#1), k0_dev23 < nD
  k0_off16_inb : ∀ d0 : Dev nD, ∀ (k0_h24 : k0_cond24 d0 = 1#1), ∀ a, (k0_off16 d0) a + S1.size a ≤ S16.size a
  k0_off17_inb : ∀ d0 : Dev nD, ∀ (k0_h24 : k0_cond24 d0 = 1#1), ∀ a, (k0_off17 d0) a + S1x1x512.size a ≤ S16x1x512.size a
  k0_dev24_lt : ∀ d0 : Dev nD, ∀ (k0_h24 : k0_cond24 d0 = 1#1), k0_dev24 < nD
  k0_off18_inb : ∀ d0 : Dev nD, ∀ (k0_h25 : k0_cond25 d0 = 1#1), ∀ a, (k0_off18 d0) a + S1.size a ≤ S16.size a
  k0_off19_inb : ∀ d0 : Dev nD, ∀ (k0_h25 : k0_cond25 d0 = 1#1), ∀ a, (k0_off19 d0) a + S1x1x512.size a ≤ S16x1x512.size a
  k0_dev25_lt : ∀ d0 : Dev nD, ∀ (k0_h25 : k0_cond25 d0 = 1#1), k0_dev25 < nD
  k0_off20_inb : ∀ d0 : Dev nD, ∀ (k0_h26 : k0_cond26 d0 = 1#1), ∀ a, (k0_off20 d0) a + S1.size a ≤ S16.size a
  k0_off21_inb : ∀ d0 : Dev nD, ∀ (k0_h26 : k0_cond26 d0 = 1#1), ∀ a, (k0_off21 d0) a + S1x1x512.size a ≤ S16x1x512.size a
  k0_dev26_lt : ∀ d0 : Dev nD, ∀ (k0_h26 : k0_cond26 d0 = 1#1), k0_dev26 < nD
  k0_off22_inb : ∀ d0 : Dev nD, ∀ (k0_h27 : k0_cond27 d0 = 1#1), ∀ a, (k0_off22 d0) a + S1.size a ≤ S16.size a
  k0_off23_inb : ∀ d0 : Dev nD, ∀ (k0_h27 : k0_cond27 d0 = 1#1), ∀ a, (k0_off23 d0) a + S1x1x512.size a ≤ S16x1x512.size a
  k0_dev27_lt : ∀ d0 : Dev nD, ∀ (k0_h27 : k0_cond27 d0 = 1#1), k0_dev27 < nD
  k0_off24_inb : ∀ d0 : Dev nD, ∀ (k0_h28 : k0_cond28 d0 = 1#1), ∀ a, (k0_off24 d0) a + S1.size a ≤ S16.size a
  k0_off25_inb : ∀ d0 : Dev nD, ∀ (k0_h28 : k0_cond28 d0 = 1#1), ∀ a, (k0_off25 d0) a + S1x1x512.size a ≤ S16x1x512.size a
  k0_dev28_lt : ∀ d0 : Dev nD, ∀ (k0_h28 : k0_cond28 d0 = 1#1), k0_dev28 < nD
  k0_off26_inb : ∀ d0 : Dev nD, ∀ (k0_h29 : k0_cond29 d0 = 1#1), ∀ a, (k0_off26 d0) a + S1.size a ≤ S16.size a
  k0_off27_inb : ∀ d0 : Dev nD, ∀ (k0_h29 : k0_cond29 d0 = 1#1), ∀ a, (k0_off27 d0) a + S1x1x512.size a ≤ S16x1x512.size a
  k0_dev29_lt : ∀ d0 : Dev nD, ∀ (k0_h29 : k0_cond29 d0 = 1#1), k0_dev29 < nD
  k0_off28_inb : ∀ d0 : Dev nD, ∀ (k0_h30 : k0_cond30 d0 = 1#1), ∀ a, (k0_off28 d0) a + S1.size a ≤ S16.size a
  k0_off29_inb : ∀ d0 : Dev nD, ∀ (k0_h30 : k0_cond30 d0 = 1#1), ∀ a, (k0_off29 d0) a + S1x1x512.size a ≤ S16x1x512.size a
  k0_dev30_lt : ∀ d0 : Dev nD, ∀ (k0_h30 : k0_cond30 d0 = 1#1), k0_dev30 < nD
  k0_off30_inb : ∀ d0 : Dev nD, ∀ (k0_h31 : k0_cond31 d0 = 1#1), ∀ a, (k0_off30 d0) a + S1.size a ≤ S16.size a
  k0_off31_inb : ∀ d0 : Dev nD, ∀ (k0_h31 : k0_cond31 d0 = 1#1), ∀ a, (k0_off31 d0) a + S1x1x512.size a ≤ S16x1x512.size a
  k0_dev31_lt : ∀ d0 : Dev nD, ∀ (k0_h31 : k0_cond31 d0 = 1#1), k0_dev31 < nD
  k0_off32_inb : ∀ d0 : Dev nD, ∀ (k0_h32 : k0_cond32 d0 = 1#1), ∀ a, (k0_off32 d0) a + S1.size a ≤ S16.size a
  k0_off33_inb : ∀ d0 : Dev nD, ∀ (k0_h32 : k0_cond32 d0 = 1#1), ∀ a, (k0_off33 d0) a + S1x1x512.size a ≤ S16x1x512.size a
  k0_dev32_lt : ∀ d0 : Dev nD, ∀ (k0_h32 : k0_cond32 d0 = 1#1), k0_dev32 < nD
  hstage0_0 : ∀ j, (stage0_0 j).IsWhole
  hstage0_1 : ∀ j, (stage0_1 j).IsWhole

variable [Facts₀]

abbrev cc0_scratch1 : DmaSems sig S16 := SemArray.consecutive 2 S16 hcc0_scratch1
abbrev cc0_scratch2 : DmaSems sig S16 := SemArray.consecutive 18 S16 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x512 : Shape := ⟨2, ![16384, 512]⟩
abbrev S_ : Shape := ⟨0, ![]⟩
abbrev S512 : Shape := ⟨1, ![512]⟩
abbrev S1x512 : Shape := ⟨2, ![1, 512]⟩

abbrev nBuf : Space → Nat
  | .hbm => 7
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S_, .f32⟩
  | .hbm, ⟨2, _⟩ => ⟨S512, .f32⟩
  | .hbm, ⟨3, _⟩ => ⟨S1x512, .f32⟩
  | .hbm, ⟨4, _⟩ => ⟨S_, .f32⟩
  | .hbm, ⟨5, _⟩ => ⟨S1x512, .f32⟩
  | .hbm, ⟨6, _⟩ => ⟨S1x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  reducesTo_S16384x512_S512_d0 : S16384x512.ReducesTo [0] S512
  h_S_ : 0 < S_.numel
  bcast_S512_S1x512_1 : S512.BroadcastsInDim S1x512 (![1] : Fin 1 → Fin S1x512.rank)
  bcast_S_S1x512 : S_.BroadcastsInDim S1x512 (![] : Fin 0 → Fin S1x512.rank)

variable [Facts₀]

class Facts : Prop extends Facts₀ where

variable [Facts]
-- ==== Proof.RefRun.lean ====
import proofs.«900935_g7700000000000936_dist_mean_ax0_shard0_i_m1024_n512_v7x_i16_f32_1_alg».proof.Proof.Gen.ReferenceIdeal.Run
import proofs.«900935_g7700000000000936_dist_mean_ax0_shard0_i_m1024_n512_v7x_i16_f32_1_alg».proof.Proof.Gen.ReferenceIdeal.Read

/-! The reference program's run and its stages read at an index are the generated modules imported here. -/
-- ==== Proof.Proto.lean ====
import proofs.«900935_g7700000000000936_dist_mean_ax0_shard0_i_m1024_n512_v7x_i16_f32_1_alg».proof.Proof.Gen.KernelIdeal
import proofs.«900935_g7700000000000936_dist_mean_ax0_shard0_i_m1024_n512_v7x_i16_f32_1_alg».proof.Proof.Gen.KernelIdeal.Skeleton
import proofs.«900935_g7700000000000936_dist_mean_ax0_shard0_i_m1024_n512_v7x_i16_f32_1_alg».proof.Proof.Gen.KernelIdeal.Launch
import Idealize.ShloMosaic.Lib.Pipeline.Launch
import Idealize.ShloMosaic.Lib.Pipeline.Kit
import Idealize.ShloMosaic.Lib.Transfers
import Idealize.ShloMosaic.Lib.Tactic

/-!
# The all-to-all mean: the protocol

Sixteen devices. Device `c` holds block `c` (1024 rows) of `x`, sums its rows into row `c` of a 16-row scratch,
sends that row into row `c` of every other device's scratch, waits for the fifteen rows of the others, and
multiplies the sum of the sixteen rows by 2^-14.

The semaphores of device `c`, as cells of the rounds discipline, each with one round (round 0), duties named
by devices:
* the barrier cell: one duty per other device `d`, one unit each, paid by `d`'s entry signal; its payload is row
  `c` of `d`'s scratch, at any contents — the row `c` will write on `d`;
* receive cell `p` (`p ≠ c`): one duty `p`, the row's credit, paid by `p`'s transfer; its payload is row `p`
  of `c`'s scratch holding `p`'s column sums;
* send cell `d` (`d ≠ c`): one duty `d`, the row's credit, paid by `c`'s own transfer to `d`; its payload is
  the read share of `c`'s own row that the transfer was lent.
Every element of every scratch is described by ONE valuation, `comm`: row `p` holds `p`'s column sums.
-/

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties named by devices) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Memrefs, semaphores, cells -/

abbrev xM : Memref sig .tc .vmem S1024x512 .f32 := Memref.whole cc0_stg0_0
abbrev oM : Memref sig .tc .vmem S1x512 .f32 := Memref.whole cc0_stg1_0
abbrev cM : Memref sig .tc .vmem S16x1x512 .f32 := Memref.whole cc0_scratch0

theorem row_inb (j : Dev nD) : ∀ a, (![j.val, 0, 0] : Fin 3 → Nat) a + S1x1x512.size a ≤ S16x1x512.size a := by
  revert j; decide
theorem sem_inb (j : Dev nD) : ∀ a, (![j.val] : Fin 1 → Nat) a + S1.size a ≤ S16.size a := by
  revert j; decide

/-- Row `j` of the scratch as a rectangle, and as the [1, 512] memref the transfers move. -/
abbrev rowR (j : Dev nD) : Rect S16x1x512 := Rect.unit (s := S16x1x512) ![j.val, 0, 0] S1x1x512.size (row_inb j)
abbrev rowM (j : Dev nD) : Memref sig .tc .vmem S1x512 .f32 :=
  (cM.slice (rowR j) (fun _ => rfl)).squeeze S1x512 squeezes_S1x1x512_S1x512

abbrev barS : Sem sig := (SemArray.scalar (sig.barrier 0 rfl) : Sems sig S_).sem
abbrev sendS (j : Dev nD) : DmaSem sig :=
  ((cc0_scratch1.slice (Rect.unit (s := S16) ![j.val] S1.size (sem_inb j))).squeeze S_ squeezes_S1_S_).sem
abbrev recvS (j : Dev nD) : DmaSem sig :=
  ((cc0_scratch2.slice (Rect.unit (s := S16) ![j.val] S1.size (sem_inb j))).squeeze S_ squeezes_S1_S_).sem

theorem sendS_val (j : Dev nD) : (sendS j).val = 2 + j.val := by revert j; decide
theorem recvS_val (j : Dev nD) : (recvS j).val = 18 + j.val := by revert j; decide

abbrev barCell (c : Dev nD) : GSem nD τ sig := ((c : Thread nD τ), .reg barS)
abbrev sendCell (c j : Dev nD) : GSem nD τ sig := ((c : Thread nD τ), .dma (sendS j))
abbrev recvCell (c j : Dev nD) : GSem nD τ sig := ((c : Thread nD τ), .dma (recvS j))

/-- The credit of one row's transfer. -/
abbrev N : ℕ := (rowM (0 : Dev nD)).view.dmaCredit
theorem N_pos : 0 < N := View.dmaCredit_pos _ (by decide)

/-- Which row a scratch DMA semaphore belongs to (both arrays: semaphore `2 + j` and `18 + j` to row `j`). -/
def dmaRow (q : DmaSem sig) : Dev nD := ⟨(q.val + 14) % 16, Nat.mod_lt _ (by decide)⟩
theorem dmaRow_send (j : Dev nD) : dmaRow (sendS j) = j := by revert j; decide
theorem dmaRow_recv (j : Dev nD) : dmaRow (recvS j) = j := by revert j; decide

/-! ## Contents -/

/-- Device `c`'s block of `x` as its kernel finds it staged. -/
def xstg (c : Dev nD) : (cc0_stg0_0 : Ref sig .tc).ty.Contents (Elt F) :=
  (win0_0.blk (0 : Fin 1)).view.read (Elt F) ((s₀ m ρ).mem ((c : Thread nD τ).loc main_arg0))

/-- Every scratch once all rows have landed: row `p` holds device `p`'s column sums. -/
def comm : (cc0_scratch0 : Ref sig .tc).ty.Contents (Elt F) := fun i =>
  k0_pay1 (xstg m ρ ⟨(i 0).val, (i 0).isLt⟩) (fun a => match a with
    | ⟨0, _⟩ => (⟨0, Nat.one_pos⟩ : Fin 1)
    | ⟨1, _⟩ => i 1
    | ⟨2, _⟩ => i 2)

/-- The result, the same on every device. -/
def outAt : (cc0_stg1_0 : Ref sig .tc).ty.Contents (Elt F) := k0_pay2 (comm m ρ)

/-- Row `j` of device `c`'s scratch, held at share `q`, at the valuation `f`. -/
def rowPts (c j : Dev nD) (q : PosShare TreeShare) (f : Buf (Elt F) ((rowM j).view.loc (c : Thread nD τ))) : sProp 𝕄 :=
  (rowM j).view.loc (c : Thread nD τ) ↦[(rowM j).view.set]{q} f

/-! ## The schedule -/

/-- The share of its own row a device lends its transfer to `d`. -/
abbrev lent (d : Dev nD) : PosShare TreeShare := Transfers.shareTok fullShare 16 d
/-- What it keeps. -/
abbrev kept : PosShare TreeShare := Transfers.shareDrop fullShare 16

def barPay (c d : Dev nD) : sProp 𝕄 := iprop(∃ f, rowPts (F := F) d c fullShare f)
def recvPay (c p : Dev nD) : sProp 𝕄 := rowPts c p fullShare (comm m ρ)
def sendPay (c d : Dev nD) : sProp 𝕄 := rowPts c c (lent d) (comm m ρ)

def sched : Rounds.Schedule (GSem nD τ sig) (Dev nD) 𝕄 where
  duties g r :=
    if r = 0 ∧ g.1.2 = .tc then
      (match g.2 with
        | .reg _ => Finset.univ.erase g.1.1
        | .dma q => if dmaRow q = g.1.1 then ∅ else {dmaRow q})
    else ∅
  unitless _ := False
  amount g _ _ := match g.2 with
    | .reg _ => 1
    | .dma _ => N
  payload g _ d := match g.2 with
    | .reg _ => barPay g.1.1 d
    | .dma q => if q.val < 18 then sendPay m ρ g.1.1 d else recvPay m ρ g.1.1 d
  amount_pos g _ _ _ := by
    cases g.2 with
    | reg _ => exact Nat.one_pos
    | dma _ => exact N_pos

instance sched_payload_storable (g : GSem nD τ sig) (r : ℕ) (d : Dev nD) :
    BI.Storable (upEmb : UEmb _ 𝕄) ((sched (F := F) m ρ).payload g r d) := by
  show BI.Storable upEmb (match g.2 with
    | .reg _ => barPay g.1.1 d
    | .dma q => if q.val < 18 then sendPay m ρ g.1.1 d else recvPay m ρ g.1.1 d)
  unfold barPay recvPay sendPay rowPts
  (repeat' split) <;> infer_instance

/-! ### The tables, cell by cell -/

section Sched
variable (c : Dev nD)

theorem duties_bar : (sched (F := F) m ρ).duties (barCell c) 0 = Finset.univ.erase c := by
  dsimp only [sched]; exact if_pos ⟨rfl, rfl⟩
theorem duties_send (j : Dev nD) (h : j ≠ c) : (sched (F := F) m ρ).duties (sendCell c j) 0 = {j} := by
  dsimp only [sched]; rw [if_pos ⟨rfl, rfl⟩, dmaRow_send, if_neg h]
theorem duties_recv (j : Dev nD) (h : j ≠ c) : (sched (F := F) m ρ).duties (recvCell c j) 0 = {j} := by
  dsimp only [sched]; rw [if_pos ⟨rfl, rfl⟩, dmaRow_recv, if_neg h]
theorem duties_send_self (r : ℕ) : (sched (F := F) m ρ).duties (sendCell c c) r = ∅ := by
  dsimp only [sched]; rw [dmaRow_send, if_pos rfl, ite_self]
theorem duties_recv_self (r : ℕ) : (sched (F := F) m ρ).duties (recvCell c c) r = ∅ := by
  dsimp only [sched]; rw [dmaRow_recv, if_pos rfl, ite_self]
theorem duties_later (g : GSem nD τ sig) : ∀ r, 1 ≤ r → (sched (F := F) m ρ).duties g r = ∅ :=
  fun r hr => by dsimp only [sched]; exact if_neg fun h => by omega

theorem amount_bar (d : Dev nD) : (sched (F := F) m ρ).amount (barCell c) 0 d = 1 := rfl
theorem amount_send (j d : Dev nD) : (sched (F := F) m ρ).amount (sendCell c j) 0 d = N := rfl
theorem amount_recv (j d : Dev nD) : (sched (F := F) m ρ).amount (recvCell c j) 0 d = N := rfl

theorem expect_bar : (sched (F := F) m ρ).expect (barCell c) 0 = 15 := by
  unfold Schedule.expect Schedule.amountOf
  rw [duties_bar, Finset.sum_congr rfl fun d _ => amount_bar m ρ c d, Finset.sum_const, Finset.card_erase_of_mem (Finset.mem_univ c),
    Finset.card_univ, Fintype.card_fin, smul_eq_mul]
  rfl
theorem expect_send (j : Dev nD) (h : j ≠ c) : (sched (F := F) m ρ).expect (sendCell c j) 0 = N := by
  unfold Schedule.expect Schedule.amountOf; rw [duties_send m ρ c j h, Finset.sum_singleton, amount_send]
theorem expect_recv (j : Dev nD) (h : j ≠ c) : (sched (F := F) m ρ).expect (recvCell c j) 0 = N := by
  unfold Schedule.expect Schedule.amountOf; rw [duties_recv m ρ c j h, Finset.sum_singleton, amount_recv]

theorem payload_bar (d : Dev nD) : (sched (F := F) m ρ).payload (barCell c) 0 d = barPay c d := rfl
theorem payload_send (j d : Dev nD) : (sched (F := F) m ρ).payload (sendCell c j) 0 d = sendPay m ρ c d := by
  dsimp only [sched]
  rw [if_pos (by rw [sendS_val]; have : j.val < 16 := j.isLt; omega)]
theorem payload_recv (j d : Dev nD) : (sched (F := F) m ρ).payload (recvCell c j) 0 d = recvPay m ρ c d := by
  dsimp only [sched]
  rw [if_neg (by rw [recvS_val]; omega)]

/-- The whole of the barrier cell's round: the row `c` of every other device's scratch. -/
theorem rest_bar : bigSep ((sched (F := F) m ρ).duties (barCell c) 0 \ ∅) (fun d => (sched (F := F) m ρ).payload (barCell c) 0 d)
    = bigSep (Finset.univ.erase c) (fun d => barPay (F := F) c d) := by
  rw [Finset.sdiff_empty, duties_bar]; rfl
theorem rest_send (j : Dev nD) (h : j ≠ c) :
    bigSep ((sched (F := F) m ρ).duties (sendCell c j) 0 \ ∅) (fun d => (sched (F := F) m ρ).payload (sendCell c j) 0 d) = sendPay m ρ c j := by
  rw [Finset.sdiff_empty, duties_send m ρ c j h, bigSep_singleton, payload_send]
theorem rest_recv (j : Dev nD) (h : j ≠ c) :
    bigSep ((sched (F := F) m ρ).duties (recvCell c j) 0 \ ∅) (fun d => (sched (F := F) m ρ).payload (recvCell c j) 0 d) = recvPay m ρ c j := by
  rw [Finset.sdiff_empty, duties_recv m ρ c j h, bigSep_singleton, payload_recv]

end Sched

/-! ## What each device owes at launch; the levels -/

/-- What `c` owes `d`'s barrier cell: its entry signal's unit (nothing to itself); -/
def sigT (c d : Dev nD) : CellTallies nD τ sig Unit := if d = c then 0 else tallyAt (barCell d) () 1
/-- and `d`'s receive cell `c`: the credit of the row it sends. -/
def arrT (c d : Dev nD) : CellTallies nD τ sig Unit := if d = c then 0 else tallyAt (recvCell d c) () N

def O₀ (c : Dev nD) : CellTallies nD τ sig Unit := (∑ d : Dev nD, arrT c d) + ∑ d : Dev nD, sigT c d

def L (g : GSem nD τ sig) : Finset Unit := if g.1.2 = .tc then {()} else ∅
/-- Barrier cells at 1, receive cells at 2, everything else (staging, send) at 0: a device waits on its barrier owing
    only receive credits, and on its receive and send cells owing nothing. -/
def lv (g : GSem nD τ sig) (_ : Unit) : ℕ := match g.2 with
  | .reg _ => 1
  | .dma q => if 18 ≤ q.val then 2 else 0

/-! ## The cells of a device, numbered; its own (scoped) semaphores -/

/-- Cell 0 is the barrier, cells 1–16 the send cells, 17–32 the receive cells. -/
abbrev csem (k : Fin 33) : SemLoc sig := if h : k.val = 0 then .reg barS else .dma ⟨k.val + 1, by have := k.isLt; show k.val + 1 < 34; omega⟩
abbrev kcell (ck : Dev nD × Fin 33) : GSem nD τ sig := ((ck.1 : Thread nD τ), csem ck.2)
/-- The kernel's own semaphores, as the launch theorem indexes them: the two scratch arrays. -/
abbrev osem (k : Fin 32) : SemLoc sig := .dma ⟨k.val + 2, by have := k.isLt; show k.val + 2 < 34; omega⟩

theorem kcell_bar (c : Dev nD) : kcell (c, 0) = barCell c := rfl
theorem kcell_send (c j : Dev nD) : kcell (c, ⟨j.val + 1, by have : j.val < 16 := j.isLt; omega⟩) = sendCell c j := by
  revert j; intro j; fin_cases j <;> rfl
theorem kcell_recv (c j : Dev nD) : kcell (c, ⟨j.val + 17, by have : j.val < 16 := j.isLt; omega⟩) = recvCell c j := by
  revert j; intro j; fin_cases j <;> rfl

/-! ## The ghost state a device starts from -/

/-- Every cell's invariant, under the names `K` the launch allocated them at, and that every cell has reached round 0. -/
def records (K : Dev nD × Fin 33 → ℕ) : sProp 𝕄 :=
  iprop((bigSep Finset.univ fun ck : Dev nD × Fin 33 => cellInv ER (sched m ρ) (K ck) (kcell ck))
    ∗ bigSep Finset.univ fun ck : Dev nD × Fin 33 => reached ER (kcell ck) 0)

instance records_persistent (K : Dev nD × Fin 33 → ℕ) : BI.Persistent (records m ρ K) := by unfold records; infer_instance

/-- Device `c`'s positions: round 0 of each of its cells, nothing taken. -/
def positions (c : Dev nD) : sProp 𝕄 := bigSep Finset.univ fun k : Fin 33 => atPos ER (kcell (c, k)) 0 ∅ 0

/-- The tokens of the duties device `c` pays: per other device `d`, its entry signal to `d`, the arrival of its row on
    `d`, the departure of its row towards `d` (those with `d = c` are of no duty and never used). -/
def payToks (c : Dev nD) : sProp 𝕄 :=
  bigSep Finset.univ fun d : Dev nD =>
    iprop(dutyTok ER (barCell d) 0 c ∗ dutyTok ER (recvCell d c) 0 c ∗ dutyTok ER (sendCell c d) 0 d)

def ghost (K : Dev nD × Fin 33 → ℕ) (c : Dev nD) : sProp 𝕄 := iprop(records m ρ K ∗ positions c ∗ payToks c)

/-- What device `c`'s body starts from: the ghost state at some names, the credit its own cells are owed — fifteen
    units on its barrier, a row's credit on each receive cell of another device — and the level facts. -/
def start (c : Dev nD) : sProp 𝕄 :=
  iprop((∃ K, ghost m ρ K c) ∗ cred (tallyAt (barCell c) () 15)
    ∗ (bigSep (Finset.univ.erase c) fun p : Dev nD => cred (tallyAt (recvCell c p) () N)) ∗ levAts L lv)

/-- Before the body: that and the scratch, whole, at any contents. -/
def Φ₀ (c : Dev nD) : sProp 𝕄 := iprop(start m ρ c ∗ ∃ f : Buf (Elt F) ((c : Thread nD τ).loc cc0_scratch0), ((c : Thread nD τ).loc cc0_scratch0) ↦{fullShare} f)
/-- After it: the scratch back whole, the kernel's own semaphores at zero, closed. -/
def Φ₁ (c : Dev nD) : sProp 𝕄 :=
  iprop((∃ f : Buf (Elt F) ((c : Thread nD τ).loc cc0_scratch0), ((c : Thread nD τ).loc cc0_scratch0) ↦{fullShare} f) ∗ Pipeline.ownSems0 osem c)

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev 𝒱₀ : Variants := Variants.none

end Cert.KernelIdeal.Mean

end
-- ==== Proof.Inv.lean ====
import proofs.«900935_g7700000000000936_dist_mean_ax0_shard0_i_m1024_n512_v7x_i16_f32_1_alg».proof.Proof.Proto

/-!
# The body's states, phase by phase

The body runs four sweeps over the devices `d = 0, …, 15`, each skipping `d = c`: the entry signals, the transfers,
the receive waits, the send waits. Before step `n` of a sweep the resources of the devices `≥ n` are still to be
used and those of the devices `< n` have been produced; the device `c` itself contributes nothing (`emp`).
-/

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The devices from `n` on, and before `n` -/

def ge (n : ℕ) : Finset (Dev nD) := Finset.univ.filter fun d => n ≤ d.val
def lt (n : ℕ) : Finset (Dev nD) := Finset.univ.filter fun d => d.val < n

theorem ge_zero : ge 0 = Finset.univ := by decide
theorem ge_all : ge 16 = ∅ := by decide
theorem lt_zero : lt 0 = ∅ := by decide
theorem lt_all : lt 16 = Finset.univ := by decide
theorem not_mem_ge_succ (n : ℕ) (h : n < 16) : (⟨n, h⟩ : Dev nD) ∉ ge (n + 1) := by
  unfold ge; rw [Finset.mem_filter]; rintro ⟨-, h'⟩; exact Nat.not_succ_le_self n h'
theorem ge_step (n : ℕ) (h : n < 16) : ge n = insert (⟨n, h⟩ : Dev nD) (ge (n + 1)) := by
  ext d; unfold ge
  rw [Finset.mem_insert, Finset.mem_filter, Finset.mem_filter]
  constructor
  · rintro ⟨-, hd⟩
    rcases Nat.eq_or_lt_of_le hd with e | l
    · exact Or.inl (Fin.ext e.symm)
    · exact Or.inr ⟨Finset.mem_univ _, l⟩
  · rintro (rfl | ⟨-, hd⟩)
    · exact ⟨Finset.mem_univ _, le_rfl⟩
    · exact ⟨Finset.mem_univ _, Nat.le_of_succ_le hd⟩
theorem not_mem_lt (n : ℕ) (h : n < 16) : (⟨n, h⟩ : Dev nD) ∉ lt n := by
  unfold lt; rw [Finset.mem_filter]; rintro ⟨-, h'⟩; exact Nat.lt_irrefl n h'
theorem lt_step (n : ℕ) (h : n < 16) : lt (n + 1) = insert (⟨n, h⟩ : Dev nD) (lt n) := by
  ext d; unfold lt
  rw [Finset.mem_insert, Finset.mem_filter, Finset.mem_filter]
  constructor
  · rintro ⟨-, hd⟩
    rcases Nat.eq_or_lt_of_le (Nat.le_of_lt_succ hd) with e | l
    · exact Or.inl (Fin.ext e)
    · exact Or.inr ⟨Finset.mem_univ _, l⟩
  · rintro (rfl | ⟨-, hd⟩)
    · exact ⟨Finset.mem_univ _, Nat.lt_succ_self n⟩
    · exact ⟨Finset.mem_univ _, Nat.lt_succ_of_lt hd⟩

/-! ## What is still owed -/

/-- The entry signals still owed before signal `n`; -/
def Osig (c : Dev nD) (n : ℕ) : CellTallies nD τ sig Unit := ∑ d ∈ ge n, sigT c d
/-- the arrivals still owed before transfer `n`. -/
def Oarr (c : Dev nD) (n : ℕ) : CellTallies nD τ sig Unit := ∑ d ∈ ge n, arrT c d

theorem O₀_eq (c : Dev nD) : O₀ c = Oarr c 0 + Osig c 0 := by unfold O₀ Oarr Osig; rw [ge_zero]
theorem Osig_all (c : Dev nD) : Osig c 16 = 0 := by unfold Osig; rw [ge_all, Finset.sum_empty]
theorem Oarr_all (c : Dev nD) : Oarr c 16 = 0 := by unfold Oarr; rw [ge_all, Finset.sum_empty]
theorem Osig_step (c : Dev nD) (n : ℕ) (h : n < 16) : Osig c n = Osig c (n + 1) + sigT c ⟨n, h⟩ := by
  unfold Osig; rw [ge_step n h, Finset.sum_insert (not_mem_ge_succ n h), add_comm]
theorem Oarr_step (c : Dev nD) (n : ℕ) (h : n < 16) : Oarr c n = Oarr c (n + 1) + arrT c ⟨n, h⟩ := by
  unfold Oarr; rw [ge_step n h, Finset.sum_insert (not_mem_ge_succ n h), add_comm]

/-! ## The resources of each sweep -/

/-- Row `j` of device `c`'s scratch, whole, at any contents. -/
def rowAny (c j : Dev nD) : sProp 𝕄 := iprop(∃ f, rowPts (F := F) c j fullShare f)

/-- Before entry signal `n`: per device still to signal, the signal's token and the row of `c`'s scratch it hands over. -/
def SigRes (c : Dev nD) (n : ℕ) : sProp 𝕄 :=
  bigSep (ge n) fun d => if d = c then iprop(emp) else iprop(dutyTok ER (barCell d) 0 c ∗ rowAny (F := F) c d)

/-- Before transfer `n`: per device still to be sent to, the arrival's and the departure's tokens, the landing row on
    that device, and the share of `c`'s own row the transfer is lent. -/
def SendRes (c : Dev nD) (n : ℕ) : sProp 𝕄 :=
  bigSep (ge n) fun d => if d = c then iprop(emp) else
    iprop(dutyTok ER (recvCell d c) 0 c ∗ dutyTok ER (sendCell c d) 0 d ∗ rowAny (F := F) d c ∗ rowPts c c (lent d) (comm m ρ))
/-- and the departures' credit of the transfers made so far. -/
def SentRes (c : Dev nD) (n : ℕ) : sProp 𝕄 :=
  bigSep (lt n) fun d => if d = c then iprop(emp) else iprop(cred (tallyAt (sendCell c d) () N) : sProp 𝕄)

/-- Before receive wait `n`: per row still awaited, its cell's credit and position; -/
def RecvRes (c : Dev nD) (n : ℕ) : sProp 𝕄 :=
  bigSep (ge n) fun p => if p = c then iprop(emp) else
    iprop(cred (tallyAt (recvCell c p) () N) ∗ atPos ER (recvCell c p) 0 ∅ 0 : sProp 𝕄)
/-- per row received, the row holding its sender's column sums, the cell past its round. -/
def GotRes (c : Dev nD) (n : ℕ) : sProp 𝕄 :=
  bigSep (lt n) fun p => if p = c then iprop(emp) else
    iprop(rowPts c p fullShare (comm m ρ) ∗ atPos ER (recvCell c p) 1 ∅ 0)

/-- Before send wait `n`: per departure still awaited, its credit and its cell's position; -/
def SWaitRes (c : Dev nD) (n : ℕ) : sProp 𝕄 :=
  bigSep (ge n) fun d => if d = c then iprop(emp) else
    iprop(cred (tallyAt (sendCell c d) () N) ∗ atPos ER (sendCell c d) 0 ∅ 0 : sProp 𝕄)
/-- per departure seen, the lent share of the own row back, the cell past its round. -/
def BackRes (c : Dev nD) (n : ℕ) : sProp 𝕄 :=
  bigSep (lt n) fun d => if d = c then iprop(emp) else
    iprop(rowPts c c (lent d) (comm m ρ) ∗ atPos ER (sendCell c d) 1 ∅ 0)

end Cert.KernelIdeal.Mean

end
-- ==== Proof.Steps.lean ====
import proofs.«900935_g7700000000000936_dist_mean_ax0_shard0_i_m1024_n512_v7x_i16_f32_1_alg».proof.Proof.Inv

/-!
# One step of each sweep, at a symbolic device

Device `c` runs each of its four sweeps over `d = 0, …, 15` under the guard `c ≠ d`. A step is proved once, for any
`n` and any continuation: where the guard holds the operation pays or collects what the sweep's resources hold for
device `n`; where it fails (`n` is `c` itself) those resources are nothing and the step is the continuation.
-/

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Out of the records -/

theorem inv_at (K : Dev nD × Fin 33 → ℕ) (ck : Dev nD × Fin 33) :
    records m ρ K ⊢ cellInv ER (sched m ρ) (K ck) (kcell ck) := by
  unfold records
  exact sep_elim_left.trans (bigSep_elim (Finset.mem_univ ck))
theorem reached_at (K : Dev nD × Fin 33 → ℕ) (ck : Dev nD × Fin 33) :
    records m ρ K ⊢ (reached ER (kcell ck) 0 : sProp 𝕄) := by
  unfold records
  exact sep_elim_right.trans (bigSep_elim (Finset.mem_univ ck))

theorem inv_bar (K : Dev nD × Fin 33 → ℕ) (d : Dev nD) :
    records m ρ K ⊢ cellInv ER (sched m ρ) (K (d, 0)) (barCell d) := inv_at m ρ K (d, 0)
theorem reached_bar (K : Dev nD × Fin 33 → ℕ) (d : Dev nD) :
    records m ρ K ⊢ (reached ER (barCell d) 0 : sProp 𝕄) := reached_at m ρ K (d, 0)

/-- The three cells of a pair of devices, by number. -/
abbrev kS (j : Dev nD) : Fin 33 := ⟨j.val + 1, by have : j.val < 16 := j.isLt; omega⟩
abbrev kR (j : Dev nD) : Fin 33 := ⟨j.val + 17, by have : j.val < 16 := j.isLt; omega⟩

/-! ## The tables as the steps read them -/

theorem mem_bar (c d : Dev nD) (h : c ≠ d) : c ∈ (sched (F := F) m ρ).duties (barCell d) 0 := by
  rw [duties_bar]; exact Finset.mem_erase.mpr ⟨h, Finset.mem_univ _⟩
theorem barPay_eq (c d : Dev nD) :
    barPay (F := F) c d = iprop(∃ f, (rowM c).view.loc (d : Thread nD τ) ↦[(rowM c).view.set]{fullShare} f) := rfl

attribute [local sl_rounds] duties_bar amount_bar payload_bar expect_bar mem_bar barPay_eq

/-! ## The entry signals -/

/-- The signal to `d ≠ c`: it pays `c`'s duty on `d`'s barrier cell, handing over row `d` of `c`'s scratch. -/
theorem sig_one (K : Dev nD × Fin 33 → ℕ) (c d : Dev nD) (hne : c ≠ d) (X : CellTallies nD τ sig Unit) (W : Waits sig Unit)
    {α : Type} (k : PUnit → Prog (TpuEff nD τ sig (Elt F) Λ₀ .tc) α) (Φ : α → sProp 𝕄) :
    iprop(cellInv ER (sched m ρ) (K (d, 0)) (barCell d) ∗ reached ER (barCell d) 0
        ∗ dutyTok ER (barCell d) 0 c ∗ rowAny (F := F) c d
        ∗ owes (c : Thread nD τ) (X + tallyAt (barCell d) () 1) W
        ∗ (owes (c : Thread nD τ) X W -∗ wp frame (wpE (defs₀ (F := F)) 𝒱₀ (c : Thread nD τ) none) Set.univ (k ⟨⟩) Φ))
      ⊢ wp frame (wpE (defs₀ (F := F)) 𝒱₀ (c : Thread nD τ) none) Set.univ
          (.op (.semSignal ((d : Thread nD τ)) barS (1#32 : BitVec 32).toNat) k) Φ := by
  unfold rowAny rowPts
  iintro ⟨#HI, #Hr, Hts, Hrow, HO, Hk⟩
  sl_exec (disch := first | exact hne | (simp only [*]; done) | decide)
  iapply Hk $$ HO

theorem SigRes_step (c : Dev nD) (n : ℕ) (hn : n < 16) :
    SigRes (F := F) c n = iprop((if (⟨n, hn⟩ : Dev nD) = c then iprop(emp) else iprop(dutyTok ER (barCell ⟨n, hn⟩) 0 c ∗ rowAny (F := F) c ⟨n, hn⟩))
      ∗ SigRes (F := F) c (n + 1)) := by
  unfold SigRes; rw [ge_step n hn, bigSep_insert (not_mem_ge_succ n hn)]; rfl

theorem sig_guard {α : Type} (K : Dev nD × Fin 33 → ℕ) (c : Dev nD) (n : ℕ) (hn : n < 16) (cond : BitVec 1)
    (hcond : cond = 1#1 ↔ c ≠ (⟨n, hn⟩ : Dev nD)) (dv : ℕ) (hdv : dv = n) (hlt : cond = 1#1 → dv < nD)
    (W : Waits sig Unit) (kont : Prog (TpuEff nD τ sig (Elt F) Λ₀ .tc) α) (Φ : α → sProp 𝕄) :
    iprop(records m ρ K ∗ owes (c : Thread nD τ) (Oarr c 0 + Osig c n) W ∗ SigRes (F := F) c n
        ∗ ((owes (c : Thread nD τ) (Oarr c 0 + Osig c (n + 1)) W ∗ SigRes (F := F) c (n + 1))
            -∗ wp frame (wpE (defs₀ (F := F)) 𝒱₀ (c : Thread nD τ) none) Set.univ kont Φ))
      ⊢ wp frame (wpE (defs₀ (F := F)) 𝒱₀ (c : Thread nD τ) none) Set.univ
          (if h : cond = 1#1 then .op (.semSignal (((⟨dv, hlt h⟩ : Dev nD), Proc.tc) : Thread nD τ) barS (1#32 : BitVec 32).toNat) (fun _ => kont) else kont) Φ := by
  subst hdv
  rw [SigRes_step c dv hn, Osig_step c dv hn]
  unfold sigT
  by_cases hc : cond = 1#1
  · have hne : c ≠ (⟨dv, hn⟩ : Dev nD) := hcond.mp hc
    rw [dif_pos hc, if_neg (fun e => hne e.symm), if_neg (fun e => hne e.symm), ← add_assoc]
    iintro ⟨#HR, HO, ⟨⟨Hts, Hrow⟩, HS⟩, Hk⟩
    iapply (sig_one m ρ K c ⟨dv, hn⟩ hne (Oarr c 0 + Osig c (dv + 1)) W (fun _ => kont) Φ)
    isplitr; · iapply (inv_bar m ρ K ⟨dv, hn⟩); iexact HR
    isplitr; · iapply (reached_bar m ρ K ⟨dv, hn⟩); iexact HR
    isplitl [Hts]; · iexact Hts
    isplitl [Hrow]; · iexact Hrow
    isplitl [HO]; · iexact HO
    iintro HO
    iapply Hk
    isplitl [HO]; · iexact HO
    iexact HS
  · have he : (⟨dv, hn⟩ : Dev nD) = c := by
      by_contra hne; exact hc (hcond.mpr fun e => hne e.symm)
    rw [dif_neg hc, if_pos he, if_pos he, add_zero]
    iintro ⟨-, HO, ⟨-, HS⟩, Hk⟩
    iapply Hk
    isplitl [HO]; · iexact HO
    iexact HS

end Cert.KernelIdeal.Mean

end
-- ==== Proof.RowStore.lean ====
import proofs.«900935_g7700000000000936_dist_mean_ax0_shard0_i_m1024_n512_v7x_i16_f32_1_alg».proof.Proof.Inv

/-!
# One row of the scratch

Row j of the 16 × 1 × 512 scratch is the rectangle of sizes 1 × 1 × 512 at offsets (j, 0, 0). The same 512 elements
are reached three ways: through the rectangle itself, through the access a store or a load makes at it, and through
the 1 × 512 view of the row that a transfer moves. This file says that the three have the same elements, and what
the elements hold after a device writes its column sums into its own row and after a transfer lands a row: the
common valuation, under which row p holds the column sums of block p.
-/

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The rectangle -/

/-- The rectangle a device's store names by its computed offsets is its own row: the offsets are (c, 0, 0). -/
theorem rect_off1 (c : Dev nD) :
    Rect.unit (s := S16x1x512) (k0_off1 c) S1x1x512.size (k0_off1_inb c) = rowR c :=
  Rect.unit_congr (k0_off1_eq c) _ _

/-! ## Three ways to the same elements -/

/-- An access at row j goes through the rectangle's elements. -/
theorem access_set (j : Dev nD) : (cM.access (rowR j)).set = (rowR j).set :=
  View.set_slice_whole _ _

/-- The 1 × 512 view of row j has the rectangle's elements: dropping the two unit axes re-counts them, no more. -/
theorem row_set (j : Dev nD) : (rowM j).view.set = (rowR j).set := by
  show ((cM.view.slice (rowR j)).reshape S1x512 _).set = _
  rw [View.set_reshape]
  exact View.set_slice_whole _ _

/-- What an unmasked store at row j touches lies in the row's view. -/
theorem store_sub (j : Dev nD) : (cM.access (rowR j)).setOn Finset.univ ⊆ (rowM j).view.set := by
  rw [View.setOn_univ, access_set, row_set]

/-- What a load at row j touches lies in the row's view. -/
theorem load_sub (j : Dev nD) : cM.view.setOn (rowR j).toLoadRect.set ⊆ (rowM j).view.set := by
  rw [row_set]
  show Finset.map (Function.Embedding.refl _) (rowR j).toLoadRect.set ⊆ _
  rw [Finset.map_refl]

/-! ## What the row holds -/

/-- After device c stores the column sums of its block through the access at its own row, every element of the row
    holds the common valuation. The element at (c + y₀, y₁, y₂) of the scratch, y₀ = 0, takes entry (y₀, y₁, y₂) of
    the column sums of block c, which is what the common valuation assigns to row c. -/
theorem store_row (c : Dev nD) (f : Buf (Elt F) ((cM.access (rowR c)).loc (c : Thread nD τ))) :
    ∀ i ∈ (rowM c).view.set,
      (cM.access (rowR c)).write (Elt F) f (k0_pay1 (xstg m ρ c)) Finset.univ i = comm m ρ i := by
  intro i hi
  have hi' : i ∈ (cM.access (rowR c)).set := by rw [access_set, ← row_set]; exact hi
  obtain ⟨y, -, rfl⟩ := Finset.mem_map.mp hi'
  rw [View.write_emb_of_mem _ _ (Finset.mem_univ y)]
  have h0 : (y 0).val = 0 := by have h : (y 0).val < 1 := (y 0).isLt; omega
  have hd : (⟨((cM.access (rowR c)).emb y 0).val, ((cM.access (rowR c)).emb y 0).isLt⟩ : Dev nD) = c :=
    Fin.ext (by show c.val + 1 * (y 0).val = c.val; omega)
  show k0_pay1 (xstg m ρ c) y = comm m ρ ((cM.access (rowR c)).emb y)
  unfold comm
  refine (congrArg₂ (fun d idx => k0_pay1 (xstg m ρ d) idx) hd ?_).symm
  funext a
  match a with
  | ⟨0, _⟩ => exact Fin.ext h0.symm
  | ⟨1, _⟩ => exact Fin.ext (by show 0 + 1 * (y 1).val = (y 1).val; omega)
  | ⟨2, _⟩ => exact Fin.ext (by show 0 + 1 * (y 2).val = (y 2).val; omega)

/-- After a transfer lands row p of the common valuation on a device, whatever the row held before, every element
    of the row holds the common valuation: writing through a view what the view reads off a valuation pieces that
    valuation in on the view's elements. -/
theorem land_row (p c : Dev nD) (fd : Buf (Elt F) ((rowM p).view.loc (c : Thread nD τ))) :
    ∀ i ∈ (rowM p).view.set,
      (rowM p).view.write (Elt F) fd ((rowM p).view.read (Elt F) (comm m ρ)) Finset.univ i = comm m ρ i := by
  intro i hi
  rw [View.write_read_eq_piecewise, View.setOn_univ, Finset.piecewise_eq_of_mem _ _ _ hi]

/-- info: 'Cert.KernelIdeal.Mean.rect_off1' depends on axioms: [propext, Classical.choice, Quot.sound] -/
#guard_msgs in #print axioms rect_off1

/-- info: 'Cert.KernelIdeal.Mean.access_set' depends on axioms: [propext, Classical.choice, Quot.sound] -/
#guard_msgs in #print axioms access_set

/-- info: 'Cert.KernelIdeal.Mean.row_set' depends on axioms: [propext, Classical.choice, Quot.sound] -/
#guard_msgs in #print axioms row_set

/-- info: 'Cert.KernelIdeal.Mean.store_sub' depends on axioms: [propext, Classical.choice, Quot.sound] -/
#guard_msgs in #print axioms store_sub

/-- info: 'Cert.KernelIdeal.Mean.load_sub' depends on axioms: [propext, Classical.choice, Quot.sound] -/
#guard_msgs in #print axioms load_sub

/-- info: 'Cert.KernelIdeal.Mean.store_row' depends on axioms: [propext, Classical.choice, Quot.sound] -/
#guard_msgs in #print axioms store_row

/-- info: 'Cert.KernelIdeal.Mean.land_row' depends on axioms: [propext, Classical.choice, Quot.sound] -/
#guard_msgs in #print axioms land_row

end Cert.KernelIdeal.Mean

end
-- ==== Proof.Blocks.lean ====
import proofs.«900935_g7700000000000936_dist_mean_ax0_shard0_i_m1024_n512_v7x_i16_f32_1_alg».proof.Proof.Inv
import proofs.«900935_g7700000000000936_dist_mean_ax0_shard0_i_m1024_n512_v7x_i16_f32_1_alg».proof.Proof.RowStore

/-!
# Two straight-line blocks of the body

The middle block: a device loads its staged block of x, stores its column sums into its own row of the scratch, and
waits on its barrier cell for the fifteen entry signals of the others, each of which hands it its row on the signaller.
The compute block: with every row landed, the device loads the whole scratch and overwrites its result block with the
scaled sum of the sixteen rows.
-/

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

/-! ## Whole-buffer accesses at the zero offsets -/

theorem hz3 : (![0, 0, 0] : Fin 3 → Nat) = fun _ => 0 := funext fun a => by fin_cases a <;> rfl
theorem hz2 : (![0, 0] : Fin 2 → Nat) = fun _ => 0 := funext fun a => by fin_cases a <;> rfl

/-- The whole-scratch load reads the scratch; -/
theorem read_scratch (f : (cc0_scratch0 : Ref sig .tc).ty.Contents (Elt F)) :
    (cM : Memref sig .tc .vmem S16x1x512 .f32).view.readAt (Elt F)
      (Rect.unit (s := S16x1x512) ![0, 0, 0] S16x1x512.size inb_S16x1x512_S16x1x512_0_0_0).toLoadRect f = f :=
  Memref.readAt_unit_zero (Elt F) cc0_scratch0 hz3 _ f

/-- the whole-block load reads the staged block; -/
theorem read_x (f : (cc0_stg0_0 : Ref sig .tc).ty.Contents (Elt F)) :
    (xM : Memref sig .tc .vmem S1024x512 .f32).view.readAt (Elt F)
      (Rect.unit (s := S1024x512) ![0, 0] S1024x512.size inb_S1024x512_S1024x512_0_0).toLoadRect f = f :=
  Memref.readAt_unit_zero (Elt F) cc0_stg0_0 hz2 _ f

/-- the whole-block store replaces the result block. -/
theorem write_out (f w : (cc0_stg1_0 : Ref sig .tc).ty.Contents (Elt F)) :
    (oM : Memref sig .tc .vmem S1x512 .f32).view.writes (Elt F) f
      [⟨Rect.unit (s := S1x512) ![0, 0] S1x512.size inb_S1x512_S1x512_0_0, w⟩] = w := by
  rw [View.writes_singleton]
  exact Memref.write_access_unit_zero_univ (Elt F) cc0_stg1_0 hz2 _ f w

/-! ## The compute block -/

theorem compute_block {α : Type} (c : Dev nD) (g : Buf (Elt F) ((c : Thread nD τ).loc cc0_stg1_0))
    (kont : Prog (TpuEff nD τ sig (Elt F) Λ₀ .tc) α) (Φ : α → sProp 𝕄) :
    iprop((((c : Thread nD τ).loc cc0_scratch0) ↦[Finset.univ]{kept} comm m ρ)
        ∗ (((c : Thread nD τ).loc cc0_stg1_0) ↦{fullShare} g)
        ∗ (((((c : Thread nD τ).loc cc0_scratch0) ↦[Finset.univ]{kept} comm m ρ)
            ∗ (((c : Thread nD τ).loc cc0_stg1_0) ↦{fullShare} outAt m ρ))
            -∗ wp frame (wpE (defs₀ (F := F)) 𝒱₀ (c : Thread nD τ) none) Set.univ kont Φ))
      ⊢ wp frame (wpE (defs₀ (F := F)) 𝒱₀ (c : Thread nD τ) none) Set.univ
          (Prog.op (TpuEff.load cM (Rect.unit (s := S16x1x512) ![0, 0, 0] S16x1x512.size inb_S16x1x512_S16x1x512_0_0_0).toLoadRect (View.loadsAt_vmem h_S16x1x512)) fun v156 =>
           Prog.op (TpuEff.load oM (Rect.unit (s := S1x512) ![0, 0] S1x512.size inb_S1x512_S1x512_0_0).toLoadRect (View.loadsAt_vmem h_S1x512)) fun v162 =>
           Prog.op (TpuEff.store oM (Rect.unit (s := S1x512) ![0, 0] S1x512.size inb_S1x512_S1x512_0_0) (k0_pay2 v156) Finset.univ (View.stores_vmem_bits_univ h_S1x512 rfl) (.inl rfl)) fun _ => kont) Φ := by
  iintro ⟨Hc0, Ho0, Hk⟩
  ihave Hc := (Entails.of_eq (show ((((c : Thread nD τ).loc cc0_scratch0) ↦[Finset.univ]{kept} comm m ρ : sProp 𝕄))
      = ((cM : Memref sig .tc .vmem S16x1x512 .f32).view.loc (c : Thread nD τ) ↦[Finset.univ]{kept} comm m ρ) from rfl)) $$ Hc0
  ihave Ho := (Entails.of_eq (show ((((c : Thread nD τ).loc cc0_stg1_0) ↦{fullShare} g : sProp 𝕄))
      = ((oM : Memref sig .tc .vmem S1x512 .f32).view.loc (c : Thread nD τ) ↦[Finset.univ]{fullShare} g) from rfl)) $$ Ho0
  sl_exec
  rw [read_scratch, write_out]
  iapply Hk
  isplitl [Hc]; · iexact Hc
  iexact Ho

/-! ## The middle block -/

theorem L_tc' (c : Dev nD) (sm : SemLoc sig) : L ((c : Thread nD τ), sm) = {()} := if_pos rfl

/-- At its barrier wait (level 1) a device owes only arrivals: receive cells (level 2). -/
theorem mayWait_bar (c : Dev nD) : (levAts L lv : sProp 𝕄) ⊢ MayWait (c : Thread nD τ) (.reg barS) () (Oarr c 0) :=
  Pipeline.mayWait_of_levAts (by rw [L_tc']; exact Finset.mem_singleton_self _) fun g u hg => by
    unfold Oarr at hg
    obtain ⟨d, -, hd⟩ := Pipeline.sum_pos_exists hg
    unfold arrT at hd
    by_cases e : d = c
    · rw [if_pos e] at hd; exact absurd hd (Nat.lt_irrefl 0)
    · rw [if_neg e] at hd
      obtain ⟨rfl, -⟩ := Pipeline.tallyAt_pos hd
      refine ⟨by rw [L_tc']; exact Finset.mem_singleton_self _, ?_⟩
      show 1 < (if 18 ≤ (recvS c).val then 2 else 0)
      rw [if_pos (by rw [recvS_val]; omega)]; decide

/-- The barrier cell's invariant, out of the records. -/
theorem block_inv_at (K : Dev nD × Fin 33 → ℕ) (ck : Dev nD × Fin 33) :
    (bigSep Finset.univ fun ck : Dev nD × Fin 33 => (cellInv ER (sched m ρ) (K ck) (kcell ck) : sProp 𝕄)) ⊢ cellInv ER (sched m ρ) (K ck) (kcell ck) :=
  bigSep_elim (Finset.mem_univ ck)
theorem block_inv_bar (K : Dev nD × Fin 33 → ℕ) (c : Dev nD) : records m ρ K ⊢ cellInv ER (sched m ρ) (K (c, 0)) (barCell c) := by
  unfold records
  iintro ⟨HI, -⟩
  iapply (block_inv_at m ρ K (c, 0))
  iexact HI

/-- A store of a device's column sums at offsets that are its own row's leaves the row at the common valuation. -/
theorem store_row_off (c : Dev nD) {off : Fin 3 → Nat} (h : off = ![c.val, 0, 0]) (inb : ∀ a, off a + S1x1x512.size a ≤ S16x1x512.size a)
    (f0 : Buf (Elt F) ((rowM c).view.loc (c : Thread nD τ))) :
    ∀ i ∈ (rowM c).view.set,
      (cM.access (Rect.unit (s := S16x1x512) off S1x1x512.size inb)).write (Elt F) f0 (k0_pay1 (xstg m ρ c)) Finset.univ i = comm m ρ i := by
  subst h; exact store_row m ρ c f0

/-- The row after the block's store, whatever it held: the common valuation. -/
theorem row_stored (c : Dev nD) (f0 : Buf (Elt F) ((rowM c).view.loc (c : Thread nD τ))) :
    ((rowM c).view.loc (c : Thread nD τ) ↦[(rowM c).view.set]{fullShare}
        (cM.access (Rect.unit (s := S16x1x512) (k0_off1 c) S1x1x512.size (k0_off1_inb c))).write (Elt F) f0
          (k0_pay1 ((xM : Memref sig .tc .vmem S1024x512 .f32).view.readAt (Elt F)
            (Rect.unit (s := S1024x512) ![0, 0] S1024x512.size inb_S1024x512_S1024x512_0_0).toLoadRect (xstg m ρ c))) Finset.univ : sProp 𝕄)
      = ((rowM c).view.loc (c : Thread nD τ) ↦[(rowM c).view.set]{fullShare} comm m ρ) := by
  rw [read_x]
  exact pointsTo_congr (store_row_off m ρ c (k0_off1_eq c) (k0_off1_inb c) f0)

attribute [local sl_rounds] duties_bar amount_bar payload_bar expect_bar

theorem mid_block (K : Dev nD × Fin 33 → ℕ) (c : Dev nD) (W : Waits sig Unit) (Φ : PUnit → sProp 𝕄) :
    iprop(records m ρ K
        ∗ (((c : Thread nD τ).loc cc0_stg0_0) ↦{fullShare} xstg m ρ c)
        ∗ rowAny (F := F) c c
        ∗ owes (c : Thread nD τ) (Oarr c 0) W
        ∗ cred (tallyAt (barCell c) () 15) ∗ atPos ER (barCell c) 0 ∅ 0 ∗ levAts L lv
        ∗ (((((c : Thread nD τ).loc cc0_stg0_0) ↦{fullShare} xstg m ρ c)
            ∗ rowPts c c fullShare (comm m ρ)
            ∗ (∃ W', owes (c : Thread nD τ) (Oarr c 0) W')
            ∗ atPos ER (barCell c) 1 ∅ 0
            ∗ (bigSep (Finset.univ.erase c) fun d : Dev nD => barPay (F := F) c d)) -∗ Φ ⟨⟩))
      ⊢ wp frame (wpE (defs₀ (F := F)) 𝒱₀ (c : Thread nD τ) none) Set.univ
          (Prog.op (TpuEff.load xM (Rect.unit (s := S1024x512) ![0, 0] S1024x512.size inb_S1024x512_S1024x512_0_0).toLoadRect (View.loadsAt_vmem h_S1024x512)) fun v52 =>
           Prog.op (TpuEff.load cM (Rect.unit (s := S16x1x512) (k0_off1 c) S1x1x512.size (k0_off1_inb c)).toLoadRect (View.loadsAt_vmem h_S1x1x512)) fun v57 =>
           Prog.op (TpuEff.store cM (Rect.unit (s := S16x1x512) (k0_off1 c) S1x1x512.size (k0_off1_inb c)) (k0_pay1 v52) Finset.univ (View.stores_vmem_bits_univ h_S1x1x512 rfl) (.inl rfl)) fun _ =>
           Prog.op (TpuEff.semWait barS (15#32 : BitVec 32).toNat) fun _ => Prog.ret PUnit.unit) Φ := by
  iintro ⟨#Hrec, Hx0, Hrow0, HO, Hcr, Hat, #Hlev, Hk⟩
  unfold rowAny rowPts
  icases Hrow0 with ⟨%f0, Hrow⟩
  ihave HI := (block_inv_bar m ρ K c) $$ Hrec
  ihave Hmw := (mayWait_bar (F := F) c) $$ Hlev
  ihave Hx := (Entails.of_eq (show ((((c : Thread nD τ).loc cc0_stg0_0) ↦{fullShare} xstg m ρ c : sProp 𝕄))
      = ((xM : Memref sig .tc .vmem S1024x512 .f32).view.loc (c : Thread nD τ) ↦[Finset.univ]{fullShare} xstg m ρ c) from rfl)) $$ Hx0
  sl_exec
  sl_step
  sl_unfold_run_names
  ihave Hrow' := (Entails.of_eq (row_stored m ρ c f0)) $$ Hrow
  iapply Hk
  isplitl [Hx]; · iexact Hx
  isplitl [Hrow']; · iexact Hrow'
  isplitl [HO]; · iexists _; iexact HO
  isplitl [Hat]; · iexact Hat
  iexact Hat_pay1

/-- info: 'Cert.KernelIdeal.Mean.compute_block' depends on axioms: [propext, Classical.choice, Quot.sound] -/
#guard_msgs in #print axioms compute_block

/-- info: 'Cert.KernelIdeal.Mean.mid_block' depends on axioms: [propext, Classical.choice, Quot.sound] -/
#guard_msgs in #print axioms mid_block

end Cert.KernelIdeal.Mean

end
-- ==== Proof.Conds.lean ====
import proofs.«900935_g7700000000000936_dist_mean_ax0_shard0_i_m1024_n512_v7x_i16_f32_1_alg».proof.Proof.Inv

/-! The guards `me ≠ d` of the four sweeps, and the devices the signals and transfers address, in closed form. -/

namespace Cert.KernelIdeal.Mean

open Cert.KernelIdeal Cert.KernelIdeal.Gen
open Idealize.ShloMosaic

theorem sigc0 (c : Dev nD) : k0_cond1 c = 1#1 ↔ c ≠ (⟨0, by decide⟩ : Dev nD) := by revert c; decide
theorem sndc0 (c : Dev nD) : k0_cond17 c = 1#1 ↔ c ≠ (⟨0, by decide⟩ : Dev nD) := by revert c; decide
theorem sigc1 (c : Dev nD) : k0_cond2 c = 1#1 ↔ c ≠ (⟨1, by decide⟩ : Dev nD) := by revert c; decide
theorem sndc1 (c : Dev nD) : k0_cond18 c = 1#1 ↔ c ≠ (⟨1, by decide⟩ : Dev nD) := by revert c; decide
theorem sigc2 (c : Dev nD) : k0_cond3 c = 1#1 ↔ c ≠ (⟨2, by decide⟩ : Dev nD) := by revert c; decide
theorem sndc2 (c : Dev nD) : k0_cond19 c = 1#1 ↔ c ≠ (⟨2, by decide⟩ : Dev nD) := by revert c; decide
theorem sigc3 (c : Dev nD) : k0_cond4 c = 1#1 ↔ c ≠ (⟨3, by decide⟩ : Dev nD) := by revert c; decide
theorem sndc3 (c : Dev nD) : k0_cond20 c = 1#1 ↔ c ≠ (⟨3, by decide⟩ : Dev nD) := by revert c; decide
theorem sigc4 (c : Dev nD) : k0_cond5 c = 1#1 ↔ c ≠ (⟨4, by decide⟩ : Dev nD) := by revert c; decide
theorem sndc4 (c : Dev nD) : k0_cond21 c = 1#1 ↔ c ≠ (⟨4, by decide⟩ : Dev nD) := by revert c; decide
theorem sigc5 (c : Dev nD) : k0_cond6 c = 1#1 ↔ c ≠ (⟨5, by decide⟩ : Dev nD) := by revert c; decide
theorem sndc5 (c : Dev nD) : k0_cond22 c = 1#1 ↔ c ≠ (⟨5, by decide⟩ : Dev nD) := by revert c; decide
theorem sigc6 (c : Dev nD) : k0_cond7 c = 1#1 ↔ c ≠ (⟨6, by decide⟩ : Dev nD) := by revert c; decide
theorem sndc6 (c : Dev nD) : k0_cond23 c = 1#1 ↔ c ≠ (⟨6, by decide⟩ : Dev nD) := by revert c; decide
theorem sigc7 (c : Dev nD) : k0_cond8 c = 1#1 ↔ c ≠ (⟨7, by decide⟩ : Dev nD) := by revert c; decide
theorem sndc7 (c : Dev nD) : k0_cond24 c = 1#1 ↔ c ≠ (⟨7, by decide⟩ : Dev nD) := by revert c; decide
theorem sigc8 (c : Dev nD) : k0_cond9 c = 1#1 ↔ c ≠ (⟨8, by decide⟩ : Dev nD) := by revert c; decide
theorem sndc8 (c : Dev nD) : k0_cond25 c = 1#1 ↔ c ≠ (⟨8, by decide⟩ : Dev nD) := by revert c; decide
theorem sigc9 (c : Dev nD) : k0_cond10 c = 1#1 ↔ c ≠ (⟨9, by decide⟩ : Dev nD) := by revert c; decide
theorem sndc9 (c : Dev nD) : k0_cond26 c = 1#1 ↔ c ≠ (⟨9, by decide⟩ : Dev nD) := by revert c; decide
theorem sigc10 (c : Dev nD) : k0_cond11 c = 1#1 ↔ c ≠ (⟨10, by decide⟩ : Dev nD) := by revert c; decide
theorem sndc10 (c : Dev nD) : k0_cond27 c = 1#1 ↔ c ≠ (⟨10, by decide⟩ : Dev nD) := by revert c; decide
theorem sigc11 (c : Dev nD) : k0_cond12 c = 1#1 ↔ c ≠ (⟨11, by decide⟩ : Dev nD) := by revert c; decide
theorem sndc11 (c : Dev nD) : k0_cond28 c = 1#1 ↔ c ≠ (⟨11, by decide⟩ : Dev nD) := by revert c; decide
theorem sigc12 (c : Dev nD) : k0_cond13 c = 1#1 ↔ c ≠ (⟨12, by decide⟩ : Dev nD) := by revert c; decide
theorem sndc12 (c : Dev nD) : k0_cond29 c = 1#1 ↔ c ≠ (⟨12, by decide⟩ : Dev nD) := by revert c; decide
theorem sigc13 (c : Dev nD) : k0_cond14 c = 1#1 ↔ c ≠ (⟨13, by decide⟩ : Dev nD) := by revert c; decide
theorem sndc13 (c : Dev nD) : k0_cond30 c = 1#1 ↔ c ≠ (⟨13, by decide⟩ : Dev nD) := by revert c; decide
theorem sigc14 (c : Dev nD) : k0_cond15 c = 1#1 ↔ c ≠ (⟨14, by decide⟩ : Dev nD) := by revert c; decide
theorem sndc14 (c : Dev nD) : k0_cond31 c = 1#1 ↔ c ≠ (⟨14, by decide⟩ : Dev nD) := by revert c; decide
theorem sigc15 (c : Dev nD) : k0_cond16 c = 1#1 ↔ c ≠ (⟨15, by decide⟩ : Dev nD) := by revert c; decide
theorem sndc15 (c : Dev nD) : k0_cond32 c = 1#1 ↔ c ≠ (⟨15, by decide⟩ : Dev nD) := by revert c; decide

/-- The device's own position on the mesh axis, as the kernel computes it. -/
abbrev me (c : Dev nD) : BitVec 32 := Scalar.remsi (Scalar.divsi (Dev.word c) 1#32) 16#32

/-- The guard of a wait, computed from the position: it holds unless the awaited device is the device itself. -/
theorem waitc0 (c : Dev nD) :
    Scalar.cmpi .ne (Scalar.extui (Scalar.cmpi .ne (me c) 0#32) : BitVec 32) 0#32 = 1#1 ↔ c ≠ (⟨0, by decide⟩ : Dev nD) := by
  revert c; decide
theorem waitc1 (c : Dev nD) :
    Scalar.cmpi .ne (Scalar.extui (Scalar.cmpi .ne (me c) 1#32) : BitVec 32) 0#32 = 1#1 ↔ c ≠ (⟨1, by decide⟩ : Dev nD) := by
  revert c; decide
theorem waitc2 (c : Dev nD) :
    Scalar.cmpi .ne (Scalar.extui (Scalar.cmpi .ne (me c) 2#32) : BitVec 32) 0#32 = 1#1 ↔ c ≠ (⟨2, by decide⟩ : Dev nD) := by
  revert c; decide
theorem waitc3 (c : Dev nD) :
    Scalar.cmpi .ne (Scalar.extui (Scalar.cmpi .ne (me c) 3#32) : BitVec 32) 0#32 = 1#1 ↔ c ≠ (⟨3, by decide⟩ : Dev nD) := by
  revert c; decide
theorem waitc4 (c : Dev nD) :
    Scalar.cmpi .ne (Scalar.extui (Scalar.cmpi .ne (me c) 4#32) : BitVec 32) 0#32 = 1#1 ↔ c ≠ (⟨4, by decide⟩ : Dev nD) := by
  revert c; decide
theorem waitc5 (c : Dev nD) :
    Scalar.cmpi .ne (Scalar.extui (Scalar.cmpi .ne (me c) 5#32) : BitVec 32) 0#32 = 1#1 ↔ c ≠ (⟨5, by decide⟩ : Dev nD) := by
  revert c; decide
theorem waitc6 (c : Dev nD) :
    Scalar.cmpi .ne (Scalar.extui (Scalar.cmpi .ne (me c) 6#32) : BitVec 32) 0#32 = 1#1 ↔ c ≠ (⟨6, by decide⟩ : Dev nD) := by
  revert c; decide
theorem waitc7 (c : Dev nD) :
    Scalar.cmpi .ne (Scalar.extui (Scalar.cmpi .ne (me c) 7#32) : BitVec 32) 0#32 = 1#1 ↔ c ≠ (⟨7, by decide⟩ : Dev nD) := by
  revert c; decide
theorem waitc8 (c : Dev nD) :
    Scalar.cmpi .ne (Scalar.extui (Scalar.cmpi .ne (me c) 8#32) : BitVec 32) 0#32 = 1#1 ↔ c ≠ (⟨8, by decide⟩ : Dev nD) := by
  revert c; decide
theorem waitc9 (c : Dev nD) :
    Scalar.cmpi .ne (Scalar.extui (Scalar.cmpi .ne (me c) 9#32) : BitVec 32) 0#32 = 1#1 ↔ c ≠ (⟨9, by decide⟩ : Dev nD) := by
  revert c; decide
theorem waitc10 (c : Dev nD) :
    Scalar.cmpi .ne (Scalar.extui (Scalar.cmpi .ne (me c) 10#32) : BitVec 32) 0#32 = 1#1 ↔ c ≠ (⟨10, by decide⟩ : Dev nD) := by
  revert c; decide
theorem waitc11 (c : Dev nD) :
    Scalar.cmpi .ne (Scalar.extui (Scalar.cmpi .ne (me c) 11#32) : BitVec 32) 0#32 = 1#1 ↔ c ≠ (⟨11, by decide⟩ : Dev nD) := by
  revert c; decide
theorem waitc12 (c : Dev nD) :
    Scalar.cmpi .ne (Scalar.extui (Scalar.cmpi .ne (me c) 12#32) : BitVec 32) 0#32 = 1#1 ↔ c ≠ (⟨12, by decide⟩ : Dev nD) := by
  revert c; decide
theorem waitc13 (c : Dev nD) :
    Scalar.cmpi .ne (Scalar.extui (Scalar.cmpi .ne (me c) 13#32) : BitVec 32) 0#32 = 1#1 ↔ c ≠ (⟨13, by decide⟩ : Dev nD) := by
  revert c; decide
theorem waitc14 (c : Dev nD) :
    Scalar.cmpi .ne (Scalar.extui (Scalar.cmpi .ne (me c) 14#32) : BitVec 32) 0#32 = 1#1 ↔ c ≠ (⟨14, by decide⟩ : Dev nD) := by
  revert c; decide
theorem waitc15 (c : Dev nD) :
    Scalar.cmpi .ne (Scalar.extui (Scalar.cmpi .ne (me c) 15#32) : BitVec 32) 0#32 = 1#1 ↔ c ≠ (⟨15, by decide⟩ : Dev nD) := by
  revert c; decide

end Cert.KernelIdeal.Mean
-- ==== Proof.Parts.lean ====
import proofs.«900935_g7700000000000936_dist_mean_ax0_shard0_i_m1024_n512_v7x_i16_f32_1_alg».proof.Proof.Steps
import proofs.«900935_g7700000000000936_dist_mean_ax0_shard0_i_m1024_n512_v7x_i16_f32_1_alg».proof.Proof.Blocks
import proofs.«900935_g7700000000000936_dist_mean_ax0_shard0_i_m1024_n512_v7x_i16_f32_1_alg».proof.Proof.Conds

/-!
# The seven parts of the body

The body is printed in seven consecutive parts. Each is run from the state of its sweep at its first step to the
state at its last, one application of the sweep's step per guarded statement.
-/

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The barrier semaphore as the body names it. -/
abbrev barV : Sems sig S_ := SemArray.scalar (sig.barrier 0 rfl)

/-- Part 1: the device reads its position and signals devices 0 to 7. -/
theorem part1_spec (K : Dev nD × Fin 33 → ℕ) (c : Dev nD) (W : Waits sig Unit)
    (Φ : (Σ' (d0 : Dev nD) (v2 : BitVec 32), Sems sig S_) → sProp 𝕄) :
    iprop(records m ρ K ∗ owes (c : Thread nD τ) (Oarr c 0 + Osig c 0) W ∗ SigRes (F := F) c 0
        ∗ ((owes (c : Thread nD τ) (Oarr c 0 + Osig c 8) W ∗ SigRes (F := F) c 8) -∗ Φ ⟨c, me c, barV⟩))
      ⊢ wp frame (wpE (defs₀ (F := F)) 𝒱₀ (c : Thread nD τ) none) Set.univ
          (k0_part1 (F := F) xM (Memref.isWhole_whole _) oM (Memref.isWhole_whole _) cM (Memref.isWhole_whole _) cc0_scratch1 cc0_scratch2) Φ := by
  rw [k0_part1_eq_skeleton]; unfold k0_part1_skel
  simp only [semSignalWord, semWaitWord, Prog.lift, Prog.bind_op, Prog.bind_ret, Prog.pure_eq_ret, wp_deviceId]
  iintro ⟨#HR, HO, HS, Hk⟩
  iapply (sig_guard m ρ K c 0 (by decide) (k0_cond1 c) (sigc0 c) k0_dev1 k0_dev1_eq (k0_dev1_lt c) W _ _)
  isplitr; · iexact HR
  isplitl [HO]; · iexact HO
  isplitl [HS]; · iexact HS
  iintro ⟨HO, HS⟩
  iapply (sig_guard m ρ K c 1 (by decide) (k0_cond2 c) (sigc1 c) k0_dev2 k0_dev2_eq (k0_dev2_lt c) W _ _)
  isplitr; · iexact HR
  isplitl [HO]; · iexact HO
  isplitl [HS]; · iexact HS
  iintro ⟨HO, HS⟩
  iapply (sig_guard m ρ K c 2 (by decide) (k0_cond3 c) (sigc2 c) k0_dev3 k0_dev3_eq (k0_dev3_lt c) W _ _)
  isplitr; · iexact HR
  isplitl [HO]; · iexact HO
  isplitl [HS]; · iexact HS
  iintro ⟨HO, HS⟩
  iapply (sig_guard m ρ K c 3 (by decide) (k0_cond4 c) (sigc3 c) k0_dev4 k0_dev4_eq (k0_dev4_lt c) W _ _)
  isplitr; · iexact HR
  isplitl [HO]; · iexact HO
  isplitl [HS]; · iexact HS
  iintro ⟨HO, HS⟩
  iapply (sig_guard m ρ K c 4 (by decide) (k0_cond5 c) (sigc4 c) k0_dev5 k0_dev5_eq (k0_dev5_lt c) W _ _)
  isplitr; · iexact HR
  isplitl [HO]; · iexact HO
  isplitl [HS]; · iexact HS
  iintro ⟨HO, HS⟩
  iapply (sig_guard m ρ K c 5 (by decide) (k0_cond6 c) (sigc5 c) k0_dev6 k0_dev6_eq (k0_dev6_lt c) W _ _)
  isplitr; · iexact HR
  isplitl [HO]; · iexact HO
  isplitl [HS]; · iexact HS
  iintro ⟨HO, HS⟩
  iapply (sig_guard m ρ K c 6 (by decide) (k0_cond7 c) (sigc6 c) k0_dev7 k0_dev7_eq (k0_dev7_lt c) W _ _)
  isplitr; · iexact HR
  isplitl [HO]; · iexact HO
  isplitl [HS]; · iexact HS
  iintro ⟨HO, HS⟩
  iapply (sig_guard m ρ K c 7 (by decide) (k0_cond8 c) (sigc7 c) k0_dev8 k0_dev8_eq (k0_dev8_lt c) W _ _)
  isplitr; · iexact HR
  isplitl [HO]; · iexact HO
  isplitl [HS]; · iexact HS
  iintro ⟨HO, HS⟩
  rw [wp_ret]; imodintro
  iapply Hk
  isplitl [HO]; · iexact HO
  iexact HS

/-- info: 'Cert.KernelIdeal.Mean.part1_spec' depends on axioms: [propext, Classical.choice, Quot.sound] -/
#guard_msgs in #print axioms part1_spec

/-- Part 2: the signals to devices 8 to 15, then the device's own column sums into its row, and the barrier wait. -/
theorem part2_spec (K : Dev nD × Fin 33 → ℕ) (c : Dev nD) (W : Waits sig Unit) (Φ : PUnit → sProp 𝕄) :
    iprop(records m ρ K ∗ owes (c : Thread nD τ) (Oarr c 0 + Osig c 8) W ∗ SigRes (F := F) c 8
        ∗ (((c : Thread nD τ).loc cc0_stg0_0) ↦{fullShare} xstg m ρ c)
        ∗ rowAny (F := F) c c
        ∗ cred (tallyAt (barCell c) () 15) ∗ atPos ER (barCell c) 0 ∅ 0 ∗ levAts L lv
        ∗ (((((c : Thread nD τ).loc cc0_stg0_0) ↦{fullShare} xstg m ρ c)
            ∗ rowPts c c fullShare (comm m ρ)
            ∗ (∃ W', owes (c : Thread nD τ) (Oarr c 0) W')
            ∗ atPos ER (barCell c) 1 ∅ 0
            ∗ (bigSep (Finset.univ.erase c) fun d : Dev nD => barPay (F := F) c d)) -∗ Φ ⟨⟩))
      ⊢ wp frame (wpE (defs₀ (F := F)) 𝒱₀ (c : Thread nD τ) none) Set.univ (k0_part2 (F := F) xM (Memref.isWhole_whole _) oM (Memref.isWhole_whole _) cM (Memref.isWhole_whole _) cc0_scratch1 cc0_scratch2 c (me c) barV) Φ := by
  rw [k0_part2_eq_skeleton]; unfold k0_part2_skel
  simp only [semSignalWord, semWaitWord, Prog.lift, Prog.bind_op, Prog.bind_ret, Prog.pure_eq_ret]
  iintro ⟨#HR, HO, HS, Hx, Hrow, Hcr, Hat, #Hlev, Hk⟩
  iapply (sig_guard m ρ K c 8 (by decide) (k0_cond9 c) (sigc8 c) k0_dev9 k0_dev9_eq (k0_dev9_lt c) W _ _)
  isplitr; · iexact HR
  isplitl [HO]; · iexact HO
  isplitl [HS]; · iexact HS
  iintro ⟨HO, HS⟩
  iapply (sig_guard m ρ K c 9 (by decide) (k0_cond10 c) (sigc9 c) k0_dev10 k0_dev10_eq (k0_dev10_lt c) W _ _)
  isplitr; · iexact HR
  isplitl [HO]; · iexact HO
  isplitl [HS]; · iexact HS
  iintro ⟨HO, HS⟩
  iapply (sig_guard m ρ K c 10 (by decide) (k0_cond11 c) (sigc10 c) k0_dev11 k0_dev11_eq (k0_dev11_lt c) W _ _)
  isplitr; · iexact HR
  isplitl [HO]; · iexact HO
  isplitl [HS]; · iexact HS
  iintro ⟨HO, HS⟩
  iapply (sig_guard m ρ K c 11 (by decide) (k0_cond12 c) (sigc11 c) k0_dev12 k0_dev12_eq (k0_dev12_lt c) W _ _)
  isplitr; · iexact HR
  isplitl [HO]; · iexact HO
  isplitl [HS]; · iexact HS
  iintro ⟨HO, HS⟩
  iapply (sig_guard m ρ K c 12 (by decide) (k0_cond13 c) (sigc12 c) k0_dev13 k0_dev13_eq (k0_dev13_lt c) W _ _)
  isplitr; · iexact HR
  isplitl [HO]; · iexact HO
  isplitl [HS]; · iexact HS
  iintro ⟨HO, HS⟩
  iapply (sig_guard m ρ K c 13 (by decide) (k0_cond14 c) (sigc13 c) k0_dev14 k0_dev14_eq (k0_dev14_lt c) W _ _)
  isplitr; · iexact HR
  isplitl [HO]; · iexact HO
  isplitl [HS]; · iexact HS
  iintro ⟨HO, HS⟩
  iapply (sig_guard m ρ K c 14 (by decide) (k0_cond15 c) (sigc14 c) k0_dev15 k0_dev15_eq (k0_dev15_lt c) W _ _)
  isplitr; · iexact HR
  isplitl [HO]; · iexact HO
  isplitl [HS]; · iexact HS
  iintro ⟨HO, HS⟩
  iapply (sig_guard m ρ K c 15 (by decide) (k0_cond16 c) (sigc15 c) k0_dev16 k0_dev16_eq (k0_dev16_lt c) W _ _)
  isplitr; · iexact HR
  isplitl [HO]; · iexact HO
  isplitl [HS]; · iexact HS
  iintro ⟨HO, HS⟩
  rw [Osig_all, add_zero]
  iapply (mid_block m ρ K c W Φ)
  isplitr; · iexact HR
  isplitl [Hx]; · iexact Hx
  isplitl [Hrow]; · iexact Hrow
  isplitl [HO]; · iexact HO
  isplitl [Hcr]; · iexact Hcr
  isplitl [Hat]; · iexact Hat
  isplitr; · iexact Hlev
  iexact Hk

end Cert.KernelIdeal.Mean

end
-- ==== Proof.Steps2.lean ====
import proofs.«900935_g7700000000000936_dist_mean_ax0_shard0_i_m1024_n512_v7x_i16_f32_1_alg».proof.Proof.Steps
import proofs.«900935_g7700000000000936_dist_mean_ax0_shard0_i_m1024_n512_v7x_i16_f32_1_alg».proof.Proof.RowStore

/-!
# One step of each sweep, at a symbolic device: the transfers and the waits

Device `c` runs each of its four sweeps over `d = 0, …, 15` under the guard `c ≠ d`. A step is proved once, for any
`n` and any continuation: where the guard holds the operation pays or collects what the sweep's resources hold for
device `n`; where it fails (`n` is `c` itself) those resources are nothing and the step is the continuation.
-/

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The tables as the steps read them -/

theorem mem_send (c d : Dev nD) (h : d ≠ c) : d ∈ (sched (F := F) m ρ).duties (sendCell c d) 0 := by
  rw [duties_send m ρ c d h]; exact Finset.mem_singleton_self _
theorem mem_recv (c p : Dev nD) (h : p ≠ c) : p ∈ (sched (F := F) m ρ).duties (recvCell c p) 0 := by
  rw [duties_recv m ρ c p h]; exact Finset.mem_singleton_self _

theorem inv_send (K : Dev nD × Fin 33 → ℕ) (c j : Dev nD) :
    records m ρ K ⊢ cellInv ER (sched m ρ) (K (c, kS j)) (sendCell c j) := by
  have h := inv_at m ρ K (c, kS j); rwa [kcell_send c j] at h
theorem inv_recv (K : Dev nD × Fin 33 → ℕ) (c j : Dev nD) :
    records m ρ K ⊢ cellInv ER (sched m ρ) (K (c, kR j)) (recvCell c j) := by
  have h := inv_at m ρ K (c, kR j); rwa [kcell_recv c j] at h
theorem reached_send (K : Dev nD × Fin 33 → ℕ) (c j : Dev nD) :
    records m ρ K ⊢ (reached ER (sendCell c j) 0 : sProp 𝕄) := by
  have h := reached_at m ρ K (c, kS j); rwa [kcell_send c j] at h
theorem reached_recv (K : Dev nD × Fin 33 → ℕ) (c j : Dev nD) :
    records m ρ K ⊢ (reached ER (recvCell c j) 0 : sProp 𝕄) := by
  have h := reached_at m ρ K (c, kR j); rwa [kcell_recv c j] at h

theorem sendPay_eq (c d : Dev nD) :
    sendPay m ρ c d = ((rowM c).view.loc (c : Thread nD τ) ↦[(rowM c).view.set]{lent d} comm m ρ : sProp 𝕄) := rfl
theorem recvPay_eq (c p : Dev nD) :
    recvPay m ρ c p = ((rowM p).view.loc (c : Thread nD τ) ↦[(rowM p).view.set]{fullShare} comm m ρ : sProp 𝕄) := rfl

attribute [local sl_rounds] duties_send duties_recv amount_send amount_recv payload_send payload_recv expect_send expect_recv
  mem_send mem_recv sendPay_eq recvPay_eq

/-! ## The transfers -/

/-- The transfer to `d ≠ c`: row `c` of `c`'s scratch, read at the share lent for it, into row `c` of `d`'s. -/
theorem send_one (K : Dev nD × Fin 33 → ℕ) (c d : Dev nD) (hne : c ≠ d) (X : CellTallies nD τ sig Unit) (W : Waits sig Unit)
    {hsc : (rowM c : Memref sig (Dev.tc d : Thread nD τ).2.kind .vmem S1x512 .f32).view.ref.isScScratch = false}
    {hsrc : (rowM c : Memref sig .tc .vmem S1x512 .f32).view.WordExact} {hdst : (rowM c : Memref sig .tc .vmem S1x512 .f32).view.WordExact}
    {hsem : DmaTarget.Typed .vmem (.dma (recvS c)) (.remote (Dev.tc d : Thread nD τ) (rowM c : Memref sig .tc .vmem S1x512 .f32) (.dma (sendS d)) hsc)}
    {α : Type} (k : PUnit → Prog (TpuEff nD τ sig (Elt F) Λ₀ .tc) α) (Φ : α → sProp 𝕄) :
    iprop(cellInv ER (sched m ρ) (K (c, kS d)) (sendCell c d) ∗ cellInv ER (sched m ρ) (K (d, kR c)) (recvCell d c)
        ∗ reached ER (sendCell c d) 0 ∗ reached ER (recvCell d c) 0
        ∗ dutyTok ER (recvCell d c) 0 c ∗ dutyTok ER (sendCell c d) 0 d ∗ rowAny (F := F) d c ∗ rowPts c c (lent d) (comm m ρ)
        ∗ owes (c : Thread nD τ) (X + tallyAt (recvCell d c) () N) W
        ∗ ((cred (tallyAt (sendCell c d) () N) ∗ owes (c : Thread nD τ) X W)
            -∗ wp frame (wpE (defs₀ (F := F)) 𝒱₀ (c : Thread nD τ) none) Set.univ (k ⟨⟩) Φ))
      ⊢ wp frame (wpE (defs₀ (F := F)) 𝒱₀ (c : Thread nD τ) none) Set.univ
          (.op (.enqueueDma (rowM c) (.remote (Dev.tc d : Thread nD τ) (rowM c) (.dma (sendS d)) hsc) (.dma (recvS c)) hsrc hdst hsem) k) Φ := by
  unfold rowAny rowPts
  iintro ⟨#HI1, #HI2, #Hr1, #Hr2, Ht2, Ht1, ⟨%fd, Hdst⟩, Hsrc, HO, Hk⟩
  iapply (Rounds.wp_send_pointsTo 𝒱₀ ER (sched m ρ) (c : Thread nD τ) none (κ₁ := K (c, kS d)) (κ₂ := K (d, kR c))
      (r₁ := 0) (r₂ := 0) (d₁ := d) (d₂ := c) (fd := fd) (q := lent d) (fs := comm m ρ)
      (mem_send m ρ c d (fun e => hne e.symm)) (mem_recv m ρ d c hne) () () N rfl (amount_send m ρ c d d) (amount_recv m ρ d c c) X rfl (W := W)
      (by rw [payload_send]; exact BI.Entails.refl _)
      (by rw [payload_recv]; unfold recvPay rowPts
          exact Entails.of_eq (pointsTo_congr (land_row m ρ c d fd)))) $$ [Hsrc Hdst HO Ht1 Ht2]
  · isplitr; · iexact HI1
    isplitr; · iexact HI2
    isplitl [Hsrc]; · iexact Hsrc
    isplitl [Hdst]; · iexact Hdst
    isplitl [HO]; · iexact HO
    isplitl [Ht1]; · iexact Ht1
    isplitr; · iexact Hr1
    isplitl [Ht2]; · iexact Ht2
    iexact Hr2
  iexact Hk

theorem SendRes_step (c : Dev nD) (n : ℕ) (hn : n < 16) :
    SendRes m ρ c n = iprop((if (⟨n, hn⟩ : Dev nD) = c then iprop(emp) else
        iprop(dutyTok ER (recvCell ⟨n, hn⟩ c) 0 c ∗ dutyTok ER (sendCell c ⟨n, hn⟩) 0 ⟨n, hn⟩ ∗ rowAny (F := F) ⟨n, hn⟩ c ∗ rowPts c c (lent ⟨n, hn⟩) (comm m ρ)))
      ∗ SendRes m ρ c (n + 1)) := by
  unfold SendRes; rw [ge_step n hn, bigSep_insert (not_mem_ge_succ n hn)]; rfl
theorem SentRes_step (c : Dev nD) (n : ℕ) (hn : n < 16) :
    SentRes (F := F) c (n + 1) = iprop((if (⟨n, hn⟩ : Dev nD) = c then iprop(emp) else iprop(cred (tallyAt (sendCell c ⟨n, hn⟩) () N) : sProp 𝕄))
      ∗ SentRes (F := F) c n) := by
  unfold SentRes; rw [lt_step n hn, bigSep_insert (not_mem_lt n hn)]; rfl

/-- Row `c` through an offset vector as the body computes it, and the receive semaphore likewise. -/
abbrev rowAt (off : Fin 3 → ℕ) (p : ∀ a, off a + S1x1x512.size a ≤ S16x1x512.size a) : Memref sig .tc .vmem S1x512 .f32 :=
  (cM.slice (Rect.unit (s := S16x1x512) off S1x1x512.size p) (fun _ => rfl)).squeeze S1x512 squeezes_S1x1x512_S1x512
abbrev recvAt (off : Fin 1 → ℕ) (p : ∀ a, off a + S1.size a ≤ S16.size a) : DmaSem sig :=
  ((cc0_scratch2.slice (Rect.unit (s := S16) off S1.size p)).squeeze S_ squeezes_S1_S_).sem
theorem rowAt_sc (off : Fin 3 → ℕ) (p : ∀ a, off a + S1x1x512.size a ≤ S16x1x512.size a) (d : Dev nD) :
    (rowAt off p : Memref sig (Dev.tc d : Thread nD τ).2.kind .vmem S1x512 .f32).view.ref.isScScratch = false := rfl
theorem rowAt_we (off : Fin 3 → ℕ) (p : ∀ a, off a + S1x1x512.size a ≤ S16x1x512.size a) : (rowAt off p).view.WordExact :=
  (View.wordExact_bits rfl).reshape _ _
theorem rowAt_typed (off : Fin 3 → ℕ) (p : ∀ a, off a + S1x1x512.size a ≤ S16x1x512.size a) (d : Dev nD) (ps q : DmaSem sig) :
    DmaTarget.Typed (p := Proc.tc) .vmem (.dma q) (DmaTarget.remote (p := Proc.tc) (Dev.tc d : Thread nD τ) (rowAt off p) (.dma ps) (rowAt_sc off p d)) :=
  ⟨⟨rfl, Or.inl rfl⟩, trivial⟩

theorem send_guard {α : Type} (K : Dev nD × Fin 33 → ℕ) (c : Dev nD) (n : ℕ) (hn : n < 16) (cond : Prop) [Decidable cond]
    (hcond : cond ↔ c ≠ (⟨n, hn⟩ : Dev nD))
    (dv : ℕ) (hdv : dv = n) (hlt : cond → dv < nD)
    (offS : Fin 1 → ℕ) (hoffS : offS = ![c.val]) (hinbS : cond → ∀ a, offS a + S1.size a ≤ S16.size a)
    (offR : Fin 3 → ℕ) (hoffR : offR = ![c.val, 0, 0]) (hinbR : cond → ∀ a, offR a + S1x1x512.size a ≤ S16x1x512.size a)
    (kont : Prog (TpuEff nD τ sig (Elt F) Λ₀ .tc) α) (W : Waits sig Unit) (Φ : α → sProp 𝕄) :
    iprop(records m ρ K ∗ owes (c : Thread nD τ) (Oarr c n) W ∗ SendRes m ρ c n ∗ SentRes (F := F) c n
        ∗ ((owes (c : Thread nD τ) (Oarr c (n + 1)) W ∗ SendRes m ρ c (n + 1) ∗ SentRes (F := F) c (n + 1)) -∗ wp frame (wpE (defs₀ (F := F)) 𝒱₀ (c : Thread nD τ) none) Set.univ kont Φ))
      ⊢ wp frame (wpE (defs₀ (F := F)) 𝒱₀ (c : Thread nD τ) none) Set.univ (if h : cond then
          .op (.enqueueDma (rowAt offR (hinbR h)) (.remote (Dev.tc (⟨dv, hlt h⟩ : Dev nD) : Thread nD τ) (rowAt offR (hinbR h)) (.dma (sendS ⟨n, hn⟩)) (rowAt_sc offR (hinbR h) ⟨dv, hlt h⟩))
            (.dma (recvAt offS (hinbS h))) (rowAt_we offR (hinbR h)) (rowAt_we offR (hinbR h)) (rowAt_typed offR (hinbR h) ⟨dv, hlt h⟩ (sendS ⟨n, hn⟩) (recvAt offS (hinbS h)))) (fun _ => kont)
          else kont) Φ := by
  subst hdv hoffS hoffR
  rw [SendRes_step m ρ c dv hn, SentRes_step c dv hn, Oarr_step c dv hn]
  unfold arrT
  by_cases hc : cond
  · have hne : c ≠ (⟨dv, hn⟩ : Dev nD) := hcond.mp hc
    rw [dif_pos hc, if_neg (fun e => hne e.symm), if_neg (fun e => hne e.symm), if_neg (fun e => hne e.symm)]
    iintro ⟨#HR, HO, ⟨⟨Ht2, Ht1, Hdst, Hsrc⟩, HS⟩, HT, Hk⟩
    iapply (send_one m ρ K c ⟨dv, hn⟩ hne (Oarr c (dv + 1)) W (fun _ => kont) Φ)
    isplitr; · iapply (inv_send m ρ K c ⟨dv, hn⟩); iexact HR
    isplitr; · iapply (inv_recv m ρ K ⟨dv, hn⟩ c); iexact HR
    isplitr; · iapply (reached_send m ρ K c ⟨dv, hn⟩); iexact HR
    isplitr; · iapply (reached_recv m ρ K ⟨dv, hn⟩ c); iexact HR
    isplitl [Ht2]; · iexact Ht2
    isplitl [Ht1]; · iexact Ht1
    isplitl [Hdst]; · iexact Hdst
    isplitl [Hsrc]; · iexact Hsrc
    isplitl [HO]; · iexact HO
    iintro ⟨Hc, HO⟩
    iapply Hk
    isplitl [HO]; · iexact HO
    isplitl [HS]; · iexact HS
    isplitl [Hc]; · iexact Hc
    iexact HT
  · have he : (⟨dv, hn⟩ : Dev nD) = c := by
      by_contra hne; exact hc (hcond.mpr fun e => hne e.symm)
    rw [dif_neg hc, if_pos he, if_pos he, if_pos he, add_zero]
    iintro ⟨-, HO, ⟨-, HS⟩, HT, Hk⟩
    iapply Hk
    isplitl [HO]; · iexact HO
    isplitl [HS]; · iexact HS
    isplitr; · iempintro
    iexact HT

/-! ## The receive waits -/

/-- The wait for row `p ≠ c`: the rest of the one round of its cell, paid by `p`'s transfer; the row comes with it. -/
theorem recv_one (K : Dev nD × Fin 33 → ℕ) (c p : Dev nD) (hne : p ≠ c) (W : Waits sig Unit)
    {hsrc : (rowM p : Memref sig .tc .vmem S1x512 .f32).view.WordExact} {hdst : (rowM p : Memref sig .tc .vmem S1x512 .f32).view.WordExact}
    {α : Type} (k : PUnit → Prog (TpuEff nD τ sig (Elt F) Λ₀ .tc) α) (Φ : α → sProp 𝕄) :
    iprop(cellInv ER (sched m ρ) (K (c, kR p)) (recvCell c p)
        ∗ cred (tallyAt (recvCell c p) () N) ∗ atPos ER (recvCell c p) 0 ∅ 0 ∗ owes (c : Thread nD τ) 0 W
        ∗ (((∃ W', owes (c : Thread nD τ) 0 W') ∗ rowPts c p fullShare (comm m ρ) ∗ atPos ER (recvCell c p) 1 ∅ 0) -∗ wp frame (wpE (defs₀ (F := F)) 𝒱₀ (c : Thread nD τ) none) Set.univ (k ⟨⟩) Φ))
      ⊢ wp frame (wpE (defs₀ (F := F)) 𝒱₀ (c : Thread nD τ) none) Set.univ (.op (.waitDma2 (recvS p) (rowM p) (rowM p) hsrc hdst) k) Φ := by
  iintro ⟨#HI, Hc, Hat, HO, Hk⟩
  iapply (Rounds.wp_wait_rest_token 𝒱₀ ER (sched m ρ) (c : Thread nD τ) none (κ := K (c, kR p))
      (wpE_waitDma2_eq 𝒱₀ (c : Thread nD τ) none Set.univ) (Set.mem_univ _) () (O := 0) (W := W) (R := 0) (m := 0) (T := ∅)
      (by rw [Nat.zero_add, expect_recv m ρ c p hne])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hrow := (Entails.of_eq (rest_recv m ρ c p hne)) $$ Hpay
  iapply Hk
  isplitl [HO]; · iexists _; iexact HO
  isplitl [Hrow]; · unfold recvPay; iexact Hrow
  iexact Hat

theorem RecvRes_step (c : Dev nD) (n : ℕ) (hn : n < 16) :
    RecvRes (F := F) c n = iprop((if (⟨n, hn⟩ : Dev nD) = c then iprop(emp) else
        iprop(cred (tallyAt (recvCell c ⟨n, hn⟩) () N) ∗ atPos ER (recvCell c ⟨n, hn⟩) 0 ∅ 0 : sProp 𝕄))
      ∗ RecvRes (F := F) c (n + 1)) := by
  unfold RecvRes; rw [ge_step n hn, bigSep_insert (not_mem_ge_succ n hn)]; rfl
theorem GotRes_step (c : Dev nD) (n : ℕ) (hn : n < 16) :
    GotRes m ρ c (n + 1) = iprop((if (⟨n, hn⟩ : Dev nD) = c then iprop(emp) else
        iprop(rowPts c ⟨n, hn⟩ fullShare (comm m ρ) ∗ atPos ER (recvCell c ⟨n, hn⟩) 1 ∅ 0))
      ∗ GotRes m ρ c n) := by
  unfold GotRes; rw [lt_step n hn, bigSep_insert (not_mem_lt n hn)]; rfl

theorem recv_guard {α : Type} (K : Dev nD × Fin 33 → ℕ) (c : Dev nD) (n : ℕ) (hn : n < 16) (cond : Prop) [Decidable cond]
    (hcond : cond ↔ c ≠ (⟨n, hn⟩ : Dev nD)) (A : cond → Prog (TpuEff nD τ sig (Elt F) Λ₀ .tc) α)
    (kont : Prog (TpuEff nD τ sig (Elt F) Λ₀ .tc) α)
    (hA : ∀ h : cond, ∃ (hsrc : (rowM (⟨n, hn⟩ : Dev nD) : Memref sig .tc .vmem S1x512 .f32).view.WordExact)
      (hdst : (rowM (⟨n, hn⟩ : Dev nD) : Memref sig .tc .vmem S1x512 .f32).view.WordExact),
      A h = .op (.waitDma2 (recvS ⟨n, hn⟩) (rowM ⟨n, hn⟩) (rowM ⟨n, hn⟩) hsrc hdst) (fun _ => kont))
    (Φ : α → sProp 𝕄) :
    iprop(records m ρ K ∗ (∃ W, owes (c : Thread nD τ) 0 W) ∗ RecvRes (F := F) c n ∗ GotRes m ρ c n
        ∗ (((∃ W, owes (c : Thread nD τ) 0 W) ∗ RecvRes (F := F) c (n + 1) ∗ GotRes m ρ c (n + 1)) -∗ wp frame (wpE (defs₀ (F := F)) 𝒱₀ (c : Thread nD τ) none) Set.univ kont Φ))
      ⊢ wp frame (wpE (defs₀ (F := F)) 𝒱₀ (c : Thread nD τ) none) Set.univ (if h : cond then A h else kont) Φ := by
  rw [RecvRes_step c n hn, GotRes_step m ρ c n hn]
  by_cases hc : cond
  · have hne : c ≠ (⟨n, hn⟩ : Dev nD) := hcond.mp hc
    obtain ⟨hsrc, hdst, hAe⟩ := hA hc
    rw [dif_pos hc, hAe, if_neg (fun e => hne e.symm), if_neg (fun e => hne e.symm)]
    iintro ⟨#HR, ⟨%W, HO⟩, ⟨⟨Hc, Hat⟩, HS⟩, HT, Hk⟩
    iapply (recv_one m ρ K c ⟨n, hn⟩ (fun e => hne e.symm) W (fun _ => kont) Φ)
    isplitr; · iapply (inv_recv m ρ K c ⟨n, hn⟩); iexact HR
    isplitl [Hc]; · iexact Hc
    isplitl [Hat]; · iexact Hat
    isplitl [HO]; · iexact HO
    iintro ⟨HO, Hrow, Hat⟩
    iapply Hk
    isplitl [HO]; · iexact HO
    isplitl [HS]; · iexact HS
    isplitl [Hrow Hat]
    · isplitl [Hrow]; · iexact Hrow
      iexact Hat
    iexact HT
  · have he : (⟨n, hn⟩ : Dev nD) = c := by
      by_contra hne; exact hc (hcond.mpr fun e => hne e.symm)
    rw [dif_neg hc, if_pos he, if_pos he]
    iintro ⟨-, HO, ⟨-, HS⟩, HT, Hk⟩
    iapply Hk
    isplitl [HO]; · iexact HO
    isplitl [HS]; · iexact HS
    isplitr; · iempintro
    iexact HT

/-! ## The send waits -/

/-- The wait for the departure towards `d ≠ c`: the rest of the one round of its cell, paid by `c`'s own transfer;
    the lent share of the own row comes back. -/
theorem swait_one (K : Dev nD × Fin 33 → ℕ) (c d : Dev nD) (hne : d ≠ c) (W : Waits sig Unit)
    {hsrc : (rowM (⟨0, by decide⟩ : Dev nD) : Memref sig .tc .vmem S1x512 .f32).view.WordExact}
    {hdst : (rowM (⟨0, by decide⟩ : Dev nD) : Memref sig .tc .vmem S1x512 .f32).view.WordExact}
    {α : Type} (k : PUnit → Prog (TpuEff nD τ sig (Elt F) Λ₀ .tc) α) (Φ : α → sProp 𝕄) :
    iprop(cellInv ER (sched m ρ) (K (c, kS d)) (sendCell c d)
        ∗ cred (tallyAt (sendCell c d) () N) ∗ atPos ER (sendCell c d) 0 ∅ 0 ∗ owes (c : Thread nD τ) 0 W
        ∗ (((∃ W', owes (c : Thread nD τ) 0 W') ∗ rowPts c c (lent d) (comm m ρ) ∗ atPos ER (sendCell c d) 1 ∅ 0) -∗ wp frame (wpE (defs₀ (F := F)) 𝒱₀ (c : Thread nD τ) none) Set.univ (k ⟨⟩) Φ))
      ⊢ wp frame (wpE (defs₀ (F := F)) 𝒱₀ (c : Thread nD τ) none) Set.univ (.op (.waitDma2 (sendS d) (rowM (⟨0, by decide⟩ : Dev nD)) (rowM (⟨0, by decide⟩ : Dev nD)) hsrc hdst) k) Φ := by
  iintro ⟨#HI, Hc, Hat, HO, Hk⟩
  iapply (Rounds.wp_wait_rest_token 𝒱₀ ER (sched m ρ) (c : Thread nD τ) none (κ := K (c, kS d))
      (wpE_waitDma2_eq 𝒱₀ (c : Thread nD τ) none Set.univ) (Set.mem_univ _) () (O := 0) (W := W) (R := 0) (m := 0) (T := ∅)
      (by rw [Nat.zero_add, expect_send m ρ c d hne])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hrow := (Entails.of_eq (rest_send m ρ c d hne)) $$ Hpay
  iapply Hk
  isplitl [HO]; · iexists _; iexact HO
  isplitl [Hrow]; · unfold sendPay; iexact Hrow
  iexact Hat

theorem SWaitRes_step (c : Dev nD) (n : ℕ) (hn : n < 16) :
    SWaitRes (F := F) c n = iprop((if (⟨n, hn⟩ : Dev nD) = c then iprop(emp) else
        iprop(cred (tallyAt (sendCell c ⟨n, hn⟩) () N) ∗ atPos ER (sendCell c ⟨n, hn⟩) 0 ∅ 0 : sProp 𝕄))
      ∗ SWaitRes (F := F) c (n + 1)) := by
  unfold SWaitRes; rw [ge_step n hn, bigSep_insert (not_mem_ge_succ n hn)]; rfl
theorem BackRes_step (c : Dev nD) (n : ℕ) (hn : n < 16) :
    BackRes m ρ c (n + 1) = iprop((if (⟨n, hn⟩ : Dev nD) = c then iprop(emp) else
        iprop(rowPts c c (lent ⟨n, hn⟩) (comm m ρ) ∗ atPos ER (sendCell c ⟨n, hn⟩) 1 ∅ 0))
      ∗ BackRes m ρ c n) := by
  unfold BackRes; rw [lt_step n hn, bigSep_insert (not_mem_lt n hn)]; rfl

theorem swait_guard {α : Type} (K : Dev nD × Fin 33 → ℕ) (c : Dev nD) (n : ℕ) (hn : n < 16) (cond : Prop) [Decidable cond]
    (hcond : cond ↔ c ≠ (⟨n, hn⟩ : Dev nD)) (A : cond → Prog (TpuEff nD τ sig (Elt F) Λ₀ .tc) α)
    (kont : Prog (TpuEff nD τ sig (Elt F) Λ₀ .tc) α)
    (hA : ∀ h : cond, ∃ (hsrc : (rowM (⟨0, by decide⟩ : Dev nD) : Memref sig .tc .vmem S1x512 .f32).view.WordExact)
      (hdst : (rowM (⟨0, by decide⟩ : Dev nD) : Memref sig .tc .vmem S1x512 .f32).view.WordExact),
      A h = .op (.waitDma2 (sendS ⟨n, hn⟩) (rowM (⟨0, by decide⟩ : Dev nD)) (rowM (⟨0, by decide⟩ : Dev nD)) hsrc hdst) (fun _ => kont))
    (Φ : α → sProp 𝕄) :
    iprop(records m ρ K ∗ (∃ W, owes (c : Thread nD τ) 0 W) ∗ SWaitRes (F := F) c n ∗ BackRes m ρ c n
        ∗ (((∃ W, owes (c : Thread nD τ) 0 W) ∗ SWaitRes (F := F) c (n + 1) ∗ BackRes m ρ c (n + 1)) -∗ wp frame (wpE (defs₀ (F := F)) 𝒱₀ (c : Thread nD τ) none) Set.univ kont Φ))
      ⊢ wp frame (wpE (defs₀ (F := F)) 𝒱₀ (c : Thread nD τ) none) Set.univ (if h : cond then A h else kont) Φ := by
  rw [SWaitRes_step c n hn, BackRes_step m ρ c n hn]
  by_cases hc : cond
  · have hne : c ≠ (⟨n, hn⟩ : Dev nD) := hcond.mp hc
    obtain ⟨hsrc, hdst, hAe⟩ := hA hc
    rw [dif_pos hc, hAe, if_neg (fun e => hne e.symm), if_neg (fun e => hne e.symm)]
    iintro ⟨#HR, ⟨%W, HO⟩, ⟨⟨Hc, Hat⟩, HS⟩, HT, Hk⟩
    iapply (swait_one m ρ K c ⟨n, hn⟩ (fun e => hne e.symm) W (fun _ => kont) Φ)
    isplitr; · iapply (inv_send m ρ K c ⟨n, hn⟩); iexact HR
    isplitl [Hc]; · iexact Hc
    isplitl [Hat]; · iexact Hat
    isplitl [HO]; · iexact HO
    iintro ⟨HO, Hrow, Hat⟩
    iapply Hk
    isplitl [HO]; · iexact HO
    isplitl [HS]; · iexact HS
    isplitl [Hrow Hat]
    · isplitl [Hrow]; · iexact Hrow
      iexact Hat
    iexact HT
  · have he : (⟨n, hn⟩ : Dev nD) = c := by
      by_contra hne; exact hc (hcond.mpr fun e => hne e.symm)
    rw [dif_neg hc, if_pos he, if_pos he]
    iintro ⟨-, HO, ⟨-, HS⟩, HT, Hk⟩
    iapply Hk
    isplitl [HO]; · iexact HO
    isplitl [HS]; · iexact HS
    isplitr; · iempintro
    iexact HT

end Cert.KernelIdeal.Mean

end
-- ==== Proof.PartsB.lean ====
import proofs.«900935_g7700000000000936_dist_mean_ax0_shard0_i_m1024_n512_v7x_i16_f32_1_alg».proof.Proof.Steps2
import proofs.«900935_g7700000000000936_dist_mean_ax0_shard0_i_m1024_n512_v7x_i16_f32_1_alg».proof.Proof.Conds

/-!
# The seven parts of the body

The body is printed in seven consecutive parts. Each is run from the state of its sweep at its first step to the
state at its last, one application of the sweep's step per guarded statement.
-/

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Part 3: the transfers to devices 0 to 9. -/
theorem part3_spec (K : Dev nD × Fin 33 → ℕ) (c : Dev nD) (W : Waits sig Unit) (Φ : PUnit → sProp 𝕄) :
    iprop(records m ρ K ∗ owes (c : Thread nD τ) (Oarr c 0) W ∗ SendRes m ρ c 0 ∗ SentRes (F := F) c 0
        ∗ ((owes (c : Thread nD τ) (Oarr c 10) W ∗ SendRes m ρ c 10 ∗ SentRes (F := F) c 10) -∗ Φ ⟨⟩))
      ⊢ wp frame (wpE (defs₀ (F := F)) 𝒱₀ (c : Thread nD τ) none) Set.univ (k0_part3 (F := F) xM (Memref.isWhole_whole _) oM (Memref.isWhole_whole _) cM (Memref.isWhole_whole _) cc0_scratch1 cc0_scratch2 c (me c)) Φ := by
  rw [k0_part3_eq_skeleton]; unfold k0_part3_skel
  simp only [semSignalWord, semWaitWord, Prog.lift, Prog.bind_op, Prog.bind_ret, Prog.pure_eq_ret]
  iintro ⟨#HR, HO, HS, HT, Hk⟩
  iapply (send_guard m ρ K c 0 (by decide) (k0_cond17 c = 1#1) (sndc0 c) k0_dev17 k0_dev17_eq (k0_dev17_lt c)
    (k0_off2 c) (k0_off2_eq c) (k0_off2_inb c) (k0_off3 c) (k0_off3_eq c) (k0_off3_inb c) _ W _)
  isplitr; · iexact HR
  isplitl [HO]; · iexact HO
  isplitl [HS]; · iexact HS
  isplitl [HT]; · iexact HT
  iintro ⟨HO, HS, HT⟩
  iapply (send_guard m ρ K c 1 (by decide) (k0_cond18 c = 1#1) (sndc1 c) k0_dev18 k0_dev18_eq (k0_dev18_lt c)
    (k0_off4 c) (k0_off4_eq c) (k0_off4_inb c) (k0_off5 c) (k0_off5_eq c) (k0_off5_inb c) _ W _)
  isplitr; · iexact HR
  isplitl [HO]; · iexact HO
  isplitl [HS]; · iexact HS
  isplitl [HT]; · iexact HT
  iintro ⟨HO, HS, HT⟩
  iapply (send_guard m ρ K c 2 (by decide) (k0_cond19 c = 1#1) (sndc2 c) k0_dev19 k0_dev19_eq (k0_dev19_lt c)
    (k0_off6 c) (k0_off6_eq c) (k0_off6_inb c) (k0_off7 c) (k0_off7_eq c) (k0_off7_inb c) _ W _)
  isplitr; · iexact HR
  isplitl [HO]; · iexact HO
  isplitl [HS]; · iexact HS
  isplitl [HT]; · iexact HT
  iintro ⟨HO, HS, HT⟩
  iapply (send_guard m ρ K c 3 (by decide) (k0_cond20 c = 1#1) (sndc3 c) k0_dev20 k0_dev20_eq (k0_dev20_lt c)
    (k0_off8 c) (k0_off8_eq c) (k0_off8_inb c) (k0_off9 c) (k0_off9_eq c) (k0_off9_inb c) _ W _)
  isplitr; · iexact HR
  isplitl [HO]; · iexact HO
  isplitl [HS]; · iexact HS
  isplitl [HT]; · iexact HT
  iintro ⟨HO, HS, HT⟩
  iapply (send_guard m ρ K c 4 (by decide) (k0_cond21 c = 1#1) (sndc4 c) k0_dev21 k0_dev21_eq (k0_dev21_lt c)
    (k0_off10 c) (k0_off10_eq c) (k0_off10_inb c) (k0_off11 c) (k0_off11_eq c) (k0_off11_inb c) _ W _)
  isplitr; · iexact HR
  isplitl [HO]; · iexact HO
  isplitl [HS]; · iexact HS
  isplitl [HT]; · iexact HT
  iintro ⟨HO, HS, HT⟩
  iapply (send_guard m ρ K c 5 (by decide) (k0_cond22 c = 1#1) (sndc5 c) k0_dev22 k0_dev22_eq (k0_dev22_lt c)
    (k0_off12 c) (k0_off12_eq c) (k0_off12_inb c) (k0_off13 c) (k0_off13_eq c) (k0_off13_inb c) _ W _)
  isplitr; · iexact HR
  isplitl [HO]; · iexact HO
  isplitl [HS]; · iexact HS
  isplitl [HT]; · iexact HT
  iintro ⟨HO, HS, HT⟩
  iapply (send_guard m ρ K c 6 (by decide) (k0_cond23 c = 1#1) (sndc6 c) k0_dev23 k0_dev23_eq (k0_dev23_lt c)
    (k0_off14 c) (k0_off14_eq c) (k0_off14_inb c) (k0_off15 c) (k0_off15_eq c) (k0_off15_inb c) _ W _)
  isplitr; · iexact HR
  isplitl [HO]; · iexact HO
  isplitl [HS]; · iexact HS
  isplitl [HT]; · iexact HT
  iintro ⟨HO, HS, HT⟩
  iapply (send_guard m ρ K c 7 (by decide) (k0_cond24 c = 1#1) (sndc7 c) k0_dev24 k0_dev24_eq (k0_dev24_lt c)
    (k0_off16 c) (k0_off16_eq c) (k0_off16_inb c) (k0_off17 c) (k0_off17_eq c) (k0_off17_inb c) _ W _)
  isplitr; · iexact HR
  isplitl [HO]; · iexact HO
  isplitl [HS]; · iexact HS
  isplitl [HT]; · iexact HT
  iintro ⟨HO, HS, HT⟩
  iapply (send_guard m ρ K c 8 (by decide) (k0_cond25 c = 1#1) (sndc8 c) k0_dev25 k0_dev25_eq (k0_dev25_lt c)
    (k0_off18 c) (k0_off18_eq c) (k0_off18_inb c) (k0_off19 c) (k0_off19_eq c) (k0_off19_inb c) _ W _)
  isplitr; · iexact HR
  isplitl [HO]; · iexact HO
  isplitl [HS]; · iexact HS
  isplitl [HT]; · iexact HT
  iintro ⟨HO, HS, HT⟩
  iapply (send_guard m ρ K c 9 (by decide) (k0_cond26 c = 1#1) (sndc9 c) k0_dev26 k0_dev26_eq (k0_dev26_lt c)
    (k0_off20 c) (k0_off20_eq c) (k0_off20_inb c) (k0_off21 c) (k0_off21_eq c) (k0_off21_inb c) _ W _)
  isplitr; · iexact HR
  isplitl [HO]; · iexact HO
  isplitl [HS]; · iexact HS
  isplitl [HT]; · iexact HT
  iintro ⟨HO, HS, HT⟩
  rw [wp_ret]; imodintro
  iapply Hk
  isplitl [HO]; · iexact HO
  isplitl [HS]; · iexact HS
  iexact HT

/-- Part 4: the transfers to devices 10 to 15, then the waits for rows 0 to 3. -/
theorem part4_spec (K : Dev nD × Fin 33 → ℕ) (c : Dev nD) (W : Waits sig Unit) (Φ : PUnit → sProp 𝕄) :
    iprop(records m ρ K ∗ owes (c : Thread nD τ) (Oarr c 10) W ∗ SendRes m ρ c 10 ∗ SentRes (F := F) c 10
        ∗ RecvRes (F := F) c 0 ∗ GotRes m ρ c 0
        ∗ (((∃ W', owes (c : Thread nD τ) 0 W') ∗ SentRes (F := F) c 16 ∗ RecvRes (F := F) c 4 ∗ GotRes m ρ c 4) -∗ Φ ⟨⟩))
      ⊢ wp frame (wpE (defs₀ (F := F)) 𝒱₀ (c : Thread nD τ) none) Set.univ (k0_part4 (F := F) xM (Memref.isWhole_whole _) oM (Memref.isWhole_whole _) cM (Memref.isWhole_whole _) cc0_scratch1 cc0_scratch2 c (me c)) Φ := by
  rw [k0_part4_eq_skeleton]; unfold k0_part4_skel
  simp only [semSignalWord, semWaitWord, Prog.lift, Prog.bind_op, Prog.bind_ret, Prog.pure_eq_ret]
  iintro ⟨#HR, HO, HS, HT, HV, HG, Hk⟩
  iapply (send_guard m ρ K c 10 (by decide) (k0_cond27 c = 1#1) (sndc10 c) k0_dev27 k0_dev27_eq (k0_dev27_lt c)
    (k0_off22 c) (k0_off22_eq c) (k0_off22_inb c) (k0_off23 c) (k0_off23_eq c) (k0_off23_inb c) _ W _)
  isplitr; · iexact HR
  isplitl [HO]; · iexact HO
  isplitl [HS]; · iexact HS
  isplitl [HT]; · iexact HT
  iintro ⟨HO, HS, HT⟩
  iapply (send_guard m ρ K c 11 (by decide) (k0_cond28 c = 1#1) (sndc11 c) k0_dev28 k0_dev28_eq (k0_dev28_lt c)
    (k0_off24 c) (k0_off24_eq c) (k0_off24_inb c) (k0_off25 c) (k0_off25_eq c) (k0_off25_inb c) _ W _)
  isplitr; · iexact HR
  isplitl [HO]; · iexact HO
  isplitl [HS]; · iexact HS
  isplitl [HT]; · iexact HT
  iintro ⟨HO, HS, HT⟩
  iapply (send_guard m ρ K c 12 (by decide) (k0_cond29 c = 1#1) (sndc12 c) k0_dev29 k0_dev29_eq (k0_dev29_lt c)
    (k0_off26 c) (k0_off26_eq c) (k0_off26_inb c) (k0_off27 c) (k0_off27_eq c) (k0_off27_inb c) _ W _)
  isplitr; · iexact HR
  isplitl [HO]; · iexact HO
  isplitl [HS]; · iexact HS
  isplitl [HT]; · iexact HT
  iintro ⟨HO, HS, HT⟩
  iapply (send_guard m ρ K c 13 (by decide) (k0_cond30 c = 1#1) (sndc13 c) k0_dev30 k0_dev30_eq (k0_dev30_lt c)
    (k0_off28 c) (k0_off28_eq c) (k0_off28_inb c) (k0_off29 c) (k0_off29_eq c) (k0_off29_inb c) _ W _)
  isplitr; · iexact HR
  isplitl [HO]; · iexact HO
  isplitl [HS]; · iexact HS
  isplitl [HT]; · iexact HT
  iintro ⟨HO, HS, HT⟩
  iapply (send_guard m ρ K c 14 (by decide) (k0_cond31 c = 1#1) (sndc14 c) k0_dev31 k0_dev31_eq (k0_dev31_lt c)
    (k0_off30 c) (k0_off30_eq c) (k0_off30_inb c) (k0_off31 c) (k0_off31_eq c) (k0_off31_inb c) _ W _)
  isplitr; · iexact HR
  isplitl [HO]; · iexact HO
  isplitl [HS]; · iexact HS
  isplitl [HT]; · iexact HT
  iintro ⟨HO, HS, HT⟩
  iapply (send_guard m ρ K c 15 (by decide) (k0_cond32 c = 1#1) (sndc15 c) k0_dev32 k0_dev32_eq (k0_dev32_lt c)
    (k0_off32 c) (k0_off32_eq c) (k0_off32_inb c) (k0_off33 c) (k0_off33_eq c) (k0_off33_inb c) _ W _)
  isplitr; · iexact HR
  isplitl [HO]; · iexact HO
  isplitl [HS]; · iexact HS
  isplitl [HT]; · iexact HT
  iintro ⟨HO, HS, HT⟩
  rw [Oarr_all]
  ihave HO := (show (owes (c : Thread nD τ) 0 W : sProp 𝕄) ⊢ iprop(∃ W', owes (c : Thread nD τ) 0 W') from by iintro H; iexists W; iexact H) $$ HO
  iapply (recv_guard m ρ K c 0 (by decide) _ (waitc0 c) _ _ (fun h => ⟨_, _, rfl⟩) _)
  isplitr; · iexact HR
  isplitl [HO]; · iexact HO
  isplitl [HV]; · iexact HV
  isplitl [HG]; · iexact HG
  iintro ⟨HO, HV, HG⟩
  iapply (recv_guard m ρ K c 1 (by decide) _ (waitc1 c) _ _ (fun h => ⟨_, _, rfl⟩) _)
  isplitr; · iexact HR
  isplitl [HO]; · iexact HO
  isplitl [HV]; · iexact HV
  isplitl [HG]; · iexact HG
  iintro ⟨HO, HV, HG⟩
  iapply (recv_guard m ρ K c 2 (by decide) _ (waitc2 c) _ _ (fun h => ⟨_, _, rfl⟩) _)
  isplitr; · iexact HR
  isplitl [HO]; · iexact HO
  isplitl [HV]; · iexact HV
  isplitl [HG]; · iexact HG
  iintro ⟨HO, HV, HG⟩
  iapply (recv_guard m ρ K c 3 (by decide) _ (waitc3 c) _ _ (fun h => ⟨_, _, rfl⟩) _)
  isplitr; · iexact HR
  isplitl [HO]; · iexact HO
  isplitl [HV]; · iexact HV
  isplitl [HG]; · iexact HG
  iintro ⟨HO, HV, HG⟩
  rw [wp_ret]; imodintro
  iapply Hk
  isplitl [HO]; · iexact HO
  isplitl [HT]; · iexact HT
  isplitl [HV]; · iexact HV
  iexact HG

/-- Part 5: the waits for rows 4 to 13. -/
theorem part5_spec (K : Dev nD × Fin 33 → ℕ) (c : Dev nD) (Φ : PUnit → sProp 𝕄) :
    iprop(records m ρ K ∗ (∃ W', owes (c : Thread nD τ) 0 W') ∗ RecvRes (F := F) c 4 ∗ GotRes m ρ c 4
        ∗ (((∃ W', owes (c : Thread nD τ) 0 W') ∗ RecvRes (F := F) c 14 ∗ GotRes m ρ c 14) -∗ Φ ⟨⟩))
      ⊢ wp frame (wpE (defs₀ (F := F)) 𝒱₀ (c : Thread nD τ) none) Set.univ (k0_part5 (F := F) xM (Memref.isWhole_whole _) oM (Memref.isWhole_whole _) cM (Memref.isWhole_whole _) cc0_scratch1 cc0_scratch2 (me c)) Φ := by
  rw [k0_part5_eq_skeleton]; unfold k0_part5_skel
  simp only [semSignalWord, semWaitWord, Prog.lift, Prog.bind_op, Prog.bind_ret, Prog.pure_eq_ret]
  iintro ⟨#HR, HO, HV, HG, Hk⟩
  iapply (recv_guard m ρ K c 4 (by decide) _ (waitc4 c) _ _ (fun h => ⟨_, _, rfl⟩) _)
  isplitr; · iexact HR
  isplitl [HO]; · iexact HO
  isplitl [HV]; · iexact HV
  isplitl [HG]; · iexact HG
  iintro ⟨HO, HV, HG⟩
  iapply (recv_guard m ρ K c 5 (by decide) _ (waitc5 c) _ _ (fun h => ⟨_, _, rfl⟩) _)
  isplitr; · iexact HR
  isplitl [HO]; · iexact HO
  isplitl [HV]; · iexact HV
  isplitl [HG]; · iexact HG
  iintro ⟨HO, HV, HG⟩
  iapply (recv_guard m ρ K c 6 (by decide) _ (waitc6 c) _ _ (fun h => ⟨_, _, rfl⟩) _)
  isplitr; · iexact HR
  isplitl [HO]; · iexact HO
  isplitl [HV]; · iexact HV
  isplitl [HG]; · iexact HG
  iintro ⟨HO, HV, HG⟩
  iapply (recv_guard m ρ K c 7 (by decide) _ (waitc7 c) _ _ (fun h => ⟨_, _, rfl⟩) _)
  isplitr; · iexact HR
  isplitl [HO]; · iexact HO
  isplitl [HV]; · iexact HV
  isplitl [HG]; · iexact HG
  iintro ⟨HO, HV, HG⟩
  iapply (recv_guard m ρ K c 8 (by decide) _ (waitc8 c) _ _ (fun h => ⟨_, _, rfl⟩) _)
  isplitr; · iexact HR
  isplitl [HO]; · iexact HO
  isplitl [HV]; · iexact HV
  isplitl [HG]; · iexact HG
  iintro ⟨HO, HV, HG⟩
  iapply (recv_guard m ρ K c 9 (by decide) _ (waitc9 c) _ _ (fun h => ⟨_, _, rfl⟩) _)
  isplitr; · iexact HR
  isplitl [HO]; · iexact HO
  isplitl [HV]; · iexact HV
  isplitl [HG]; · iexact HG
  iintro ⟨HO, HV, HG⟩
  iapply (recv_guard m ρ K c 10 (by decide) _ (waitc10 c) _ _ (fun h => ⟨_, _, rfl⟩) _)
  isplitr; · iexact HR
  isplitl [HO]; · iexact HO
  isplitl [HV]; · iexact HV
  isplitl [HG]; · iexact HG
  iintro ⟨HO, HV, HG⟩
  iapply (recv_guard m ρ K c 11 (by decide) _ (waitc11 c) _ _ (fun h => ⟨_, _, rfl⟩) _)
  isplitr; · iexact HR
  isplitl [HO]; · iexact HO
  isplitl [HV]; · iexact HV
  isplitl [HG]; · iexact HG
  iintro ⟨HO, HV, HG⟩
  iapply (recv_guard m ρ K c 12 (by decide) _ (waitc12 c) _ _ (fun h => ⟨_, _, rfl⟩) _)
  isplitr; · iexact HR
  isplitl [HO]; · iexact HO
  isplitl [HV]; · iexact HV
  isplitl [HG]; · iexact HG
  iintro ⟨HO, HV, HG⟩
  iapply (recv_guard m ρ K c 13 (by decide) _ (waitc13 c) _ _ (fun h => ⟨_, _, rfl⟩) _)
  isplitr; · iexact HR
  isplitl [HO]; · iexact HO
  isplitl [HV]; · iexact HV
  isplitl [HG]; · iexact HG
  iintro ⟨HO, HV, HG⟩
  rw [wp_ret]; imodintro
  iapply Hk
  isplitl [HO]; · iexact HO
  isplitl [HV]; · iexact HV
  iexact HG

/-- Part 7: the waits for the departures towards devices 5 to 14. -/
theorem part7_spec (K : Dev nD × Fin 33 → ℕ) (c : Dev nD) (Φ : BitVec 32 → sProp 𝕄) :
    iprop(records m ρ K ∗ (∃ W', owes (c : Thread nD τ) 0 W') ∗ SWaitRes (F := F) c 5 ∗ BackRes m ρ c 5
        ∗ (((∃ W', owes (c : Thread nD τ) 0 W') ∗ SWaitRes (F := F) c 15 ∗ BackRes m ρ c 15)
            -∗ Φ (Scalar.extui (Scalar.cmpi .ne (me c) 15#32))))
      ⊢ wp frame (wpE (defs₀ (F := F)) 𝒱₀ (c : Thread nD τ) none) Set.univ (k0_part7 (F := F) xM (Memref.isWhole_whole _) oM (Memref.isWhole_whole _) cM (Memref.isWhole_whole _) cc0_scratch1 cc0_scratch2 (me c) (Scalar.extui (Scalar.cmpi .ne (me c) 5#32))) Φ := by
  rw [k0_part7_eq_skeleton]; unfold k0_part7_skel
  simp only [semSignalWord, semWaitWord, Prog.lift, Prog.bind_op, Prog.bind_ret, Prog.pure_eq_ret]
  iintro ⟨#HR, HO, HW, HB, Hk⟩
  iapply (swait_guard m ρ K c 5 (by decide) _ (waitc5 c) _ _ (fun h => ⟨_, _, rfl⟩) _)
  isplitr; · iexact HR
  isplitl [HO]; · iexact HO
  isplitl [HW]; · iexact HW
  isplitl [HB]; · iexact HB
  iintro ⟨HO, HW, HB⟩
  iapply (swait_guard m ρ K c 6 (by decide) _ (waitc6 c) _ _ (fun h => ⟨_, _, rfl⟩) _)
  isplitr; · iexact HR
  isplitl [HO]; · iexact HO
  isplitl [HW]; · iexact HW
  isplitl [HB]; · iexact HB
  iintro ⟨HO, HW, HB⟩
  iapply (swait_guard m ρ K c 7 (by decide) _ (waitc7 c) _ _ (fun h => ⟨_, _, rfl⟩) _)
  isplitr; · iexact HR
  isplitl [HO]; · iexact HO
  isplitl [HW]; · iexact HW
  isplitl [HB]; · iexact HB
  iintro ⟨HO, HW, HB⟩
  iapply (swait_guard m ρ K c 8 (by decide) _ (waitc8 c) _ _ (fun h => ⟨_, _, rfl⟩) _)
  isplitr; · iexact HR
  isplitl [HO]; · iexact HO
  isplitl [HW]; · iexact HW
  isplitl [HB]; · iexact HB
  iintro ⟨HO, HW, HB⟩
  iapply (swait_guard m ρ K c 9 (by decide) _ (waitc9 c) _ _ (fun h => ⟨_, _, rfl⟩) _)
  isplitr; · iexact HR
  isplitl [HO]; · iexact HO
  isplitl [HW]; · iexact HW
  isplitl [HB]; · iexact HB
  iintro ⟨HO, HW, HB⟩
  iapply (swait_guard m ρ K c 10 (by decide) _ (waitc10 c) _ _ (fun h => ⟨_, _, rfl⟩) _)
  isplitr; · iexact HR
  isplitl [HO]; · iexact HO
  isplitl [HW]; · iexact HW
  isplitl [HB]; · iexact HB
  iintro ⟨HO, HW, HB⟩
  iapply (swait_guard m ρ K c 11 (by decide) _ (waitc11 c) _ _ (fun h => ⟨_, _, rfl⟩) _)
  isplitr; · iexact HR
  isplitl [HO]; · iexact HO
  isplitl [HW]; · iexact HW
  isplitl [HB]; · iexact HB
  iintro ⟨HO, HW, HB⟩
  iapply (swait_guard m ρ K c 12 (by decide) _ (waitc12 c) _ _ (fun h => ⟨_, _, rfl⟩) _)
  isplitr; · iexact HR
  isplitl [HO]; · iexact HO
  isplitl [HW]; · iexact HW
  isplitl [HB]; · iexact HB
  iintro ⟨HO, HW, HB⟩
  iapply (swait_guard m ρ K c 13 (by decide) _ (waitc13 c) _ _ (fun h => ⟨_, _, rfl⟩) _)
  isplitr; · iexact HR
  isplitl [HO]; · iexact HO
  isplitl [HW]; · iexact HW
  isplitl [HB]; · iexact HB
  iintro ⟨HO, HW, HB⟩
  iapply (swait_guard m ρ K c 14 (by decide) _ (waitc14 c) _ _ (fun h => ⟨_, _, rfl⟩) _)
  isplitr; · iexact HR
  isplitl [HO]; · iexact HO
  isplitl [HW]; · iexact HW
  isplitl [HB]; · iexact HB
  iintro ⟨HO, HW, HB⟩
  rw [wp_ret]; imodintro
  iapply Hk
  isplitl [HO]; · iexact HO
  isplitl [HW]; · iexact HW
  iexact HB

end Cert.KernelIdeal.Mean

end
-- ==== Proof.Exit.lean ====
import proofs.«900935_g7700000000000936_dist_mean_ax0_shard0_i_m1024_n512_v7x_i16_f32_1_alg».proof.Proof.Inv
import Idealize.ShloMosaic.Rules.PointsTo
import Idealize.ShloMosaic.Lib.Transfers
import Idealize.ShloMosaic.Lib.Rounds
import Idealize.ShloMosaic.Lib.Pipeline.Launch
import Idealize.SL.ProofMode.BigOp

/-!
# The exit: the scratch whole again, the own cells closed

Two regroupings of the sixteen rows of a device's scratch. For the load of all sixteen rows the buffer is
borrowed whole at the share the device kept of its own row: every received row gives up that share of itself.
At the exit the own row's seventeen parts (the share kept and the sixteen lent ones) are joined, the sixteen
rows at the full share are the whole buffer, and each of the thirty-two own cells, past its only round or
never with a duty, is closed with its counter at zero.
-/

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The rows of the scratch: pairwise disjoint, covering it -/

/-- The scratch of device `c`, and the elements of its row `j`. -/
abbrev scr (c : Dev nD) : Loc nD τ sig := (c : Thread nD τ).loc cc0_scratch0
def rowSet (c j : Dev nD) : Finset (Idx (scr c)) := (rowM j).view.set

/-- The elements of row `j` are those of its rectangle. -/
theorem rowSet_eq (c j : Dev nD) : rowSet c j = (rowR j).set :=
  (View.set_reshape ((View.whole cc0_scratch0).slice (rowR j)) squeezes_S1x1x512_S1x512.numel_eq).trans
    (View.set_slice_whole cc0_scratch0 (rowR j))

/-- An element whose leading coordinate is `j` lies in row `j`: the other two axes are not cut. -/
theorem exit_mem_rowR (j : Dev nD) (i : S16x1x512.Idx) (h : (i 0).val = j.val) : i ∈ (rowR j).set := by
  rw [Rect.mem_set_unit]
  intro a
  have h1 : (i 1).val < 1 := (i 1).isLt
  have h2 : (i 2).val < 512 := (i 2).isLt
  fin_cases a
  · show j.val ≤ (i 0).val ∧ (i 0).val < j.val + 1
    omega
  · show 0 ≤ (i 1).val ∧ (i 1).val < 0 + 1
    omega
  · show 0 ≤ (i 2).val ∧ (i 2).val < 0 + 512
    omega

/-- Two rows are separated on the leading axis. -/
theorem exit_rowR_disjoint (j j' : Dev nD) (h : j ≠ j') : Disjoint (rowR j).set (rowR j').set := by
  refine Rect.unit_disjoint (0 : Fin 3) ?_
  have hne : j.val ≠ j'.val := fun e => h (Fin.ext e)
  show j.val + 1 ≤ j'.val ∨ j'.val + 1 ≤ j.val
  omega

theorem rows_disjoint (c : Dev nD) :
    ∀ j ∈ (Finset.univ : Finset (Dev nD)), ∀ j' ∈ (Finset.univ : Finset (Dev nD)), j ≠ j' → Disjoint (rowSet c j) (rowSet c j') := by
  intro j _ j' _ h
  rw [rowSet_eq, rowSet_eq]; exact exit_rowR_disjoint j j' h

/-- Every element is in the row its leading coordinate names. -/
theorem rows_cover (c : Dev nD) : (Finset.univ : Finset (Dev nD)).biUnion (rowSet c) = Finset.univ := by
  ext i
  simp only [Finset.mem_biUnion, Finset.mem_univ, true_and, iff_true]
  exact ⟨⟨(i 0).val, (i 0).isLt⟩, by rw [rowSet_eq]; exact exit_mem_rowR _ i rfl⟩

/-- The whole scratch of device `c`, at one share and one valuation, is its sixteen rows. -/
theorem whole_eq_rows (c : Dev nD) (q : PosShare TreeShare) (f : Buf (Elt F) (scr c)) :
    ((scr c ↦[Finset.univ]{q} f) : sProp 𝕄) = bigSep Finset.univ fun j : Dev nD => rowPts c j q f := by
  rw [← rows_cover c, pointsTo_biUnion Finset.univ (ℓ := scr c) (rowSet c) (rows_disjoint c)]
  rfl

/-! ## A family over the devices with nothing at `c` is the family over the others -/

theorem hole_eq (c : Dev nD) (X : Dev nD → sProp 𝕄) :
    (bigSep Finset.univ fun p : Dev nD => if p = c then iprop(emp) else X p) = bigSep (Finset.univ.erase c) X := by
  rw [← Finset.filter_ne' Finset.univ c, bigSep_filter]
  refine bigSep_congr fun p _ => ?_
  by_cases h : p = c
  · rw [if_pos h, if_neg (not_not.mpr h)]; rfl
  · rw [if_neg h, if_pos h]

/-! ## The load of all sixteen rows -/

/-- The sixteen lendable shares of row `p` of device `c`'s scratch. -/
def rowToks (c p : Dev nD) : sProp 𝕄 :=
  bigSep Finset.univ fun i : Fin 16 => rowPts c p (Transfers.shareTok fullShare 16 i) (comm m ρ)

/-- A row at the full share is the share kept of it and the sixteen lendable ones. -/
theorem row_split (c p : Dev nD) :
    rowPts c p fullShare (comm m ρ) = BI.sep (rowPts c p kept (comm m ρ)) (rowToks m ρ c p) :=
  equiv_iff.mp ⟨(Transfers.pointsTo_toks fullShare 16).1, (Transfers.pointsTo_toks fullShare 16).2⟩

/-- The received rows: per other device, its row at the full share and its receive cell past its round. -/
theorem got_eq (c : Dev nD) :
    GotRes m ρ c 16 = bigSep (Finset.univ.erase c) fun p : Dev nD =>
      BI.sep (rowPts c p fullShare (comm m ρ)) (atPos ER (recvCell c p) 1 ∅ 0) := by
  unfold GotRes; rw [lt_all]; exact hole_eq c _

/-- What the received rows hold beside the share lent to the load: their lendable shares and their cells' positions. -/
def LoadRest (c : Dev nD) : sProp 𝕄 :=
  bigSep (Finset.univ.erase c) fun p : Dev nD => BI.sep (rowToks m ρ c p) (atPos ER (recvCell c p) 1 ∅ 0)

/-- The received rows and the own row at the share kept are the whole scratch at that share, and the rest. -/
theorem load_eq (c : Dev nD) :
    BI.sep (GotRes m ρ c 16) (rowPts c c kept (comm m ρ))
      = BI.sep ((scr c ↦[Finset.univ]{kept} comm m ρ) : sProp 𝕄) (LoadRest m ρ c) := by
  have h1 : (bigSep (Finset.univ.erase c) fun p : Dev nD =>
        BI.sep (rowPts c p fullShare (comm m ρ)) (atPos ER (recvCell c p) 1 ∅ 0))
      = BI.sep (bigSep (Finset.univ.erase c) fun p : Dev nD => rowPts c p kept (comm m ρ)) (LoadRest m ρ c) := by
    unfold LoadRest
    rw [← bigSep_sep]
    refine bigSep_congr fun p _ => ?_
    rw [row_split m ρ c p]
    show iprop((rowPts c p kept (comm m ρ) ∗ rowToks m ρ c p) ∗ atPos ER (recvCell c p) 1 ∅ 0)
      = iprop(rowPts c p kept (comm m ρ) ∗ rowToks m ρ c p ∗ atPos ER (recvCell c p) 1 ∅ 0)
    refine equiv_iff.mp ⟨?_, ?_⟩
    · show iprop((rowPts c p kept (comm m ρ) ∗ rowToks m ρ c p) ∗ atPos ER (recvCell c p) 1 ∅ 0)
        ⊢ iprop(rowPts c p kept (comm m ρ) ∗ rowToks m ρ c p ∗ atPos ER (recvCell c p) 1 ∅ 0)
      iintro ⟨⟨H1, H2⟩, H3⟩
      isplitl [H1]; · iexact H1
      isplitl [H2]; · iexact H2
      iexact H3
    · show iprop(rowPts c p kept (comm m ρ) ∗ rowToks m ρ c p ∗ atPos ER (recvCell c p) 1 ∅ 0)
        ⊢ iprop((rowPts c p kept (comm m ρ) ∗ rowToks m ρ c p) ∗ atPos ER (recvCell c p) 1 ∅ 0)
      iintro ⟨H1, H2, H3⟩
      isplitl [H1 H2]
      · isplitl [H1]; · iexact H1
        iexact H2
      · iexact H3
  rw [got_eq m ρ c, h1, whole_eq_rows c kept (comm m ρ),
    bigSep_univ_split c (Φ := fun j : Dev nD => rowPts c j kept (comm m ρ))]
  refine equiv_iff.mp ⟨?_, ?_⟩
  · show iprop(((bigSep (Finset.univ.erase c) fun p : Dev nD => rowPts c p kept (comm m ρ)) ∗ LoadRest m ρ c) ∗ rowPts c c kept (comm m ρ))
      ⊢ iprop((rowPts c c kept (comm m ρ) ∗ bigSep (Finset.univ.erase c) fun p : Dev nD => rowPts c p kept (comm m ρ)) ∗ LoadRest m ρ c)
    iintro ⟨⟨Hk, HR⟩, Hc⟩
    isplitl [Hk Hc]
    · isplitl [Hc]; · iexact Hc
      iexact Hk
    · iexact HR
  · show iprop((rowPts c c kept (comm m ρ) ∗ bigSep (Finset.univ.erase c) fun p : Dev nD => rowPts c p kept (comm m ρ)) ∗ LoadRest m ρ c)
      ⊢ iprop(((bigSep (Finset.univ.erase c) fun p : Dev nD => rowPts c p kept (comm m ρ)) ∗ LoadRest m ρ c) ∗ rowPts c c kept (comm m ρ))
    iintro ⟨⟨Hc, Hk⟩, HR⟩
    isplitl [Hk HR]
    · isplitl [Hk]; · iexact Hk
      iexact HR
    · iexact Hc

theorem load_whole (c : Dev nD) :
    iprop(GotRes m ρ c 16 ∗ rowPts c c kept (comm m ρ))
      ⊢ iprop(∃ R : sProp 𝕄, (((c : Thread nD τ).loc cc0_scratch0) ↦[Finset.univ]{kept} comm m ρ) ∗ R
          ∗ ((((c : Thread nD τ).loc cc0_scratch0) ↦[Finset.univ]{kept} comm m ρ) ∗ R -∗ iprop(GotRes m ρ c 16 ∗ rowPts c c kept (comm m ρ))) : sProp 𝕄) := by
  have e := load_eq m ρ c
  have fwd : iprop(GotRes m ρ c 16 ∗ rowPts c c kept (comm m ρ))
      ⊢ iprop(((scr c ↦[Finset.univ]{kept} comm m ρ) : sProp 𝕄) ∗ LoadRest m ρ c) := (equiv_iff.mpr e).1
  have bwd : iprop(((scr c ↦[Finset.univ]{kept} comm m ρ) : sProp 𝕄) ∗ LoadRest m ρ c)
      ⊢ iprop(GotRes m ρ c 16 ∗ rowPts c c kept (comm m ρ)) := (equiv_iff.mpr e).2
  iintro H
  iexists (LoadRest m ρ c)
  ihave H' := fwd $$ H
  icases H' with ⟨HA, HR⟩
  isplitl [HA]; · iexact HA
  isplitl [HR]; · iexact HR
  iintro ⟨HA, HR⟩
  iapply bwd
  isplitl [HA]; · iexact HA
  iexact HR

/-! ## The exit: the own row whole again -/

/-- The departures seen: per other device, the share lent to it back and its send cell past its round. -/
theorem back_eq (c : Dev nD) :
    BackRes m ρ c 16 = bigSep (Finset.univ.erase c) fun d : Dev nD =>
      BI.sep (rowPts c c (lent d) (comm m ρ)) (atPos ER (sendCell c d) 1 ∅ 0) := by
  unfold BackRes; rw [lt_all]; exact hole_eq c _

/-- The share kept of the own row, the share never lent and the fifteen lent ones are the row at the full share. -/
theorem own_join (c : Dev nD) :
    iprop(rowPts c c kept (comm m ρ) ∗ rowPts c c (lent c) (comm m ρ)
        ∗ bigSep (Finset.univ.erase c) fun d : Dev nD => rowPts c c (lent d) (comm m ρ))
      ⊢ rowPts c c fullShare (comm m ρ) := by
  have e : (bigSep Finset.univ fun d : Dev nD => rowPts c c (lent d) (comm m ρ))
      = iprop(rowPts c c (lent c) (comm m ρ) ∗ bigSep (Finset.univ.erase c) fun d : Dev nD => rowPts c c (lent d) (comm m ρ)) :=
    bigSep_univ_split c
  rw [← e]
  exact (equiv_iff.mpr (row_split m ρ c c)).2

/-- The own row and the fifteen others, all at the full share, are the whole scratch. -/
theorem rows_join (c : Dev nD) :
    iprop(rowPts c c fullShare (comm m ρ) ∗ bigSep (Finset.univ.erase c) fun p : Dev nD => rowPts c p fullShare (comm m ρ))
      ⊢ ((scr c ↦{fullShare} comm m ρ) : sProp 𝕄) := by
  have e : (bigSep Finset.univ fun p : Dev nD => rowPts c p fullShare (comm m ρ))
      = iprop(rowPts c c fullShare (comm m ρ) ∗ bigSep (Finset.univ.erase c) fun p : Dev nD => rowPts c p fullShare (comm m ρ)) :=
    bigSep_univ_split c
  rw [← e, ← whole_eq_rows c fullShare (comm m ρ)]

/-! ## The exit: the own cells closed -/

/-- The numbers of device `c`'s send and receive cells `j` among its thirty-three. -/
abbrev sendIx (j : Dev nD) : Fin 33 := ⟨j.val + 1, by have : j.val < 16 := j.isLt; omega⟩
abbrev recvIx (j : Dev nD) : Fin 33 := ⟨j.val + 17, by have : j.val < 16 := j.isLt; omega⟩

theorem exit_inv_send (K : Dev nD × Fin 33 → ℕ) (c j : Dev nD) :
    records m ρ K ⊢ cellInv ER (sched m ρ) (K (c, sendIx j)) (sendCell c j) := by
  have h : (bigSep Finset.univ fun ck : Dev nD × Fin 33 => cellInv ER (sched m ρ) (K ck) (kcell ck))
      ⊢ cellInv ER (sched m ρ) (K (c, sendIx j)) (kcell (c, sendIx j)) :=
    bigSep_elim (Finset.mem_univ ((c, sendIx j) : Dev nD × Fin 33))
  have hk : kcell (c, sendIx j) = sendCell c j := kcell_send c j
  rw [hk] at h
  unfold records
  iintro ⟨H, -⟩
  iapply h; iexact H

theorem exit_inv_recv (K : Dev nD × Fin 33 → ℕ) (c j : Dev nD) :
    records m ρ K ⊢ cellInv ER (sched m ρ) (K (c, recvIx j)) (recvCell c j) := by
  have h : (bigSep Finset.univ fun ck : Dev nD × Fin 33 => cellInv ER (sched m ρ) (K ck) (kcell ck))
      ⊢ cellInv ER (sched m ρ) (K (c, recvIx j)) (kcell (c, recvIx j)) :=
    bigSep_elim (Finset.mem_univ ((c, recvIx j) : Dev nD × Fin 33))
  have hk : kcell (c, recvIx j) = recvCell c j := kcell_recv c j
  rw [hk] at h
  unfold records
  iintro ⟨H, -⟩
  iapply h; iexact H

/-- A send cell at a round from which it has no duty, nothing of it taken, is closed: its counter is at zero. -/
theorem close_send (K : Dev nD × Fin 33 → ℕ) (c j : Dev nD) (R : ℕ)
    (hR : ∀ r, R ≤ r → (sched (F := F) m ρ).duties (sendCell c j) r = ∅) :
    iprop(records m ρ K ∗ atPos ER (sendCell c j) R ∅ 0) ⊢ iprop(|={Set.univ}=> semVal (sendCell c j) 0 : sProp 𝕄) := by
  iintro ⟨Hrec, Hat⟩
  iapply (Rounds.cell_close ER (sched m ρ) (Set.mem_univ (K (c, sendIx j))) (fun h => h) (R := R) hR)
  isplitl [Hrec]
  · iapply (exit_inv_send m ρ K c j); iexact Hrec
  · iexact Hat

/-- The same of a receive cell. -/
theorem close_recv (K : Dev nD × Fin 33 → ℕ) (c j : Dev nD) (R : ℕ)
    (hR : ∀ r, R ≤ r → (sched (F := F) m ρ).duties (recvCell c j) r = ∅) :
    iprop(records m ρ K ∗ atPos ER (recvCell c j) R ∅ 0) ⊢ iprop(|={Set.univ}=> semVal (recvCell c j) 0 : sProp 𝕄) := by
  iintro ⟨Hrec, Hat⟩
  iapply (Rounds.cell_close ER (sched m ρ) (Set.mem_univ (K (c, recvIx j))) (fun h => h) (R := R) hR)
  isplitl [Hrec]
  · iapply (exit_inv_recv m ρ K c j); iexact Hrec
  · iexact Hat

/-- All sixteen send cells of device `c`: the one towards itself never had a duty, the others are past their round. -/
theorem close_sends (K : Dev nD × Fin 33 → ℕ) (c : Dev nD) :
    iprop(records m ρ K ∗ atPos ER (sendCell c c) 0 ∅ 0
        ∗ bigSep (Finset.univ.erase c) fun d : Dev nD => atPos ER (sendCell c d) 1 ∅ 0)
      ⊢ iprop(|={Set.univ}=> bigSep Finset.univ fun d : Dev nD => semVal (sendCell c d) 0 : sProp 𝕄) := by
  have e : (bigSep Finset.univ fun d : Dev nD => iprop(|={Set.univ}=> semVal (sendCell c d) 0 : sProp 𝕄))
      = iprop((|={Set.univ}=> semVal (sendCell c c) 0)
          ∗ bigSep (Finset.univ.erase c) fun d : Dev nD => iprop(|={Set.univ}=> semVal (sendCell c d) 0 : sProp 𝕄)) :=
    bigSep_univ_split c
  refine BIBase.Entails.trans ?_ (bigSep_fupd Finset.univ _)
  rw [e]
  iintro ⟨#Hrec, Hc, Ho⟩
  isplitl [Hc]
  · iapply (close_send m ρ K c c 0 (fun r _ => duties_send_self m ρ c r))
    isplitr; · iexact Hrec
    iexact Hc
  · iapply (bigSep_with_persistent (R := records m ρ K)
      (Φ := fun d : Dev nD => atPos ER (sendCell c d) 1 ∅ 0)
      (Ψ := fun d : Dev nD => iprop(|={Set.univ}=> semVal (sendCell c d) 0 : sProp 𝕄))
      (fun d _ => close_send m ρ K c d 1 (duties_later m ρ (sendCell c d))))
    isplitr; · iexact Hrec
    iexact Ho

/-- All sixteen receive cells, likewise. -/
theorem close_recvs (K : Dev nD × Fin 33 → ℕ) (c : Dev nD) :
    iprop(records m ρ K ∗ atPos ER (recvCell c c) 0 ∅ 0
        ∗ bigSep (Finset.univ.erase c) fun p : Dev nD => atPos ER (recvCell c p) 1 ∅ 0)
      ⊢ iprop(|={Set.univ}=> bigSep Finset.univ fun p : Dev nD => semVal (recvCell c p) 0 : sProp 𝕄) := by
  have e : (bigSep Finset.univ fun p : Dev nD => iprop(|={Set.univ}=> semVal (recvCell c p) 0 : sProp 𝕄))
      = iprop((|={Set.univ}=> semVal (recvCell c c) 0)
          ∗ bigSep (Finset.univ.erase c) fun p : Dev nD => iprop(|={Set.univ}=> semVal (recvCell c p) 0 : sProp 𝕄)) :=
    bigSep_univ_split c
  refine BIBase.Entails.trans ?_ (bigSep_fupd Finset.univ _)
  rw [e]
  iintro ⟨#Hrec, Hc, Ho⟩
  isplitl [Hc]
  · iapply (close_recv m ρ K c c 0 (fun r _ => duties_recv_self m ρ c r))
    isplitr; · iexact Hrec
    iexact Hc
  · iapply (bigSep_with_persistent (R := records m ρ K)
      (Φ := fun p : Dev nD => atPos ER (recvCell c p) 1 ∅ 0)
      (Ψ := fun p : Dev nD => iprop(|={Set.univ}=> semVal (recvCell c p) 0 : sProp 𝕄))
      (fun p _ => close_recv m ρ K c p 1 (duties_later m ρ (recvCell c p))))
    isplitr; · iexact Hrec
    iexact Ho

/-! ## The own semaphores, numbered as the launch numbers them -/

/-- The thirty-two own semaphores are the sixteen send cells followed by the sixteen receive cells. -/
def exit_cellIx : Dev nD ⊕ Dev nD ≃ Fin 32 := finSumFinEquiv (m := 16) (n := 16)

theorem osem_send (j : Dev nD) : osem (exit_cellIx (Sum.inl j)) = SemLoc.dma (sendS j) := by
  refine congrArg SemLoc.dma (Fin.ext ?_)
  rw [sendS_val]
  have h : (exit_cellIx (Sum.inl j)).val = j.val := rfl
  show (exit_cellIx (Sum.inl j)).val + 2 = 2 + j.val
  omega

theorem osem_recv (j : Dev nD) : osem (exit_cellIx (Sum.inr j)) = SemLoc.dma (recvS j) := by
  refine congrArg SemLoc.dma (Fin.ext ?_)
  rw [recvS_val]
  have h : (exit_cellIx (Sum.inr j)).val = 16 + j.val := rfl
  show (exit_cellIx (Sum.inr j)).val + 2 = 18 + j.val
  omega

/-- The own semaphores at zero are the send cells at zero and the receive cells at zero. -/
theorem ownSems0_eq (c : Dev nD) :
    (Pipeline.ownSems0 osem c : sProp 𝕄)
      = BI.sep (bigSep Finset.univ fun j : Dev nD => semVal (sendCell c j) 0)
          (bigSep Finset.univ fun j : Dev nD => semVal (recvCell c j) 0) := by
  unfold Pipeline.ownSems0
  rw [bigSep_univ_equiv exit_cellIx, bigSep_univ_sum]
  simp only [osem_send, osem_recv]

/-! ## The exit -/

theorem exit_close (K : Dev nD × Fin 33 → ℕ) (c : Dev nD) :
    iprop(records m ρ K ∗ GotRes m ρ c 16 ∗ BackRes m ρ c 16 ∗ rowPts c c kept (comm m ρ) ∗ rowPts c c (lent c) (comm m ρ)
        ∗ atPos ER (recvCell c c) 0 ∅ 0 ∗ atPos ER (sendCell c c) 0 ∅ 0)
      ⊢ iprop(|={Set.univ}=> ((∃ f : Buf (Elt F) ((c : Thread nD τ).loc cc0_scratch0), ((c : Thread nD τ).loc cc0_scratch0) ↦{fullShare} f)
          ∗ Pipeline.ownSems0 osem c) : sProp 𝕄) := by
  have eg : GotRes m ρ c 16
      = iprop((bigSep (Finset.univ.erase c) fun p : Dev nD => rowPts c p fullShare (comm m ρ))
          ∗ bigSep (Finset.univ.erase c) fun p : Dev nD => atPos ER (recvCell c p) 1 ∅ 0) := by
    rw [got_eq m ρ c]; exact bigSep_sep _ _ _
  have eb : BackRes m ρ c 16
      = iprop((bigSep (Finset.univ.erase c) fun d : Dev nD => rowPts c c (lent d) (comm m ρ))
          ∗ bigSep (Finset.univ.erase c) fun d : Dev nD => atPos ER (sendCell c d) 1 ∅ 0) := by
    rw [back_eq m ρ c]; exact bigSep_sep _ _ _
  have eo : (Pipeline.ownSems0 osem c : sProp 𝕄)
      = iprop((bigSep Finset.univ fun j : Dev nD => semVal (sendCell c j) 0)
          ∗ bigSep Finset.univ fun j : Dev nD => semVal (recvCell c j) 0) := ownSems0_eq c
  rw [eg, eb, eo]
  iintro ⟨#Hrec, ⟨Hrows, HatR⟩, ⟨Hlent, HatS⟩, Hk, Hlc, HatRc, HatSc⟩
  ihave Hown := (own_join m ρ c) $$ [Hk Hlc Hlent]
  · isplitl [Hk]; · iexact Hk
    isplitl [Hlc]; · iexact Hlc
    iexact Hlent
  ihave Hwhole := (rows_join m ρ c) $$ [Hown Hrows]
  · isplitl [Hown]; · iexact Hown
    iexact Hrows
  imod (close_sends m ρ K c) $$ [HatSc HatS] with HS
  · isplitr; · iexact Hrec
    isplitl [HatSc]; · iexact HatSc
    iexact HatS
  imod (close_recvs m ρ K c) $$ [HatRc HatR] with HR
  · isplitr; · iexact Hrec
    isplitl [HatRc]; · iexact HatRc
    iexact HatR
  imodintro
  isplitl [Hwhole]
  · iexists (comm m ρ); iexact Hwhole
  · isplitl [HS]; · iexact HS
    iexact HR

/-! ## Axioms -/

/-- info: 'Cert.KernelIdeal.Mean.load_whole' depends on axioms: [propext, Classical.choice, Quot.sound] -/
#guard_msgs in #print axioms load_whole
/-- info: 'Cert.KernelIdeal.Mean.exit_close' depends on axioms: [propext, Classical.choice, Quot.sound] -/
#guard_msgs in #print axioms exit_close

end Cert.KernelIdeal.Mean

end
-- ==== Proof.PartsC.lean ====
import proofs.«900935_g7700000000000936_dist_mean_ax0_shard0_i_m1024_n512_v7x_i16_f32_1_alg».proof.Proof.Steps2
import proofs.«900935_g7700000000000936_dist_mean_ax0_shard0_i_m1024_n512_v7x_i16_f32_1_alg».proof.Proof.Blocks
import proofs.«900935_g7700000000000936_dist_mean_ax0_shard0_i_m1024_n512_v7x_i16_f32_1_alg».proof.Proof.Exit
import proofs.«900935_g7700000000000936_dist_mean_ax0_shard0_i_m1024_n512_v7x_i16_f32_1_alg».proof.Proof.Conds

/-!
# The seven parts of the body

The body is printed in seven consecutive parts. Each is run from the state of its sweep at its first step to the
state at its last, one application of the sweep's step per guarded statement.
-/

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Part 6: the waits for rows 14 and 15, the sum of the sixteen rows times 2^-14 into the result block, and the waits
    for the departures towards devices 0 to 4. -/
theorem part6_spec (K : Dev nD × Fin 33 → ℕ) (c : Dev nD) (g : Buf (Elt F) ((c : Thread nD τ).loc cc0_stg1_0))
    (Φ : BitVec 32 → sProp 𝕄) :
    iprop(records m ρ K ∗ (∃ W', owes (c : Thread nD τ) 0 W') ∗ RecvRes (F := F) c 14 ∗ GotRes m ρ c 14
        ∗ rowPts c c kept (comm m ρ) ∗ (((c : Thread nD τ).loc cc0_stg1_0) ↦{fullShare} g)
        ∗ SWaitRes (F := F) c 0 ∗ BackRes m ρ c 0
        ∗ (((∃ W', owes (c : Thread nD τ) 0 W') ∗ GotRes m ρ c 16 ∗ rowPts c c kept (comm m ρ)
              ∗ (((c : Thread nD τ).loc cc0_stg1_0) ↦{fullShare} outAt m ρ) ∗ SWaitRes (F := F) c 5 ∗ BackRes m ρ c 5)
            -∗ Φ (Scalar.extui (Scalar.cmpi .ne (me c) 5#32))))
      ⊢ wp frame (wpE (defs₀ (F := F)) 𝒱₀ (c : Thread nD τ) none) Set.univ (k0_part6 (F := F) xM (Memref.isWhole_whole _) oM (Memref.isWhole_whole _) cM (Memref.isWhole_whole _) cc0_scratch1 cc0_scratch2 (me c)) Φ := by
  rw [k0_part6_eq_skeleton]; unfold k0_part6_skel
  simp only [semSignalWord, semWaitWord, Prog.lift, Prog.bind_op, Prog.bind_ret, Prog.pure_eq_ret]
  iintro ⟨#HR, HO, HV, HG, Hkept, Hout, HW, HB, Hk⟩
  iapply (recv_guard m ρ K c 14 (by decide) _ (waitc14 c) _ _ (fun h => ⟨_, _, rfl⟩) _)
  isplitr; · iexact HR
  isplitl [HO]; · iexact HO
  isplitl [HV]; · iexact HV
  isplitl [HG]; · iexact HG
  iintro ⟨HO, HV, HG⟩
  iapply (recv_guard m ρ K c 15 (by decide) _ (waitc15 c) _ _ (fun h => ⟨_, _, rfl⟩) _)
  isplitr; · iexact HR
  isplitl [HO]; · iexact HO
  isplitl [HV]; · iexact HV
  isplitl [HG]; · iexact HG
  iintro ⟨HO, HV, HG⟩
  ihave H := (load_whole m ρ c) $$ [HG Hkept]
  · isplitl [HG]; · iexact HG
    iexact Hkept
  icases H with ⟨%R, Hwhole, Hrest, Hback⟩
  iapply (compute_block m ρ c g _ Φ)
  isplitl [Hwhole]; · iexact Hwhole
  isplitl [Hout]; · iexact Hout
  iintro ⟨Hwhole, Hout⟩
  ihave H := Hback $$ [Hwhole Hrest]
  · isplitl [Hwhole]; · iexact Hwhole
    iexact Hrest
  icases H with ⟨HG, Hkept⟩
  iapply (swait_guard m ρ K c 0 (by decide) _ (waitc0 c) _ _ (fun h => ⟨_, _, rfl⟩) _)
  isplitr; · iexact HR
  isplitl [HO]; · iexact HO
  isplitl [HW]; · iexact HW
  isplitl [HB]; · iexact HB
  iintro ⟨HO, HW, HB⟩
  iapply (swait_guard m ρ K c 1 (by decide) _ (waitc1 c) _ _ (fun h => ⟨_, _, rfl⟩) _)
  isplitr; · iexact HR
  isplitl [HO]; · iexact HO
  isplitl [HW]; · iexact HW
  isplitl [HB]; · iexact HB
  iintro ⟨HO, HW, HB⟩
  iapply (swait_guard m ρ K c 2 (by decide) _ (waitc2 c) _ _ (fun h => ⟨_, _, rfl⟩) _)
  isplitr; · iexact HR
  isplitl [HO]; · iexact HO
  isplitl [HW]; · iexact HW
  isplitl [HB]; · iexact HB
  iintro ⟨HO, HW, HB⟩
  iapply (swait_guard m ρ K c 3 (by decide) _ (waitc3 c) _ _ (fun h => ⟨_, _, rfl⟩) _)
  isplitr; · iexact HR
  isplitl [HO]; · iexact HO
  isplitl [HW]; · iexact HW
  isplitl [HB]; · iexact HB
  iintro ⟨HO, HW, HB⟩
  iapply (swait_guard m ρ K c 4 (by decide) _ (waitc4 c) _ _ (fun h => ⟨_, _, rfl⟩) _)
  isplitr; · iexact HR
  isplitl [HO]; · iexact HO
  isplitl [HW]; · iexact HW
  isplitl [HB]; · iexact HB
  iintro ⟨HO, HW, HB⟩
  rw [wp_ret]; imodintro
  iapply Hk
  isplitl [HO]; · iexact HO
  isplitl [HG]; · iexact HG
  isplitl [Hkept]; · iexact Hkept
  isplitl [Hout]; · iexact Hout
  isplitl [HW]; · iexact HW
  iexact HB

end Cert.KernelIdeal.Mean

end
-- ==== Proof.Enter.lean ====
import proofs.«900935_g7700000000000936_dist_mean_ax0_shard0_i_m1024_n512_v7x_i16_f32_1_alg».proof.Proof.Inv

/-!
# Entering the body: the launch-time resources, regrouped per sweep

A device starts with one position per cell (numbered 0 to 32), one triple of duty tokens per device, and
its scratch whole. The sweeps want these per device: this module splits and re-indexes them, with `emp` in
the place of the device itself. Nothing is updated here: every statement is a regrouping of `∗`.
-/

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## All but one index: the same family over every index, `emp` at the one left out -/

theorem bigSep_erase_ite {M : Type*} [URA M] {I : Type*} [Fintype I] [DecidableEq I] (c : I) (Φ : I → sProp M) :
    bigSep (Finset.univ.erase c) Φ = bigSep Finset.univ fun d => if d = c then iprop(emp) else Φ d := by
  rw [← Finset.filter_ne' Finset.univ c, bigSep_filter]
  exact bigSep_congr fun d _ => by
    by_cases h : d = c
    · rw [if_neg (not_not.mpr h), if_pos h]; rfl
    · rw [if_pos h, if_neg h]

/-! ## The receive sweep and the send-wait sweep: credit and position, cell by cell -/

/-- The credits of the fifteen rows awaited and the sixteen receive positions: per other device its credit and
    position; the position of the device's own (dutiless) receive cell is left over. -/
theorem to_recv (c : Dev nD) :
    iprop((bigSep (Finset.univ.erase c) fun p : Dev nD => (cred (tallyAt (recvCell c p) () N) : sProp 𝕄))
        ∗ (bigSep Finset.univ fun j : Dev nD => atPos ER (recvCell c j) 0 ∅ 0))
      ⊢ iprop(RecvRes (F := F) c 0 ∗ atPos ER (recvCell c c) 0 ∅ 0 : sProp 𝕄) := by
  unfold RecvRes
  rw [ge_zero, bigSep_univ_at (fun j : Dev nD => (atPos ER (recvCell c j) 0 ∅ 0 : sProp 𝕄)) c,
    ← bigSep_erase_ite c (fun p : Dev nD => iprop(cred (tallyAt (recvCell c p) () N) ∗ atPos ER (recvCell c p) 0 ∅ 0 : sProp 𝕄)),
    bigSep_sep']
  iintro ⟨Hc, Hp, Ha⟩
  isplitr [Hp]
  · isplitl [Hc] <;> iassumption
  · iexact Hp

/-- The same for the departures: the credits of the fifteen transfers made and the sixteen send positions. -/
theorem to_swait (c : Dev nD) :
    iprop(SentRes (F := F) c 16 ∗ (bigSep Finset.univ fun j : Dev nD => atPos ER (sendCell c j) 0 ∅ 0))
      ⊢ iprop(SWaitRes (F := F) c 0 ∗ atPos ER (sendCell c c) 0 ∅ 0 : sProp 𝕄) := by
  unfold SentRes SWaitRes
  rw [lt_all, ge_zero, bigSep_univ_at (fun j : Dev nD => (atPos ER (sendCell c j) 0 ∅ 0 : sProp 𝕄)) c,
    ← bigSep_erase_ite c (fun d : Dev nD => iprop(cred (tallyAt (sendCell c d) () N) : sProp 𝕄)),
    ← bigSep_erase_ite c (fun d : Dev nD => iprop(cred (tallyAt (sendCell c d) () N) ∗ atPos ER (sendCell c d) 0 ∅ 0 : sProp 𝕄)),
    bigSep_sep']
  iintro ⟨Hc, Hp, Ha⟩
  isplitr [Hp]
  · isplitl [Hc] <;> iassumption
  · iexact Hp

/-! ## The transfer sweep: the own row's read shares, the landing rows, the tokens -/

/-- The device's own row, whole, is what it keeps and one read share per device. -/
theorem own_row_shares (c : Dev nD) :
    (rowPts c c fullShare (comm m ρ) : sProp 𝕄)
      ⊢ iprop(rowPts c c kept (comm m ρ) ∗ rowPts c c (lent c) (comm m ρ)
          ∗ bigSep (Finset.univ.erase c) fun d : Dev nD => rowPts c c (lent d) (comm m ρ)) := by
  unfold rowPts
  refine (Transfers.pointsTo_toks_split fullShare 16).trans (Entails.of_eq ?_)
  exact congrArg _ (bigSep_univ_at (fun d : Dev nD =>
    ((rowM c).view.loc (c : Thread nD τ) ↦[(rowM c).view.set]{lent d} comm m ρ : sProp 𝕄)) c)

/-- Before the first transfer: per other device the two tokens, the landing row on it (handed over by its entry
    signal) and the read share of the own row lent to that transfer; what is kept of the own row, and the share
    of the device itself, which no transfer uses, stay aside. -/
theorem to_send (c : Dev nD) :
    iprop(rowPts c c fullShare (comm m ρ)
        ∗ (bigSep (Finset.univ.erase c) fun d : Dev nD => barPay (F := F) c d)
        ∗ (bigSep (Finset.univ.erase c) fun d : Dev nD => iprop(dutyTok ER (recvCell d c) 0 c ∗ dutyTok ER (sendCell c d) 0 d)))
      ⊢ iprop(SendRes m ρ c 0 ∗ rowPts c c kept (comm m ρ) ∗ rowPts c c (lent c) (comm m ρ) : sProp 𝕄) := by
  unfold SendRes barPay rowAny
  have eR : (bigSep (Finset.univ.erase c) fun d : Dev nD =>
        iprop(dutyTok ER (recvCell d c) 0 c ∗ dutyTok ER (sendCell c d) 0 d
          ∗ (∃ f, rowPts (F := F) d c fullShare f) ∗ rowPts c c (lent d) (comm m ρ)) : sProp 𝕄)
      = iprop((bigSep (Finset.univ.erase c) fun d : Dev nD => dutyTok ER (recvCell d c) 0 c)
          ∗ (bigSep (Finset.univ.erase c) fun d : Dev nD => dutyTok ER (sendCell c d) 0 d)
          ∗ (bigSep (Finset.univ.erase c) fun d : Dev nD => iprop(∃ f, rowPts (F := F) d c fullShare f))
          ∗ (bigSep (Finset.univ.erase c) fun d : Dev nD => rowPts c c (lent d) (comm m ρ))) := by
    rw [bigSep_sep', bigSep_sep', bigSep_sep']
  rw [ge_zero, ← bigSep_erase_ite c (fun d : Dev nD =>
      iprop(dutyTok ER (recvCell d c) 0 c ∗ dutyTok ER (sendCell c d) 0 d
        ∗ (∃ f, rowPts (F := F) d c fullShare f) ∗ rowPts c c (lent d) (comm m ρ) : sProp 𝕄)), eR, bigSep_sep']
  iintro ⟨Hrow, Hbar, Hrt, Hst⟩
  ihave H := (own_row_shares m ρ c) $$ Hrow
  icases H with ⟨Hk, Hl, Hls⟩
  isplitr [Hk Hl]
  · isplitl [Hrt]; · iexact Hrt
    isplitl [Hst]; · iexact Hst
    isplitl [Hbar]; · iexact Hbar
    iexact Hls
  · isplitl [Hk] <;> iassumption

/-! ## The scratch, row by row

An index of the scratch lies in row `j` exactly when its first coordinate is `j`: the sixteen rows are pairwise
disjoint and cover the scratch, so the scratch held whole is its sixteen rows held one by one. -/

theorem rowM_set (j : Dev nD) : (rowM j).view.set = (rowR j).set :=
  (View.set_reshape _ _).trans (View.set_slice_whole cc0_scratch0 (rowR j))

theorem mem_rowR (j : Dev nD) (i : S16x1x512.Idx) : i ∈ (rowR j).set ↔ (i 0).val = j.val := by
  rw [Rect.mem_set_unit]
  have h1 : (i 1).val < 1 := (i 1).isLt
  have h2 : (i 2).val < 512 := (i 2).isLt
  constructor
  · intro h
    have h0 : j.val ≤ (i 0).val ∧ (i 0).val < j.val + 1 := h 0
    omega
  · intro h a
    fin_cases a
    · show j.val ≤ (i 0).val ∧ (i 0).val < j.val + 1; omega
    · show 0 ≤ (i 1).val ∧ (i 1).val < 0 + 1; omega
    · show 0 ≤ (i 2).val ∧ (i 2).val < 0 + 512; omega

theorem rowR_disjoint (j j' : Dev nD) (h : j ≠ j') : Disjoint (rowR j).set (rowR j').set :=
  Finset.disjoint_left.mpr fun i hi hi' => h (Fin.ext (((mem_rowR j i).mp hi).symm.trans ((mem_rowR j' i).mp hi')))

theorem rowM_disjoint (j j' : Dev nD) (h : j ≠ j') : Disjoint (rowM j).view.set (rowM j').view.set := by
  rw [rowM_set, rowM_set]; exact rowR_disjoint j j' h

theorem rowM_cover (i : S16x1x512.Idx) : i ∈ (rowM (⟨(i 0).val, (i 0).isLt⟩ : Dev nD)).view.set := by
  rw [rowM_set]; exact (mem_rowR _ i).mpr rfl

/-- The scratch of a device held whole, at any share and contents, is its sixteen rows. -/
theorem scratch_rows (c : Dev nD) (q : PosShare TreeShare) (f : Buf (Elt F) ((c : Thread nD τ).loc cc0_scratch0)) :
    (((c : Thread nD τ).loc cc0_scratch0) ↦{q} f : sProp 𝕄) = bigSep Finset.univ fun j : Dev nD => rowPts c j q f := by
  unfold rowPts
  refine Eq.trans (congrArg (fun I => (pointsTo ((c : Thread nD τ).loc cc0_scratch0) I q f : sProp 𝕄)) ?_)
    (pointsTo_biUnion (ℓ := (c : Thread nD τ).loc cc0_scratch0) (q := q) (f := f) Finset.univ
      (fun j : Dev nD => (rowM j).view.set) (fun j _ j' _ h => rowM_disjoint j j' h))
  ext i
  simp only [Finset.mem_univ, Finset.mem_biUnion, true_and, true_iff]
  exact ⟨_, rowM_cover i⟩

/-! ## The thirty-three cells of a device: the barrier, the send cells, the receive cells -/

/-- Cell 0 is the barrier, cell `j + 1` the send cell `j`, cell `j + 17` the receive cell `j`. -/
def cellIx : Unit ⊕ Dev nD ⊕ Dev nD ≃ Fin 33 where
  toFun x := match x with
    | .inl _ => 0
    | .inr (.inl j) => ⟨j.val + 1, by have : j.val < 16 := j.isLt; omega⟩
    | .inr (.inr j) => ⟨j.val + 17, by have : j.val < 16 := j.isLt; omega⟩
  invFun k :=
    if h0 : k.val = 0 then .inl ()
    else if h1 : k.val < 17 then .inr (.inl ⟨k.val - 1, by show k.val - 1 < 16; omega⟩)
    else .inr (.inr ⟨k.val - 17, by have := k.isLt; show k.val - 17 < 16; omega⟩)
  left_inv := by decide
  right_inv := by decide

/-- A device's positions, cell kind by cell kind. -/
theorem positions_split (c : Dev nD) :
    positions (F := F) c = iprop(atPos ER (barCell c) 0 ∅ 0
      ∗ (bigSep Finset.univ fun j : Dev nD => atPos ER (sendCell c j) 0 ∅ 0)
      ∗ (bigSep Finset.univ fun j : Dev nD => atPos ER (recvCell c j) 0 ∅ 0) : sProp 𝕄) := by
  unfold positions
  rw [bigSep_univ_equiv cellIx (fun k : Fin 33 => (atPos ER (kcell (c, k)) 0 ∅ 0 : sProp 𝕄)), bigSep_univ_sum, bigSep_univ_sum,
    bigSep_univ_of_subsingleton ()]
  have hs : ∀ j : Dev nD, kcell (c, cellIx (.inr (.inl j))) = sendCell c j := fun j => kcell_send c j
  have hr : ∀ j : Dev nD, kcell (c, cellIx (.inr (.inr j))) = recvCell c j := fun j => kcell_recv c j
  rw [bigSep_congr (s := Finset.univ) (fun (j : Dev nD) _ => show (atPos ER (kcell (c, cellIx (.inr (.inl j)))) 0 ∅ 0 : sProp 𝕄) = atPos ER (sendCell c j) 0 ∅ 0 by rw [hs]),
    bigSep_congr (s := Finset.univ) (fun (j : Dev nD) _ => show (atPos ER (kcell (c, cellIx (.inr (.inr j)))) 0 ∅ 0 : sProp 𝕄) = atPos ER (recvCell c j) 0 ∅ 0 by rw [hr])]
  rfl

/-! ## Entering the body -/

/-- The tokens a device pays with: the entry signals' and, per other device, the arrival's and the departure's
    (those of the device itself are of no duty and are let go). -/
theorem payToks_split (c : Dev nD) :
    payToks (F := F) c
      ⊢ iprop((bigSep (Finset.univ.erase c) fun d : Dev nD => dutyTok ER (barCell d) 0 c)
          ∗ (bigSep (Finset.univ.erase c) fun d : Dev nD => iprop(dutyTok ER (recvCell d c) 0 c ∗ dutyTok ER (sendCell c d) 0 d)) : sProp 𝕄) := by
  unfold payToks
  rw [bigSep_sep']
  exact BI.sep_mono (bigSep_subset (Finset.erase_subset _ _)) (bigSep_subset (Finset.erase_subset _ _))

/-- A row at some given contents is that row at any contents. -/
theorem rowAny_intro (c j : Dev nD) (f : Buf (Elt F) ((rowM j).view.loc (c : Thread nD τ))) :
    (rowPts c j fullShare f : sProp 𝕄) ⊢ rowAny (F := F) c j := by
  unfold rowAny; iintro H; iexists f; iexact H

/-- The scratch at any contents: the device's own row, and every other row, each at some contents. -/
theorem scratch_rowAny (c : Dev nD) (f : Buf (Elt F) ((c : Thread nD τ).loc cc0_scratch0)) :
    (((c : Thread nD τ).loc cc0_scratch0) ↦{fullShare} f : sProp 𝕄)
      ⊢ iprop(rowAny (F := F) c c ∗ bigSep (Finset.univ.erase c) fun d : Dev nD => rowAny (F := F) c d) := by
  rw [scratch_rows c fullShare f, bigSep_univ_at (fun j : Dev nD => (rowPts c j fullShare f : sProp 𝕄)) c]
  exact BI.sep_mono (rowAny_intro c c f) (bigSep_mono fun d _ => rowAny_intro c d f)

theorem enter (c : Dev nD) (f : Buf (Elt F) ((c : Thread nD τ).loc cc0_scratch0)) :
    iprop(positions (F := F) c ∗ payToks (F := F) c ∗ (((c : Thread nD τ).loc cc0_scratch0) ↦{fullShare} f))
      ⊢ iprop(atPos ER (barCell c) 0 ∅ 0
          ∗ SigRes (F := F) c 0
          ∗ rowAny (F := F) c c
          ∗ (bigSep (Finset.univ.erase c) fun d : Dev nD => iprop(dutyTok ER (recvCell d c) 0 c ∗ dutyTok ER (sendCell c d) 0 d))
          ∗ (bigSep Finset.univ fun j : Dev nD => atPos ER (sendCell c j) 0 ∅ 0)
          ∗ (bigSep Finset.univ fun j : Dev nD => atPos ER (recvCell c j) 0 ∅ 0) : sProp 𝕄) := by
  unfold SigRes
  rw [positions_split, ge_zero,
    ← bigSep_erase_ite c (fun d : Dev nD => iprop(dutyTok ER (barCell d) 0 c ∗ rowAny (F := F) c d : sProp 𝕄)), bigSep_sep']
  iintro ⟨⟨Hb, Hs, Hr⟩, Htok, Hscr⟩
  ihave Ht := (payToks_split (F := F) c) $$ Htok
  icases Ht with ⟨Hbt, Hrs⟩
  ihave Hrows := (scratch_rowAny c f) $$ Hscr
  icases Hrows with ⟨Hown, Hoth⟩
  isplitl [Hb]; · iexact Hb
  isplitl [Hbt Hoth]
  · isplitl [Hbt] <;> iassumption
  isplitl [Hown]; · iexact Hown
  isplitl [Hrs]; · iexact Hrs
  isplitl [Hs] <;> iassumption

/-- info: 'Cert.KernelIdeal.Mean.to_recv' depends on axioms: [propext, Classical.choice, Quot.sound] -/
#guard_msgs in #print axioms to_recv

/-- info: 'Cert.KernelIdeal.Mean.to_swait' depends on axioms: [propext, Classical.choice, Quot.sound] -/
#guard_msgs in #print axioms to_swait

/-- info: 'Cert.KernelIdeal.Mean.to_send' depends on axioms: [propext, Classical.choice, Quot.sound] -/
#guard_msgs in #print axioms to_send

/-- info: 'Cert.KernelIdeal.Mean.enter' depends on axioms: [propext, Classical.choice, Quot.sound] -/
#guard_msgs in #print axioms enter

end Cert.KernelIdeal.Mean

end
-- ==== Proof.Body.lean ====
import proofs.«900935_g7700000000000936_dist_mean_ax0_shard0_i_m1024_n512_v7x_i16_f32_1_alg».proof.Proof.Parts
import proofs.«900935_g7700000000000936_dist_mean_ax0_shard0_i_m1024_n512_v7x_i16_f32_1_alg».proof.Proof.PartsB
import proofs.«900935_g7700000000000936_dist_mean_ax0_shard0_i_m1024_n512_v7x_i16_f32_1_alg».proof.Proof.PartsC
import proofs.«900935_g7700000000000936_dist_mean_ax0_shard0_i_m1024_n512_v7x_i16_f32_1_alg».proof.Proof.Enter
import proofs.«900935_g7700000000000936_dist_mean_ax0_shard0_i_m1024_n512_v7x_i16_f32_1_alg».proof.Proof.Gen.KernelIdeal.Points

/-!
# The body, from the device's launch holdings to its exit

The seven parts in order, with the resources regrouped between the sweeps: the scratch cut into its rows and the
tokens dealt at entry; the landing rows and the shares of the own row before the transfers; the sixteen rows joined
for the one load that reads them all; at exit the rows and shares put back and the thirty-two own cells closed.
-/

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem SentRes_zero (c : Dev nD) : SentRes (F := F) c 0 = iprop(emp) := by unfold SentRes; rw [lt_zero, bigSep_empty]; rfl
theorem GotRes_zero (c : Dev nD) : GotRes m ρ c 0 = iprop(emp) := by unfold GotRes; rw [lt_zero, bigSep_empty]; rfl
theorem BackRes_zero (c : Dev nD) : BackRes m ρ c 0 = iprop(emp) := by unfold BackRes; rw [lt_zero, bigSep_empty]; rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def bodyPre' (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ (F := F) c ∗ (dats m ρ 0 c).owesAt () t0_0.succ ∗ stg c cc0_stg0_0 (xstg m ρ c) ∗ stg c cc0_stg1_0 (outAt m ρ))

set_option maxHeartbeats 1600000 in
/-- The body from what the launch and the pipeline hand device `c`, to what it hands back. -/
theorem sound_body (c : Dev nD) (Kt : PUnit → sProp 𝕄) :
    iprop(bodyPre' m ρ c ∗ (bodyPost m ρ c -∗ Kt ⟨⟩))
      ⊢ wp frame (wpE (defs₀ (F := F)) 𝒱₀ (c : Thread nD τ) none) Set.univ
          (cc0_body (F := F) (Memref.whole cc0_stg0_0) (Memref.isWhole_whole _) (Memref.whole cc0_stg1_0) (Memref.isWhole_whole _)
            (Memref.whole cc0_scratch0) (Memref.isWhole_whole _) cc0_scratch1 cc0_scratch2) Kt := by
  rw [cc0_body_eq_skeleton]; unfold cc0_body_skel
  simp only [semSignalWord, semWaitWord, Prog.lift, Prog.bind_op, Prog.bind_ret, Prog.pure_eq_ret, wp_bind]
  unfold bodyPre' Φ₀ start ghost
  iintro ⟨⟨⟨⟨⟨%K, #HR, Hpos, Htok⟩, HcB, HcR, #Hlev⟩, ⟨%f, Hscr⟩⟩, Ho, ⟨%d0, %g0, %hg0, Hx⟩, ⟨%d1, %g1, %hg1, Hout⟩⟩, Hk⟩
  have hx : g0 = xstg m ρ c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl, O₀_eq]
  ihave H := (enter (F := F) c f) $$ [Hpos Htok Hscr]
  · isplitl [Hpos]; · iexact Hpos
    isplitl [Htok]; · iexact Htok
    iexact Hscr
  icases H with ⟨HatB, HS, Hrow, Htok2, HposS, HposR⟩
  -- part 1: the signals to devices 0 to 7
  iapply (part1_spec m ρ K c W _)
  isplitr; · iexact HR
  isplitl [HO]; · iexact HO
  isplitl [HS]; · iexact HS
  iintro ⟨HO, HS⟩
  -- part 2: the signals to devices 8 to 15, the own row, the barrier wait
  iapply (part2_spec m ρ K c W _)
  isplitr; · iexact HR
  isplitl [HO]; · iexact HO
  isplitl [HS]; · iexact HS
  isplitl [Hx]; · iexact Hx
  isplitl [Hrow]; · iexact Hrow
  isplitl [HcB]; · iexact HcB
  isplitl [HatB]; · iexact HatB
  isplitr; · iexact Hlev
  iintro ⟨Hx, Hown, ⟨%W2, HO⟩, HatB, Hbar⟩
  -- the landing rows, the tokens and the shares of the own row, device by device
  ihave H := (to_send m ρ c) $$ [Hown Hbar Htok2]
  · isplitl [Hown]; · iexact Hown
    isplitl [Hbar]; · iexact Hbar
    iexact Htok2
  icases H with ⟨HS, Hkept, Hlentc⟩
  -- part 3: the transfers to devices 0 to 9
  iapply (part3_spec m ρ K c W2 _)
  isplitr; · iexact HR
  isplitl [HO]; · iexact HO
  isplitl [HS]; · iexact HS
  isplitr; · rw [SentRes_zero]; iempintro
  iintro ⟨HO, HS, HT⟩
  -- the receive cells' credit and positions, row by row
  ihave H := (to_recv (F := F) c) $$ [HcR HposR]
  · isplitl [HcR]; · iexact HcR
    iexact HposR
  icases H with ⟨HV, HatRc⟩
  -- part 4: the transfers to devices 10 to 15, the waits for rows 0 to 3
  iapply (part4_spec m ρ K c W2 _)
  isplitr; · iexact HR
  isplitl [HO]; · iexact HO
  isplitl [HS]; · iexact HS
  isplitl [HT]; · iexact HT
  isplitl [HV]; · iexact HV
  isplitr; · rw [GotRes_zero]; iempintro
  iintro ⟨HO, HT, HV, HG⟩
  -- part 5: the waits for rows 4 to 13
  iapply (part5_spec m ρ K c _)
  isplitr; · iexact HR
  isplitl [HO]; · iexact HO
  isplitl [HV]; · iexact HV
  isplitl [HG]; · iexact HG
  iintro ⟨HO, HV, HG⟩
  -- the send cells' credit and positions, departure by departure
  ihave H := (to_swait (F := F) c) $$ [HT HposS]
  · isplitl [HT]; · iexact HT
    iexact HposS
  icases H with ⟨HW, HatSc⟩
  -- part 6: the waits for rows 14 and 15, the result, the waits for departures 0 to 4
  iapply (part6_spec m ρ K c g1 _)
  isplitr; · iexact HR
  isplitl [HO]; · iexact HO
  isplitl [HV]; · iexact HV
  isplitl [HG]; · iexact HG
  isplitl [Hkept]; · iexact Hkept
  isplitl [Hout]; · iexact Hout
  isplitl [HW]; · iexact HW
  isplitr; · rw [BackRes_zero]; iempintro
  iintro ⟨HO, HG, Hkept, Hout, HW, HB⟩
  -- part 7: the waits for departures 5 to 14
  iapply (part7_spec m ρ K c _)
  isplitr; · iexact HR
  isplitl [HO]; · iexact HO
  isplitl [HW]; · iexact HW
  isplitl [HB]; · iexact HB
  iintro ⟨HO, HW, HB⟩
  -- the wait for departure 15
  iapply (swait_guard m ρ K c 15 (by decide) _ (waitc15 c) _ _ (fun h => ⟨_, _, rfl⟩) _)
  isplitr; · iexact HR
  isplitl [HO]; · iexact HO
  isplitl [HW]; · iexact HW
  isplitl [HB]; · iexact HB
  iintro ⟨HO, HW, HB⟩
  -- the exit: the rows and shares put back, the thirty-two own cells closed
  imod (exit_close m ρ K c) $$ [HG HB Hkept Hlentc HatRc HatSc] with ⟨Hscr, Hsems⟩
  · isplitr; · iexact HR
    isplitl [HG]; · iexact HG
    isplitl [HB]; · iexact HB
    isplitl [Hkept]; · iexact Hkept
    isplitl [Hlentc]; · iexact Hlentc
    isplitl [HatRc]; · iexact HatRc
    iexact HatSc
  rw [wp_ret]; imodintro
  iapply Hk
  unfold bodyPost Φ₁ Dat.owesAt Pipeline.owesWithin
  rw [show (dats m ρ 0 c).owed t0_0.succ = 0 from rfl]
  isplitl [Hscr Hsems]
  · isplitl [Hscr]; · iexact Hscr
    iexact Hsems
  isplitl [HO]
  · icases HO with ⟨%W3, HO⟩
    iexists W3
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ (c : Thread nD τ) none) Set.univ
    (cc0_body (F := F) (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  iintro H
  iapply (sound_body m ρ c fun _ => bodyPost m ρ c)
  isplitl [H]; · iexact H
  iintro H; iexact H

/-- info: 'Cert.KernelIdeal.Mean.body_obligation' depends on axioms: [propext, Classical.choice, Quot.sound] -/
#guard_msgs in #print axioms body_obligation

end Cert.KernelIdeal.Mean

end
-- ==== Proof.Launch.lean ====
import proofs.«900935_g7700000000000936_dist_mean_ax0_shard0_i_m1024_n512_v7x_i16_f32_1_alg».proof.Proof.Proto
import proofs.«900935_g7700000000000936_dist_mean_ax0_shard0_i_m1024_n512_v7x_i16_f32_1_alg».proof.Proof.Gen.KernelIdeal.Points

/-!
# The all-to-all mean: the launch

The sixteen devices' cells are funded from one launch element; every device's own semaphores and its barrier
semaphore, at zero, open its thirty-three cell invariants; the duty tokens minted at a device's cells are dealt to
the devices that pay those duties (a transposition of the mesh); the launch credit of a device's cells is what the
others owe them: fifteen units on its barrier, a row's credit on each receive cell of another device.
-/

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores; the cells as a finite set; the tokens minted -/

theorem ownSemFacts : Pipeline.OwnSemFacts cfg0.spec osem := by decide

theorem share_eq (c : Dev nD) (w : Fin cfg0.W) : (dats m ρ 0 c).share w = fullShare := by unfold Dat.share; split <;> rfl

/-- A semaphore's number, the barrier semaphore at 0 (no DMA semaphore of a cell is numbered 0 or 1). -/
def semIdx : SemLoc sig → ℕ
  | .reg _ => 0
  | .dma q => q.val

theorem semIdx_csem (k : Fin 33) : semIdx (csem k) = if k.val = 0 then 0 else k.val + 1 := by
  dsimp only [csem]; split <;> rfl

theorem csem_injective : Function.Injective csem := fun k k' h => by
  have h' := congrArg semIdx h
  rw [semIdx_csem, semIdx_csem] at h'
  exact Fin.ext (by split_ifs at h' <;> omega)

theorem kcell_injective : Function.Injective (kcell : Dev nD × Fin 33 → GSem nD τ sig) := by
  rintro ⟨c, k⟩ ⟨c', k'⟩ h
  have h1 : c = c' := by have := congrArg (fun g : GSem nD τ sig => g.1.1) h; exact this
  subst h1
  have h2 : k = k' := csem_injective (congrArg Prod.snd h)
  subst h2; rfl

def ringCells : Finset (GSem nD τ sig) := Finset.univ.map ⟨kcell, kcell_injective⟩

/-- Every duty token of round 0 of every cell is minted, one per (cell, device). -/
abbrev tokOf (x : (Dev nD × Fin 33) × Dev nD) : GSem nD τ sig × ℕ × Dev nD := (kcell x.1, 0, x.2)
theorem tokOf_injective : Function.Injective tokOf := fun x y h =>
  Prod.ext (kcell_injective (congrArg (fun t : GSem nD τ sig × ℕ × Dev nD => t.1) h)) (congrArg (fun t : GSem nD τ sig × ℕ × Dev nD => t.2.2) h)
def ringToks : Finset (GSem nD τ sig × ℕ × Dev nD) := Finset.univ.map ⟨tokOf, tokOf_injective⟩

def u₀ : UU :=
  (initOf (Pipeline.cells cfgs cellOf_inj) (Pipeline.launchToks cfgs cellOf_inj), initOf ringCells ringToks)

/-- The duty tokens of device `c`'s own cells: every duty of every cell. -/
def toks (c : Dev nD) : sProp 𝕄 :=
  bigSep Finset.univ fun k : Fin 33 => bigSep Finset.univ fun d : Dev nD => dutyTok ER (kcell (c, k)) 0 d

/-- What the launch element deals device `c`. -/
def G (c : Dev nD) : sProp 𝕄 :=
  iprop((bigSep Finset.univ fun k : Fin 33 => roundState ER (sched m ρ) (kcell (c, k)) 0)
    ∗ (bigSep Finset.univ fun k : Fin 33 => iprop(atPos ER (kcell (c, k)) 0 ∅ 0 ∗ reached ER (kcell (c, k)) 0)) ∗ toks c)

/-- What the global step makes of it. -/
def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 33 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks; rw [bigSep_map, bigSep_univ_prod, bigSep_univ_prod]; rfl
  iintro HX
  imod (Rounds.fund ER (sched m ρ) ringCells ringToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero: the kernel's own thirty-two and the barrier semaphore -/

theorem csem_zero : csem 0 = .reg barS := rfl

theorem csem_succ (k : Fin 32) : csem k.succ = osem k := by
  have h : ¬ (k.succ.val = 0) := by rw [Fin.val_succ]; omega
  show (if h : k.succ.val = 0 then (SemLoc.reg barS : SemLoc sig) else .dma ⟨k.succ.val + 1, _⟩) = _
  rw [dif_neg h]
  exact congrArg SemLoc.dma (Fin.ext (by show k.succ.val + 1 = k.val + 2; rw [Fin.val_succ]))

/-- A family over the thirty-three cells: the barrier's member and the thirty-two others'. -/
theorem bigSep_fin33 (Φ : Fin 33 → sProp 𝕄) : bigSep Finset.univ Φ = iprop(Φ 0 ∗ bigSep Finset.univ fun k : Fin 32 => Φ k.succ) := by
  rw [Fin.univ_succ, Finset.cons_eq_insert, bigSep_insert (by simp), bigSep_map]; rfl

/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : Fin 33 => semVal (kcell (c, k)) 0 : sProp 𝕄) := by
  have e : (bigSep Finset.univ fun k : Fin 32 => (semVal (kcell (c, k.succ)) 0 : sProp 𝕄))
      = bigSep Finset.univ fun k : Fin 32 => semVal ((c : Thread nD τ), osem k) 0 := bigSep_congr fun k _ => by rw [← csem_succ]
  have e0 : (semVal (kcell (c, (0 : Fin 33))) 0 : sProp 𝕄) = semVal (barCell c) 0 := rfl
  rw [unscopedSems0_eq, bigSep_fin33, e, e0]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 33 => iprop(∃ κ : ℕ, cellInv ER (sched m ρ) κ (kcell (c, k))))
          ∗ (bigSep Finset.univ fun k : Fin 33 => iprop(atPos ER (kcell (c, k)) 0 ∅ 0 ∗ reached ER (kcell (c, k)) 0)) ∗ toks c) := by
  unfold G
  iintro ⟨Hos, Hus, Hst, Hat, Htok⟩
  ihave Hv := (sems0 (F := F) c) $$ [Hos Hus]
  · isplitl [Hos] <;> iassumption
  imod (show iprop((bigSep Finset.univ fun k : Fin 33 => semVal (kcell (c, k)) 0) ∗ bigSep Finset.univ fun k : Fin 33 => roundState ER (sched m ρ) (kcell (c, k)) 0)
      ⊢ (|={Set.univ}=> bigSep Finset.univ fun k : Fin 33 => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The dealing: a device's tokens to the devices that pay the duties -/

/-- The send and the receive cell of row `j` among a device's thirty-three. -/
def eS : Dev nD ↪ Fin 33 :=
  ⟨fun j => ⟨j.val + 1, by have : j.val < 16 := j.isLt; omega⟩, fun a b h => Fin.ext (by have := congrArg Fin.val h; simp only at this; omega)⟩
def eR : Dev nD ↪ Fin 33 :=
  ⟨fun j => ⟨j.val + 17, by have : j.val < 16 := j.isLt; omega⟩, fun a b h => Fin.ext (by have := congrArg Fin.val h; simp only at this; omega)⟩

theorem kcell_eS (c j : Dev nD) : kcell (c, eS j) = sendCell c j := kcell_send c j
theorem kcell_eR (c j : Dev nD) : kcell (c, eR j) = recvCell c j := kcell_recv c j

/-- Of a family over the thirty-three cells: the barrier's member, the sixteen send cells', the sixteen receive cells'. -/
theorem split33 (Φ : Fin 33 → sProp 𝕄) :
    bigSep Finset.univ Φ ⊢ iprop(Φ 0 ∗ (bigSep Finset.univ fun j : Dev nD => Φ (eS j)) ∗ bigSep Finset.univ fun j : Dev nD => Φ (eR j)) := by
  have h0 : (0 : Fin 33) ∉ Finset.univ.map eS ∪ Finset.univ.map eR := by decide
  have hd : Disjoint (Finset.univ.map eS) (Finset.univ.map eR) := by decide
  refine (bigSep_subset (Finset.subset_univ (insert 0 (Finset.univ.map eS ∪ Finset.univ.map eR)))).trans ?_
  rw [bigSep_insert h0, bigSep_union hd, bigSep_map, bigSep_map]
  exact BI.Entails.refl _

/-- The tokens of a device's barrier cell; of each send cell its own row's; of each receive cell its own row's. -/
def TA (c : Dev nD) : sProp 𝕄 := bigSep Finset.univ fun d : Dev nD => dutyTok ER (barCell c) 0 d
def TC (c : Dev nD) : sProp 𝕄 := bigSep Finset.univ fun d : Dev nD => dutyTok ER (sendCell c d) 0 d
def TB (c : Dev nD) : sProp 𝕄 := bigSep Finset.univ fun p : Dev nD => dutyTok ER (recvCell c p) 0 p

theorem toks_split (c : Dev nD) : (toks c : sProp 𝕄) ⊢ iprop(TA c ∗ TC c ∗ TB c) := by
  unfold toks TA TC TB
  refine (split33 _).trans (BI.sep_mono (BI.Entails.refl _) (BI.sep_mono ?_ ?_))
  · exact bigSep_mono fun j _ => (bigSep_elim (Finset.mem_univ j)).trans
      (Entails.of_eq (congrArg (fun g : GSem nD τ sig => (dutyTok ER g 0 j : sProp 𝕄)) (kcell_eS c j)))
  · exact bigSep_mono fun j _ => (bigSep_elim (Finset.mem_univ j)).trans
      (Entails.of_eq (congrArg (fun g : GSem nD τ sig => (dutyTok ER g 0 j : sProp 𝕄)) (kcell_eR c j)))

/-- Dealt over the mesh: device `c` gets, of every device `d`, the token of duty `c` of `d`'s barrier cell and of `d`'s
    receive cell `c` (a transposition of the mesh), and keeps the tokens of its own send cells. -/
theorem toks_around : (bigSep Finset.univ fun c : Dev nD => (toks c : sProp 𝕄)) ⊢ bigSep Finset.univ fun c : Dev nD => payToks c := by
  refine (bigSep_mono fun c _ => toks_split (F := F) c).trans ?_
  have e1 : (bigSep Finset.univ fun c : Dev nD => (payToks c : sProp 𝕄))
      = iprop((bigSep Finset.univ fun d : Dev nD => TA d) ∗ (bigSep Finset.univ fun d : Dev nD => TB d) ∗ bigSep Finset.univ fun c : Dev nD => TC c) := by
    unfold payToks TA TB TC
    simp only [bigSep_sep']
    rw [bigSep_univ_comm (fun c d : Dev nD => (dutyTok ER (barCell d) 0 c : sProp 𝕄)), bigSep_univ_comm (fun c d : Dev nD => (dutyTok ER (recvCell d c) 0 c : sProp 𝕄))]
  rw [e1, bigSep_sep', bigSep_sep']
  show _ ⊢ (_ : sProp 𝕄)
  iintro ⟨HA, HC, HB⟩
  isplitl [HA]; · iexact HA
  isplitl [HB]; · iexact HB
  iexact HC

/-- What stays with device `c`: its positions, and the tokens of the duties it pays. -/
def linear (c : Dev nD) : sProp 𝕄 := iprop(positions c ∗ payToks c)

theorem ghost_intro (K : Dev nD × Fin 33 → ℕ) (c : Dev nD) : iprop(records m ρ K ∗ linear c) ⊢ G' m ρ c := by
  unfold linear G' ghost
  iintro ⟨HR, HL⟩
  iexists K
  isplitl [HR]; · iexact HR
  iexact HL

theorem regroup :
    (bigSep Finset.univ fun c : Dev nD => iprop((bigSep Finset.univ fun k : Fin 33 => iprop(∃ κ : ℕ, cellInv ER (sched m ρ) κ (kcell (c, k))))
          ∗ (bigSep Finset.univ fun k : Fin 33 => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 33 => iprop(∃ κ : ℕ, cellInv ER (sched m ρ) κ (kcell ck))),
    bigSep_congr (s := Finset.univ) (fun (c : Dev nD) _ => bigSep_sep' Finset.univ (fun k : Fin 33 => (atPos ER (kcell (c, k)) 0 ∅ 0 : sProp 𝕄)) (fun k => reached ER (kcell (c, k)) 0)),
    bigSep_sep', ← bigSep_univ_prod (fun ck : Dev nD × Fin 33 => (reached ER (kcell ck) 0 : sProp 𝕄))]
  iintro ⟨HI, ⟨Hat, #HR⟩, Htok⟩
  ihave HK := (BI.bigSep_exists_pi Finset.univ (fun (ck : Dev nD × Fin 33) (κ : ℕ) => (cellInv ER (sched m ρ) κ (kcell ck) : sProp 𝕄))) $$ HI
  icases HK with ⟨%K, #HI⟩
  ihave Htk := (toks_around (F := F)) $$ Htok
  iapply (BI.bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 33 => (atPos ER (kcell (c, k)) 0 ∅ 0 : sProp 𝕄)) payToks).symm).trans
      (bigSep_mono fun c _ => show _ ⊢ linear c from Entails.of_eq (by unfold linear positions; rfl)))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem recvS_injective : Function.Injective (recvS : Dev nD → DmaSem sig) := fun a b h =>
  Fin.ext (by have := congrArg Fin.val h; rw [recvS_val, recvS_val] at this; omega)

theorem bar_eq_iff {a b : Dev nD} : Iff (barCell a = barCell b) (a = b) :=
  ⟨fun h => Fin.ext (congrArg (fun g : GSem nD τ sig => g.1.1.val) h), fun h => h ▸ rfl⟩
theorem recv_eq_iff {a b p q : Dev nD} : Iff (recvCell a p = recvCell b q) (a = b ∧ p = q) :=
  ⟨fun h => ⟨Fin.ext (congrArg (fun g : GSem nD τ sig => g.1.1.val) h), recvS_injective (SemLoc.dma.inj (congrArg Prod.snd h))⟩,
    fun ⟨h1, h2⟩ => h1 ▸ h2 ▸ rfl⟩
theorem recv_ne_bar (a p b : Dev nD) : recvCell a p ≠ barCell b := fun h => by
  have h2 : (SemLoc.dma (recvS p) : SemLoc sig) = .reg barS := congrArg Prod.snd h
  cases h2

/-- What `d` owes through its transfer to `e`, read at a cell; -/
theorem arrT_apply (d e : Dev nD) (g : GSem nD τ sig) (u : Unit) : arrT d e g u = if e ≠ d ∧ g = recvCell e d then N else 0 := by
  unfold arrT
  by_cases h : e = d
  · rw [if_pos h, if_neg (fun h' => h'.1 h)]; rfl
  · rw [if_neg h, tallyAt_apply]
    by_cases hg : g = recvCell e d
    · rw [if_pos ⟨hg, rfl⟩, if_pos ⟨h, hg⟩]
    · rw [if_neg (fun h' => hg h'.1), if_neg (fun h' => hg h'.2)]
/-- through its entry signal to `e`. -/
theorem sigT_apply (d e : Dev nD) (g : GSem nD τ sig) (u : Unit) : sigT d e g u = if e ≠ d ∧ g = barCell e then 1 else 0 := by
  unfold sigT
  by_cases h : e = d
  · rw [if_pos h, if_neg (fun h' => h'.1 h)]; rfl
  · rw [if_neg h, tallyAt_apply]
    by_cases hg : g = barCell e
    · rw [if_pos ⟨hg, rfl⟩, if_pos ⟨h, hg⟩]
    · rw [if_neg (fun h' => hg h'.1), if_neg (fun h' => hg h'.2)]

theorem O₀_apply (d : Dev nD) (g : GSem nD τ sig) (u : Unit) :
    O₀ d g u = (∑ e : Dev nD, if e ≠ d ∧ g = recvCell e d then N else 0) + ∑ e : Dev nD, if e ≠ d ∧ g = barCell e then 1 else 0 := by
  unfold O₀
  simp only [Pi.add_apply, Finsupp.add_apply, Finset.sum_apply, Finsupp.finsetSum_apply, arrT_apply, sigT_apply]

/-- What device `d` owes device `c`'s barrier cell: a unit, unless it is `c` itself. -/
theorem owed_bar (d c : Dev nD) : O₀ d (barCell c) () = if c = d then 0 else 1 := by
  rw [O₀_apply, Finset.sum_eq_zero (fun e _ => if_neg (fun h => recv_ne_bar _ _ _ h.2.symm)), Nat.zero_add,
    Finset.sum_eq_single c (fun e _ he => if_neg (fun h => he (bar_eq_iff.mp h.2).symm)) (fun h => absurd (Finset.mem_univ _) h)]
  by_cases h : c = d
  · rw [if_pos h, if_neg (fun h' => h'.1 h)]
  · rw [if_neg h, if_pos ⟨h, rfl⟩]

/-- What device `d` owes device `c`'s receive cell `p`: the row's credit when it is `p`, and not `c`. -/
theorem owed_recv (d c p : Dev nD) : O₀ d (recvCell c p) () = if p = d ∧ c ≠ d then N else 0 := by
  rw [O₀_apply, Finset.sum_eq_zero (s := Finset.univ) (f := fun e : Dev nD => if e ≠ d ∧ recvCell c p = barCell e then 1 else 0)
      (fun e _ => if_neg (fun h => recv_ne_bar _ _ _ h.2)), Nat.add_zero,
    Finset.sum_eq_single c (fun e _ he => if_neg (fun h => he (recv_eq_iff.mp h.2).1.symm)) (fun h => absurd (Finset.mem_univ _) h)]
  by_cases h : p = d ∧ c ≠ d
  · rw [if_pos h, if_pos ⟨h.2, recv_eq_iff.mpr ⟨rfl, h.1⟩⟩]
  · rw [if_neg h, if_neg (fun h' => h ⟨(recv_eq_iff.mp h'.2).2, h'.1⟩)]

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (c p : Dev nD) (hp : p ≠ c) :
    tallyOn (recvCell c p) (launchCredit (Pipeline.owing O₀) 0 (recvCell c p)) = (tallyAt (recvCell c p) () N : CellTallies nD τ sig Unit) := by
  unfold tallyAt; refine congrArg _ (Finsupp.ext fun u => ?_); cases u
  rw [Pipeline.launchCredit_owing, Finsupp.single_eq_same, Finset.sum_congr rfl fun d _ => owed_recv d c p,
    Finset.sum_eq_single p (fun d _ hd => if_neg (fun h => hd h.1.symm)) (fun h => absurd (Finset.mem_univ _) h),
    if_pos ⟨rfl, fun h => hp h.symm⟩]

/-- Row `p`'s receive semaphore as a semaphore of the core. -/
def recvEmb : Dev nD ↪ SemLoc sig := ⟨fun p => .dma (recvS p), fun a b h => recvS_injective (SemLoc.dma.inj h)⟩

theorem creds (c : Dev nD) :
    (Pipeline.launchCred O₀ c : sProp 𝕄)
      ⊢ iprop(cred (tallyAt (barCell c) () 15) ∗ bigSep (Finset.univ.erase c) fun p : Dev nD => cred (tallyAt (recvCell c p) () N)) := by
  unfold Pipeline.launchCred
  rw [bigSep_univ_at _ (SemLoc.reg barS), launch_bar]
  refine sep_mono_right ?_
  refine (bigSep_subset (t := (Finset.univ.erase c).map recvEmb) (fun x hx => ?_)).trans ?_
  · obtain ⟨p, -, rfl⟩ := Finset.mem_map.mp hx
    refine Finset.mem_erase.mpr ⟨fun h => ?_, Finset.mem_univ _⟩
    have h2 : (SemLoc.dma (recvS p) : SemLoc sig) = .reg barS := h
    cases h2
  · rw [bigSep_map]
    exact bigSep_mono fun p hp => Entails.of_eq (congrArg cred (launch_recv c p (Finset.ne_of_mem_erase hp)))

/-! ## The levels at the staging waits -/

theorem L_of_ne (g : GSem nD τ sig) (h : g.1.2 ≠ .tc) : L g = ∅ := if_neg h
theorem L_tc (c : Dev nD) (sm : SemLoc sig) : L ((c : Thread nD τ), sm) = {()} := if_pos rfl

/-- Every cell a device owes at launch is a receive cell of its own row or a barrier cell. -/
theorem O₀_pos {c : Dev nD} {g : GSem nD τ sig} {u : Unit} (h : 0 < O₀ c g u) :
    (∃ e : Dev nD, g = recvCell e c) ∨ ∃ e : Dev nD, g = barCell e := by
  rw [O₀_apply] at h
  rcases Nat.add_pos_iff_pos_or_pos.mp h with h | h
  · obtain ⟨e, -, he⟩ := Finset.exists_ne_zero_of_sum_ne_zero (Nat.ne_of_gt h)
    refine Or.inl ⟨e, ?_⟩
    by_contra hn; exact he (if_neg fun h' => hn h'.2)
  · obtain ⟨e, -, he⟩ := Finset.exists_ne_zero_of_sum_ne_zero (Nat.ne_of_gt h)
    refine Or.inr ⟨e, ?_⟩
    by_contra hn; exact he (if_neg fun h' => hn h'.2)

/-- At a staging wait (level 0) a device owes what it owed at launch or nothing: barrier cells (level 1) and receive
    cells (level 2). -/
theorem mayWait_stage (c : Dev nD) (q : DmaSem sig) (hq : q.val < 18) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    have hl : lv ((c : Thread nD τ), .dma q) () = 0 := by
      show (if 18 ≤ q.val then 2 else 0) = 0
      rw [if_neg (by omega)]
    rw [hl]
    rcases O₀_pos hg with ⟨e, rfl⟩ | ⟨e, rfl⟩
    · refine ⟨by rw [L_tc]; exact Finset.mem_singleton_self _, ?_⟩
      show 0 < (if 18 ≤ (recvS c).val then 2 else 0)
      rw [if_pos (by rw [recvS_val]; omega)]; decide
    · exact ⟨by rw [L_tc]; exact Finset.mem_singleton_self _, Nat.one_pos⟩
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq]
  unfold Φ₁
  iintro ⟨Hr, Hz⟩
  isplitr; · iempintro
  isplitl [Hz]; · iexact Hz
  iexact Hr

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of sixteen devices, for any float values, from any memory with zero counters, given each
    device's body proved from its start state: every weakly fair execution of @main — the sixteen kernels handshaking
    on the runtime's barrier semaphore, then exchanging their rows all-to-all — terminates, and every final state has
    each windowed array at the contents the proof data names. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run, read through its one block: what the body left in the staging buffer. -/
theorem final_out (c : Dev nD) :
    ((cfg0.win (1 : Fin 2)).blk t0_0).view.read (Elt F) ((dats (F := F) m ρ 0 c).arrAt (1 : Fin 2) cfg0.N)
      = (dats (F := F) m ρ 0 c).flushed (1 : Fin 2) t0_0 := by
  rw [show cfg0.N = (t0_0 : Fin cfg0.N).val + 1 from rfl, (dats (F := F) m ρ 0 c).arrAt_succ (1 : Fin 2) t0_0, flush0_1 t0_0, if_pos rfl]
  exact View.read_write_univ _ _

/-- The result array after the run holds the mean's row. -/
theorem finalA_out (c : Dev nD) : finalA m ρ c (1 : Fin 2) = outAt m ρ := by
  have ho := final_out m ρ c
  have hz : (fun a => (win0_1.index t0_0) a * main_v1.ty.shape.size a) = fun _ => 0 := funext fun a => by fin_cases a <;> decide
  have hr := Memref.read_access_unit_zero (Elt F) main_v1 hz (fun a => by fin_cases a <;> decide) ((dats (F := F) m ρ 0 c).arrAt (1 : Fin 2) cfg0.N)
  exact hr.symm.trans ho

/-- At the compiled mesh of sixteen devices, from any memory with zero counters, given each device's body proved:
    every weakly fair execution of @main terminates, and in every final state every device's result array holds the
    mean's row — the sum of the sixteen devices' column sums, scaled — and its argument array is unchanged. -/
theorem run_value (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt m ρ
      ∧ r.2.mem ((c.tc : Thread nD τ).loc main_arg0) = m ((c.tc : Thread nD τ).loc main_arg0)) :=
  (θ_run defs _ _).mono (fun r h c => ⟨(h c (1 : Fin 2)).trans (finalA_out m ρ c), (h c (0 : Fin 2)).trans (finalA_x m ρ c)⟩) (run_main m ρ hbody)

/-- info: 'Cert.KernelIdeal.Mean.run_value' depends on axioms: [propext, Classical.choice, Quot.sound] -/
#guard_msgs in #print axioms run_value

end Cert.KernelIdeal.Mean

end
-- ==== Proof.WProto.lean ====
import proofs.«900935_g7700000000000936_dist_mean_ax0_shard0_i_m1024_n512_v7x_i16_f32_1_alg».proof.Proof.Gen.Kernel
import proofs.«900935_g7700000000000936_dist_mean_ax0_shard0_i_m1024_n512_v7x_i16_f32_1_alg».proof.Proof.Gen.Kernel.Skeleton
import proofs.«900935_g7700000000000936_dist_mean_ax0_shard0_i_m1024_n512_v7x_i16_f32_1_alg».proof.Proof.Gen.Kernel.Launch
import Idealize.ShloMosaic.Lib.Pipeline.Launch
import Idealize.ShloMosaic.Lib.Pipeline.Kit
import Idealize.ShloMosaic.Lib.Transfers
import Idealize.ShloMosaic.Lib.Tactic

/-!
# The all-to-all mean: the protocol

Sixteen devices. Device `c` holds block `c` (1024 rows) of `x`, sums its rows into row `c` of a 16-row scratch,
sends that row into row `c` of every other device's scratch, waits for the fifteen rows of the others, and
multiplies the sum of the sixteen rows by 2^-14.

The semaphores of device `c`, as cells of the rounds discipline, each with one round (round 0), duties named
by devices:
* the barrier cell: one duty per other device `d`, one unit each, paid by `d`'s entry signal; its payload is row
  `c` of `d`'s scratch, at any contents — the row `c` will write on `d`;
* receive cell `p` (`p ≠ c`): one duty `p`, the row's credit, paid by `p`'s transfer; its payload is row `p`
  of `c`'s scratch holding `p`'s column sums;
* send cell `d` (`d ≠ c`): one duty `d`, the row's credit, paid by `c`'s own transfer to `d`; its payload is
  the read share of `c`'s own row that the transfer was lent.
Every element of every scratch is described by ONE valuation, `comm`: row `p` holds `p`'s column sums.
-/

noncomputable section

namespace Cert.Kernel.Mean

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the protocol's (duties named by devices) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## Memrefs, semaphores, cells -/

abbrev xM : Memref sig .tc .vmem S1024x512 .f32 := Memref.whole cc0_stg0_0
abbrev oM : Memref sig .tc .vmem S1x512 .f32 := Memref.whole cc0_stg1_0
abbrev cM : Memref sig .tc .vmem S16x1x512 .f32 := Memref.whole cc0_scratch0

theorem row_inb (j : Dev nD) : ∀ a, (![j.val, 0, 0] : Fin 3 → Nat) a + S1x1x512.size a ≤ S16x1x512.size a := by
  revert j; decide
theorem sem_inb (j : Dev nD) : ∀ a, (![j.val] : Fin 1 → Nat) a + S1.size a ≤ S16.size a := by
  revert j; decide

/-- Row `j` of the scratch as a rectangle, and as the [1, 512] memref the transfers move. -/
abbrev rowR (j : Dev nD) : Rect S16x1x512 := Rect.unit (s := S16x1x512) ![j.val, 0, 0] S1x1x512.size (row_inb j)
abbrev rowM (j : Dev nD) : Memref sig .tc .vmem S1x512 .f32 :=
  (cM.slice (rowR j) (fun _ => rfl)).squeeze S1x512 squeezes_S1x1x512_S1x512

abbrev barS : Sem sig := (SemArray.scalar (sig.barrier 0 rfl) : Sems sig S_).sem
abbrev sendS (j : Dev nD) : DmaSem sig :=
  ((cc0_scratch1.slice (Rect.unit (s := S16) ![j.val] S1.size (sem_inb j))).squeeze S_ squeezes_S1_S_).sem
abbrev recvS (j : Dev nD) : DmaSem sig :=
  ((cc0_scratch2.slice (Rect.unit (s := S16) ![j.val] S1.size (sem_inb j))).squeeze S_ squeezes_S1_S_).sem

theorem sendS_val (j : Dev nD) : (sendS j).val = 2 + j.val := by revert j; decide
theorem recvS_val (j : Dev nD) : (recvS j).val = 18 + j.val := by revert j; decide

abbrev barCell (c : Dev nD) : GSem nD τ sig := ((c : Thread nD τ), .reg barS)
abbrev sendCell (c j : Dev nD) : GSem nD τ sig := ((c : Thread nD τ), .dma (sendS j))
abbrev recvCell (c j : Dev nD) : GSem nD τ sig := ((c : Thread nD τ), .dma (recvS j))

/-- The credit of one row's transfer. -/
abbrev N : ℕ := (rowM (0 : Dev nD)).view.dmaCredit
theorem N_pos : 0 < N := View.dmaCredit_pos _ (by decide)

/-- Which row a scratch DMA semaphore belongs to (both arrays: semaphore `2 + j` and `18 + j` to row `j`). -/
def dmaRow (q : DmaSem sig) : Dev nD := ⟨(q.val + 14) % 16, Nat.mod_lt _ (by decide)⟩
theorem dmaRow_send (j : Dev nD) : dmaRow (sendS j) = j := by revert j; decide
theorem dmaRow_recv (j : Dev nD) : dmaRow (recvS j) = j := by revert j; decide

/-! ## Contents -/

/-- Device `c`'s block of `x` as its kernel finds it staged. -/
def xstg (c : Dev nD) : (cc0_stg0_0 : Ref sig .tc).ty.Contents (Elt F) :=
  (win0_0.blk (0 : Fin 1)).view.read (Elt F) ((s₀ m ρ).mem ((c : Thread nD τ).loc main_arg0))

/-- Every scratch once all rows have landed: row `p` holds device `p`'s column sums. -/
def comm : (cc0_scratch0 : Ref sig .tc).ty.Contents (Elt F) := fun i =>
  k0_pay1 (xstg m ρ ⟨(i 0).val, (i 0).isLt⟩) (fun a => match a with
    | ⟨0, _⟩ => (⟨0, Nat.one_pos⟩ : Fin 1)
    | ⟨1, _⟩ => i 1
    | ⟨2, _⟩ => i 2)

/-- The result, the same on every device. -/
def outAt : (cc0_stg1_0 : Ref sig .tc).ty.Contents (Elt F) := k0_pay2 (comm m ρ)

/-- Row `j` of device `c`'s scratch, held at share `q`, at the valuation `f`. -/
def rowPts (c j : Dev nD) (q : PosShare TreeShare) (f : Buf (Elt F) ((rowM j).view.loc (c : Thread nD τ))) : sProp 𝕄 :=
  (rowM j).view.loc (c : Thread nD τ) ↦[(rowM j).view.set]{q} f

/-! ## The schedule -/

/-- The share of its own row a device lends its transfer to `d`. -/
abbrev lent (d : Dev nD) : PosShare TreeShare := Transfers.shareTok fullShare 16 d
/-- What it keeps. -/
abbrev kept : PosShare TreeShare := Transfers.shareDrop fullShare 16

def barPay (c d : Dev nD) : sProp 𝕄 := iprop(∃ f, rowPts (F := F) d c fullShare f)
def recvPay (c p : Dev nD) : sProp 𝕄 := rowPts c p fullShare (comm m ρ)
def sendPay (c d : Dev nD) : sProp 𝕄 := rowPts c c (lent d) (comm m ρ)

def sched : Rounds.Schedule (GSem nD τ sig) (Dev nD) 𝕄 where
  duties g r :=
    if r = 0 ∧ g.1.2 = .tc then
      (match g.2 with
        | .reg _ => Finset.univ.erase g.1.1
        | .dma q => if dmaRow q = g.1.1 then ∅ else {dmaRow q})
    else ∅
  unitless _ := False
  amount g _ _ := match g.2 with
    | .reg _ => 1
    | .dma _ => N
  payload g _ d := match g.2 with
    | .reg _ => barPay g.1.1 d
    | .dma q => if q.val < 18 then sendPay m ρ g.1.1 d else recvPay m ρ g.1.1 d
  amount_pos g _ _ _ := by
    cases g.2 with
    | reg _ => exact Nat.one_pos
    | dma _ => exact N_pos

instance sched_payload_storable (g : GSem nD τ sig) (r : ℕ) (d : Dev nD) :
    BI.Storable (upEmb : UEmb _ 𝕄) ((sched (F := F) m ρ).payload g r d) := by
  show BI.Storable upEmb (match g.2 with
    | .reg _ => barPay g.1.1 d
    | .dma q => if q.val < 18 then sendPay m ρ g.1.1 d else recvPay m ρ g.1.1 d)
  unfold barPay recvPay sendPay rowPts
  (repeat' split) <;> infer_instance

/-! ### The tables, cell by cell -/

section Sched
variable (c : Dev nD)

theorem duties_bar : (sched (F := F) m ρ).duties (barCell c) 0 = Finset.univ.erase c := by
  dsimp only [sched]; exact if_pos ⟨rfl, rfl⟩
theorem duties_send (j : Dev nD) (h : j ≠ c) : (sched (F := F) m ρ).duties (sendCell c j) 0 = {j} := by
  dsimp only [sched]; rw [if_pos ⟨rfl, rfl⟩, dmaRow_send, if_neg h]
theorem duties_recv (j : Dev nD) (h : j ≠ c) : (sched (F := F) m ρ).duties (recvCell c j) 0 = {j} := by
  dsimp only [sched]; rw [if_pos ⟨rfl, rfl⟩, dmaRow_recv, if_neg h]
theorem duties_send_self (r : ℕ) : (sched (F := F) m ρ).duties (sendCell c c) r = ∅ := by
  dsimp only [sched]; rw [dmaRow_send, if_pos rfl, ite_self]
theorem duties_recv_self (r : ℕ) : (sched (F := F) m ρ).duties (recvCell c c) r = ∅ := by
  dsimp only [sched]; rw [dmaRow_recv, if_pos rfl, ite_self]
theorem duties_later (g : GSem nD τ sig) : ∀ r, 1 ≤ r → (sched (F := F) m ρ).duties g r = ∅ :=
  fun r hr => by dsimp only [sched]; exact if_neg fun h => by omega

theorem amount_bar (d : Dev nD) : (sched (F := F) m ρ).amount (barCell c) 0 d = 1 := rfl
theorem amount_send (j d : Dev nD) : (sched (F := F) m ρ).amount (sendCell c j) 0 d = N := rfl
theorem amount_recv (j d : Dev nD) : (sched (F := F) m ρ).amount (recvCell c j) 0 d = N := rfl

theorem expect_bar : (sched (F := F) m ρ).expect (barCell c) 0 = 15 := by
  unfold Schedule.expect Schedule.amountOf
  rw [duties_bar, Finset.sum_congr rfl fun d _ => amount_bar m ρ c d, Finset.sum_const, Finset.card_erase_of_mem (Finset.mem_univ c),
    Finset.card_univ, Fintype.card_fin, smul_eq_mul]
  rfl
theorem expect_send (j : Dev nD) (h : j ≠ c) : (sched (F := F) m ρ).expect (sendCell c j) 0 = N := by
  unfold Schedule.expect Schedule.amountOf; rw [duties_send m ρ c j h, Finset.sum_singleton, amount_send]
theorem expect_recv (j : Dev nD) (h : j ≠ c) : (sched (F := F) m ρ).expect (recvCell c j) 0 = N := by
  unfold Schedule.expect Schedule.amountOf; rw [duties_recv m ρ c j h, Finset.sum_singleton, amount_recv]

theorem payload_bar (d : Dev nD) : (sched (F := F) m ρ).payload (barCell c) 0 d = barPay c d := rfl
theorem payload_send (j d : Dev nD) : (sched (F := F) m ρ).payload (sendCell c j) 0 d = sendPay m ρ c d := by
  dsimp only [sched]
  rw [if_pos (by rw [sendS_val]; have : j.val < 16 := j.isLt; omega)]
theorem payload_recv (j d : Dev nD) : (sched (F := F) m ρ).payload (recvCell c j) 0 d = recvPay m ρ c d := by
  dsimp only [sched]
  rw [if_neg (by rw [recvS_val]; omega)]

/-- The whole of the barrier cell's round: the row `c` of every other device's scratch. -/
theorem rest_bar : bigSep ((sched (F := F) m ρ).duties (barCell c) 0 \ ∅) (fun d => (sched (F := F) m ρ).payload (barCell c) 0 d)
    = bigSep (Finset.univ.erase c) (fun d => barPay (F := F) c d) := by
  rw [Finset.sdiff_empty, duties_bar]; rfl
theorem rest_send (j : Dev nD) (h : j ≠ c) :
    bigSep ((sched (F := F) m ρ).duties (sendCell c j) 0 \ ∅) (fun d => (sched (F := F) m ρ).payload (sendCell c j) 0 d) = sendPay m ρ c j := by
  rw [Finset.sdiff_empty, duties_send m ρ c j h, bigSep_singleton, payload_send]
theorem rest_recv (j : Dev nD) (h : j ≠ c) :
    bigSep ((sched (F := F) m ρ).duties (recvCell c j) 0 \ ∅) (fun d => (sched (F := F) m ρ).payload (recvCell c j) 0 d) = recvPay m ρ c j := by
  rw [Finset.sdiff_empty, duties_recv m ρ c j h, bigSep_singleton, payload_recv]

end Sched

/-! ## What each device owes at launch; the levels -/

/-- What `c` owes `d`'s barrier cell: its entry signal's unit (nothing to itself); -/
def sigT (c d : Dev nD) : CellTallies nD τ sig Unit := if d = c then 0 else tallyAt (barCell d) () 1
/-- and `d`'s receive cell `c`: the credit of the row it sends. -/
def arrT (c d : Dev nD) : CellTallies nD τ sig Unit := if d = c then 0 else tallyAt (recvCell d c) () N

def O₀ (c : Dev nD) : CellTallies nD τ sig Unit := (∑ d : Dev nD, arrT c d) + ∑ d : Dev nD, sigT c d

def L (g : GSem nD τ sig) : Finset Unit := if g.1.2 = .tc then {()} else ∅
/-- Barrier cells at 1, receive cells at 2, everything else (staging, send) at 0: a device waits on its barrier owing
    only receive credits, and on its receive and send cells owing nothing. -/
def lv (g : GSem nD τ sig) (_ : Unit) : ℕ := match g.2 with
  | .reg _ => 1
  | .dma q => if 18 ≤ q.val then 2 else 0

/-! ## The cells of a device, numbered; its own (scoped) semaphores -/

/-- Cell 0 is the barrier, cells 1–16 the send cells, 17–32 the receive cells. -/
abbrev csem (k : Fin 33) : SemLoc sig := if h : k.val = 0 then .reg barS else .dma ⟨k.val + 1, by have := k.isLt; show k.val + 1 < 34; omega⟩
abbrev kcell (ck : Dev nD × Fin 33) : GSem nD τ sig := ((ck.1 : Thread nD τ), csem ck.2)
/-- The kernel's own semaphores, as the launch theorem indexes them: the two scratch arrays. -/
abbrev osem (k : Fin 32) : SemLoc sig := .dma ⟨k.val + 2, by have := k.isLt; show k.val + 2 < 34; omega⟩

theorem kcell_bar (c : Dev nD) : kcell (c, 0) = barCell c := rfl
theorem kcell_send (c j : Dev nD) : kcell (c, ⟨j.val + 1, by have : j.val < 16 := j.isLt; omega⟩) = sendCell c j := by
  revert j; intro j; fin_cases j <;> rfl
theorem kcell_recv (c j : Dev nD) : kcell (c, ⟨j.val + 17, by have : j.val < 16 := j.isLt; omega⟩) = recvCell c j := by
  revert j; intro j; fin_cases j <;> rfl

/-! ## The ghost state a device starts from -/

/-- Every cell's invariant, under the names `K` the launch allocated them at, and that every cell has reached round 0. -/
def records (K : Dev nD × Fin 33 → ℕ) : sProp 𝕄 :=
  iprop((bigSep Finset.univ fun ck : Dev nD × Fin 33 => cellInv ER (sched m ρ) (K ck) (kcell ck))
    ∗ bigSep Finset.univ fun ck : Dev nD × Fin 33 => reached ER (kcell ck) 0)

instance records_persistent (K : Dev nD × Fin 33 → ℕ) : BI.Persistent (records m ρ K) := by unfold records; infer_instance

/-- Device `c`'s positions: round 0 of each of its cells, nothing taken. -/
def positions (c : Dev nD) : sProp 𝕄 := bigSep Finset.univ fun k : Fin 33 => atPos ER (kcell (c, k)) 0 ∅ 0

/-- The tokens of the duties device `c` pays: per other device `d`, its entry signal to `d`, the arrival of its row on
    `d`, the departure of its row towards `d` (those with `d = c` are of no duty and never used). -/
def payToks (c : Dev nD) : sProp 𝕄 :=
  bigSep Finset.univ fun d : Dev nD =>
    iprop(dutyTok ER (barCell d) 0 c ∗ dutyTok ER (recvCell d c) 0 c ∗ dutyTok ER (sendCell c d) 0 d)

def ghost (K : Dev nD × Fin 33 → ℕ) (c : Dev nD) : sProp 𝕄 := iprop(records m ρ K ∗ positions c ∗ payToks c)

/-- What device `c`'s body starts from: the ghost state at some names, the credit its own cells are owed — fifteen
    units on its barrier, a row's credit on each receive cell of another device — and the level facts. -/
def start (c : Dev nD) : sProp 𝕄 :=
  iprop((∃ K, ghost m ρ K c) ∗ cred (tallyAt (barCell c) () 15)
    ∗ (bigSep (Finset.univ.erase c) fun p : Dev nD => cred (tallyAt (recvCell c p) () N)) ∗ levAts L lv)

/-- Before the body: that and the scratch, whole, at any contents. -/
def Φ₀ (c : Dev nD) : sProp 𝕄 := iprop(start m ρ c ∗ ∃ f : Buf (Elt F) ((c : Thread nD τ).loc cc0_scratch0), ((c : Thread nD τ).loc cc0_scratch0) ↦{fullShare} f)
/-- After it: the scratch back whole, the kernel's own semaphores at zero, closed. -/
def Φ₁ (c : Dev nD) : sProp 𝕄 :=
  iprop((∃ f : Buf (Elt F) ((c : Thread nD τ).loc cc0_scratch0), ((c : Thread nD τ).loc cc0_scratch0) ↦{fullShare} f) ∗ Pipeline.ownSems0 osem c)

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

abbrev 𝒱₀ : Variants := Variants.none

end Cert.Kernel.Mean

end
-- ==== Proof.WInv.lean ====
import proofs.«900935_g7700000000000936_dist_mean_ax0_shard0_i_m1024_n512_v7x_i16_f32_1_alg».proof.Proof.WProto

/-!
# The body's states, phase by phase

The body runs four sweeps over the devices `d = 0, …, 15`, each skipping `d = c`: the entry signals, the transfers,
the receive waits, the send waits. Before step `n` of a sweep the resources of the devices `≥ n` are still to be
used and those of the devices `< n` have been produced; the device `c` itself contributes nothing (`emp`).
-/

noncomputable section

namespace Cert.Kernel.Mean

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The devices from `n` on, and before `n` -/

def ge (n : ℕ) : Finset (Dev nD) := Finset.univ.filter fun d => n ≤ d.val
def lt (n : ℕ) : Finset (Dev nD) := Finset.univ.filter fun d => d.val < n

theorem ge_zero : ge 0 = Finset.univ := by decide
theorem ge_all : ge 16 = ∅ := by decide
theorem lt_zero : lt 0 = ∅ := by decide
theorem lt_all : lt 16 = Finset.univ := by decide
theorem not_mem_ge_succ (n : ℕ) (h : n < 16) : (⟨n, h⟩ : Dev nD) ∉ ge (n + 1) := by
  unfold ge; rw [Finset.mem_filter]; rintro ⟨-, h'⟩; exact Nat.not_succ_le_self n h'
theorem ge_step (n : ℕ) (h : n < 16) : ge n = insert (⟨n, h⟩ : Dev nD) (ge (n + 1)) := by
  ext d; unfold ge
  rw [Finset.mem_insert, Finset.mem_filter, Finset.mem_filter]
  constructor
  · rintro ⟨-, hd⟩
    rcases Nat.eq_or_lt_of_le hd with e | l
    · exact Or.inl (Fin.ext e.symm)
    · exact Or.inr ⟨Finset.mem_univ _, l⟩
  · rintro (rfl | ⟨-, hd⟩)
    · exact ⟨Finset.mem_univ _, le_rfl⟩
    · exact ⟨Finset.mem_univ _, Nat.le_of_succ_le hd⟩
theorem not_mem_lt (n : ℕ) (h : n < 16) : (⟨n, h⟩ : Dev nD) ∉ lt n := by
  unfold lt; rw [Finset.mem_filter]; rintro ⟨-, h'⟩; exact Nat.lt_irrefl n h'
theorem lt_step (n : ℕ) (h : n < 16) : lt (n + 1) = insert (⟨n, h⟩ : Dev nD) (lt n) := by
  ext d; unfold lt
  rw [Finset.mem_insert, Finset.mem_filter, Finset.mem_filter]
  constructor
  · rintro ⟨-, hd⟩
    rcases Nat.eq_or_lt_of_le (Nat.le_of_lt_succ hd) with e | l
    · exact Or.inl (Fin.ext e)
    · exact Or.inr ⟨Finset.mem_univ _, l⟩
  · rintro (rfl | ⟨-, hd⟩)
    · exact ⟨Finset.mem_univ _, Nat.lt_succ_self n⟩
    · exact ⟨Finset.mem_univ _, Nat.lt_succ_of_lt hd⟩

/-! ## What is still owed -/

/-- The entry signals still owed before signal `n`; -/
def Osig (c : Dev nD) (n : ℕ) : CellTallies nD τ sig Unit := ∑ d ∈ ge n, sigT c d
/-- the arrivals still owed before transfer `n`. -/
def Oarr (c : Dev nD) (n : ℕ) : CellTallies nD τ sig Unit := ∑ d ∈ ge n, arrT c d

theorem O₀_eq (c : Dev nD) : O₀ c = Oarr c 0 + Osig c 0 := by unfold O₀ Oarr Osig; rw [ge_zero]
theorem Osig_all (c : Dev nD) : Osig c 16 = 0 := by unfold Osig; rw [ge_all, Finset.sum_empty]
theorem Oarr_all (c : Dev nD) : Oarr c 16 = 0 := by unfold Oarr; rw [ge_all, Finset.sum_empty]
theorem Osig_step (c : Dev nD) (n : ℕ) (h : n < 16) : Osig c n = Osig c (n + 1) + sigT c ⟨n, h⟩ := by
  unfold Osig; rw [ge_step n h, Finset.sum_insert (not_mem_ge_succ n h), add_comm]
theorem Oarr_step (c : Dev nD) (n : ℕ) (h : n < 16) : Oarr c n = Oarr c (n + 1) + arrT c ⟨n, h⟩ := by
  unfold Oarr; rw [ge_step n h, Finset.sum_insert (not_mem_ge_succ n h), add_comm]

/-! ## The resources of each sweep -/

/-- Row `j` of device `c`'s scratch, whole, at any contents. -/
def rowAny (c j : Dev nD) : sProp 𝕄 := iprop(∃ f, rowPts (F := F) c j fullShare f)

/-- Before entry signal `n`: per device still to signal, the signal's token and the row of `c`'s scratch it hands over. -/
def SigRes (c : Dev nD) (n : ℕ) : sProp 𝕄 :=
  bigSep (ge n) fun d => if d = c then iprop(emp) else iprop(dutyTok ER (barCell d) 0 c ∗ rowAny (F := F) c d)

/-- Before transfer `n`: per device still to be sent to, the arrival's and the departure's tokens, the landing row on
    that device, and the share of `c`'s own row the transfer is lent. -/
def SendRes (c : Dev nD) (n : ℕ) : sProp 𝕄 :=
  bigSep (ge n) fun d => if d = c then iprop(emp) else
    iprop(dutyTok ER (recvCell d c) 0 c ∗ dutyTok ER (sendCell c d) 0 d ∗ rowAny (F := F) d c ∗ rowPts c c (lent d) (comm m ρ))
/-- and the departures' credit of the transfers made so far. -/
def SentRes (c : Dev nD) (n : ℕ) : sProp 𝕄 :=
  bigSep (lt n) fun d => if d = c then iprop(emp) else iprop(cred (tallyAt (sendCell c d) () N) : sProp 𝕄)

/-- Before receive wait `n`: per row still awaited, its cell's credit and position; -/
def RecvRes (c : Dev nD) (n : ℕ) : sProp 𝕄 :=
  bigSep (ge n) fun p => if p = c then iprop(emp) else
    iprop(cred (tallyAt (recvCell c p) () N) ∗ atPos ER (recvCell c p) 0 ∅ 0 : sProp 𝕄)
/-- per row received, the row holding its sender's column sums, the cell past its round. -/
def GotRes (c : Dev nD) (n : ℕ) : sProp 𝕄 :=
  bigSep (lt n) fun p => if p = c then iprop(emp) else
    iprop(rowPts c p fullShare (comm m ρ) ∗ atPos ER (recvCell c p) 1 ∅ 0)

/-- Before send wait `n`: per departure still awaited, its credit and its cell's position; -/
def SWaitRes (c : Dev nD) (n : ℕ) : sProp 𝕄 :=
  bigSep (ge n) fun d => if d = c then iprop(emp) else
    iprop(cred (tallyAt (sendCell c d) () N) ∗ atPos ER (sendCell c d) 0 ∅ 0 : sProp 𝕄)
/-- per departure seen, the lent share of the own row back, the cell past its round. -/
def BackRes (c : Dev nD) (n : ℕ) : sProp 𝕄 :=
  bigSep (lt n) fun d => if d = c then iprop(emp) else
    iprop(rowPts c c (lent d) (comm m ρ) ∗ atPos ER (sendCell c d) 1 ∅ 0)

end Cert.Kernel.Mean

end
-- ==== Proof.WSteps.lean ====
import proofs.«900935_g7700000000000936_dist_mean_ax0_shard0_i_m1024_n512_v7x_i16_f32_1_alg».proof.Proof.WInv

/-!
# One step of each sweep, at a symbolic device

Device `c` runs each of its four sweeps over `d = 0, …, 15` under the guard `c ≠ d`. A step is proved once, for any
`n` and any continuation: where the guard holds the operation pays or collects what the sweep's resources hold for
device `n`; where it fails (`n` is `c` itself) those resources are nothing and the step is the continuation.
-/

noncomputable section

namespace Cert.Kernel.Mean

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Out of the records -/

theorem inv_at (K : Dev nD × Fin 33 → ℕ) (ck : Dev nD × Fin 33) :
    records m ρ K ⊢ cellInv ER (sched m ρ) (K ck) (kcell ck) := by
  unfold records
  exact sep_elim_left.trans (bigSep_elim (Finset.mem_univ ck))
theorem reached_at (K : Dev nD × Fin 33 → ℕ) (ck : Dev nD × Fin 33) :
    records m ρ K ⊢ (reached ER (kcell ck) 0 : sProp 𝕄) := by
  unfold records
  exact sep_elim_right.trans (bigSep_elim (Finset.mem_univ ck))

theorem inv_bar (K : Dev nD × Fin 33 → ℕ) (d : Dev nD) :
    records m ρ K ⊢ cellInv ER (sched m ρ) (K (d, 0)) (barCell d) := inv_at m ρ K (d, 0)
theorem reached_bar (K : Dev nD × Fin 33 → ℕ) (d : Dev nD) :
    records m ρ K ⊢ (reached ER (barCell d) 0 : sProp 𝕄) := reached_at m ρ K (d, 0)

/-- The three cells of a pair of devices, by number. -/
abbrev kS (j : Dev nD) : Fin 33 := ⟨j.val + 1, by have : j.val < 16 := j.isLt; omega⟩
abbrev kR (j : Dev nD) : Fin 33 := ⟨j.val + 17, by have : j.val < 16 := j.isLt; omega⟩

/-! ## The tables as the steps read them -/

theorem mem_bar (c d : Dev nD) (h : c ≠ d) : c ∈ (sched (F := F) m ρ).duties (barCell d) 0 := by
  rw [duties_bar]; exact Finset.mem_erase.mpr ⟨h, Finset.mem_univ _⟩
theorem barPay_eq (c d : Dev nD) :
    barPay (F := F) c d = iprop(∃ f, (rowM c).view.loc (d : Thread nD τ) ↦[(rowM c).view.set]{fullShare} f) := rfl

attribute [local sl_rounds] duties_bar amount_bar payload_bar expect_bar mem_bar barPay_eq

/-! ## The entry signals -/

/-- The signal to `d ≠ c`: it pays `c`'s duty on `d`'s barrier cell, handing over row `d` of `c`'s scratch. -/
theorem sig_one (K : Dev nD × Fin 33 → ℕ) (c d : Dev nD) (hne : c ≠ d) (X : CellTallies nD τ sig Unit) (W : Waits sig Unit)
    {α : Type} (k : PUnit → Prog (TpuEff nD τ sig (Elt F) Λ₀ .tc) α) (Φ : α → sProp 𝕄) :
    iprop(cellInv ER (sched m ρ) (K (d, 0)) (barCell d) ∗ reached ER (barCell d) 0
        ∗ dutyTok ER (barCell d) 0 c ∗ rowAny (F := F) c d
        ∗ owes (c : Thread nD τ) (X + tallyAt (barCell d) () 1) W
        ∗ (owes (c : Thread nD τ) X W -∗ wp frame (wpE (defs₀ (F := F)) 𝒱₀ (c : Thread nD τ) none) Set.univ (k ⟨⟩) Φ))
      ⊢ wp frame (wpE (defs₀ (F := F)) 𝒱₀ (c : Thread nD τ) none) Set.univ
          (.op (.semSignal ((d : Thread nD τ)) barS (1#32 : BitVec 32).toNat) k) Φ := by
  unfold rowAny rowPts
  iintro ⟨#HI, #Hr, Hts, Hrow, HO, Hk⟩
  sl_exec (disch := first | exact hne | (simp only [*]; done) | decide)
  iapply Hk $$ HO

theorem SigRes_step (c : Dev nD) (n : ℕ) (hn : n < 16) :
    SigRes (F := F) c n = iprop((if (⟨n, hn⟩ : Dev nD) = c then iprop(emp) else iprop(dutyTok ER (barCell ⟨n, hn⟩) 0 c ∗ rowAny (F := F) c ⟨n, hn⟩))
      ∗ SigRes (F := F) c (n + 1)) := by
  unfold SigRes; rw [ge_step n hn, bigSep_insert (not_mem_ge_succ n hn)]; rfl

theorem sig_guard {α : Type} (K : Dev nD × Fin 33 → ℕ) (c : Dev nD) (n : ℕ) (hn : n < 16) (cond : BitVec 1)
    (hcond : cond = 1#1 ↔ c ≠ (⟨n, hn⟩ : Dev nD)) (dv : ℕ) (hdv : dv = n) (hlt : cond = 1#1 → dv < nD)
    (W : Waits sig Unit) (kont : Prog (TpuEff nD τ sig (Elt F) Λ₀ .tc) α) (Φ : α → sProp 𝕄) :
    iprop(records m ρ K ∗ owes (c : Thread nD τ) (Oarr c 0 + Osig c n) W ∗ SigRes (F := F) c n
        ∗ ((owes (c : Thread nD τ) (Oarr c 0 + Osig c (n + 1)) W ∗ SigRes (F := F) c (n + 1))
            -∗ wp frame (wpE (defs₀ (F := F)) 𝒱₀ (c : Thread nD τ) none) Set.univ kont Φ))
      ⊢ wp frame (wpE (defs₀ (F := F)) 𝒱₀ (c : Thread nD τ) none) Set.univ
          (if h : cond = 1#1 then .op (.semSignal (((⟨dv, hlt h⟩ : Dev nD), Proc.tc) : Thread nD τ) barS (1#32 : BitVec 32).toNat) (fun _ => kont) else kont) Φ := by
  subst hdv
  rw [SigRes_step c dv hn, Osig_step c dv hn]
  unfold sigT
  by_cases hc : cond = 1#1
  · have hne : c ≠ (⟨dv, hn⟩ : Dev nD) := hcond.mp hc
    rw [dif_pos hc, if_neg (fun e => hne e.symm), if_neg (fun e => hne e.symm), ← add_assoc]
    iintro ⟨#HR, HO, ⟨⟨Hts, Hrow⟩, HS⟩, Hk⟩
    iapply (sig_one m ρ K c ⟨dv, hn⟩ hne (Oarr c 0 + Osig c (dv + 1)) W (fun _ => kont) Φ)
    isplitr; · iapply (inv_bar m ρ K ⟨dv, hn⟩); iexact HR
    isplitr; · iapply (reached_bar m ρ K ⟨dv, hn⟩); iexact HR
    isplitl [Hts]; · iexact Hts
    isplitl [Hrow]; · iexact Hrow
    isplitl [HO]; · iexact HO
    iintro HO
    iapply Hk
    isplitl [HO]; · iexact HO
    iexact HS
  · have he : (⟨dv, hn⟩ : Dev nD) = c := by
      by_contra hne; exact hc (hcond.mpr fun e => hne e.symm)
    rw [dif_neg hc, if_pos he, if_pos he, add_zero]
    iintro ⟨-, HO, ⟨-, HS⟩, Hk⟩
    iapply Hk
    isplitl [HO]; · iexact HO
    iexact HS

end Cert.Kernel.Mean

end
-- ==== Proof.WRowStore.lean ====
import proofs.«900935_g7700000000000936_dist_mean_ax0_shard0_i_m1024_n512_v7x_i16_f32_1_alg».proof.Proof.WInv

/-!
# One row of the scratch

Row j of the 16 × 1 × 512 scratch is the rectangle of sizes 1 × 1 × 512 at offsets (j, 0, 0). The same 512 elements
are reached three ways: through the rectangle itself, through the access a store or a load makes at it, and through
the 1 × 512 view of the row that a transfer moves. This file says that the three have the same elements, and what
the elements hold after a device writes its column sums into its own row and after a transfer lands a row: the
common valuation, under which row p holds the column sums of block p.
-/

noncomputable section

namespace Cert.Kernel.Mean

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The rectangle -/

/-- The rectangle a device's store names by its computed offsets is its own row: the offsets are (c, 0, 0). -/
theorem rect_off1 (c : Dev nD) :
    Rect.unit (s := S16x1x512) (k0_off1 c) S1x1x512.size (k0_off1_inb c) = rowR c :=
  Rect.unit_congr (k0_off1_eq c) _ _

/-! ## Three ways to the same elements -/

/-- An access at row j goes through the rectangle's elements. -/
theorem access_set (j : Dev nD) : (cM.access (rowR j)).set = (rowR j).set :=
  View.set_slice_whole _ _

/-- The 1 × 512 view of row j has the rectangle's elements: dropping the two unit axes re-counts them, no more. -/
theorem row_set (j : Dev nD) : (rowM j).view.set = (rowR j).set := by
  show ((cM.view.slice (rowR j)).reshape S1x512 _).set = _
  rw [View.set_reshape]
  exact View.set_slice_whole _ _

/-- What an unmasked store at row j touches lies in the row's view. -/
theorem store_sub (j : Dev nD) : (cM.access (rowR j)).setOn Finset.univ ⊆ (rowM j).view.set := by
  rw [View.setOn_univ, access_set, row_set]

/-- What a load at row j touches lies in the row's view. -/
theorem load_sub (j : Dev nD) : cM.view.setOn (rowR j).toLoadRect.set ⊆ (rowM j).view.set := by
  rw [row_set]
  show Finset.map (Function.Embedding.refl _) (rowR j).toLoadRect.set ⊆ _
  rw [Finset.map_refl]

/-! ## What the row holds -/

/-- After device c stores the column sums of its block through the access at its own row, every element of the row
    holds the common valuation. The element at (c + y₀, y₁, y₂) of the scratch, y₀ = 0, takes entry (y₀, y₁, y₂) of
    the column sums of block c, which is what the common valuation assigns to row c. -/
theorem store_row (c : Dev nD) (f : Buf (Elt F) ((cM.access (rowR c)).loc (c : Thread nD τ))) :
    ∀ i ∈ (rowM c).view.set,
      (cM.access (rowR c)).write (Elt F) f (k0_pay1 (xstg m ρ c)) Finset.univ i = comm m ρ i := by
  intro i hi
  have hi' : i ∈ (cM.access (rowR c)).set := by rw [access_set, ← row_set]; exact hi
  obtain ⟨y, -, rfl⟩ := Finset.mem_map.mp hi'
  rw [View.write_emb_of_mem _ _ (Finset.mem_univ y)]
  have h0 : (y 0).val = 0 := by have h : (y 0).val < 1 := (y 0).isLt; omega
  have hd : (⟨((cM.access (rowR c)).emb y 0).val, ((cM.access (rowR c)).emb y 0).isLt⟩ : Dev nD) = c :=
    Fin.ext (by show c.val + 1 * (y 0).val = c.val; omega)
  show k0_pay1 (xstg m ρ c) y = comm m ρ ((cM.access (rowR c)).emb y)
  unfold comm
  refine (congrArg₂ (fun d idx => k0_pay1 (xstg m ρ d) idx) hd ?_).symm
  funext a
  match a with
  | ⟨0, _⟩ => exact Fin.ext h0.symm
  | ⟨1, _⟩ => exact Fin.ext (by show 0 + 1 * (y 1).val = (y 1).val; omega)
  | ⟨2, _⟩ => exact Fin.ext (by show 0 + 1 * (y 2).val = (y 2).val; omega)

/-- After a transfer lands row p of the common valuation on a device, whatever the row held before, every element
    of the row holds the common valuation: writing through a view what the view reads off a valuation pieces that
    valuation in on the view's elements. -/
theorem land_row (p c : Dev nD) (fd : Buf (Elt F) ((rowM p).view.loc (c : Thread nD τ))) :
    ∀ i ∈ (rowM p).view.set,
      (rowM p).view.write (Elt F) fd ((rowM p).view.read (Elt F) (comm m ρ)) Finset.univ i = comm m ρ i := by
  intro i hi
  rw [View.write_read_eq_piecewise, View.setOn_univ, Finset.piecewise_eq_of_mem _ _ _ hi]

/-- info: 'Cert.Kernel.Mean.rect_off1' depends on axioms: [propext, Classical.choice, Quot.sound] -/
#guard_msgs in #print axioms rect_off1

/-- info: 'Cert.Kernel.Mean.access_set' depends on axioms: [propext, Classical.choice, Quot.sound] -/
#guard_msgs in #print axioms access_set

/-- info: 'Cert.Kernel.Mean.row_set' depends on axioms: [propext, Classical.choice, Quot.sound] -/
#guard_msgs in #print axioms row_set

/-- info: 'Cert.Kernel.Mean.store_sub' depends on axioms: [propext, Classical.choice, Quot.sound] -/
#guard_msgs in #print axioms store_sub

/-- info: 'Cert.Kernel.Mean.load_sub' depends on axioms: [propext, Classical.choice, Quot.sound] -/
#guard_msgs in #print axioms load_sub

/-- info: 'Cert.Kernel.Mean.store_row' depends on axioms: [propext, Classical.choice, Quot.sound] -/
#guard_msgs in #print axioms store_row

/-- info: 'Cert.Kernel.Mean.land_row' depends on axioms: [propext, Classical.choice, Quot.sound] -/
#guard_msgs in #print axioms land_row

end Cert.Kernel.Mean

end
-- ==== Proof.WBlocks.lean ====
import proofs.«900935_g7700000000000936_dist_mean_ax0_shard0_i_m1024_n512_v7x_i16_f32_1_alg».proof.Proof.WInv
import proofs.«900935_g7700000000000936_dist_mean_ax0_shard0_i_m1024_n512_v7x_i16_f32_1_alg».proof.Proof.WRowStore

/-!
# Two straight-line blocks of the body

The middle block: a device loads its staged block of x, stores its column sums into its own row of the scratch, and
waits on its barrier cell for the fifteen entry signals of the others, each of which hands it its row on the signaller.
The compute block: with every row landed, the device loads the whole scratch and overwrites its result block with the
scaled sum of the sixteen rows.
-/

noncomputable section

namespace Cert.Kernel.Mean

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

/-! ## Whole-buffer accesses at the zero offsets -/

theorem hz3 : (![0, 0, 0] : Fin 3 → Nat) = fun _ => 0 := funext fun a => by fin_cases a <;> rfl
theorem hz2 : (![0, 0] : Fin 2 → Nat) = fun _ => 0 := funext fun a => by fin_cases a <;> rfl

/-- The whole-scratch load reads the scratch; -/
theorem read_scratch (f : (cc0_scratch0 : Ref sig .tc).ty.Contents (Elt F)) :
    (cM : Memref sig .tc .vmem S16x1x512 .f32).view.readAt (Elt F)
      (Rect.unit (s := S16x1x512) ![0, 0, 0] S16x1x512.size inb_S16x1x512_S16x1x512_0_0_0).toLoadRect f = f :=
  Memref.readAt_unit_zero (Elt F) cc0_scratch0 hz3 _ f

/-- the whole-block load reads the staged block; -/
theorem read_x (f : (cc0_stg0_0 : Ref sig .tc).ty.Contents (Elt F)) :
    (xM : Memref sig .tc .vmem S1024x512 .f32).view.readAt (Elt F)
      (Rect.unit (s := S1024x512) ![0, 0] S1024x512.size inb_S1024x512_S1024x512_0_0).toLoadRect f = f :=
  Memref.readAt_unit_zero (Elt F) cc0_stg0_0 hz2 _ f

/-- the whole-block store replaces the result block. -/
theorem write_out (f w : (cc0_stg1_0 : Ref sig .tc).ty.Contents (Elt F)) :
    (oM : Memref sig .tc .vmem S1x512 .f32).view.writes (Elt F) f
      [⟨Rect.unit (s := S1x512) ![0, 0] S1x512.size inb_S1x512_S1x512_0_0, w⟩] = w := by
  rw [View.writes_singleton]
  exact Memref.write_access_unit_zero_univ (Elt F) cc0_stg1_0 hz2 _ f w

/-! ## The compute block -/

theorem compute_block {α : Type} (c : Dev nD) (g : Buf (Elt F) ((c : Thread nD τ).loc cc0_stg1_0))
    (kont : Prog (TpuEff nD τ sig (Elt F) Λ₀ .tc) α) (Φ : α → sProp 𝕄) :
    iprop((((c : Thread nD τ).loc cc0_scratch0) ↦[Finset.univ]{kept} comm m ρ)
        ∗ (((c : Thread nD τ).loc cc0_stg1_0) ↦{fullShare} g)
        ∗ (((((c : Thread nD τ).loc cc0_scratch0) ↦[Finset.univ]{kept} comm m ρ)
            ∗ (((c : Thread nD τ).loc cc0_stg1_0) ↦{fullShare} outAt m ρ))
            -∗ wp frame (wpE (defs₀ (F := F)) 𝒱₀ (c : Thread nD τ) none) Set.univ kont Φ))
      ⊢ wp frame (wpE (defs₀ (F := F)) 𝒱₀ (c : Thread nD τ) none) Set.univ
          (Prog.op (TpuEff.load cM (Rect.unit (s := S16x1x512) ![0, 0, 0] S16x1x512.size inb_S16x1x512_S16x1x512_0_0_0).toLoadRect (View.loadsAt_vmem h_S16x1x512)) fun v156 =>
           Prog.op (TpuEff.load oM (Rect.unit (s := S1x512) ![0, 0] S1x512.size inb_S1x512_S1x512_0_0).toLoadRect (View.loadsAt_vmem h_S1x512)) fun v162 =>
           Prog.op (TpuEff.store oM (Rect.unit (s := S1x512) ![0, 0] S1x512.size inb_S1x512_S1x512_0_0) (k0_pay2 v156) Finset.univ (View.stores_vmem_bits_univ h_S1x512 rfl) (.inl rfl)) fun _ => kont) Φ := by
  iintro ⟨Hc0, Ho0, Hk⟩
  ihave Hc := (Entails.of_eq (show ((((c : Thread nD τ).loc cc0_scratch0) ↦[Finset.univ]{kept} comm m ρ : sProp 𝕄))
      = ((cM : Memref sig .tc .vmem S16x1x512 .f32).view.loc (c : Thread nD τ) ↦[Finset.univ]{kept} comm m ρ) from rfl)) $$ Hc0
  ihave Ho := (Entails.of_eq (show ((((c : Thread nD τ).loc cc0_stg1_0) ↦{fullShare} g : sProp 𝕄))
      = ((oM : Memref sig .tc .vmem S1x512 .f32).view.loc (c : Thread nD τ) ↦[Finset.univ]{fullShare} g) from rfl)) $$ Ho0
  sl_exec
  rw [read_scratch, write_out]
  iapply Hk
  isplitl [Hc]; · iexact Hc
  iexact Ho

/-! ## The middle block -/

theorem L_tc' (c : Dev nD) (sm : SemLoc sig) : L ((c : Thread nD τ), sm) = {()} := if_pos rfl

/-- At its barrier wait (level 1) a device owes only arrivals: receive cells (level 2). -/
theorem mayWait_bar (c : Dev nD) : (levAts L lv : sProp 𝕄) ⊢ MayWait (c : Thread nD τ) (.reg barS) () (Oarr c 0) :=
  Pipeline.mayWait_of_levAts (by rw [L_tc']; exact Finset.mem_singleton_self _) fun g u hg => by
    unfold Oarr at hg
    obtain ⟨d, -, hd⟩ := Pipeline.sum_pos_exists hg
    unfold arrT at hd
    by_cases e : d = c
    · rw [if_pos e] at hd; exact absurd hd (Nat.lt_irrefl 0)
    · rw [if_neg e] at hd
      obtain ⟨rfl, -⟩ := Pipeline.tallyAt_pos hd
      refine ⟨by rw [L_tc']; exact Finset.mem_singleton_self _, ?_⟩
      show 1 < (if 18 ≤ (recvS c).val then 2 else 0)
      rw [if_pos (by rw [recvS_val]; omega)]; decide

/-- The barrier cell's invariant, out of the records. -/
theorem block_inv_at (K : Dev nD × Fin 33 → ℕ) (ck : Dev nD × Fin 33) :
    (bigSep Finset.univ fun ck : Dev nD × Fin 33 => (cellInv ER (sched m ρ) (K ck) (kcell ck) : sProp 𝕄)) ⊢ cellInv ER (sched m ρ) (K ck) (kcell ck) :=
  bigSep_elim (Finset.mem_univ ck)
theorem block_inv_bar (K : Dev nD × Fin 33 → ℕ) (c : Dev nD) : records m ρ K ⊢ cellInv ER (sched m ρ) (K (c, 0)) (barCell c) := by
  unfold records
  iintro ⟨HI, -⟩
  iapply (block_inv_at m ρ K (c, 0))
  iexact HI

/-- A store of a device's column sums at offsets that are its own row's leaves the row at the common valuation. -/
theorem store_row_off (c : Dev nD) {off : Fin 3 → Nat} (h : off = ![c.val, 0, 0]) (inb : ∀ a, off a + S1x1x512.size a ≤ S16x1x512.size a)
    (f0 : Buf (Elt F) ((rowM c).view.loc (c : Thread nD τ))) :
    ∀ i ∈ (rowM c).view.set,
      (cM.access (Rect.unit (s := S16x1x512) off S1x1x512.size inb)).write (Elt F) f0 (k0_pay1 (xstg m ρ c)) Finset.univ i = comm m ρ i := by
  subst h; exact store_row m ρ c f0

/-- The row after the block's store, whatever it held: the common valuation. -/
theorem row_stored (c : Dev nD) (f0 : Buf (Elt F) ((rowM c).view.loc (c : Thread nD τ))) :
    ((rowM c).view.loc (c : Thread nD τ) ↦[(rowM c).view.set]{fullShare}
        (cM.access (Rect.unit (s := S16x1x512) (k0_off1 c) S1x1x512.size (k0_off1_inb c))).write (Elt F) f0
          (k0_pay1 ((xM : Memref sig .tc .vmem S1024x512 .f32).view.readAt (Elt F)
            (Rect.unit (s := S1024x512) ![0, 0] S1024x512.size inb_S1024x512_S1024x512_0_0).toLoadRect (xstg m ρ c))) Finset.univ : sProp 𝕄)
      = ((rowM c).view.loc (c : Thread nD τ) ↦[(rowM c).view.set]{fullShare} comm m ρ) := by
  rw [read_x]
  exact pointsTo_congr (store_row_off m ρ c (k0_off1_eq c) (k0_off1_inb c) f0)

attribute [local sl_rounds] duties_bar amount_bar payload_bar expect_bar

theorem mid_block (K : Dev nD × Fin 33 → ℕ) (c : Dev nD) (W : Waits sig Unit) (Φ : PUnit → sProp 𝕄) :
    iprop(records m ρ K
        ∗ (((c : Thread nD τ).loc cc0_stg0_0) ↦{fullShare} xstg m ρ c)
        ∗ rowAny (F := F) c c
        ∗ owes (c : Thread nD τ) (Oarr c 0) W
        ∗ cred (tallyAt (barCell c) () 15) ∗ atPos ER (barCell c) 0 ∅ 0 ∗ levAts L lv
        ∗ (((((c : Thread nD τ).loc cc0_stg0_0) ↦{fullShare} xstg m ρ c)
            ∗ rowPts c c fullShare (comm m ρ)
            ∗ (∃ W', owes (c : Thread nD τ) (Oarr c 0) W')
            ∗ atPos ER (barCell c) 1 ∅ 0
            ∗ (bigSep (Finset.univ.erase c) fun d : Dev nD => barPay (F := F) c d)) -∗ Φ ⟨⟩))
      ⊢ wp frame (wpE (defs₀ (F := F)) 𝒱₀ (c : Thread nD τ) none) Set.univ
          (Prog.op (TpuEff.load xM (Rect.unit (s := S1024x512) ![0, 0] S1024x512.size inb_S1024x512_S1024x512_0_0).toLoadRect (View.loadsAt_vmem h_S1024x512)) fun v52 =>
           Prog.op (TpuEff.load cM (Rect.unit (s := S16x1x512) (k0_off1 c) S1x1x512.size (k0_off1_inb c)).toLoadRect (View.loadsAt_vmem h_S1x1x512)) fun v57 =>
           Prog.op (TpuEff.store cM (Rect.unit (s := S16x1x512) (k0_off1 c) S1x1x512.size (k0_off1_inb c)) (k0_pay1 v52) Finset.univ (View.stores_vmem_bits_univ h_S1x1x512 rfl) (.inl rfl)) fun _ =>
           Prog.op (TpuEff.semWait barS (15#32 : BitVec 32).toNat) fun _ => Prog.ret PUnit.unit) Φ := by
  iintro ⟨#Hrec, Hx0, Hrow0, HO, Hcr, Hat, #Hlev, Hk⟩
  unfold rowAny rowPts
  icases Hrow0 with ⟨%f0, Hrow⟩
  ihave HI := (block_inv_bar m ρ K c) $$ Hrec
  ihave Hmw := (mayWait_bar (F := F) c) $$ Hlev
  ihave Hx := (Entails.of_eq (show ((((c : Thread nD τ).loc cc0_stg0_0) ↦{fullShare} xstg m ρ c : sProp 𝕄))
      = ((xM : Memref sig .tc .vmem S1024x512 .f32).view.loc (c : Thread nD τ) ↦[Finset.univ]{fullShare} xstg m ρ c) from rfl)) $$ Hx0
  sl_exec
  sl_step
  sl_unfold_run_names
  ihave Hrow' := (Entails.of_eq (row_stored m ρ c f0)) $$ Hrow
  iapply Hk
  isplitl [Hx]; · iexact Hx
  isplitl [Hrow']; · iexact Hrow'
  isplitl [HO]; · iexists _; iexact HO
  isplitl [Hat]; · iexact Hat
  iexact Hat_pay1

/-- info: 'Cert.Kernel.Mean.compute_block' depends on axioms: [propext, Classical.choice, Quot.sound] -/
#guard_msgs in #print axioms compute_block

/-- info: 'Cert.Kernel.Mean.mid_block' depends on axioms: [propext, Classical.choice, Quot.sound] -/
#guard_msgs in #print axioms mid_block

end Cert.Kernel.Mean

end
-- ==== Proof.WConds.lean ====
import proofs.«900935_g7700000000000936_dist_mean_ax0_shard0_i_m1024_n512_v7x_i16_f32_1_alg».proof.Proof.WInv

/-! The guards `me ≠ d` of the four sweeps, and the devices the signals and transfers address, in closed form. -/

namespace Cert.Kernel.Mean

open Cert.Kernel Cert.Kernel.Gen
open Idealize.ShloMosaic

theorem sigc0 (c : Dev nD) : k0_cond1 c = 1#1 ↔ c ≠ (⟨0, by decide⟩ : Dev nD) := by revert c; decide
theorem sndc0 (c : Dev nD) : k0_cond17 c = 1#1 ↔ c ≠ (⟨0, by decide⟩ : Dev nD) := by revert c; decide
theorem sigc1 (c : Dev nD) : k0_cond2 c = 1#1 ↔ c ≠ (⟨1, by decide⟩ : Dev nD) := by revert c; decide
theorem sndc1 (c : Dev nD) : k0_cond18 c = 1#1 ↔ c ≠ (⟨1, by decide⟩ : Dev nD) := by revert c; decide
theorem sigc2 (c : Dev nD) : k0_cond3 c = 1#1 ↔ c ≠ (⟨2, by decide⟩ : Dev nD) := by revert c; decide
theorem sndc2 (c : Dev nD) : k0_cond19 c = 1#1 ↔ c ≠ (⟨2, by decide⟩ : Dev nD) := by revert c; decide
theorem sigc3 (c : Dev nD) : k0_cond4 c = 1#1 ↔ c ≠ (⟨3, by decide⟩ : Dev nD) := by revert c; decide
theorem sndc3 (c : Dev nD) : k0_cond20 c = 1#1 ↔ c ≠ (⟨3, by decide⟩ : Dev nD) := by revert c; decide
theorem sigc4 (c : Dev nD) : k0_cond5 c = 1#1 ↔ c ≠ (⟨4, by decide⟩ : Dev nD) := by revert c; decide
theorem sndc4 (c : Dev nD) : k0_cond21 c = 1#1 ↔ c ≠ (⟨4, by decide⟩ : Dev nD) := by revert c; decide
theorem sigc5 (c : Dev nD) : k0_cond6 c = 1#1 ↔ c ≠ (⟨5, by decide⟩ : Dev nD) := by revert c; decide
theorem sndc5 (c : Dev nD) : k0_cond22 c = 1#1 ↔ c ≠ (⟨5, by decide⟩ : Dev nD) := by revert c; decide
theorem sigc6 (c : Dev nD) : k0_cond7 c = 1#1 ↔ c ≠ (⟨6, by decide⟩ : Dev nD) := by revert c; decide
theorem sndc6 (c : Dev nD) : k0_cond23 c = 1#1 ↔ c ≠ (⟨6, by decide⟩ : Dev nD) := by revert c; decide
theorem sigc7 (c : Dev nD) : k0_cond8 c = 1#1 ↔ c ≠ (⟨7, by decide⟩ : Dev nD) := by revert c; decide
theorem sndc7 (c : Dev nD) : k0_cond24 c = 1#1 ↔ c ≠ (⟨7, by decide⟩ : Dev nD) := by revert c; decide
theorem sigc8 (c : Dev nD) : k0_cond9 c = 1#1 ↔ c ≠ (⟨8, by decide⟩ : Dev nD) := by revert c; decide
theorem sndc8 (c : Dev nD) : k0_cond25 c = 1#1 ↔ c ≠ (⟨8, by decide⟩ : Dev nD) := by revert c; decide
theorem sigc9 (c : Dev nD) : k0_cond10 c = 1#1 ↔ c ≠ (⟨9, by decide⟩ : Dev nD) := by revert c; decide
theorem sndc9 (c : Dev nD) : k0_cond26 c = 1#1 ↔ c ≠ (⟨9, by decide⟩ : Dev nD) := by revert c; decide
theorem sigc10 (c : Dev nD) : k0_cond11 c = 1#1 ↔ c ≠ (⟨10, by decide⟩ : Dev nD) := by revert c; decide
theorem sndc10 (c : Dev nD) : k0_cond27 c = 1#1 ↔ c ≠ (⟨10, by decide⟩ : Dev nD) := by revert c; decide
theorem sigc11 (c : Dev nD) : k0_cond12 c = 1#1 ↔ c ≠ (⟨11, by decide⟩ : Dev nD) := by revert c; decide
theorem sndc11 (c : Dev nD) : k0_cond28 c = 1#1 ↔ c ≠ (⟨11, by decide⟩ : Dev nD) := by revert c; decide
theorem sigc12 (c : Dev nD) : k0_cond13 c = 1#1 ↔ c ≠ (⟨12, by decide⟩ : Dev nD) := by revert c; decide
theorem sndc12 (c : Dev nD) : k0_cond29 c = 1#1 ↔ c ≠ (⟨12, by decide⟩ : Dev nD) := by revert c; decide
theorem sigc13 (c : Dev nD) : k0_cond14 c = 1#1 ↔ c ≠ (⟨13, by decide⟩ : Dev nD) := by revert c; decide
theorem sndc13 (c : Dev nD) : k0_cond30 c = 1#1 ↔ c ≠ (⟨13, by decide⟩ : Dev nD) := by revert c; decide
theorem sigc14 (c : Dev nD) : k0_cond15 c = 1#1 ↔ c ≠ (⟨14, by decide⟩ : Dev nD) := by revert c; decide
theorem sndc14 (c : Dev nD) : k0_cond31 c = 1#1 ↔ c ≠ (⟨14, by decide⟩ : Dev nD) := by revert c; decide
theorem sigc15 (c : Dev nD) : k0_cond16 c = 1#1 ↔ c ≠ (⟨15, by decide⟩ : Dev nD) := by revert c; decide
theorem sndc15 (c : Dev nD) : k0_cond32 c = 1#1 ↔ c ≠ (⟨15, by decide⟩ : Dev nD) := by revert c; decide

/-- The device's own position on the mesh axis, as the kernel computes it. -/
abbrev me (c : Dev nD) : BitVec 32 := Scalar.remsi (Scalar.divsi (Dev.word c) 1#32) 16#32

/-- The guard of a wait, computed from the position: it holds unless the awaited device is the device itself. -/
theorem waitc0 (c : Dev nD) :
    Scalar.cmpi .ne (Scalar.extui (Scalar.cmpi .ne (me c) 0#32) : BitVec 32) 0#32 = 1#1 ↔ c ≠ (⟨0, by decide⟩ : Dev nD) := by
  revert c; decide
theorem waitc1 (c : Dev nD) :
    Scalar.cmpi .ne (Scalar.extui (Scalar.cmpi .ne (me c) 1#32) : BitVec 32) 0#32 = 1#1 ↔ c ≠ (⟨1, by decide⟩ : Dev nD) := by
  revert c; decide
theorem waitc2 (c : Dev nD) :
    Scalar.cmpi .ne (Scalar.extui (Scalar.cmpi .ne (me c) 2#32) : BitVec 32) 0#32 = 1#1 ↔ c ≠ (⟨2, by decide⟩ : Dev nD) := by
  revert c; decide
theorem waitc3 (c : Dev nD) :
    Scalar.cmpi .ne (Scalar.extui (Scalar.cmpi .ne (me c) 3#32) : BitVec 32) 0#32 = 1#1 ↔ c ≠ (⟨3, by decide⟩ : Dev nD) := by
  revert c; decide
theorem waitc4 (c : Dev nD) :
    Scalar.cmpi .ne (Scalar.extui (Scalar.cmpi .ne (me c) 4#32) : BitVec 32) 0#32 = 1#1 ↔ c ≠ (⟨4, by decide⟩ : Dev nD) := by
  revert c; decide
theorem waitc5 (c : Dev nD) :
    Scalar.cmpi .ne (Scalar.extui (Scalar.cmpi .ne (me c) 5#32) : BitVec 32) 0#32 = 1#1 ↔ c ≠ (⟨5, by decide⟩ : Dev nD) := by
  revert c; decide
theorem waitc6 (c : Dev nD) :
    Scalar.cmpi .ne (Scalar.extui (Scalar.cmpi .ne (me c) 6#32) : BitVec 32) 0#32 = 1#1 ↔ c ≠ (⟨6, by decide⟩ : Dev nD) := by
  revert c; decide
theorem waitc7 (c : Dev nD) :
    Scalar.cmpi .ne (Scalar.extui (Scalar.cmpi .ne (me c) 7#32) : BitVec 32) 0#32 = 1#1 ↔ c ≠ (⟨7, by decide⟩ : Dev nD) := by
  revert c; decide
theorem waitc8 (c : Dev nD) :
    Scalar.cmpi .ne (Scalar.extui (Scalar.cmpi .ne (me c) 8#32) : BitVec 32) 0#32 = 1#1 ↔ c ≠ (⟨8, by decide⟩ : Dev nD) := by
  revert c; decide
theorem waitc9 (c : Dev nD) :
    Scalar.cmpi .ne (Scalar.extui (Scalar.cmpi .ne (me c) 9#32) : BitVec 32) 0#32 = 1#1 ↔ c ≠ (⟨9, by decide⟩ : Dev nD) := by
  revert c; decide
theorem waitc10 (c : Dev nD) :
    Scalar.cmpi .ne (Scalar.extui (Scalar.cmpi .ne (me c) 10#32) : BitVec 32) 0#32 = 1#1 ↔ c ≠ (⟨10, by decide⟩ : Dev nD) := by
  revert c; decide
theorem waitc11 (c : Dev nD) :
    Scalar.cmpi .ne (Scalar.extui (Scalar.cmpi .ne (me c) 11#32) : BitVec 32) 0#32 = 1#1 ↔ c ≠ (⟨11, by decide⟩ : Dev nD) := by
  revert c; decide
theorem waitc12 (c : Dev nD) :
    Scalar.cmpi .ne (Scalar.extui (Scalar.cmpi .ne (me c) 12#32) : BitVec 32) 0#32 = 1#1 ↔ c ≠ (⟨12, by decide⟩ : Dev nD) := by
  revert c; decide
theorem waitc13 (c : Dev nD) :
    Scalar.cmpi .ne (Scalar.extui (Scalar.cmpi .ne (me c) 13#32) : BitVec 32) 0#32 = 1#1 ↔ c ≠ (⟨13, by decide⟩ : Dev nD) := by
  revert c; decide
theorem waitc14 (c : Dev nD) :
    Scalar.cmpi .ne (Scalar.extui (Scalar.cmpi .ne (me c) 14#32) : BitVec 32) 0#32 = 1#1 ↔ c ≠ (⟨14, by decide⟩ : Dev nD) := by
  revert c; decide
theorem waitc15 (c : Dev nD) :
    Scalar.cmpi .ne (Scalar.extui (Scalar.cmpi .ne (me c) 15#32) : BitVec 32) 0#32 = 1#1 ↔ c ≠ (⟨15, by decide⟩ : Dev nD) := by
  revert c; decide

end Cert.Kernel.Mean
-- ==== Proof.WParts.lean ====
import proofs.«900935_g7700000000000936_dist_mean_ax0_shard0_i_m1024_n512_v7x_i16_f32_1_alg».proof.Proof.WSteps
import proofs.«900935_g7700000000000936_dist_mean_ax0_shard0_i_m1024_n512_v7x_i16_f32_1_alg».proof.Proof.WBlocks
import proofs.«900935_g7700000000000936_dist_mean_ax0_shard0_i_m1024_n512_v7x_i16_f32_1_alg».proof.Proof.WConds

/-!
# The seven parts of the body

The body is printed in seven consecutive parts. Each is run from the state of its sweep at its first step to the
state at its last, one application of the sweep's step per guarded statement.
-/

noncomputable section

namespace Cert.Kernel.Mean

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The barrier semaphore as the body names it. -/
abbrev barV : Sems sig S_ := SemArray.scalar (sig.barrier 0 rfl)

/-- Part 1: the device reads its position and signals devices 0 to 7. -/
theorem part1_spec (K : Dev nD × Fin 33 → ℕ) (c : Dev nD) (W : Waits sig Unit)
    (Φ : (Σ' (d0 : Dev nD) (v2 : BitVec 32), Sems sig S_) → sProp 𝕄) :
    iprop(records m ρ K ∗ owes (c : Thread nD τ) (Oarr c 0 + Osig c 0) W ∗ SigRes (F := F) c 0
        ∗ ((owes (c : Thread nD τ) (Oarr c 0 + Osig c 8) W ∗ SigRes (F := F) c 8) -∗ Φ ⟨c, me c, barV⟩))
      ⊢ wp frame (wpE (defs₀ (F := F)) 𝒱₀ (c : Thread nD τ) none) Set.univ
          (k0_part1 (F := F) xM (Memref.isWhole_whole _) oM (Memref.isWhole_whole _) cM (Memref.isWhole_whole _) cc0_scratch1 cc0_scratch2) Φ := by
  rw [k0_part1_eq_skeleton]; unfold k0_part1_skel
  simp only [semSignalWord, semWaitWord, Prog.lift, Prog.bind_op, Prog.bind_ret, Prog.pure_eq_ret, wp_deviceId]
  iintro ⟨#HR, HO, HS, Hk⟩
  iapply (sig_guard m ρ K c 0 (by decide) (k0_cond1 c) (sigc0 c) k0_dev1 k0_dev1_eq (k0_dev1_lt c) W _ _)
  isplitr; · iexact HR
  isplitl [HO]; · iexact HO
  isplitl [HS]; · iexact HS
  iintro ⟨HO, HS⟩
  iapply (sig_guard m ρ K c 1 (by decide) (k0_cond2 c) (sigc1 c) k0_dev2 k0_dev2_eq (k0_dev2_lt c) W _ _)
  isplitr; · iexact HR
  isplitl [HO]; · iexact HO
  isplitl [HS]; · iexact HS
  iintro ⟨HO, HS⟩
  iapply (sig_guard m ρ K c 2 (by decide) (k0_cond3 c) (sigc2 c) k0_dev3 k0_dev3_eq (k0_dev3_lt c) W _ _)
  isplitr; · iexact HR
  isplitl [HO]; · iexact HO
  isplitl [HS]; · iexact HS
  iintro ⟨HO, HS⟩
  iapply (sig_guard m ρ K c 3 (by decide) (k0_cond4 c) (sigc3 c) k0_dev4 k0_dev4_eq (k0_dev4_lt c) W _ _)
  isplitr; · iexact HR
  isplitl [HO]; · iexact HO
  isplitl [HS]; · iexact HS
  iintro ⟨HO, HS⟩
  iapply (sig_guard m ρ K c 4 (by decide) (k0_cond5 c) (sigc4 c) k0_dev5 k0_dev5_eq (k0_dev5_lt c) W _ _)
  isplitr; · iexact HR
  isplitl [HO]; · iexact HO
  isplitl [HS]; · iexact HS
  iintro ⟨HO, HS⟩
  iapply (sig_guard m ρ K c 5 (by decide) (k0_cond6 c) (sigc5 c) k0_dev6 k0_dev6_eq (k0_dev6_lt c) W _ _)
  isplitr; · iexact HR
  isplitl [HO]; · iexact HO
  isplitl [HS]; · iexact HS
  iintro ⟨HO, HS⟩
  iapply (sig_guard m ρ K c 6 (by decide) (k0_cond7 c) (sigc6 c) k0_dev7 k0_dev7_eq (k0_dev7_lt c) W _ _)
  isplitr; · iexact HR
  isplitl [HO]; · iexact HO
  isplitl [HS]; · iexact HS
  iintro ⟨HO, HS⟩
  iapply (sig_guard m ρ K c 7 (by decide) (k0_cond8 c) (sigc7 c) k0_dev8 k0_dev8_eq (k0_dev8_lt c) W _ _)
  isplitr; · iexact HR
  isplitl [HO]; · iexact HO
  isplitl [HS]; · iexact HS
  iintro ⟨HO, HS⟩
  rw [wp_ret]; imodintro
  iapply Hk
  isplitl [HO]; · iexact HO
  iexact HS

/-- info: 'Cert.Kernel.Mean.part1_spec' depends on axioms: [propext, Classical.choice, Quot.sound] -/
#guard_msgs in #print axioms part1_spec

/-- Part 2: the signals to devices 8 to 15, then the device's own column sums into its row, and the barrier wait. -/
theorem part2_spec (K : Dev nD × Fin 33 → ℕ) (c : Dev nD) (W : Waits sig Unit) (Φ : PUnit → sProp 𝕄) :
    iprop(records m ρ K ∗ owes (c : Thread nD τ) (Oarr c 0 + Osig c 8) W ∗ SigRes (F := F) c 8
        ∗ (((c : Thread nD τ).loc cc0_stg0_0) ↦{fullShare} xstg m ρ c)
        ∗ rowAny (F := F) c c
        ∗ cred (tallyAt (barCell c) () 15) ∗ atPos ER (barCell c) 0 ∅ 0 ∗ levAts L lv
        ∗ (((((c : Thread nD τ).loc cc0_stg0_0) ↦{fullShare} xstg m ρ c)
            ∗ rowPts c c fullShare (comm m ρ)
            ∗ (∃ W', owes (c : Thread nD τ) (Oarr c 0) W')
            ∗ atPos ER (barCell c) 1 ∅ 0
            ∗ (bigSep (Finset.univ.erase c) fun d : Dev nD => barPay (F := F) c d)) -∗ Φ ⟨⟩))
      ⊢ wp frame (wpE (defs₀ (F := F)) 𝒱₀ (c : Thread nD τ) none) Set.univ (k0_part2 (F := F) xM (Memref.isWhole_whole _) oM (Memref.isWhole_whole _) cM (Memref.isWhole_whole _) cc0_scratch1 cc0_scratch2 c (me c) barV) Φ := by
  rw [k0_part2_eq_skeleton]; unfold k0_part2_skel
  simp only [semSignalWord, semWaitWord, Prog.lift, Prog.bind_op, Prog.bind_ret, Prog.pure_eq_ret]
  iintro ⟨#HR, HO, HS, Hx, Hrow, Hcr, Hat, #Hlev, Hk⟩
  iapply (sig_guard m ρ K c 8 (by decide) (k0_cond9 c) (sigc8 c) k0_dev9 k0_dev9_eq (k0_dev9_lt c) W _ _)
  isplitr; · iexact HR
  isplitl [HO]; · iexact HO
  isplitl [HS]; · iexact HS
  iintro ⟨HO, HS⟩
  iapply (sig_guard m ρ K c 9 (by decide) (k0_cond10 c) (sigc9 c) k0_dev10 k0_dev10_eq (k0_dev10_lt c) W _ _)
  isplitr; · iexact HR
  isplitl [HO]; · iexact HO
  isplitl [HS]; · iexact HS
  iintro ⟨HO, HS⟩
  iapply (sig_guard m ρ K c 10 (by decide) (k0_cond11 c) (sigc10 c) k0_dev11 k0_dev11_eq (k0_dev11_lt c) W _ _)
  isplitr; · iexact HR
  isplitl [HO]; · iexact HO
  isplitl [HS]; · iexact HS
  iintro ⟨HO, HS⟩
  iapply (sig_guard m ρ K c 11 (by decide) (k0_cond12 c) (sigc11 c) k0_dev12 k0_dev12_eq (k0_dev12_lt c) W _ _)
  isplitr; · iexact HR
  isplitl [HO]; · iexact HO
  isplitl [HS]; · iexact HS
  iintro ⟨HO, HS⟩
  iapply (sig_guard m ρ K c 12 (by decide) (k0_cond13 c) (sigc12 c) k0_dev13 k0_dev13_eq (k0_dev13_lt c) W _ _)
  isplitr; · iexact HR
  isplitl [HO]; · iexact HO
  isplitl [HS]; · iexact HS
  iintro ⟨HO, HS⟩
  iapply (sig_guard m ρ K c 13 (by decide) (k0_cond14 c) (sigc13 c) k0_dev14 k0_dev14_eq (k0_dev14_lt c) W _ _)
  isplitr; · iexact HR
  isplitl [HO]; · iexact HO
  isplitl [HS]; · iexact HS
  iintro ⟨HO, HS⟩
  iapply (sig_guard m ρ K c 14 (by decide) (k0_cond15 c) (sigc14 c) k0_dev15 k0_dev15_eq (k0_dev15_lt c) W _ _)
  isplitr; · iexact HR
  isplitl [HO]; · iexact HO
  isplitl [HS]; · iexact HS
  iintro ⟨HO, HS⟩
  iapply (sig_guard m ρ K c 15 (by decide) (k0_cond16 c) (sigc15 c) k0_dev16 k0_dev16_eq (k0_dev16_lt c) W _ _)
  isplitr; · iexact HR
  isplitl [HO]; · iexact HO
  isplitl [HS]; · iexact HS
  iintro ⟨HO, HS⟩
  rw [Osig_all, add_zero]
  iapply (mid_block m ρ K c W Φ)
  isplitr; · iexact HR
  isplitl [Hx]; · iexact Hx
  isplitl [Hrow]; · iexact Hrow
  isplitl [HO]; · iexact HO
  isplitl [Hcr]; · iexact Hcr
  isplitl [Hat]; · iexact Hat
  isplitr; · iexact Hlev
  iexact Hk

end Cert.Kernel.Mean

end
-- ==== Proof.WSteps2.lean ====
import proofs.«900935_g7700000000000936_dist_mean_ax0_shard0_i_m1024_n512_v7x_i16_f32_1_alg».proof.Proof.WSteps
import proofs.«900935_g7700000000000936_dist_mean_ax0_shard0_i_m1024_n512_v7x_i16_f32_1_alg».proof.Proof.WRowStore

/-!
# One step of each sweep, at a symbolic device: the transfers and the waits

Device `c` runs each of its four sweeps over `d = 0, …, 15` under the guard `c ≠ d`. A step is proved once, for any
`n` and any continuation: where the guard holds the operation pays or collects what the sweep's resources hold for
device `n`; where it fails (`n` is `c` itself) those resources are nothing and the step is the continuation.
-/

noncomputable section

namespace Cert.Kernel.Mean

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The tables as the steps read them -/

theorem mem_send (c d : Dev nD) (h : d ≠ c) : d ∈ (sched (F := F) m ρ).duties (sendCell c d) 0 := by
  rw [duties_send m ρ c d h]; exact Finset.mem_singleton_self _
theorem mem_recv (c p : Dev nD) (h : p ≠ c) : p ∈ (sched (F := F) m ρ).duties (recvCell c p) 0 := by
  rw [duties_recv m ρ c p h]; exact Finset.mem_singleton_self _

theorem inv_send (K : Dev nD × Fin 33 → ℕ) (c j : Dev nD) :
    records m ρ K ⊢ cellInv ER (sched m ρ) (K (c, kS j)) (sendCell c j) := by
  have h := inv_at m ρ K (c, kS j); rwa [kcell_send c j] at h
theorem inv_recv (K : Dev nD × Fin 33 → ℕ) (c j : Dev nD) :
    records m ρ K ⊢ cellInv ER (sched m ρ) (K (c, kR j)) (recvCell c j) := by
  have h := inv_at m ρ K (c, kR j); rwa [kcell_recv c j] at h
theorem reached_send (K : Dev nD × Fin 33 → ℕ) (c j : Dev nD) :
    records m ρ K ⊢ (reached ER (sendCell c j) 0 : sProp 𝕄) := by
  have h := reached_at m ρ K (c, kS j); rwa [kcell_send c j] at h
theorem reached_recv (K : Dev nD × Fin 33 → ℕ) (c j : Dev nD) :
    records m ρ K ⊢ (reached ER (recvCell c j) 0 : sProp 𝕄) := by
  have h := reached_at m ρ K (c, kR j); rwa [kcell_recv c j] at h

theorem sendPay_eq (c d : Dev nD) :
    sendPay m ρ c d = ((rowM c).view.loc (c : Thread nD τ) ↦[(rowM c).view.set]{lent d} comm m ρ : sProp 𝕄) := rfl
theorem recvPay_eq (c p : Dev nD) :
    recvPay m ρ c p = ((rowM p).view.loc (c : Thread nD τ) ↦[(rowM p).view.set]{fullShare} comm m ρ : sProp 𝕄) := rfl

attribute [local sl_rounds] duties_send duties_recv amount_send amount_recv payload_send payload_recv expect_send expect_recv
  mem_send mem_recv sendPay_eq recvPay_eq

/-! ## The transfers -/

/-- The transfer to `d ≠ c`: row `c` of `c`'s scratch, read at the share lent for it, into row `c` of `d`'s. -/
theorem send_one (K : Dev nD × Fin 33 → ℕ) (c d : Dev nD) (hne : c ≠ d) (X : CellTallies nD τ sig Unit) (W : Waits sig Unit)
    {hsc : (rowM c : Memref sig (Dev.tc d : Thread nD τ).2.kind .vmem S1x512 .f32).view.ref.isScScratch = false}
    {hsrc : (rowM c : Memref sig .tc .vmem S1x512 .f32).view.WordExact} {hdst : (rowM c : Memref sig .tc .vmem S1x512 .f32).view.WordExact}
    {hsem : DmaTarget.Typed .vmem (.dma (recvS c)) (.remote (Dev.tc d : Thread nD τ) (rowM c : Memref sig .tc .vmem S1x512 .f32) (.dma (sendS d)) hsc)}
    {α : Type} (k : PUnit → Prog (TpuEff nD τ sig (Elt F) Λ₀ .tc) α) (Φ : α → sProp 𝕄) :
    iprop(cellInv ER (sched m ρ) (K (c, kS d)) (sendCell c d) ∗ cellInv ER (sched m ρ) (K (d, kR c)) (recvCell d c)
        ∗ reached ER (sendCell c d) 0 ∗ reached ER (recvCell d c) 0
        ∗ dutyTok ER (recvCell d c) 0 c ∗ dutyTok ER (sendCell c d) 0 d ∗ rowAny (F := F) d c ∗ rowPts c c (lent d) (comm m ρ)
        ∗ owes (c : Thread nD τ) (X + tallyAt (recvCell d c) () N) W
        ∗ ((cred (tallyAt (sendCell c d) () N) ∗ owes (c : Thread nD τ) X W)
            -∗ wp frame (wpE (defs₀ (F := F)) 𝒱₀ (c : Thread nD τ) none) Set.univ (k ⟨⟩) Φ))
      ⊢ wp frame (wpE (defs₀ (F := F)) 𝒱₀ (c : Thread nD τ) none) Set.univ
          (.op (.enqueueDma (rowM c) (.remote (Dev.tc d : Thread nD τ) (rowM c) (.dma (sendS d)) hsc) (.dma (recvS c)) hsrc hdst hsem) k) Φ := by
  unfold rowAny rowPts
  iintro ⟨#HI1, #HI2, #Hr1, #Hr2, Ht2, Ht1, ⟨%fd, Hdst⟩, Hsrc, HO, Hk⟩
  iapply (Rounds.wp_send_pointsTo 𝒱₀ ER (sched m ρ) (c : Thread nD τ) none (κ₁ := K (c, kS d)) (κ₂ := K (d, kR c))
      (r₁ := 0) (r₂ := 0) (d₁ := d) (d₂ := c) (fd := fd) (q := lent d) (fs := comm m ρ)
      (mem_send m ρ c d (fun e => hne e.symm)) (mem_recv m ρ d c hne) () () N rfl (amount_send m ρ c d d) (amount_recv m ρ d c c) X rfl (W := W)
      (by rw [payload_send]; exact BI.Entails.refl _)
      (by rw [payload_recv]; unfold recvPay rowPts
          exact Entails.of_eq (pointsTo_congr (land_row m ρ c d fd)))) $$ [Hsrc Hdst HO Ht1 Ht2]
  · isplitr; · iexact HI1
    isplitr; · iexact HI2
    isplitl [Hsrc]; · iexact Hsrc
    isplitl [Hdst]; · iexact Hdst
    isplitl [HO]; · iexact HO
    isplitl [Ht1]; · iexact Ht1
    isplitr; · iexact Hr1
    isplitl [Ht2]; · iexact Ht2
    iexact Hr2
  iexact Hk

theorem SendRes_step (c : Dev nD) (n : ℕ) (hn : n < 16) :
    SendRes m ρ c n = iprop((if (⟨n, hn⟩ : Dev nD) = c then iprop(emp) else
        iprop(dutyTok ER (recvCell ⟨n, hn⟩ c) 0 c ∗ dutyTok ER (sendCell c ⟨n, hn⟩) 0 ⟨n, hn⟩ ∗ rowAny (F := F) ⟨n, hn⟩ c ∗ rowPts c c (lent ⟨n, hn⟩) (comm m ρ)))
      ∗ SendRes m ρ c (n + 1)) := by
  unfold SendRes; rw [ge_step n hn, bigSep_insert (not_mem_ge_succ n hn)]; rfl
theorem SentRes_step (c : Dev nD) (n : ℕ) (hn : n < 16) :
    SentRes (F := F) c (n + 1) = iprop((if (⟨n, hn⟩ : Dev nD) = c then iprop(emp) else iprop(cred (tallyAt (sendCell c ⟨n, hn⟩) () N) : sProp 𝕄))
      ∗ SentRes (F := F) c n) := by
  unfold SentRes; rw [lt_step n hn, bigSep_insert (not_mem_lt n hn)]; rfl

/-- Row `c` through an offset vector as the body computes it, and the receive semaphore likewise. -/
abbrev rowAt (off : Fin 3 → ℕ) (p : ∀ a, off a + S1x1x512.size a ≤ S16x1x512.size a) : Memref sig .tc .vmem S1x512 .f32 :=
  (cM.slice (Rect.unit (s := S16x1x512) off S1x1x512.size p) (fun _ => rfl)).squeeze S1x512 squeezes_S1x1x512_S1x512
abbrev recvAt (off : Fin 1 → ℕ) (p : ∀ a, off a + S1.size a ≤ S16.size a) : DmaSem sig :=
  ((cc0_scratch2.slice (Rect.unit (s := S16) off S1.size p)).squeeze S_ squeezes_S1_S_).sem
theorem rowAt_sc (off : Fin 3 → ℕ) (p : ∀ a, off a + S1x1x512.size a ≤ S16x1x512.size a) (d : Dev nD) :
    (rowAt off p : Memref sig (Dev.tc d : Thread nD τ).2.kind .vmem S1x512 .f32).view.ref.isScScratch = false := rfl
theorem rowAt_we (off : Fin 3 → ℕ) (p : ∀ a, off a + S1x1x512.size a ≤ S16x1x512.size a) : (rowAt off p).view.WordExact :=
  (View.wordExact_bits rfl).reshape _ _
theorem rowAt_typed (off : Fin 3 → ℕ) (p : ∀ a, off a + S1x1x512.size a ≤ S16x1x512.size a) (d : Dev nD) (ps q : DmaSem sig) :
    DmaTarget.Typed (p := Proc.tc) .vmem (.dma q) (DmaTarget.remote (p := Proc.tc) (Dev.tc d : Thread nD τ) (rowAt off p) (.dma ps) (rowAt_sc off p d)) :=
  ⟨⟨rfl, Or.inl rfl⟩, trivial⟩

theorem send_guard {α : Type} (K : Dev nD × Fin 33 → ℕ) (c : Dev nD) (n : ℕ) (hn : n < 16) (cond : Prop) [Decidable cond]
    (hcond : cond ↔ c ≠ (⟨n, hn⟩ : Dev nD))
    (dv : ℕ) (hdv : dv = n) (hlt : cond → dv < nD)
    (offS : Fin 1 → ℕ) (hoffS : offS = ![c.val]) (hinbS : cond → ∀ a, offS a + S1.size a ≤ S16.size a)
    (offR : Fin 3 → ℕ) (hoffR : offR = ![c.val, 0, 0]) (hinbR : cond → ∀ a, offR a + S1x1x512.size a ≤ S16x1x512.size a)
    (kont : Prog (TpuEff nD τ sig (Elt F) Λ₀ .tc) α) (W : Waits sig Unit) (Φ : α → sProp 𝕄) :
    iprop(records m ρ K ∗ owes (c : Thread nD τ) (Oarr c n) W ∗ SendRes m ρ c n ∗ SentRes (F := F) c n
        ∗ ((owes (c : Thread nD τ) (Oarr c (n + 1)) W ∗ SendRes m ρ c (n + 1) ∗ SentRes (F := F) c (n + 1)) -∗ wp frame (wpE (defs₀ (F := F)) 𝒱₀ (c : Thread nD τ) none) Set.univ kont Φ))
      ⊢ wp frame (wpE (defs₀ (F := F)) 𝒱₀ (c : Thread nD τ) none) Set.univ (if h : cond then
          .op (.enqueueDma (rowAt offR (hinbR h)) (.remote (Dev.tc (⟨dv, hlt h⟩ : Dev nD) : Thread nD τ) (rowAt offR (hinbR h)) (.dma (sendS ⟨n, hn⟩)) (rowAt_sc offR (hinbR h) ⟨dv, hlt h⟩))
            (.dma (recvAt offS (hinbS h))) (rowAt_we offR (hinbR h)) (rowAt_we offR (hinbR h)) (rowAt_typed offR (hinbR h) ⟨dv, hlt h⟩ (sendS ⟨n, hn⟩) (recvAt offS (hinbS h)))) (fun _ => kont)
          else kont) Φ := by
  subst hdv hoffS hoffR
  rw [SendRes_step m ρ c dv hn, SentRes_step c dv hn, Oarr_step c dv hn]
  unfold arrT
  by_cases hc : cond
  · have hne : c ≠ (⟨dv, hn⟩ : Dev nD) := hcond.mp hc
    rw [dif_pos hc, if_neg (fun e => hne e.symm), if_neg (fun e => hne e.symm), if_neg (fun e => hne e.symm)]
    iintro ⟨#HR, HO, ⟨⟨Ht2, Ht1, Hdst, Hsrc⟩, HS⟩, HT, Hk⟩
    iapply (send_one m ρ K c ⟨dv, hn⟩ hne (Oarr c (dv + 1)) W (fun _ => kont) Φ)
    isplitr; · iapply (inv_send m ρ K c ⟨dv, hn⟩); iexact HR
    isplitr; · iapply (inv_recv m ρ K ⟨dv, hn⟩ c); iexact HR
    isplitr; · iapply (reached_send m ρ K c ⟨dv, hn⟩); iexact HR
    isplitr; · iapply (reached_recv m ρ K ⟨dv, hn⟩ c); iexact HR
    isplitl [Ht2]; · iexact Ht2
    isplitl [Ht1]; · iexact Ht1
    isplitl [Hdst]; · iexact Hdst
    isplitl [Hsrc]; · iexact Hsrc
    isplitl [HO]; · iexact HO
    iintro ⟨Hc, HO⟩
    iapply Hk
    isplitl [HO]; · iexact HO
    isplitl [HS]; · iexact HS
    isplitl [Hc]; · iexact Hc
    iexact HT
  · have he : (⟨dv, hn⟩ : Dev nD) = c := by
      by_contra hne; exact hc (hcond.mpr fun e => hne e.symm)
    rw [dif_neg hc, if_pos he, if_pos he, if_pos he, add_zero]
    iintro ⟨-, HO, ⟨-, HS⟩, HT, Hk⟩
    iapply Hk
    isplitl [HO]; · iexact HO
    isplitl [HS]; · iexact HS
    isplitr; · iempintro
    iexact HT

/-! ## The receive waits -/

/-- The wait for row `p ≠ c`: the rest of the one round of its cell, paid by `p`'s transfer; the row comes with it. -/
theorem recv_one (K : Dev nD × Fin 33 → ℕ) (c p : Dev nD) (hne : p ≠ c) (W : Waits sig Unit)
    {hsrc : (rowM p : Memref sig .tc .vmem S1x512 .f32).view.WordExact} {hdst : (rowM p : Memref sig .tc .vmem S1x512 .f32).view.WordExact}
    {α : Type} (k : PUnit → Prog (TpuEff nD τ sig (Elt F) Λ₀ .tc) α) (Φ : α → sProp 𝕄) :
    iprop(cellInv ER (sched m ρ) (K (c, kR p)) (recvCell c p)
        ∗ cred (tallyAt (recvCell c p) () N) ∗ atPos ER (recvCell c p) 0 ∅ 0 ∗ owes (c : Thread nD τ) 0 W
        ∗ (((∃ W', owes (c : Thread nD τ) 0 W') ∗ rowPts c p fullShare (comm m ρ) ∗ atPos ER (recvCell c p) 1 ∅ 0) -∗ wp frame (wpE (defs₀ (F := F)) 𝒱₀ (c : Thread nD τ) none) Set.univ (k ⟨⟩) Φ))
      ⊢ wp frame (wpE (defs₀ (F := F)) 𝒱₀ (c : Thread nD τ) none) Set.univ (.op (.waitDma2 (recvS p) (rowM p) (rowM p) hsrc hdst) k) Φ := by
  iintro ⟨#HI, Hc, Hat, HO, Hk⟩
  iapply (Rounds.wp_wait_rest_token 𝒱₀ ER (sched m ρ) (c : Thread nD τ) none (κ := K (c, kR p))
      (wpE_waitDma2_eq 𝒱₀ (c : Thread nD τ) none Set.univ) (Set.mem_univ _) () (O := 0) (W := W) (R := 0) (m := 0) (T := ∅)
      (by rw [Nat.zero_add, expect_recv m ρ c p hne])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hrow := (Entails.of_eq (rest_recv m ρ c p hne)) $$ Hpay
  iapply Hk
  isplitl [HO]; · iexists _; iexact HO
  isplitl [Hrow]; · unfold recvPay; iexact Hrow
  iexact Hat

theorem RecvRes_step (c : Dev nD) (n : ℕ) (hn : n < 16) :
    RecvRes (F := F) c n = iprop((if (⟨n, hn⟩ : Dev nD) = c then iprop(emp) else
        iprop(cred (tallyAt (recvCell c ⟨n, hn⟩) () N) ∗ atPos ER (recvCell c ⟨n, hn⟩) 0 ∅ 0 : sProp 𝕄))
      ∗ RecvRes (F := F) c (n + 1)) := by
  unfold RecvRes; rw [ge_step n hn, bigSep_insert (not_mem_ge_succ n hn)]; rfl
theorem GotRes_step (c : Dev nD) (n : ℕ) (hn : n < 16) :
    GotRes m ρ c (n + 1) = iprop((if (⟨n, hn⟩ : Dev nD) = c then iprop(emp) else
        iprop(rowPts c ⟨n, hn⟩ fullShare (comm m ρ) ∗ atPos ER (recvCell c ⟨n, hn⟩) 1 ∅ 0))
      ∗ GotRes m ρ c n) := by
  unfold GotRes; rw [lt_step n hn, bigSep_insert (not_mem_lt n hn)]; rfl

theorem recv_guard {α : Type} (K : Dev nD × Fin 33 → ℕ) (c : Dev nD) (n : ℕ) (hn : n < 16) (cond : Prop) [Decidable cond]
    (hcond : cond ↔ c ≠ (⟨n, hn⟩ : Dev nD)) (A : cond → Prog (TpuEff nD τ sig (Elt F) Λ₀ .tc) α)
    (kont : Prog (TpuEff nD τ sig (Elt F) Λ₀ .tc) α)
    (hA : ∀ h : cond, ∃ (hsrc : (rowM (⟨n, hn⟩ : Dev nD) : Memref sig .tc .vmem S1x512 .f32).view.WordExact)
      (hdst : (rowM (⟨n, hn⟩ : Dev nD) : Memref sig .tc .vmem S1x512 .f32).view.WordExact),
      A h = .op (.waitDma2 (recvS ⟨n, hn⟩) (rowM ⟨n, hn⟩) (rowM ⟨n, hn⟩) hsrc hdst) (fun _ => kont))
    (Φ : α → sProp 𝕄) :
    iprop(records m ρ K ∗ (∃ W, owes (c : Thread nD τ) 0 W) ∗ RecvRes (F := F) c n ∗ GotRes m ρ c n
        ∗ (((∃ W, owes (c : Thread nD τ) 0 W) ∗ RecvRes (F := F) c (n + 1) ∗ GotRes m ρ c (n + 1)) -∗ wp frame (wpE (defs₀ (F := F)) 𝒱₀ (c : Thread nD τ) none) Set.univ kont Φ))
      ⊢ wp frame (wpE (defs₀ (F := F)) 𝒱₀ (c : Thread nD τ) none) Set.univ (if h : cond then A h else kont) Φ := by
  rw [RecvRes_step c n hn, GotRes_step m ρ c n hn]
  by_cases hc : cond
  · have hne : c ≠ (⟨n, hn⟩ : Dev nD) := hcond.mp hc
    obtain ⟨hsrc, hdst, hAe⟩ := hA hc
    rw [dif_pos hc, hAe, if_neg (fun e => hne e.symm), if_neg (fun e => hne e.symm)]
    iintro ⟨#HR, ⟨%W, HO⟩, ⟨⟨Hc, Hat⟩, HS⟩, HT, Hk⟩
    iapply (recv_one m ρ K c ⟨n, hn⟩ (fun e => hne e.symm) W (fun _ => kont) Φ)
    isplitr; · iapply (inv_recv m ρ K c ⟨n, hn⟩); iexact HR
    isplitl [Hc]; · iexact Hc
    isplitl [Hat]; · iexact Hat
    isplitl [HO]; · iexact HO
    iintro ⟨HO, Hrow, Hat⟩
    iapply Hk
    isplitl [HO]; · iexact HO
    isplitl [HS]; · iexact HS
    isplitl [Hrow Hat]
    · isplitl [Hrow]; · iexact Hrow
      iexact Hat
    iexact HT
  · have he : (⟨n, hn⟩ : Dev nD) = c := by
      by_contra hne; exact hc (hcond.mpr fun e => hne e.symm)
    rw [dif_neg hc, if_pos he, if_pos he]
    iintro ⟨-, HO, ⟨-, HS⟩, HT, Hk⟩
    iapply Hk
    isplitl [HO]; · iexact HO
    isplitl [HS]; · iexact HS
    isplitr; · iempintro
    iexact HT

/-! ## The send waits -/

/-- The wait for the departure towards `d ≠ c`: the rest of the one round of its cell, paid by `c`'s own transfer;
    the lent share of the own row comes back. -/
theorem swait_one (K : Dev nD × Fin 33 → ℕ) (c d : Dev nD) (hne : d ≠ c) (W : Waits sig Unit)
    {hsrc : (rowM (⟨0, by decide⟩ : Dev nD) : Memref sig .tc .vmem S1x512 .f32).view.WordExact}
    {hdst : (rowM (⟨0, by decide⟩ : Dev nD) : Memref sig .tc .vmem S1x512 .f32).view.WordExact}
    {α : Type} (k : PUnit → Prog (TpuEff nD τ sig (Elt F) Λ₀ .tc) α) (Φ : α → sProp 𝕄) :
    iprop(cellInv ER (sched m ρ) (K (c, kS d)) (sendCell c d)
        ∗ cred (tallyAt (sendCell c d) () N) ∗ atPos ER (sendCell c d) 0 ∅ 0 ∗ owes (c : Thread nD τ) 0 W
        ∗ (((∃ W', owes (c : Thread nD τ) 0 W') ∗ rowPts c c (lent d) (comm m ρ) ∗ atPos ER (sendCell c d) 1 ∅ 0) -∗ wp frame (wpE (defs₀ (F := F)) 𝒱₀ (c : Thread nD τ) none) Set.univ (k ⟨⟩) Φ))
      ⊢ wp frame (wpE (defs₀ (F := F)) 𝒱₀ (c : Thread nD τ) none) Set.univ (.op (.waitDma2 (sendS d) (rowM (⟨0, by decide⟩ : Dev nD)) (rowM (⟨0, by decide⟩ : Dev nD)) hsrc hdst) k) Φ := by
  iintro ⟨#HI, Hc, Hat, HO, Hk⟩
  iapply (Rounds.wp_wait_rest_token 𝒱₀ ER (sched m ρ) (c : Thread nD τ) none (κ := K (c, kS d))
      (wpE_waitDma2_eq 𝒱₀ (c : Thread nD τ) none Set.univ) (Set.mem_univ _) () (O := 0) (W := W) (R := 0) (m := 0) (T := ∅)
      (by rw [Nat.zero_add, expect_send m ρ c d hne])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hrow := (Entails.of_eq (rest_send m ρ c d hne)) $$ Hpay
  iapply Hk
  isplitl [HO]; · iexists _; iexact HO
  isplitl [Hrow]; · unfold sendPay; iexact Hrow
  iexact Hat

theorem SWaitRes_step (c : Dev nD) (n : ℕ) (hn : n < 16) :
    SWaitRes (F := F) c n = iprop((if (⟨n, hn⟩ : Dev nD) = c then iprop(emp) else
        iprop(cred (tallyAt (sendCell c ⟨n, hn⟩) () N) ∗ atPos ER (sendCell c ⟨n, hn⟩) 0 ∅ 0 : sProp 𝕄))
      ∗ SWaitRes (F := F) c (n + 1)) := by
  unfold SWaitRes; rw [ge_step n hn, bigSep_insert (not_mem_ge_succ n hn)]; rfl
theorem BackRes_step (c : Dev nD) (n : ℕ) (hn : n < 16) :
    BackRes m ρ c (n + 1) = iprop((if (⟨n, hn⟩ : Dev nD) = c then iprop(emp) else
        iprop(rowPts c c (lent ⟨n, hn⟩) (comm m ρ) ∗ atPos ER (sendCell c ⟨n, hn⟩) 1 ∅ 0))
      ∗ BackRes m ρ c n) := by
  unfold BackRes; rw [lt_step n hn, bigSep_insert (not_mem_lt n hn)]; rfl

theorem swait_guard {α : Type} (K : Dev nD × Fin 33 → ℕ) (c : Dev nD) (n : ℕ) (hn : n < 16) (cond : Prop) [Decidable cond]
    (hcond : cond ↔ c ≠ (⟨n, hn⟩ : Dev nD)) (A : cond → Prog (TpuEff nD τ sig (Elt F) Λ₀ .tc) α)
    (kont : Prog (TpuEff nD τ sig (Elt F) Λ₀ .tc) α)
    (hA : ∀ h : cond, ∃ (hsrc : (rowM (⟨0, by decide⟩ : Dev nD) : Memref sig .tc .vmem S1x512 .f32).view.WordExact)
      (hdst : (rowM (⟨0, by decide⟩ : Dev nD) : Memref sig .tc .vmem S1x512 .f32).view.WordExact),
      A h = .op (.waitDma2 (sendS ⟨n, hn⟩) (rowM (⟨0, by decide⟩ : Dev nD)) (rowM (⟨0, by decide⟩ : Dev nD)) hsrc hdst) (fun _ => kont))
    (Φ : α → sProp 𝕄) :
    iprop(records m ρ K ∗ (∃ W, owes (c : Thread nD τ) 0 W) ∗ SWaitRes (F := F) c n ∗ BackRes m ρ c n
        ∗ (((∃ W, owes (c : Thread nD τ) 0 W) ∗ SWaitRes (F := F) c (n + 1) ∗ BackRes m ρ c (n + 1)) -∗ wp frame (wpE (defs₀ (F := F)) 𝒱₀ (c : Thread nD τ) none) Set.univ kont Φ))
      ⊢ wp frame (wpE (defs₀ (F := F)) 𝒱₀ (c : Thread nD τ) none) Set.univ (if h : cond then A h else kont) Φ := by
  rw [SWaitRes_step c n hn, BackRes_step m ρ c n hn]
  by_cases hc : cond
  · have hne : c ≠ (⟨n, hn⟩ : Dev nD) := hcond.mp hc
    obtain ⟨hsrc, hdst, hAe⟩ := hA hc
    rw [dif_pos hc, hAe, if_neg (fun e => hne e.symm), if_neg (fun e => hne e.symm)]
    iintro ⟨#HR, ⟨%W, HO⟩, ⟨⟨Hc, Hat⟩, HS⟩, HT, Hk⟩
    iapply (swait_one m ρ K c ⟨n, hn⟩ (fun e => hne e.symm) W (fun _ => kont) Φ)
    isplitr; · iapply (inv_send m ρ K c ⟨n, hn⟩); iexact HR
    isplitl [Hc]; · iexact Hc
    isplitl [Hat]; · iexact Hat
    isplitl [HO]; · iexact HO
    iintro ⟨HO, Hrow, Hat⟩
    iapply Hk
    isplitl [HO]; · iexact HO
    isplitl [HS]; · iexact HS
    isplitl [Hrow Hat]
    · isplitl [Hrow]; · iexact Hrow
      iexact Hat
    iexact HT
  · have he : (⟨n, hn⟩ : Dev nD) = c := by
      by_contra hne; exact hc (hcond.mpr fun e => hne e.symm)
    rw [dif_neg hc, if_pos he, if_pos he]
    iintro ⟨-, HO, ⟨-, HS⟩, HT, Hk⟩
    iapply Hk
    isplitl [HO]; · iexact HO
    isplitl [HS]; · iexact HS
    isplitr; · iempintro
    iexact HT

end Cert.Kernel.Mean

end
-- ==== Proof.WPartsB.lean ====
import proofs.«900935_g7700000000000936_dist_mean_ax0_shard0_i_m1024_n512_v7x_i16_f32_1_alg».proof.Proof.WSteps2
import proofs.«900935_g7700000000000936_dist_mean_ax0_shard0_i_m1024_n512_v7x_i16_f32_1_alg».proof.Proof.WConds

/-!
# The seven parts of the body

The body is printed in seven consecutive parts. Each is run from the state of its sweep at its first step to the
state at its last, one application of the sweep's step per guarded statement.
-/

noncomputable section

namespace Cert.Kernel.Mean

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Part 3: the transfers to devices 0 to 9. -/
theorem part3_spec (K : Dev nD × Fin 33 → ℕ) (c : Dev nD) (W : Waits sig Unit) (Φ : PUnit → sProp 𝕄) :
    iprop(records m ρ K ∗ owes (c : Thread nD τ) (Oarr c 0) W ∗ SendRes m ρ c 0 ∗ SentRes (F := F) c 0
        ∗ ((owes (c : Thread nD τ) (Oarr c 10) W ∗ SendRes m ρ c 10 ∗ SentRes (F := F) c 10) -∗ Φ ⟨⟩))
      ⊢ wp frame (wpE (defs₀ (F := F)) 𝒱₀ (c : Thread nD τ) none) Set.univ (k0_part3 (F := F) xM (Memref.isWhole_whole _) oM (Memref.isWhole_whole _) cM (Memref.isWhole_whole _) cc0_scratch1 cc0_scratch2 c (me c)) Φ := by
  rw [k0_part3_eq_skeleton]; unfold k0_part3_skel
  simp only [semSignalWord, semWaitWord, Prog.lift, Prog.bind_op, Prog.bind_ret, Prog.pure_eq_ret]
  iintro ⟨#HR, HO, HS, HT, Hk⟩
  iapply (send_guard m ρ K c 0 (by decide) (k0_cond17 c = 1#1) (sndc0 c) k0_dev17 k0_dev17_eq (k0_dev17_lt c)
    (k0_off2 c) (k0_off2_eq c) (k0_off2_inb c) (k0_off3 c) (k0_off3_eq c) (k0_off3_inb c) _ W _)
  isplitr; · iexact HR
  isplitl [HO]; · iexact HO
  isplitl [HS]; · iexact HS
  isplitl [HT]; · iexact HT
  iintro ⟨HO, HS, HT⟩
  iapply (send_guard m ρ K c 1 (by decide) (k0_cond18 c = 1#1) (sndc1 c) k0_dev18 k0_dev18_eq (k0_dev18_lt c)
    (k0_off4 c) (k0_off4_eq c) (k0_off4_inb c) (k0_off5 c) (k0_off5_eq c) (k0_off5_inb c) _ W _)
  isplitr; · iexact HR
  isplitl [HO]; · iexact HO
  isplitl [HS]; · iexact HS
  isplitl [HT]; · iexact HT
  iintro ⟨HO, HS, HT⟩
  iapply (send_guard m ρ K c 2 (by decide) (k0_cond19 c = 1#1) (sndc2 c) k0_dev19 k0_dev19_eq (k0_dev19_lt c)
    (k0_off6 c) (k0_off6_eq c) (k0_off6_inb c) (k0_off7 c) (k0_off7_eq c) (k0_off7_inb c) _ W _)
  isplitr; · iexact HR
  isplitl [HO]; · iexact HO
  isplitl [HS]; · iexact HS
  isplitl [HT]; · iexact HT
  iintro ⟨HO, HS, HT⟩
  iapply (send_guard m ρ K c 3 (by decide) (k0_cond20 c = 1#1) (sndc3 c) k0_dev20 k0_dev20_eq (k0_dev20_lt c)
    (k0_off8 c) (k0_off8_eq c) (k0_off8_inb c) (k0_off9 c) (k0_off9_eq c) (k0_off9_inb c) _ W _)
  isplitr; · iexact HR
  isplitl [HO]; · iexact HO
  isplitl [HS]; · iexact HS
  isplitl [HT]; · iexact HT
  iintro ⟨HO, HS, HT⟩
  iapply (send_guard m ρ K c 4 (by decide) (k0_cond21 c = 1#1) (sndc4 c) k0_dev21 k0_dev21_eq (k0_dev21_lt c)
    (k0_off10 c) (k0_off10_eq c) (k0_off10_inb c) (k0_off11 c) (k0_off11_eq c) (k0_off11_inb c) _ W _)
  isplitr; · iexact HR
  isplitl [HO]; · iexact HO
  isplitl [HS]; · iexact HS
  isplitl [HT]; · iexact HT
  iintro ⟨HO, HS, HT⟩
  iapply (send_guard m ρ K c 5 (by decide) (k0_cond22 c = 1#1) (sndc5 c) k0_dev22 k0_dev22_eq (k0_dev22_lt c)
    (k0_off12 c) (k0_off12_eq c) (k0_off12_inb c) (k0_off13 c) (k0_off13_eq c) (k0_off13_inb c) _ W _)
  isplitr; · iexact HR
  isplitl [HO]; · iexact HO
  isplitl [HS]; · iexact HS
  isplitl [HT]; · iexact HT
  iintro ⟨HO, HS, HT⟩
  iapply (send_guard m ρ K c 6 (by decide) (k0_cond23 c = 1#1) (sndc6 c) k0_dev23 k0_dev23_eq (k0_dev23_lt c)
    (k0_off14 c) (k0_off14_eq c) (k0_off14_inb c) (k0_off15 c) (k0_off15_eq c) (k0_off15_inb c) _ W _)
  isplitr; · iexact HR
  isplitl [HO]; · iexact HO
  isplitl [HS]; · iexact HS
  isplitl [HT]; · iexact HT
  iintro ⟨HO, HS, HT⟩
  iapply (send_guard m ρ K c 7 (by decide) (k0_cond24 c = 1#1) (sndc7 c) k0_dev24 k0_dev24_eq (k0_dev24_lt c)
    (k0_off16 c) (k0_off16_eq c) (k0_off16_inb c) (k0_off17 c) (k0_off17_eq c) (k0_off17_inb c) _ W _)
  isplitr; · iexact HR
  isplitl [HO]; · iexact HO
  isplitl [HS]; · iexact HS
  isplitl [HT]; · iexact HT
  iintro ⟨HO, HS, HT⟩
  iapply (send_guard m ρ K c 8 (by decide) (k0_cond25 c = 1#1) (sndc8 c) k0_dev25 k0_dev25_eq (k0_dev25_lt c)
    (k0_off18 c) (k0_off18_eq c) (k0_off18_inb c) (k0_off19 c) (k0_off19_eq c) (k0_off19_inb c) _ W _)
  isplitr; · iexact HR
  isplitl [HO]; · iexact HO
  isplitl [HS]; · iexact HS
  isplitl [HT]; · iexact HT
  iintro ⟨HO, HS, HT⟩
  iapply (send_guard m ρ K c 9 (by decide) (k0_cond26 c = 1#1) (sndc9 c) k0_dev26 k0_dev26_eq (k0_dev26_lt c)
    (k0_off20 c) (k0_off20_eq c) (k0_off20_inb c) (k0_off21 c) (k0_off21_eq c) (k0_off21_inb c) _ W _)
  isplitr; · iexact HR
  isplitl [HO]; · iexact HO
  isplitl [HS]; · iexact HS
  isplitl [HT]; · iexact HT
  iintro ⟨HO, HS, HT⟩
  rw [wp_ret]; imodintro
  iapply Hk
  isplitl [HO]; · iexact HO
  isplitl [HS]; · iexact HS
  iexact HT

/-- Part 4: the transfers to devices 10 to 15, then the waits for rows 0 to 3. -/
theorem part4_spec (K : Dev nD × Fin 33 → ℕ) (c : Dev nD) (W : Waits sig Unit) (Φ : PUnit → sProp 𝕄) :
    iprop(records m ρ K ∗ owes (c : Thread nD τ) (Oarr c 10) W ∗ SendRes m ρ c 10 ∗ SentRes (F := F) c 10
        ∗ RecvRes (F := F) c 0 ∗ GotRes m ρ c 0
        ∗ (((∃ W', owes (c : Thread nD τ) 0 W') ∗ SentRes (F := F) c 16 ∗ RecvRes (F := F) c 4 ∗ GotRes m ρ c 4) -∗ Φ ⟨⟩))
      ⊢ wp frame (wpE (defs₀ (F := F)) 𝒱₀ (c : Thread nD τ) none) Set.univ (k0_part4 (F := F) xM (Memref.isWhole_whole _) oM (Memref.isWhole_whole _) cM (Memref.isWhole_whole _) cc0_scratch1 cc0_scratch2 c (me c)) Φ := by
  rw [k0_part4_eq_skeleton]; unfold k0_part4_skel
  simp only [semSignalWord, semWaitWord, Prog.lift, Prog.bind_op, Prog.bind_ret, Prog.pure_eq_ret]
  iintro ⟨#HR, HO, HS, HT, HV, HG, Hk⟩
  iapply (send_guard m ρ K c 10 (by decide) (k0_cond27 c = 1#1) (sndc10 c) k0_dev27 k0_dev27_eq (k0_dev27_lt c)
    (k0_off22 c) (k0_off22_eq c) (k0_off22_inb c) (k0_off23 c) (k0_off23_eq c) (k0_off23_inb c) _ W _)
  isplitr; · iexact HR
  isplitl [HO]; · iexact HO
  isplitl [HS]; · iexact HS
  isplitl [HT]; · iexact HT
  iintro ⟨HO, HS, HT⟩
  iapply (send_guard m ρ K c 11 (by decide) (k0_cond28 c = 1#1) (sndc11 c) k0_dev28 k0_dev28_eq (k0_dev28_lt c)
    (k0_off24 c) (k0_off24_eq c) (k0_off24_inb c) (k0_off25 c) (k0_off25_eq c) (k0_off25_inb c) _ W _)
  isplitr; · iexact HR
  isplitl [HO]; · iexact HO
  isplitl [HS]; · iexact HS
  isplitl [HT]; · iexact HT
  iintro ⟨HO, HS, HT⟩
  iapply (send_guard m ρ K c 12 (by decide) (k0_cond29 c = 1#1) (sndc12 c) k0_dev29 k0_dev29_eq (k0_dev29_lt c)
    (k0_off26 c) (k0_off26_eq c) (k0_off26_inb c) (k0_off27 c) (k0_off27_eq c) (k0_off27_inb c) _ W _)
  isplitr; · iexact HR
  isplitl [HO]; · iexact HO
  isplitl [HS]; · iexact HS
  isplitl [HT]; · iexact HT
  iintro ⟨HO, HS, HT⟩
  iapply (send_guard m ρ K c 13 (by decide) (k0_cond30 c = 1#1) (sndc13 c) k0_dev30 k0_dev30_eq (k0_dev30_lt c)
    (k0_off28 c) (k0_off28_eq c) (k0_off28_inb c) (k0_off29 c) (k0_off29_eq c) (k0_off29_inb c) _ W _)
  isplitr; · iexact HR
  isplitl [HO]; · iexact HO
  isplitl [HS]; · iexact HS
  isplitl [HT]; · iexact HT
  iintro ⟨HO, HS, HT⟩
  iapply (send_guard m ρ K c 14 (by decide) (k0_cond31 c = 1#1) (sndc14 c) k0_dev31 k0_dev31_eq (k0_dev31_lt c)
    (k0_off30 c) (k0_off30_eq c) (k0_off30_inb c) (k0_off31 c) (k0_off31_eq c) (k0_off31_inb c) _ W _)
  isplitr; · iexact HR
  isplitl [HO]; · iexact HO
  isplitl [HS]; · iexact HS
  isplitl [HT]; · iexact HT
  iintro ⟨HO, HS, HT⟩
  iapply (send_guard m ρ K c 15 (by decide) (k0_cond32 c = 1#1) (sndc15 c) k0_dev32 k0_dev32_eq (k0_dev32_lt c)
    (k0_off32 c) (k0_off32_eq c) (k0_off32_inb c) (k0_off33 c) (k0_off33_eq c) (k0_off33_inb c) _ W _)
  isplitr; · iexact HR
  isplitl [HO]; · iexact HO
  isplitl [HS]; · iexact HS
  isplitl [HT]; · iexact HT
  iintro ⟨HO, HS, HT⟩
  rw [Oarr_all]
  ihave HO := (show (owes (c : Thread nD τ) 0 W : sProp 𝕄) ⊢ iprop(∃ W', owes (c : Thread nD τ) 0 W') from by iintro H; iexists W; iexact H) $$ HO
  iapply (recv_guard m ρ K c 0 (by decide) _ (waitc0 c) _ _ (fun h => ⟨_, _, rfl⟩) _)
  isplitr; · iexact HR
  isplitl [HO]; · iexact HO
  isplitl [HV]; · iexact HV
  isplitl [HG]; · iexact HG
  iintro ⟨HO, HV, HG⟩
  iapply (recv_guard m ρ K c 1 (by decide) _ (waitc1 c) _ _ (fun h => ⟨_, _, rfl⟩) _)
  isplitr; · iexact HR
  isplitl [HO]; · iexact HO
  isplitl [HV]; · iexact HV
  isplitl [HG]; · iexact HG
  iintro ⟨HO, HV, HG⟩
  iapply (recv_guard m ρ K c 2 (by decide) _ (waitc2 c) _ _ (fun h => ⟨_, _, rfl⟩) _)
  isplitr; · iexact HR
  isplitl [HO]; · iexact HO
  isplitl [HV]; · iexact HV
  isplitl [HG]; · iexact HG
  iintro ⟨HO, HV, HG⟩
  iapply (recv_guard m ρ K c 3 (by decide) _ (waitc3 c) _ _ (fun h => ⟨_, _, rfl⟩) _)
  isplitr; · iexact HR
  isplitl [HO]; · iexact HO
  isplitl [HV]; · iexact HV
  isplitl [HG]; · iexact HG
  iintro ⟨HO, HV, HG⟩
  rw [wp_ret]; imodintro
  iapply Hk
  isplitl [HO]; · iexact HO
  isplitl [HT]; · iexact HT
  isplitl [HV]; · iexact HV
  iexact HG

/-- Part 5: the waits for rows 4 to 13. -/
theorem part5_spec (K : Dev nD × Fin 33 → ℕ) (c : Dev nD) (Φ : PUnit → sProp 𝕄) :
    iprop(records m ρ K ∗ (∃ W', owes (c : Thread nD τ) 0 W') ∗ RecvRes (F := F) c 4 ∗ GotRes m ρ c 4
        ∗ (((∃ W', owes (c : Thread nD τ) 0 W') ∗ RecvRes (F := F) c 14 ∗ GotRes m ρ c 14) -∗ Φ ⟨⟩))
      ⊢ wp frame (wpE (defs₀ (F := F)) 𝒱₀ (c : Thread nD τ) none) Set.univ (k0_part5 (F := F) xM (Memref.isWhole_whole _) oM (Memref.isWhole_whole _) cM (Memref.isWhole_whole _) cc0_scratch1 cc0_scratch2 (me c)) Φ := by
  rw [k0_part5_eq_skeleton]; unfold k0_part5_skel
  simp only [semSignalWord, semWaitWord, Prog.lift, Prog.bind_op, Prog.bind_ret, Prog.pure_eq_ret]
  iintro ⟨#HR, HO, HV, HG, Hk⟩
  iapply (recv_guard m ρ K c 4 (by decide) _ (waitc4 c) _ _ (fun h => ⟨_, _, rfl⟩) _)
  isplitr; · iexact HR
  isplitl [HO]; · iexact HO
  isplitl [HV]; · iexact HV
  isplitl [HG]; · iexact HG
  iintro ⟨HO, HV, HG⟩
  iapply (recv_guard m ρ K c 5 (by decide) _ (waitc5 c) _ _ (fun h => ⟨_, _, rfl⟩) _)
  isplitr; · iexact HR
  isplitl [HO]; · iexact HO
  isplitl [HV]; · iexact HV
  isplitl [HG]; · iexact HG
  iintro ⟨HO, HV, HG⟩
  iapply (recv_guard m ρ K c 6 (by decide) _ (waitc6 c) _ _ (fun h => ⟨_, _, rfl⟩) _)
  isplitr; · iexact HR
  isplitl [HO]; · iexact HO
  isplitl [HV]; · iexact HV
  isplitl [HG]; · iexact HG
  iintro ⟨HO, HV, HG⟩
  iapply (recv_guard m ρ K c 7 (by decide) _ (waitc7 c) _ _ (fun h => ⟨_, _, rfl⟩) _)
  isplitr; · iexact HR
  isplitl [HO]; · iexact HO
  isplitl [HV]; · iexact HV
  isplitl [HG]; · iexact HG
  iintro ⟨HO, HV, HG⟩
  iapply (recv_guard m ρ K c 8 (by decide) _ (waitc8 c) _ _ (fun h => ⟨_, _, rfl⟩) _)
  isplitr; · iexact HR
  isplitl [HO]; · iexact HO
  isplitl [HV]; · iexact HV
  isplitl [HG]; · iexact HG
  iintro ⟨HO, HV, HG⟩
  iapply (recv_guard m ρ K c 9 (by decide) _ (waitc9 c) _ _ (fun h => ⟨_, _, rfl⟩) _)
  isplitr; · iexact HR
  isplitl [HO]; · iexact HO
  isplitl [HV]; · iexact HV
  isplitl [HG]; · iexact HG
  iintro ⟨HO, HV, HG⟩
  iapply (recv_guard m ρ K c 10 (by decide) _ (waitc10 c) _ _ (fun h => ⟨_, _, rfl⟩) _)
  isplitr; · iexact HR
  isplitl [HO]; · iexact HO
  isplitl [HV]; · iexact HV
  isplitl [HG]; · iexact HG
  iintro ⟨HO, HV, HG⟩
  iapply (recv_guard m ρ K c 11 (by decide) _ (waitc11 c) _ _ (fun h => ⟨_, _, rfl⟩) _)
  isplitr; · iexact HR
  isplitl [HO]; · iexact HO
  isplitl [HV]; · iexact HV
  isplitl [HG]; · iexact HG
  iintro ⟨HO, HV, HG⟩
  iapply (recv_guard m ρ K c 12 (by decide) _ (waitc12 c) _ _ (fun h => ⟨_, _, rfl⟩) _)
  isplitr; · iexact HR
  isplitl [HO]; · iexact HO
  isplitl [HV]; · iexact HV
  isplitl [HG]; · iexact HG
  iintro ⟨HO, HV, HG⟩
  iapply (recv_guard m ρ K c 13 (by decide) _ (waitc13 c) _ _ (fun h => ⟨_, _, rfl⟩) _)
  isplitr; · iexact HR
  isplitl [HO]; · iexact HO
  isplitl [HV]; · iexact HV
  isplitl [HG]; · iexact HG
  iintro ⟨HO, HV, HG⟩
  rw [wp_ret]; imodintro
  iapply Hk
  isplitl [HO]; · iexact HO
  isplitl [HV]; · iexact HV
  iexact HG

/-- Part 7: the waits for the departures towards devices 5 to 14. -/
theorem part7_spec (K : Dev nD × Fin 33 → ℕ) (c : Dev nD) (Φ : BitVec 32 → sProp 𝕄) :
    iprop(records m ρ K ∗ (∃ W', owes (c : Thread nD τ) 0 W') ∗ SWaitRes (F := F) c 5 ∗ BackRes m ρ c 5
        ∗ (((∃ W', owes (c : Thread nD τ) 0 W') ∗ SWaitRes (F := F) c 15 ∗ BackRes m ρ c 15)
            -∗ Φ (Scalar.extui (Scalar.cmpi .ne (me c) 15#32))))
      ⊢ wp frame (wpE (defs₀ (F := F)) 𝒱₀ (c : Thread nD τ) none) Set.univ (k0_part7 (F := F) xM (Memref.isWhole_whole _) oM (Memref.isWhole_whole _) cM (Memref.isWhole_whole _) cc0_scratch1 cc0_scratch2 (me c) (Scalar.extui (Scalar.cmpi .ne (me c) 5#32))) Φ := by
  rw [k0_part7_eq_skeleton]; unfold k0_part7_skel
  simp only [semSignalWord, semWaitWord, Prog.lift, Prog.bind_op, Prog.bind_ret, Prog.pure_eq_ret]
  iintro ⟨#HR, HO, HW, HB, Hk⟩
  iapply (swait_guard m ρ K c 5 (by decide) _ (waitc5 c) _ _ (fun h => ⟨_, _, rfl⟩) _)
  isplitr; · iexact HR
  isplitl [HO]; · iexact HO
  isplitl [HW]; · iexact HW
  isplitl [HB]; · iexact HB
  iintro ⟨HO, HW, HB⟩
  iapply (swait_guard m ρ K c 6 (by decide) _ (waitc6 c) _ _ (fun h => ⟨_, _, rfl⟩) _)
  isplitr; · iexact HR
  isplitl [HO]; · iexact HO
  isplitl [HW]; · iexact HW
  isplitl [HB]; · iexact HB
  iintro ⟨HO, HW, HB⟩
  iapply (swait_guard m ρ K c 7 (by decide) _ (waitc7 c) _ _ (fun h => ⟨_, _, rfl⟩) _)
  isplitr; · iexact HR
  isplitl [HO]; · iexact HO
  isplitl [HW]; · iexact HW
  isplitl [HB]; · iexact HB
  iintro ⟨HO, HW, HB⟩
  iapply (swait_guard m ρ K c 8 (by decide) _ (waitc8 c) _ _ (fun h => ⟨_, _, rfl⟩) _)
  isplitr; · iexact HR
  isplitl [HO]; · iexact HO
  isplitl [HW]; · iexact HW
  isplitl [HB]; · iexact HB
  iintro ⟨HO, HW, HB⟩
  iapply (swait_guard m ρ K c 9 (by decide) _ (waitc9 c) _ _ (fun h => ⟨_, _, rfl⟩) _)
  isplitr; · iexact HR
  isplitl [HO]; · iexact HO
  isplitl [HW]; · iexact HW
  isplitl [HB]; · iexact HB
  iintro ⟨HO, HW, HB⟩
  iapply (swait_guard m ρ K c 10 (by decide) _ (waitc10 c) _ _ (fun h => ⟨_, _, rfl⟩) _)
  isplitr; · iexact HR
  isplitl [HO]; · iexact HO
  isplitl [HW]; · iexact HW
  isplitl [HB]; · iexact HB
  iintro ⟨HO, HW, HB⟩
  iapply (swait_guard m ρ K c 11 (by decide) _ (waitc11 c) _ _ (fun h => ⟨_, _, rfl⟩) _)
  isplitr; · iexact HR
  isplitl [HO]; · iexact HO
  isplitl [HW]; · iexact HW
  isplitl [HB]; · iexact HB
  iintro ⟨HO, HW, HB⟩
  iapply (swait_guard m ρ K c 12 (by decide) _ (waitc12 c) _ _ (fun h => ⟨_, _, rfl⟩) _)
  isplitr; · iexact HR
  isplitl [HO]; · iexact HO
  isplitl [HW]; · iexact HW
  isplitl [HB]; · iexact HB
  iintro ⟨HO, HW, HB⟩
  iapply (swait_guard m ρ K c 13 (by decide) _ (waitc13 c) _ _ (fun h => ⟨_, _, rfl⟩) _)
  isplitr; · iexact HR
  isplitl [HO]; · iexact HO
  isplitl [HW]; · iexact HW
  isplitl [HB]; · iexact HB
  iintro ⟨HO, HW, HB⟩
  iapply (swait_guard m ρ K c 14 (by decide) _ (waitc14 c) _ _ (fun h => ⟨_, _, rfl⟩) _)
  isplitr; · iexact HR
  isplitl [HO]; · iexact HO
  isplitl [HW]; · iexact HW
  isplitl [HB]; · iexact HB
  iintro ⟨HO, HW, HB⟩
  rw [wp_ret]; imodintro
  iapply Hk
  isplitl [HO]; · iexact HO
  isplitl [HW]; · iexact HW
  iexact HB

end Cert.Kernel.Mean

end
-- ==== Proof.WExit.lean ====
import proofs.«900935_g7700000000000936_dist_mean_ax0_shard0_i_m1024_n512_v7x_i16_f32_1_alg».proof.Proof.WInv
import Idealize.ShloMosaic.Rules.PointsTo
import Idealize.ShloMosaic.Lib.Transfers
import Idealize.ShloMosaic.Lib.Rounds
import Idealize.ShloMosaic.Lib.Pipeline.Launch
import Idealize.SL.ProofMode.BigOp

/-!
# The exit: the scratch whole again, the own cells closed

Two regroupings of the sixteen rows of a device's scratch. For the load of all sixteen rows the buffer is
borrowed whole at the share the device kept of its own row: every received row gives up that share of itself.
At the exit the own row's seventeen parts (the share kept and the sixteen lent ones) are joined, the sixteen
rows at the full share are the whole buffer, and each of the thirty-two own cells, past its only round or
never with a duty, is closed with its counter at zero.
-/

noncomputable section

namespace Cert.Kernel.Mean

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The rows of the scratch: pairwise disjoint, covering it -/

/-- The scratch of device `c`, and the elements of its row `j`. -/
abbrev scr (c : Dev nD) : Loc nD τ sig := (c : Thread nD τ).loc cc0_scratch0
def rowSet (c j : Dev nD) : Finset (Idx (scr c)) := (rowM j).view.set

/-- The elements of row `j` are those of its rectangle. -/
theorem rowSet_eq (c j : Dev nD) : rowSet c j = (rowR j).set :=
  (View.set_reshape ((View.whole cc0_scratch0).slice (rowR j)) squeezes_S1x1x512_S1x512.numel_eq).trans
    (View.set_slice_whole cc0_scratch0 (rowR j))

/-- An element whose leading coordinate is `j` lies in row `j`: the other two axes are not cut. -/
theorem exit_mem_rowR (j : Dev nD) (i : S16x1x512.Idx) (h : (i 0).val = j.val) : i ∈ (rowR j).set := by
  rw [Rect.mem_set_unit]
  intro a
  have h1 : (i 1).val < 1 := (i 1).isLt
  have h2 : (i 2).val < 512 := (i 2).isLt
  fin_cases a
  · show j.val ≤ (i 0).val ∧ (i 0).val < j.val + 1
    omega
  · show 0 ≤ (i 1).val ∧ (i 1).val < 0 + 1
    omega
  · show 0 ≤ (i 2).val ∧ (i 2).val < 0 + 512
    omega

/-- Two rows are separated on the leading axis. -/
theorem exit_rowR_disjoint (j j' : Dev nD) (h : j ≠ j') : Disjoint (rowR j).set (rowR j').set := by
  refine Rect.unit_disjoint (0 : Fin 3) ?_
  have hne : j.val ≠ j'.val := fun e => h (Fin.ext e)
  show j.val + 1 ≤ j'.val ∨ j'.val + 1 ≤ j.val
  omega

theorem rows_disjoint (c : Dev nD) :
    ∀ j ∈ (Finset.univ : Finset (Dev nD)), ∀ j' ∈ (Finset.univ : Finset (Dev nD)), j ≠ j' → Disjoint (rowSet c j) (rowSet c j') := by
  intro j _ j' _ h
  rw [rowSet_eq, rowSet_eq]; exact exit_rowR_disjoint j j' h

/-- Every element is in the row its leading coordinate names. -/
theorem rows_cover (c : Dev nD) : (Finset.univ : Finset (Dev nD)).biUnion (rowSet c) = Finset.univ := by
  ext i
  simp only [Finset.mem_biUnion, Finset.mem_univ, true_and, iff_true]
  exact ⟨⟨(i 0).val, (i 0).isLt⟩, by rw [rowSet_eq]; exact exit_mem_rowR _ i rfl⟩

/-- The whole scratch of device `c`, at one share and one valuation, is its sixteen rows. -/
theorem whole_eq_rows (c : Dev nD) (q : PosShare TreeShare) (f : Buf (Elt F) (scr c)) :
    ((scr c ↦[Finset.univ]{q} f) : sProp 𝕄) = bigSep Finset.univ fun j : Dev nD => rowPts c j q f := by
  rw [← rows_cover c, pointsTo_biUnion Finset.univ (ℓ := scr c) (rowSet c) (rows_disjoint c)]
  rfl

/-! ## A family over the devices with nothing at `c` is the family over the others -/

theorem hole_eq (c : Dev nD) (X : Dev nD → sProp 𝕄) :
    (bigSep Finset.univ fun p : Dev nD => if p = c then iprop(emp) else X p) = bigSep (Finset.univ.erase c) X := by
  rw [← Finset.filter_ne' Finset.univ c, bigSep_filter]
  refine bigSep_congr fun p _ => ?_
  by_cases h : p = c
  · rw [if_pos h, if_neg (not_not.mpr h)]; rfl
  · rw [if_neg h, if_pos h]

/-! ## The load of all sixteen rows -/

/-- The sixteen lendable shares of row `p` of device `c`'s scratch. -/
def rowToks (c p : Dev nD) : sProp 𝕄 :=
  bigSep Finset.univ fun i : Fin 16 => rowPts c p (Transfers.shareTok fullShare 16 i) (comm m ρ)

/-- A row at the full share is the share kept of it and the sixteen lendable ones. -/
theorem row_split (c p : Dev nD) :
    rowPts c p fullShare (comm m ρ) = BI.sep (rowPts c p kept (comm m ρ)) (rowToks m ρ c p) :=
  equiv_iff.mp ⟨(Transfers.pointsTo_toks fullShare 16).1, (Transfers.pointsTo_toks fullShare 16).2⟩

/-- The received rows: per other device, its row at the full share and its receive cell past its round. -/
theorem got_eq (c : Dev nD) :
    GotRes m ρ c 16 = bigSep (Finset.univ.erase c) fun p : Dev nD =>
      BI.sep (rowPts c p fullShare (comm m ρ)) (atPos ER (recvCell c p) 1 ∅ 0) := by
  unfold GotRes; rw [lt_all]; exact hole_eq c _

/-- What the received rows hold beside the share lent to the load: their lendable shares and their cells' positions. -/
def LoadRest (c : Dev nD) : sProp 𝕄 :=
  bigSep (Finset.univ.erase c) fun p : Dev nD => BI.sep (rowToks m ρ c p) (atPos ER (recvCell c p) 1 ∅ 0)

/-- The received rows and the own row at the share kept are the whole scratch at that share, and the rest. -/
theorem load_eq (c : Dev nD) :
    BI.sep (GotRes m ρ c 16) (rowPts c c kept (comm m ρ))
      = BI.sep ((scr c ↦[Finset.univ]{kept} comm m ρ) : sProp 𝕄) (LoadRest m ρ c) := by
  have h1 : (bigSep (Finset.univ.erase c) fun p : Dev nD =>
        BI.sep (rowPts c p fullShare (comm m ρ)) (atPos ER (recvCell c p) 1 ∅ 0))
      = BI.sep (bigSep (Finset.univ.erase c) fun p : Dev nD => rowPts c p kept (comm m ρ)) (LoadRest m ρ c) := by
    unfold LoadRest
    rw [← bigSep_sep]
    refine bigSep_congr fun p _ => ?_
    rw [row_split m ρ c p]
    show iprop((rowPts c p kept (comm m ρ) ∗ rowToks m ρ c p) ∗ atPos ER (recvCell c p) 1 ∅ 0)
      = iprop(rowPts c p kept (comm m ρ) ∗ rowToks m ρ c p ∗ atPos ER (recvCell c p) 1 ∅ 0)
    refine equiv_iff.mp ⟨?_, ?_⟩
    · show iprop((rowPts c p kept (comm m ρ) ∗ rowToks m ρ c p) ∗ atPos ER (recvCell c p) 1 ∅ 0)
        ⊢ iprop(rowPts c p kept (comm m ρ) ∗ rowToks m ρ c p ∗ atPos ER (recvCell c p) 1 ∅ 0)
      iintro ⟨⟨H1, H2⟩, H3⟩
      isplitl [H1]; · iexact H1
      isplitl [H2]; · iexact H2
      iexact H3
    · show iprop(rowPts c p kept (comm m ρ) ∗ rowToks m ρ c p ∗ atPos ER (recvCell c p) 1 ∅ 0)
        ⊢ iprop((rowPts c p kept (comm m ρ) ∗ rowToks m ρ c p) ∗ atPos ER (recvCell c p) 1 ∅ 0)
      iintro ⟨H1, H2, H3⟩
      isplitl [H1 H2]
      · isplitl [H1]; · iexact H1
        iexact H2
      · iexact H3
  rw [got_eq m ρ c, h1, whole_eq_rows c kept (comm m ρ),
    bigSep_univ_split c (Φ := fun j : Dev nD => rowPts c j kept (comm m ρ))]
  refine equiv_iff.mp ⟨?_, ?_⟩
  · show iprop(((bigSep (Finset.univ.erase c) fun p : Dev nD => rowPts c p kept (comm m ρ)) ∗ LoadRest m ρ c) ∗ rowPts c c kept (comm m ρ))
      ⊢ iprop((rowPts c c kept (comm m ρ) ∗ bigSep (Finset.univ.erase c) fun p : Dev nD => rowPts c p kept (comm m ρ)) ∗ LoadRest m ρ c)
    iintro ⟨⟨Hk, HR⟩, Hc⟩
    isplitl [Hk Hc]
    · isplitl [Hc]; · iexact Hc
      iexact Hk
    · iexact HR
  · show iprop((rowPts c c kept (comm m ρ) ∗ bigSep (Finset.univ.erase c) fun p : Dev nD => rowPts c p kept (comm m ρ)) ∗ LoadRest m ρ c)
      ⊢ iprop(((bigSep (Finset.univ.erase c) fun p : Dev nD => rowPts c p kept (comm m ρ)) ∗ LoadRest m ρ c) ∗ rowPts c c kept (comm m ρ))
    iintro ⟨⟨Hc, Hk⟩, HR⟩
    isplitl [Hk HR]
    · isplitl [Hk]; · iexact Hk
      iexact HR
    · iexact Hc

theorem load_whole (c : Dev nD) :
    iprop(GotRes m ρ c 16 ∗ rowPts c c kept (comm m ρ))
      ⊢ iprop(∃ R : sProp 𝕄, (((c : Thread nD τ).loc cc0_scratch0) ↦[Finset.univ]{kept} comm m ρ) ∗ R
          ∗ ((((c : Thread nD τ).loc cc0_scratch0) ↦[Finset.univ]{kept} comm m ρ) ∗ R -∗ iprop(GotRes m ρ c 16 ∗ rowPts c c kept (comm m ρ))) : sProp 𝕄) := by
  have e := load_eq m ρ c
  have fwd : iprop(GotRes m ρ c 16 ∗ rowPts c c kept (comm m ρ))
      ⊢ iprop(((scr c ↦[Finset.univ]{kept} comm m ρ) : sProp 𝕄) ∗ LoadRest m ρ c) := (equiv_iff.mpr e).1
  have bwd : iprop(((scr c ↦[Finset.univ]{kept} comm m ρ) : sProp 𝕄) ∗ LoadRest m ρ c)
      ⊢ iprop(GotRes m ρ c 16 ∗ rowPts c c kept (comm m ρ)) := (equiv_iff.mpr e).2
  iintro H
  iexists (LoadRest m ρ c)
  ihave H' := fwd $$ H
  icases H' with ⟨HA, HR⟩
  isplitl [HA]; · iexact HA
  isplitl [HR]; · iexact HR
  iintro ⟨HA, HR⟩
  iapply bwd
  isplitl [HA]; · iexact HA
  iexact HR

/-! ## The exit: the own row whole again -/

/-- The departures seen: per other device, the share lent to it back and its send cell past its round. -/
theorem back_eq (c : Dev nD) :
    BackRes m ρ c 16 = bigSep (Finset.univ.erase c) fun d : Dev nD =>
      BI.sep (rowPts c c (lent d) (comm m ρ)) (atPos ER (sendCell c d) 1 ∅ 0) := by
  unfold BackRes; rw [lt_all]; exact hole_eq c _

/-- The share kept of the own row, the share never lent and the fifteen lent ones are the row at the full share. -/
theorem own_join (c : Dev nD) :
    iprop(rowPts c c kept (comm m ρ) ∗ rowPts c c (lent c) (comm m ρ)
        ∗ bigSep (Finset.univ.erase c) fun d : Dev nD => rowPts c c (lent d) (comm m ρ))
      ⊢ rowPts c c fullShare (comm m ρ) := by
  have e : (bigSep Finset.univ fun d : Dev nD => rowPts c c (lent d) (comm m ρ))
      = iprop(rowPts c c (lent c) (comm m ρ) ∗ bigSep (Finset.univ.erase c) fun d : Dev nD => rowPts c c (lent d) (comm m ρ)) :=
    bigSep_univ_split c
  rw [← e]
  exact (equiv_iff.mpr (row_split m ρ c c)).2

/-- The own row and the fifteen others, all at the full share, are the whole scratch. -/
theorem rows_join (c : Dev nD) :
    iprop(rowPts c c fullShare (comm m ρ) ∗ bigSep (Finset.univ.erase c) fun p : Dev nD => rowPts c p fullShare (comm m ρ))
      ⊢ ((scr c ↦{fullShare} comm m ρ) : sProp 𝕄) := by
  have e : (bigSep Finset.univ fun p : Dev nD => rowPts c p fullShare (comm m ρ))
      = iprop(rowPts c c fullShare (comm m ρ) ∗ bigSep (Finset.univ.erase c) fun p : Dev nD => rowPts c p fullShare (comm m ρ)) :=
    bigSep_univ_split c
  rw [← e, ← whole_eq_rows c fullShare (comm m ρ)]

/-! ## The exit: the own cells closed -/

/-- The numbers of device `c`'s send and receive cells `j` among its thirty-three. -/
abbrev sendIx (j : Dev nD) : Fin 33 := ⟨j.val + 1, by have : j.val < 16 := j.isLt; omega⟩
abbrev recvIx (j : Dev nD) : Fin 33 := ⟨j.val + 17, by have : j.val < 16 := j.isLt; omega⟩

theorem exit_inv_send (K : Dev nD × Fin 33 → ℕ) (c j : Dev nD) :
    records m ρ K ⊢ cellInv ER (sched m ρ) (K (c, sendIx j)) (sendCell c j) := by
  have h : (bigSep Finset.univ fun ck : Dev nD × Fin 33 => cellInv ER (sched m ρ) (K ck) (kcell ck))
      ⊢ cellInv ER (sched m ρ) (K (c, sendIx j)) (kcell (c, sendIx j)) :=
    bigSep_elim (Finset.mem_univ ((c, sendIx j) : Dev nD × Fin 33))
  have hk : kcell (c, sendIx j) = sendCell c j := kcell_send c j
  rw [hk] at h
  unfold records
  iintro ⟨H, -⟩
  iapply h; iexact H

theorem exit_inv_recv (K : Dev nD × Fin 33 → ℕ) (c j : Dev nD) :
    records m ρ K ⊢ cellInv ER (sched m ρ) (K (c, recvIx j)) (recvCell c j) := by
  have h : (bigSep Finset.univ fun ck : Dev nD × Fin 33 => cellInv ER (sched m ρ) (K ck) (kcell ck))
      ⊢ cellInv ER (sched m ρ) (K (c, recvIx j)) (kcell (c, recvIx j)) :=
    bigSep_elim (Finset.mem_univ ((c, recvIx j) : Dev nD × Fin 33))
  have hk : kcell (c, recvIx j) = recvCell c j := kcell_recv c j
  rw [hk] at h
  unfold records
  iintro ⟨H, -⟩
  iapply h; iexact H

/-- A send cell at a round from which it has no duty, nothing of it taken, is closed: its counter is at zero. -/
theorem close_send (K : Dev nD × Fin 33 → ℕ) (c j : Dev nD) (R : ℕ)
    (hR : ∀ r, R ≤ r → (sched (F := F) m ρ).duties (sendCell c j) r = ∅) :
    iprop(records m ρ K ∗ atPos ER (sendCell c j) R ∅ 0) ⊢ iprop(|={Set.univ}=> semVal (sendCell c j) 0 : sProp 𝕄) := by
  iintro ⟨Hrec, Hat⟩
  iapply (Rounds.cell_close ER (sched m ρ) (Set.mem_univ (K (c, sendIx j))) (fun h => h) (R := R) hR)
  isplitl [Hrec]
  · iapply (exit_inv_send m ρ K c j); iexact Hrec
  · iexact Hat

/-- The same of a receive cell. -/
theorem close_recv (K : Dev nD × Fin 33 → ℕ) (c j : Dev nD) (R : ℕ)
    (hR : ∀ r, R ≤ r → (sched (F := F) m ρ).duties (recvCell c j) r = ∅) :
    iprop(records m ρ K ∗ atPos ER (recvCell c j) R ∅ 0) ⊢ iprop(|={Set.univ}=> semVal (recvCell c j) 0 : sProp 𝕄) := by
  iintro ⟨Hrec, Hat⟩
  iapply (Rounds.cell_close ER (sched m ρ) (Set.mem_univ (K (c, recvIx j))) (fun h => h) (R := R) hR)
  isplitl [Hrec]
  · iapply (exit_inv_recv m ρ K c j); iexact Hrec
  · iexact Hat

/-- All sixteen send cells of device `c`: the one towards itself never had a duty, the others are past their round. -/
theorem close_sends (K : Dev nD × Fin 33 → ℕ) (c : Dev nD) :
    iprop(records m ρ K ∗ atPos ER (sendCell c c) 0 ∅ 0
        ∗ bigSep (Finset.univ.erase c) fun d : Dev nD => atPos ER (sendCell c d) 1 ∅ 0)
      ⊢ iprop(|={Set.univ}=> bigSep Finset.univ fun d : Dev nD => semVal (sendCell c d) 0 : sProp 𝕄) := by
  have e : (bigSep Finset.univ fun d : Dev nD => iprop(|={Set.univ}=> semVal (sendCell c d) 0 : sProp 𝕄))
      = iprop((|={Set.univ}=> semVal (sendCell c c) 0)
          ∗ bigSep (Finset.univ.erase c) fun d : Dev nD => iprop(|={Set.univ}=> semVal (sendCell c d) 0 : sProp 𝕄)) :=
    bigSep_univ_split c
  refine BIBase.Entails.trans ?_ (bigSep_fupd Finset.univ _)
  rw [e]
  iintro ⟨#Hrec, Hc, Ho⟩
  isplitl [Hc]
  · iapply (close_send m ρ K c c 0 (fun r _ => duties_send_self m ρ c r))
    isplitr; · iexact Hrec
    iexact Hc
  · iapply (bigSep_with_persistent (R := records m ρ K)
      (Φ := fun d : Dev nD => atPos ER (sendCell c d) 1 ∅ 0)
      (Ψ := fun d : Dev nD => iprop(|={Set.univ}=> semVal (sendCell c d) 0 : sProp 𝕄))
      (fun d _ => close_send m ρ K c d 1 (duties_later m ρ (sendCell c d))))
    isplitr; · iexact Hrec
    iexact Ho

/-- All sixteen receive cells, likewise. -/
theorem close_recvs (K : Dev nD × Fin 33 → ℕ) (c : Dev nD) :
    iprop(records m ρ K ∗ atPos ER (recvCell c c) 0 ∅ 0
        ∗ bigSep (Finset.univ.erase c) fun p : Dev nD => atPos ER (recvCell c p) 1 ∅ 0)
      ⊢ iprop(|={Set.univ}=> bigSep Finset.univ fun p : Dev nD => semVal (recvCell c p) 0 : sProp 𝕄) := by
  have e : (bigSep Finset.univ fun p : Dev nD => iprop(|={Set.univ}=> semVal (recvCell c p) 0 : sProp 𝕄))
      = iprop((|={Set.univ}=> semVal (recvCell c c) 0)
          ∗ bigSep (Finset.univ.erase c) fun p : Dev nD => iprop(|={Set.univ}=> semVal (recvCell c p) 0 : sProp 𝕄)) :=
    bigSep_univ_split c
  refine BIBase.Entails.trans ?_ (bigSep_fupd Finset.univ _)
  rw [e]
  iintro ⟨#Hrec, Hc, Ho⟩
  isplitl [Hc]
  · iapply (close_recv m ρ K c c 0 (fun r _ => duties_recv_self m ρ c r))
    isplitr; · iexact Hrec
    iexact Hc
  · iapply (bigSep_with_persistent (R := records m ρ K)
      (Φ := fun p : Dev nD => atPos ER (recvCell c p) 1 ∅ 0)
      (Ψ := fun p : Dev nD => iprop(|={Set.univ}=> semVal (recvCell c p) 0 : sProp 𝕄))
      (fun p _ => close_recv m ρ K c p 1 (duties_later m ρ (recvCell c p))))
    isplitr; · iexact Hrec
    iexact Ho

/-! ## The own semaphores, numbered as the launch numbers them -/

/-- The thirty-two own semaphores are the sixteen send cells followed by the sixteen receive cells. -/
def exit_cellIx : Dev nD ⊕ Dev nD ≃ Fin 32 := finSumFinEquiv (m := 16) (n := 16)

theorem osem_send (j : Dev nD) : osem (exit_cellIx (Sum.inl j)) = SemLoc.dma (sendS j) := by
  refine congrArg SemLoc.dma (Fin.ext ?_)
  rw [sendS_val]
  have h : (exit_cellIx (Sum.inl j)).val = j.val := rfl
  show (exit_cellIx (Sum.inl j)).val + 2 = 2 + j.val
  omega

theorem osem_recv (j : Dev nD) : osem (exit_cellIx (Sum.inr j)) = SemLoc.dma (recvS j) := by
  refine congrArg SemLoc.dma (Fin.ext ?_)
  rw [recvS_val]
  have h : (exit_cellIx (Sum.inr j)).val = 16 + j.val := rfl
  show (exit_cellIx (Sum.inr j)).val + 2 = 18 + j.val
  omega

/-- The own semaphores at zero are the send cells at zero and the receive cells at zero. -/
theorem ownSems0_eq (c : Dev nD) :
    (Pipeline.ownSems0 osem c : sProp 𝕄)
      = BI.sep (bigSep Finset.univ fun j : Dev nD => semVal (sendCell c j) 0)
          (bigSep Finset.univ fun j : Dev nD => semVal (recvCell c j) 0) := by
  unfold Pipeline.ownSems0
  rw [bigSep_univ_equiv exit_cellIx, bigSep_univ_sum]
  simp only [osem_send, osem_recv]

/-! ## The exit -/

theorem exit_close (K : Dev nD × Fin 33 → ℕ) (c : Dev nD) :
    iprop(records m ρ K ∗ GotRes m ρ c 16 ∗ BackRes m ρ c 16 ∗ rowPts c c kept (comm m ρ) ∗ rowPts c c (lent c) (comm m ρ)
        ∗ atPos ER (recvCell c c) 0 ∅ 0 ∗ atPos ER (sendCell c c) 0 ∅ 0)
      ⊢ iprop(|={Set.univ}=> ((∃ f : Buf (Elt F) ((c : Thread nD τ).loc cc0_scratch0), ((c : Thread nD τ).loc cc0_scratch0) ↦{fullShare} f)
          ∗ Pipeline.ownSems0 osem c) : sProp 𝕄) := by
  have eg : GotRes m ρ c 16
      = iprop((bigSep (Finset.univ.erase c) fun p : Dev nD => rowPts c p fullShare (comm m ρ))
          ∗ bigSep (Finset.univ.erase c) fun p : Dev nD => atPos ER (recvCell c p) 1 ∅ 0) := by
    rw [got_eq m ρ c]; exact bigSep_sep _ _ _
  have eb : BackRes m ρ c 16
      = iprop((bigSep (Finset.univ.erase c) fun d : Dev nD => rowPts c c (lent d) (comm m ρ))
          ∗ bigSep (Finset.univ.erase c) fun d : Dev nD => atPos ER (sendCell c d) 1 ∅ 0) := by
    rw [back_eq m ρ c]; exact bigSep_sep _ _ _
  have eo : (Pipeline.ownSems0 osem c : sProp 𝕄)
      = iprop((bigSep Finset.univ fun j : Dev nD => semVal (sendCell c j) 0)
          ∗ bigSep Finset.univ fun j : Dev nD => semVal (recvCell c j) 0) := ownSems0_eq c
  rw [eg, eb, eo]
  iintro ⟨#Hrec, ⟨Hrows, HatR⟩, ⟨Hlent, HatS⟩, Hk, Hlc, HatRc, HatSc⟩
  ihave Hown := (own_join m ρ c) $$ [Hk Hlc Hlent]
  · isplitl [Hk]; · iexact Hk
    isplitl [Hlc]; · iexact Hlc
    iexact Hlent
  ihave Hwhole := (rows_join m ρ c) $$ [Hown Hrows]
  · isplitl [Hown]; · iexact Hown
    iexact Hrows
  imod (close_sends m ρ K c) $$ [HatSc HatS] with HS
  · isplitr; · iexact Hrec
    isplitl [HatSc]; · iexact HatSc
    iexact HatS
  imod (close_recvs m ρ K c) $$ [HatRc HatR] with HR
  · isplitr; · iexact Hrec
    isplitl [HatRc]; · iexact HatRc
    iexact HatR
  imodintro
  isplitl [Hwhole]
  · iexists (comm m ρ); iexact Hwhole
  · isplitl [HS]; · iexact HS
    iexact HR

/-! ## Axioms -/

/-- info: 'Cert.Kernel.Mean.load_whole' depends on axioms: [propext, Classical.choice, Quot.sound] -/
#guard_msgs in #print axioms load_whole
/-- info: 'Cert.Kernel.Mean.exit_close' depends on axioms: [propext, Classical.choice, Quot.sound] -/
#guard_msgs in #print axioms exit_close

end Cert.Kernel.Mean

end
-- ==== Proof.WPartsC.lean ====
import proofs.«900935_g7700000000000936_dist_mean_ax0_shard0_i_m1024_n512_v7x_i16_f32_1_alg».proof.Proof.WSteps2
import proofs.«900935_g7700000000000936_dist_mean_ax0_shard0_i_m1024_n512_v7x_i16_f32_1_alg».proof.Proof.WBlocks
import proofs.«900935_g7700000000000936_dist_mean_ax0_shard0_i_m1024_n512_v7x_i16_f32_1_alg».proof.Proof.WExit
import proofs.«900935_g7700000000000936_dist_mean_ax0_shard0_i_m1024_n512_v7x_i16_f32_1_alg».proof.Proof.WConds

/-!
# The seven parts of the body

The body is printed in seven consecutive parts. Each is run from the state of its sweep at its first step to the
state at its last, one application of the sweep's step per guarded statement.
-/

noncomputable section

namespace Cert.Kernel.Mean

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Part 6: the waits for rows 14 and 15, the sum of the sixteen rows times 2^-14 into the result block, and the waits
    for the departures towards devices 0 to 4. -/
theorem part6_spec (K : Dev nD × Fin 33 → ℕ) (c : Dev nD) (g : Buf (Elt F) ((c : Thread nD τ).loc cc0_stg1_0))
    (Φ : BitVec 32 → sProp 𝕄) :
    iprop(records m ρ K ∗ (∃ W', owes (c : Thread nD τ) 0 W') ∗ RecvRes (F := F) c 14 ∗ GotRes m ρ c 14
        ∗ rowPts c c kept (comm m ρ) ∗ (((c : Thread nD τ).loc cc0_stg1_0) ↦{fullShare} g)
        ∗ SWaitRes (F := F) c 0 ∗ BackRes m ρ c 0
        ∗ (((∃ W', owes (c : Thread nD τ) 0 W') ∗ GotRes m ρ c 16 ∗ rowPts c c kept (comm m ρ)
              ∗ (((c : Thread nD τ).loc cc0_stg1_0) ↦{fullShare} outAt m ρ) ∗ SWaitRes (F := F) c 5 ∗ BackRes m ρ c 5)
            -∗ Φ (Scalar.extui (Scalar.cmpi .ne (me c) 5#32))))
      ⊢ wp frame (wpE (defs₀ (F := F)) 𝒱₀ (c : Thread nD τ) none) Set.univ (k0_part6 (F := F) xM (Memref.isWhole_whole _) oM (Memref.isWhole_whole _) cM (Memref.isWhole_whole _) cc0_scratch1 cc0_scratch2 (me c)) Φ := by
  rw [k0_part6_eq_skeleton]; unfold k0_part6_skel
  simp only [semSignalWord, semWaitWord, Prog.lift, Prog.bind_op, Prog.bind_ret, Prog.pure_eq_ret]
  iintro ⟨#HR, HO, HV, HG, Hkept, Hout, HW, HB, Hk⟩
  iapply (recv_guard m ρ K c 14 (by decide) _ (waitc14 c) _ _ (fun h => ⟨_, _, rfl⟩) _)
  isplitr; · iexact HR
  isplitl [HO]; · iexact HO
  isplitl [HV]; · iexact HV
  isplitl [HG]; · iexact HG
  iintro ⟨HO, HV, HG⟩
  iapply (recv_guard m ρ K c 15 (by decide) _ (waitc15 c) _ _ (fun h => ⟨_, _, rfl⟩) _)
  isplitr; · iexact HR
  isplitl [HO]; · iexact HO
  isplitl [HV]; · iexact HV
  isplitl [HG]; · iexact HG
  iintro ⟨HO, HV, HG⟩
  ihave H := (load_whole m ρ c) $$ [HG Hkept]
  · isplitl [HG]; · iexact HG
    iexact Hkept
  icases H with ⟨%R, Hwhole, Hrest, Hback⟩
  iapply (compute_block m ρ c g _ Φ)
  isplitl [Hwhole]; · iexact Hwhole
  isplitl [Hout]; · iexact Hout
  iintro ⟨Hwhole, Hout⟩
  ihave H := Hback $$ [Hwhole Hrest]
  · isplitl [Hwhole]; · iexact Hwhole
    iexact Hrest
  icases H with ⟨HG, Hkept⟩
  iapply (swait_guard m ρ K c 0 (by decide) _ (waitc0 c) _ _ (fun h => ⟨_, _, rfl⟩) _)
  isplitr; · iexact HR
  isplitl [HO]; · iexact HO
  isplitl [HW]; · iexact HW
  isplitl [HB]; · iexact HB
  iintro ⟨HO, HW, HB⟩
  iapply (swait_guard m ρ K c 1 (by decide) _ (waitc1 c) _ _ (fun h => ⟨_, _, rfl⟩) _)
  isplitr; · iexact HR
  isplitl [HO]; · iexact HO
  isplitl [HW]; · iexact HW
  isplitl [HB]; · iexact HB
  iintro ⟨HO, HW, HB⟩
  iapply (swait_guard m ρ K c 2 (by decide) _ (waitc2 c) _ _ (fun h => ⟨_, _, rfl⟩) _)
  isplitr; · iexact HR
  isplitl [HO]; · iexact HO
  isplitl [HW]; · iexact HW
  isplitl [HB]; · iexact HB
  iintro ⟨HO, HW, HB⟩
  iapply (swait_guard m ρ K c 3 (by decide) _ (waitc3 c) _ _ (fun h => ⟨_, _, rfl⟩) _)
  isplitr; · iexact HR
  isplitl [HO]; · iexact HO
  isplitl [HW]; · iexact HW
  isplitl [HB]; · iexact HB
  iintro ⟨HO, HW, HB⟩
  iapply (swait_guard m ρ K c 4 (by decide) _ (waitc4 c) _ _ (fun h => ⟨_, _, rfl⟩) _)
  isplitr; · iexact HR
  isplitl [HO]; · iexact HO
  isplitl [HW]; · iexact HW
  isplitl [HB]; · iexact HB
  iintro ⟨HO, HW, HB⟩
  rw [wp_ret]; imodintro
  iapply Hk
  isplitl [HO]; · iexact HO
  isplitl [HG]; · iexact HG
  isplitl [Hkept]; · iexact Hkept
  isplitl [Hout]; · iexact Hout
  isplitl [HW]; · iexact HW
  iexact HB

end Cert.Kernel.Mean

end
-- ==== Proof.WEnter.lean ====
import proofs.«900935_g7700000000000936_dist_mean_ax0_shard0_i_m1024_n512_v7x_i16_f32_1_alg».proof.Proof.WInv

/-!
# Entering the body: the launch-time resources, regrouped per sweep

A device starts with one position per cell (numbered 0 to 32), one triple of duty tokens per device, and
its scratch whole. The sweeps want these per device: this module splits and re-indexes them, with `emp` in
the place of the device itself. Nothing is updated here: every statement is a regrouping of `∗`.
-/

noncomputable section

namespace Cert.Kernel.Mean

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## All but one index: the same family over every index, `emp` at the one left out -/

theorem bigSep_erase_ite {M : Type*} [URA M] {I : Type*} [Fintype I] [DecidableEq I] (c : I) (Φ : I → sProp M) :
    bigSep (Finset.univ.erase c) Φ = bigSep Finset.univ fun d => if d = c then iprop(emp) else Φ d := by
  rw [← Finset.filter_ne' Finset.univ c, bigSep_filter]
  exact bigSep_congr fun d _ => by
    by_cases h : d = c
    · rw [if_neg (not_not.mpr h), if_pos h]; rfl
    · rw [if_pos h, if_neg h]

/-! ## The receive sweep and the send-wait sweep: credit and position, cell by cell -/

/-- The credits of the fifteen rows awaited and the sixteen receive positions: per other device its credit and
    position; the position of the device's own (dutiless) receive cell is left over. -/
theorem to_recv (c : Dev nD) :
    iprop((bigSep (Finset.univ.erase c) fun p : Dev nD => (cred (tallyAt (recvCell c p) () N) : sProp 𝕄))
        ∗ (bigSep Finset.univ fun j : Dev nD => atPos ER (recvCell c j) 0 ∅ 0))
      ⊢ iprop(RecvRes (F := F) c 0 ∗ atPos ER (recvCell c c) 0 ∅ 0 : sProp 𝕄) := by
  unfold RecvRes
  rw [ge_zero, bigSep_univ_at (fun j : Dev nD => (atPos ER (recvCell c j) 0 ∅ 0 : sProp 𝕄)) c,
    ← bigSep_erase_ite c (fun p : Dev nD => iprop(cred (tallyAt (recvCell c p) () N) ∗ atPos ER (recvCell c p) 0 ∅ 0 : sProp 𝕄)),
    bigSep_sep']
  iintro ⟨Hc, Hp, Ha⟩
  isplitr [Hp]
  · isplitl [Hc] <;> iassumption
  · iexact Hp

/-- The same for the departures: the credits of the fifteen transfers made and the sixteen send positions. -/
theorem to_swait (c : Dev nD) :
    iprop(SentRes (F := F) c 16 ∗ (bigSep Finset.univ fun j : Dev nD => atPos ER (sendCell c j) 0 ∅ 0))
      ⊢ iprop(SWaitRes (F := F) c 0 ∗ atPos ER (sendCell c c) 0 ∅ 0 : sProp 𝕄) := by
  unfold SentRes SWaitRes
  rw [lt_all, ge_zero, bigSep_univ_at (fun j : Dev nD => (atPos ER (sendCell c j) 0 ∅ 0 : sProp 𝕄)) c,
    ← bigSep_erase_ite c (fun d : Dev nD => iprop(cred (tallyAt (sendCell c d) () N) : sProp 𝕄)),
    ← bigSep_erase_ite c (fun d : Dev nD => iprop(cred (tallyAt (sendCell c d) () N) ∗ atPos ER (sendCell c d) 0 ∅ 0 : sProp 𝕄)),
    bigSep_sep']
  iintro ⟨Hc, Hp, Ha⟩
  isplitr [Hp]
  · isplitl [Hc] <;> iassumption
  · iexact Hp

/-! ## The transfer sweep: the own row's read shares, the landing rows, the tokens -/

/-- The device's own row, whole, is what it keeps and one read share per device. -/
theorem own_row_shares (c : Dev nD) :
    (rowPts c c fullShare (comm m ρ) : sProp 𝕄)
      ⊢ iprop(rowPts c c kept (comm m ρ) ∗ rowPts c c (lent c) (comm m ρ)
          ∗ bigSep (Finset.univ.erase c) fun d : Dev nD => rowPts c c (lent d) (comm m ρ)) := by
  unfold rowPts
  refine (Transfers.pointsTo_toks_split fullShare 16).trans (Entails.of_eq ?_)
  exact congrArg _ (bigSep_univ_at (fun d : Dev nD =>
    ((rowM c).view.loc (c : Thread nD τ) ↦[(rowM c).view.set]{lent d} comm m ρ : sProp 𝕄)) c)

/-- Before the first transfer: per other device the two tokens, the landing row on it (handed over by its entry
    signal) and the read share of the own row lent to that transfer; what is kept of the own row, and the share
    of the device itself, which no transfer uses, stay aside. -/
theorem to_send (c : Dev nD) :
    iprop(rowPts c c fullShare (comm m ρ)
        ∗ (bigSep (Finset.univ.erase c) fun d : Dev nD => barPay (F := F) c d)
        ∗ (bigSep (Finset.univ.erase c) fun d : Dev nD => iprop(dutyTok ER (recvCell d c) 0 c ∗ dutyTok ER (sendCell c d) 0 d)))
      ⊢ iprop(SendRes m ρ c 0 ∗ rowPts c c kept (comm m ρ) ∗ rowPts c c (lent c) (comm m ρ) : sProp 𝕄) := by
  unfold SendRes barPay rowAny
  have eR : (bigSep (Finset.univ.erase c) fun d : Dev nD =>
        iprop(dutyTok ER (recvCell d c) 0 c ∗ dutyTok ER (sendCell c d) 0 d
          ∗ (∃ f, rowPts (F := F) d c fullShare f) ∗ rowPts c c (lent d) (comm m ρ)) : sProp 𝕄)
      = iprop((bigSep (Finset.univ.erase c) fun d : Dev nD => dutyTok ER (recvCell d c) 0 c)
          ∗ (bigSep (Finset.univ.erase c) fun d : Dev nD => dutyTok ER (sendCell c d) 0 d)
          ∗ (bigSep (Finset.univ.erase c) fun d : Dev nD => iprop(∃ f, rowPts (F := F) d c fullShare f))
          ∗ (bigSep (Finset.univ.erase c) fun d : Dev nD => rowPts c c (lent d) (comm m ρ))) := by
    rw [bigSep_sep', bigSep_sep', bigSep_sep']
  rw [ge_zero, ← bigSep_erase_ite c (fun d : Dev nD =>
      iprop(dutyTok ER (recvCell d c) 0 c ∗ dutyTok ER (sendCell c d) 0 d
        ∗ (∃ f, rowPts (F := F) d c fullShare f) ∗ rowPts c c (lent d) (comm m ρ) : sProp 𝕄)), eR, bigSep_sep']
  iintro ⟨Hrow, Hbar, Hrt, Hst⟩
  ihave H := (own_row_shares m ρ c) $$ Hrow
  icases H with ⟨Hk, Hl, Hls⟩
  isplitr [Hk Hl]
  · isplitl [Hrt]; · iexact Hrt
    isplitl [Hst]; · iexact Hst
    isplitl [Hbar]; · iexact Hbar
    iexact Hls
  · isplitl [Hk] <;> iassumption

/-! ## The scratch, row by row

An index of the scratch lies in row `j` exactly when its first coordinate is `j`: the sixteen rows are pairwise
disjoint and cover the scratch, so the scratch held whole is its sixteen rows held one by one. -/

theorem rowM_set (j : Dev nD) : (rowM j).view.set = (rowR j).set :=
  (View.set_reshape _ _).trans (View.set_slice_whole cc0_scratch0 (rowR j))

theorem mem_rowR (j : Dev nD) (i : S16x1x512.Idx) : i ∈ (rowR j).set ↔ (i 0).val = j.val := by
  rw [Rect.mem_set_unit]
  have h1 : (i 1).val < 1 := (i 1).isLt
  have h2 : (i 2).val < 512 := (i 2).isLt
  constructor
  · intro h
    have h0 : j.val ≤ (i 0).val ∧ (i 0).val < j.val + 1 := h 0
    omega
  · intro h a
    fin_cases a
    · show j.val ≤ (i 0).val ∧ (i 0).val < j.val + 1; omega
    · show 0 ≤ (i 1).val ∧ (i 1).val < 0 + 1; omega
    · show 0 ≤ (i 2).val ∧ (i 2).val < 0 + 512; omega

theorem rowR_disjoint (j j' : Dev nD) (h : j ≠ j') : Disjoint (rowR j).set (rowR j').set :=
  Finset.disjoint_left.mpr fun i hi hi' => h (Fin.ext (((mem_rowR j i).mp hi).symm.trans ((mem_rowR j' i).mp hi')))

theorem rowM_disjoint (j j' : Dev nD) (h : j ≠ j') : Disjoint (rowM j).view.set (rowM j').view.set := by
  rw [rowM_set, rowM_set]; exact rowR_disjoint j j' h

theorem rowM_cover (i : S16x1x512.Idx) : i ∈ (rowM (⟨(i 0).val, (i 0).isLt⟩ : Dev nD)).view.set := by
  rw [rowM_set]; exact (mem_rowR _ i).mpr rfl

/-- The scratch of a device held whole, at any share and contents, is its sixteen rows. -/
theorem scratch_rows (c : Dev nD) (q : PosShare TreeShare) (f : Buf (Elt F) ((c : Thread nD τ).loc cc0_scratch0)) :
    (((c : Thread nD τ).loc cc0_scratch0) ↦{q} f : sProp 𝕄) = bigSep Finset.univ fun j : Dev nD => rowPts c j q f := by
  unfold rowPts
  refine Eq.trans (congrArg (fun I => (pointsTo ((c : Thread nD τ).loc cc0_scratch0) I q f : sProp 𝕄)) ?_)
    (pointsTo_biUnion (ℓ := (c : Thread nD τ).loc cc0_scratch0) (q := q) (f := f) Finset.univ
      (fun j : Dev nD => (rowM j).view.set) (fun j _ j' _ h => rowM_disjoint j j' h))
  ext i
  simp only [Finset.mem_univ, Finset.mem_biUnion, true_and, true_iff]
  exact ⟨_, rowM_cover i⟩

/-! ## The thirty-three cells of a device: the barrier, the send cells, the receive cells -/

/-- Cell 0 is the barrier, cell `j + 1` the send cell `j`, cell `j + 17` the receive cell `j`. -/
def cellIx : Unit ⊕ Dev nD ⊕ Dev nD ≃ Fin 33 where
  toFun x := match x with
    | .inl _ => 0
    | .inr (.inl j) => ⟨j.val + 1, by have : j.val < 16 := j.isLt; omega⟩
    | .inr (.inr j) => ⟨j.val + 17, by have : j.val < 16 := j.isLt; omega⟩
  invFun k :=
    if h0 : k.val = 0 then .inl ()
    else if h1 : k.val < 17 then .inr (.inl ⟨k.val - 1, by show k.val - 1 < 16; omega⟩)
    else .inr (.inr ⟨k.val - 17, by have := k.isLt; show k.val - 17 < 16; omega⟩)
  left_inv := by decide
  right_inv := by decide

/-- A device's positions, cell kind by cell kind. -/
theorem positions_split (c : Dev nD) :
    positions (F := F) c = iprop(atPos ER (barCell c) 0 ∅ 0
      ∗ (bigSep Finset.univ fun j : Dev nD => atPos ER (sendCell c j) 0 ∅ 0)
      ∗ (bigSep Finset.univ fun j : Dev nD => atPos ER (recvCell c j) 0 ∅ 0) : sProp 𝕄) := by
  unfold positions
  rw [bigSep_univ_equiv cellIx (fun k : Fin 33 => (atPos ER (kcell (c, k)) 0 ∅ 0 : sProp 𝕄)), bigSep_univ_sum, bigSep_univ_sum,
    bigSep_univ_of_subsingleton ()]
  have hs : ∀ j : Dev nD, kcell (c, cellIx (.inr (.inl j))) = sendCell c j := fun j => kcell_send c j
  have hr : ∀ j : Dev nD, kcell (c, cellIx (.inr (.inr j))) = recvCell c j := fun j => kcell_recv c j
  rw [bigSep_congr (s := Finset.univ) (fun (j : Dev nD) _ => show (atPos ER (kcell (c, cellIx (.inr (.inl j)))) 0 ∅ 0 : sProp 𝕄) = atPos ER (sendCell c j) 0 ∅ 0 by rw [hs]),
    bigSep_congr (s := Finset.univ) (fun (j : Dev nD) _ => show (atPos ER (kcell (c, cellIx (.inr (.inr j)))) 0 ∅ 0 : sProp 𝕄) = atPos ER (recvCell c j) 0 ∅ 0 by rw [hr])]
  rfl

/-! ## Entering the body -/

/-- The tokens a device pays with: the entry signals' and, per other device, the arrival's and the departure's
    (those of the device itself are of no duty and are let go). -/
theorem payToks_split (c : Dev nD) :
    payToks (F := F) c
      ⊢ iprop((bigSep (Finset.univ.erase c) fun d : Dev nD => dutyTok ER (barCell d) 0 c)
          ∗ (bigSep (Finset.univ.erase c) fun d : Dev nD => iprop(dutyTok ER (recvCell d c) 0 c ∗ dutyTok ER (sendCell c d) 0 d)) : sProp 𝕄) := by
  unfold payToks
  rw [bigSep_sep']
  exact BI.sep_mono (bigSep_subset (Finset.erase_subset _ _)) (bigSep_subset (Finset.erase_subset _ _))

/-- A row at some given contents is that row at any contents. -/
theorem rowAny_intro (c j : Dev nD) (f : Buf (Elt F) ((rowM j).view.loc (c : Thread nD τ))) :
    (rowPts c j fullShare f : sProp 𝕄) ⊢ rowAny (F := F) c j := by
  unfold rowAny; iintro H; iexists f; iexact H

/-- The scratch at any contents: the device's own row, and every other row, each at some contents. -/
theorem scratch_rowAny (c : Dev nD) (f : Buf (Elt F) ((c : Thread nD τ).loc cc0_scratch0)) :
    (((c : Thread nD τ).loc cc0_scratch0) ↦{fullShare} f : sProp 𝕄)
      ⊢ iprop(rowAny (F := F) c c ∗ bigSep (Finset.univ.erase c) fun d : Dev nD => rowAny (F := F) c d) := by
  rw [scratch_rows c fullShare f, bigSep_univ_at (fun j : Dev nD => (rowPts c j fullShare f : sProp 𝕄)) c]
  exact BI.sep_mono (rowAny_intro c c f) (bigSep_mono fun d _ => rowAny_intro c d f)

theorem enter (c : Dev nD) (f : Buf (Elt F) ((c : Thread nD τ).loc cc0_scratch0)) :
    iprop(positions (F := F) c ∗ payToks (F := F) c ∗ (((c : Thread nD τ).loc cc0_scratch0) ↦{fullShare} f))
      ⊢ iprop(atPos ER (barCell c) 0 ∅ 0
          ∗ SigRes (F := F) c 0
          ∗ rowAny (F := F) c c
          ∗ (bigSep (Finset.univ.erase c) fun d : Dev nD => iprop(dutyTok ER (recvCell d c) 0 c ∗ dutyTok ER (sendCell c d) 0 d))
          ∗ (bigSep Finset.univ fun j : Dev nD => atPos ER (sendCell c j) 0 ∅ 0)
          ∗ (bigSep Finset.univ fun j : Dev nD => atPos ER (recvCell c j) 0 ∅ 0) : sProp 𝕄) := by
  unfold SigRes
  rw [positions_split, ge_zero,
    ← bigSep_erase_ite c (fun d : Dev nD => iprop(dutyTok ER (barCell d) 0 c ∗ rowAny (F := F) c d : sProp 𝕄)), bigSep_sep']
  iintro ⟨⟨Hb, Hs, Hr⟩, Htok, Hscr⟩
  ihave Ht := (payToks_split (F := F) c) $$ Htok
  icases Ht with ⟨Hbt, Hrs⟩
  ihave Hrows := (scratch_rowAny c f) $$ Hscr
  icases Hrows with ⟨Hown, Hoth⟩
  isplitl [Hb]; · iexact Hb
  isplitl [Hbt Hoth]
  · isplitl [Hbt] <;> iassumption
  isplitl [Hown]; · iexact Hown
  isplitl [Hrs]; · iexact Hrs
  isplitl [Hs] <;> iassumption

/-- info: 'Cert.Kernel.Mean.to_recv' depends on axioms: [propext, Classical.choice, Quot.sound] -/
#guard_msgs in #print axioms to_recv

/-- info: 'Cert.Kernel.Mean.to_swait' depends on axioms: [propext, Classical.choice, Quot.sound] -/
#guard_msgs in #print axioms to_swait

/-- info: 'Cert.Kernel.Mean.to_send' depends on axioms: [propext, Classical.choice, Quot.sound] -/
#guard_msgs in #print axioms to_send

/-- info: 'Cert.Kernel.Mean.enter' depends on axioms: [propext, Classical.choice, Quot.sound] -/
#guard_msgs in #print axioms enter

end Cert.Kernel.Mean

end
-- ==== Proof.WBody.lean ====
import proofs.«900935_g7700000000000936_dist_mean_ax0_shard0_i_m1024_n512_v7x_i16_f32_1_alg».proof.Proof.WParts
import proofs.«900935_g7700000000000936_dist_mean_ax0_shard0_i_m1024_n512_v7x_i16_f32_1_alg».proof.Proof.WPartsB
import proofs.«900935_g7700000000000936_dist_mean_ax0_shard0_i_m1024_n512_v7x_i16_f32_1_alg».proof.Proof.WPartsC
import proofs.«900935_g7700000000000936_dist_mean_ax0_shard0_i_m1024_n512_v7x_i16_f32_1_alg».proof.Proof.WEnter
import proofs.«900935_g7700000000000936_dist_mean_ax0_shard0_i_m1024_n512_v7x_i16_f32_1_alg».proof.Proof.Gen.Kernel.Points

/-!
# The body, from the device's launch holdings to its exit

The seven parts in order, with the resources regrouped between the sweeps: the scratch cut into its rows and the
tokens dealt at entry; the landing rows and the shares of the own row before the transfers; the sixteen rows joined
for the one load that reads them all; at exit the rows and shares put back and the thirty-two own cells closed.
-/

noncomputable section

namespace Cert.Kernel.Mean

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem SentRes_zero (c : Dev nD) : SentRes (F := F) c 0 = iprop(emp) := by unfold SentRes; rw [lt_zero, bigSep_empty]; rfl
theorem GotRes_zero (c : Dev nD) : GotRes m ρ c 0 = iprop(emp) := by unfold GotRes; rw [lt_zero, bigSep_empty]; rfl
theorem BackRes_zero (c : Dev nD) : BackRes m ρ c 0 = iprop(emp) := by unfold BackRes; rw [lt_zero, bigSep_empty]; rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

def bodyPre' (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

def bodyPost (c : Dev nD) : sProp 𝕄 :=
  iprop(Φ₁ (F := F) c ∗ (dats m ρ 0 c).owesAt () t0_0.succ ∗ stg c cc0_stg0_0 (xstg m ρ c) ∗ stg c cc0_stg1_0 (outAt m ρ))

set_option maxHeartbeats 1600000 in
/-- The body from what the launch and the pipeline hand device `c`, to what it hands back. -/
theorem sound_body (c : Dev nD) (Kt : PUnit → sProp 𝕄) :
    iprop(bodyPre' m ρ c ∗ (bodyPost m ρ c -∗ Kt ⟨⟩))
      ⊢ wp frame (wpE (defs₀ (F := F)) 𝒱₀ (c : Thread nD τ) none) Set.univ
          (cc0_body (F := F) (Memref.whole cc0_stg0_0) (Memref.isWhole_whole _) (Memref.whole cc0_stg1_0) (Memref.isWhole_whole _)
            (Memref.whole cc0_scratch0) (Memref.isWhole_whole _) cc0_scratch1 cc0_scratch2) Kt := by
  rw [cc0_body_eq_skeleton]; unfold cc0_body_skel
  simp only [semSignalWord, semWaitWord, Prog.lift, Prog.bind_op, Prog.bind_ret, Prog.pure_eq_ret, wp_bind]
  unfold bodyPre' Φ₀ start ghost
  iintro ⟨⟨⟨⟨⟨%K, #HR, Hpos, Htok⟩, HcB, HcR, #Hlev⟩, ⟨%f, Hscr⟩⟩, Ho, ⟨%d0, %g0, %hg0, Hx⟩, ⟨%d1, %g1, %hg1, Hout⟩⟩, Hk⟩
  have hx : g0 = xstg m ρ c := by rw [hg0]; unfold Dat.before; rw [if_pos (fetch0_0 t0_0)]; rfl
  subst hx
  unfold Dat.owesAt Pipeline.owesWithin
  icases Ho with ⟨%W, %hW, HO⟩
  rw [show (dats m ρ 0 c).owed t0_0.castSucc = O₀ c from rfl, O₀_eq]
  ihave H := (enter (F := F) c f) $$ [Hpos Htok Hscr]
  · isplitl [Hpos]; · iexact Hpos
    isplitl [Htok]; · iexact Htok
    iexact Hscr
  icases H with ⟨HatB, HS, Hrow, Htok2, HposS, HposR⟩
  -- part 1: the signals to devices 0 to 7
  iapply (part1_spec m ρ K c W _)
  isplitr; · iexact HR
  isplitl [HO]; · iexact HO
  isplitl [HS]; · iexact HS
  iintro ⟨HO, HS⟩
  -- part 2: the signals to devices 8 to 15, the own row, the barrier wait
  iapply (part2_spec m ρ K c W _)
  isplitr; · iexact HR
  isplitl [HO]; · iexact HO
  isplitl [HS]; · iexact HS
  isplitl [Hx]; · iexact Hx
  isplitl [Hrow]; · iexact Hrow
  isplitl [HcB]; · iexact HcB
  isplitl [HatB]; · iexact HatB
  isplitr; · iexact Hlev
  iintro ⟨Hx, Hown, ⟨%W2, HO⟩, HatB, Hbar⟩
  -- the landing rows, the tokens and the shares of the own row, device by device
  ihave H := (to_send m ρ c) $$ [Hown Hbar Htok2]
  · isplitl [Hown]; · iexact Hown
    isplitl [Hbar]; · iexact Hbar
    iexact Htok2
  icases H with ⟨HS, Hkept, Hlentc⟩
  -- part 3: the transfers to devices 0 to 9
  iapply (part3_spec m ρ K c W2 _)
  isplitr; · iexact HR
  isplitl [HO]; · iexact HO
  isplitl [HS]; · iexact HS
  isplitr; · rw [SentRes_zero]; iempintro
  iintro ⟨HO, HS, HT⟩
  -- the receive cells' credit and positions, row by row
  ihave H := (to_recv (F := F) c) $$ [HcR HposR]
  · isplitl [HcR]; · iexact HcR
    iexact HposR
  icases H with ⟨HV, HatRc⟩
  -- part 4: the transfers to devices 10 to 15, the waits for rows 0 to 3
  iapply (part4_spec m ρ K c W2 _)
  isplitr; · iexact HR
  isplitl [HO]; · iexact HO
  isplitl [HS]; · iexact HS
  isplitl [HT]; · iexact HT
  isplitl [HV]; · iexact HV
  isplitr; · rw [GotRes_zero]; iempintro
  iintro ⟨HO, HT, HV, HG⟩
  -- part 5: the waits for rows 4 to 13
  iapply (part5_spec m ρ K c _)
  isplitr; · iexact HR
  isplitl [HO]; · iexact HO
  isplitl [HV]; · iexact HV
  isplitl [HG]; · iexact HG
  iintro ⟨HO, HV, HG⟩
  -- the send cells' credit and positions, departure by departure
  ihave H := (to_swait (F := F) c) $$ [HT HposS]
  · isplitl [HT]; · iexact HT
    iexact HposS
  icases H with ⟨HW, HatSc⟩
  -- part 6: the waits for rows 14 and 15, the result, the waits for departures 0 to 4
  iapply (part6_spec m ρ K c g1 _)
  isplitr; · iexact HR
  isplitl [HO]; · iexact HO
  isplitl [HV]; · iexact HV
  isplitl [HG]; · iexact HG
  isplitl [Hkept]; · iexact Hkept
  isplitl [Hout]; · iexact Hout
  isplitl [HW]; · iexact HW
  isplitr; · rw [BackRes_zero]; iempintro
  iintro ⟨HO, HG, Hkept, Hout, HW, HB⟩
  -- part 7: the waits for departures 5 to 14
  iapply (part7_spec m ρ K c _)
  isplitr; · iexact HR
  isplitl [HO]; · iexact HO
  isplitl [HW]; · iexact HW
  isplitl [HB]; · iexact HB
  iintro ⟨HO, HW, HB⟩
  -- the wait for departure 15
  iapply (swait_guard m ρ K c 15 (by decide) _ (waitc15 c) _ _ (fun h => ⟨_, _, rfl⟩) _)
  isplitr; · iexact HR
  isplitl [HO]; · iexact HO
  isplitl [HW]; · iexact HW
  isplitl [HB]; · iexact HB
  iintro ⟨HO, HW, HB⟩
  -- the exit: the rows and shares put back, the thirty-two own cells closed
  imod (exit_close m ρ K c) $$ [HG HB Hkept Hlentc HatRc HatSc] with ⟨Hscr, Hsems⟩
  · isplitr; · iexact HR
    isplitl [HG]; · iexact HG
    isplitl [HB]; · iexact HB
    isplitl [Hkept]; · iexact Hkept
    isplitl [Hlentc]; · iexact Hlentc
    isplitl [HatRc]; · iexact HatRc
    iexact HatSc
  rw [wp_ret]; imodintro
  iapply Hk
  unfold bodyPost Φ₁ Dat.owesAt Pipeline.owesWithin
  rw [show (dats m ρ 0 c).owed t0_0.succ = 0 from rfl]
  isplitl [Hscr Hsems]
  · isplitl [Hscr]; · iexact Hscr
    iexact Hsems
  isplitl [HO]
  · icases HO with ⟨%W3, HO⟩
    iexists W3
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
/-- The library's body obligation on device `c`. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  show bodyPre' m ρ c ⊢ wp frame (wpE (defs₀ (F := F)) 𝒱₀ (c : Thread nD τ) none) Set.univ
    (cc0_body (F := F) (Memref.whole cc0_stg0_0) (Memref.isWhole_whole _) (Memref.whole cc0_stg1_0) (Memref.isWhole_whole _)
      (Memref.whole cc0_scratch0) (Memref.isWhole_whole _) cc0_scratch1 cc0_scratch2) (fun _ => bodyPost m ρ c)
  iintro H
  iapply (sound_body m ρ c fun _ => bodyPost m ρ c)
  isplitl [H]; · iexact H
  iintro H; iexact H

/-- info: 'Cert.Kernel.Mean.body_obligation' depends on axioms: [propext, Classical.choice, Quot.sound] -/
#guard_msgs in #print axioms body_obligation

end Cert.Kernel.Mean

end
-- ==== Proof.WLaunch.lean ====
import proofs.«900935_g7700000000000936_dist_mean_ax0_shard0_i_m1024_n512_v7x_i16_f32_1_alg».proof.Proof.WProto
import proofs.«900935_g7700000000000936_dist_mean_ax0_shard0_i_m1024_n512_v7x_i16_f32_1_alg».proof.Proof.Gen.Kernel.Points

/-!
# The all-to-all mean: the launch

The sixteen devices' cells are funded from one launch element; every device's own semaphores and its barrier
semaphore, at zero, open its thirty-three cell invariants; the duty tokens minted at a device's cells are dealt to
the devices that pay those duties (a transposition of the mesh); the launch credit of a device's cells is what the
others owe them: fifteen units on its barrier, a row's credit on each receive cell of another device.
-/

noncomputable section

namespace Cert.Kernel.Mean

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores; the cells as a finite set; the tokens minted -/

theorem ownSemFacts : Pipeline.OwnSemFacts cfg0.spec osem := by decide

theorem share_eq (c : Dev nD) (w : Fin cfg0.W) : (dats m ρ 0 c).share w = fullShare := by unfold Dat.share; split <;> rfl

/-- A semaphore's number, the barrier semaphore at 0 (no DMA semaphore of a cell is numbered 0 or 1). -/
def semIdx : SemLoc sig → ℕ
  | .reg _ => 0
  | .dma q => q.val

theorem semIdx_csem (k : Fin 33) : semIdx (csem k) = if k.val = 0 then 0 else k.val + 1 := by
  dsimp only [csem]; split <;> rfl

theorem csem_injective : Function.Injective csem := fun k k' h => by
  have h' := congrArg semIdx h
  rw [semIdx_csem, semIdx_csem] at h'
  exact Fin.ext (by split_ifs at h' <;> omega)

theorem kcell_injective : Function.Injective (kcell : Dev nD × Fin 33 → GSem nD τ sig) := by
  rintro ⟨c, k⟩ ⟨c', k'⟩ h
  have h1 : c = c' := by have := congrArg (fun g : GSem nD τ sig => g.1.1) h; exact this
  subst h1
  have h2 : k = k' := csem_injective (congrArg Prod.snd h)
  subst h2; rfl

def ringCells : Finset (GSem nD τ sig) := Finset.univ.map ⟨kcell, kcell_injective⟩

/-- Every duty token of round 0 of every cell is minted, one per (cell, device). -/
abbrev tokOf (x : (Dev nD × Fin 33) × Dev nD) : GSem nD τ sig × ℕ × Dev nD := (kcell x.1, 0, x.2)
theorem tokOf_injective : Function.Injective tokOf := fun x y h =>
  Prod.ext (kcell_injective (congrArg (fun t : GSem nD τ sig × ℕ × Dev nD => t.1) h)) (congrArg (fun t : GSem nD τ sig × ℕ × Dev nD => t.2.2) h)
def ringToks : Finset (GSem nD τ sig × ℕ × Dev nD) := Finset.univ.map ⟨tokOf, tokOf_injective⟩

def u₀ : UU :=
  (initOf (Pipeline.cells cfgs cellOf_inj) (Pipeline.launchToks cfgs cellOf_inj), initOf ringCells ringToks)

/-- The duty tokens of device `c`'s own cells: every duty of every cell. -/
def toks (c : Dev nD) : sProp 𝕄 :=
  bigSep Finset.univ fun k : Fin 33 => bigSep Finset.univ fun d : Dev nD => dutyTok ER (kcell (c, k)) 0 d

/-- What the launch element deals device `c`. -/
def G (c : Dev nD) : sProp 𝕄 :=
  iprop((bigSep Finset.univ fun k : Fin 33 => roundState ER (sched m ρ) (kcell (c, k)) 0)
    ∗ (bigSep Finset.univ fun k : Fin 33 => iprop(atPos ER (kcell (c, k)) 0 ∅ 0 ∗ reached ER (kcell (c, k)) 0)) ∗ toks c)

/-- What the global step makes of it. -/
def G' (c : Dev nD) : sProp 𝕄 := iprop(∃ K, ghost m ρ K c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 33 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks toks; rw [bigSep_map, bigSep_univ_prod, bigSep_univ_prod]; rfl
  iintro HX
  imod (Rounds.fund ER (sched m ρ) ringCells ringToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero: the kernel's own thirty-two and the barrier semaphore -/

theorem csem_zero : csem 0 = .reg barS := rfl

theorem csem_succ (k : Fin 32) : csem k.succ = osem k := by
  have h : ¬ (k.succ.val = 0) := by rw [Fin.val_succ]; omega
  show (if h : k.succ.val = 0 then (SemLoc.reg barS : SemLoc sig) else .dma ⟨k.succ.val + 1, _⟩) = _
  rw [dif_neg h]
  exact congrArg SemLoc.dma (Fin.ext (by show k.succ.val + 1 = k.val + 2; rw [Fin.val_succ]))

/-- A family over the thirty-three cells: the barrier's member and the thirty-two others'. -/
theorem bigSep_fin33 (Φ : Fin 33 → sProp 𝕄) : bigSep Finset.univ Φ = iprop(Φ 0 ∗ bigSep Finset.univ fun k : Fin 32 => Φ k.succ) := by
  rw [Fin.univ_succ, Finset.cons_eq_insert, bigSep_insert (by simp), bigSep_map]; rfl

/-- the barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0 (c : Dev nD) :
    iprop(Pipeline.ownSems0 (Ix := Unit) (Name := ℕ) (U := UU) (Lvl := ℕ) (Val := Elt F) (τ := τ) osem c ∗ unscopedSems0 c)
      ⊢ (bigSep Finset.univ fun k : Fin 33 => semVal (kcell (c, k)) 0 : sProp 𝕄) := by
  have e : (bigSep Finset.univ fun k : Fin 32 => (semVal (kcell (c, k.succ)) 0 : sProp 𝕄))
      = bigSep Finset.univ fun k : Fin 32 => semVal ((c : Thread nD τ), osem k) 0 := bigSep_congr fun k _ => by rw [← csem_succ]
  have e0 : (semVal (kcell (c, (0 : Fin 33))) 0 : sProp 𝕄) = semVal (barCell c) 0 := rfl
  rw [unscopedSems0_eq, bigSep_fin33, e, e0]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : Fin 33 => iprop(∃ κ : ℕ, cellInv ER (sched m ρ) κ (kcell (c, k))))
          ∗ (bigSep Finset.univ fun k : Fin 33 => iprop(atPos ER (kcell (c, k)) 0 ∅ 0 ∗ reached ER (kcell (c, k)) 0)) ∗ toks c) := by
  unfold G
  iintro ⟨Hos, Hus, Hst, Hat, Htok⟩
  ihave Hv := (sems0 (F := F) c) $$ [Hos Hus]
  · isplitl [Hos] <;> iassumption
  imod (show iprop((bigSep Finset.univ fun k : Fin 33 => semVal (kcell (c, k)) 0) ∗ bigSep Finset.univ fun k : Fin 33 => roundState ER (sched m ρ) (kcell (c, k)) 0)
      ⊢ (|={Set.univ}=> bigSep Finset.univ fun k : Fin 33 => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The dealing: a device's tokens to the devices that pay the duties -/

/-- The send and the receive cell of row `j` among a device's thirty-three. -/
def eS : Dev nD ↪ Fin 33 :=
  ⟨fun j => ⟨j.val + 1, by have : j.val < 16 := j.isLt; omega⟩, fun a b h => Fin.ext (by have := congrArg Fin.val h; simp only at this; omega)⟩
def eR : Dev nD ↪ Fin 33 :=
  ⟨fun j => ⟨j.val + 17, by have : j.val < 16 := j.isLt; omega⟩, fun a b h => Fin.ext (by have := congrArg Fin.val h; simp only at this; omega)⟩

theorem kcell_eS (c j : Dev nD) : kcell (c, eS j) = sendCell c j := kcell_send c j
theorem kcell_eR (c j : Dev nD) : kcell (c, eR j) = recvCell c j := kcell_recv c j

/-- Of a family over the thirty-three cells: the barrier's member, the sixteen send cells', the sixteen receive cells'. -/
theorem split33 (Φ : Fin 33 → sProp 𝕄) :
    bigSep Finset.univ Φ ⊢ iprop(Φ 0 ∗ (bigSep Finset.univ fun j : Dev nD => Φ (eS j)) ∗ bigSep Finset.univ fun j : Dev nD => Φ (eR j)) := by
  have h0 : (0 : Fin 33) ∉ Finset.univ.map eS ∪ Finset.univ.map eR := by decide
  have hd : Disjoint (Finset.univ.map eS) (Finset.univ.map eR) := by decide
  refine (bigSep_subset (Finset.subset_univ (insert 0 (Finset.univ.map eS ∪ Finset.univ.map eR)))).trans ?_
  rw [bigSep_insert h0, bigSep_union hd, bigSep_map, bigSep_map]
  exact BI.Entails.refl _

/-- The tokens of a device's barrier cell; of each send cell its own row's; of each receive cell its own row's. -/
def TA (c : Dev nD) : sProp 𝕄 := bigSep Finset.univ fun d : Dev nD => dutyTok ER (barCell c) 0 d
def TC (c : Dev nD) : sProp 𝕄 := bigSep Finset.univ fun d : Dev nD => dutyTok ER (sendCell c d) 0 d
def TB (c : Dev nD) : sProp 𝕄 := bigSep Finset.univ fun p : Dev nD => dutyTok ER (recvCell c p) 0 p

theorem toks_split (c : Dev nD) : (toks c : sProp 𝕄) ⊢ iprop(TA c ∗ TC c ∗ TB c) := by
  unfold toks TA TC TB
  refine (split33 _).trans (BI.sep_mono (BI.Entails.refl _) (BI.sep_mono ?_ ?_))
  · exact bigSep_mono fun j _ => (bigSep_elim (Finset.mem_univ j)).trans
      (Entails.of_eq (congrArg (fun g : GSem nD τ sig => (dutyTok ER g 0 j : sProp 𝕄)) (kcell_eS c j)))
  · exact bigSep_mono fun j _ => (bigSep_elim (Finset.mem_univ j)).trans
      (Entails.of_eq (congrArg (fun g : GSem nD τ sig => (dutyTok ER g 0 j : sProp 𝕄)) (kcell_eR c j)))

/-- Dealt over the mesh: device `c` gets, of every device `d`, the token of duty `c` of `d`'s barrier cell and of `d`'s
    receive cell `c` (a transposition of the mesh), and keeps the tokens of its own send cells. -/
theorem toks_around : (bigSep Finset.univ fun c : Dev nD => (toks c : sProp 𝕄)) ⊢ bigSep Finset.univ fun c : Dev nD => payToks c := by
  refine (bigSep_mono fun c _ => toks_split (F := F) c).trans ?_
  have e1 : (bigSep Finset.univ fun c : Dev nD => (payToks c : sProp 𝕄))
      = iprop((bigSep Finset.univ fun d : Dev nD => TA d) ∗ (bigSep Finset.univ fun d : Dev nD => TB d) ∗ bigSep Finset.univ fun c : Dev nD => TC c) := by
    unfold payToks TA TB TC
    simp only [bigSep_sep']
    rw [bigSep_univ_comm (fun c d : Dev nD => (dutyTok ER (barCell d) 0 c : sProp 𝕄)), bigSep_univ_comm (fun c d : Dev nD => (dutyTok ER (recvCell d c) 0 c : sProp 𝕄))]
  rw [e1, bigSep_sep', bigSep_sep']
  show _ ⊢ (_ : sProp 𝕄)
  iintro ⟨HA, HC, HB⟩
  isplitl [HA]; · iexact HA
  isplitl [HB]; · iexact HB
  iexact HC

/-- What stays with device `c`: its positions, and the tokens of the duties it pays. -/
def linear (c : Dev nD) : sProp 𝕄 := iprop(positions c ∗ payToks c)

theorem ghost_intro (K : Dev nD × Fin 33 → ℕ) (c : Dev nD) : iprop(records m ρ K ∗ linear c) ⊢ G' m ρ c := by
  unfold linear G' ghost
  iintro ⟨HR, HL⟩
  iexists K
  isplitl [HR]; · iexact HR
  iexact HL

theorem regroup :
    (bigSep Finset.univ fun c : Dev nD => iprop((bigSep Finset.univ fun k : Fin 33 => iprop(∃ κ : ℕ, cellInv ER (sched m ρ) κ (kcell (c, k))))
          ∗ (bigSep Finset.univ fun k : Fin 33 => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 33 => iprop(∃ κ : ℕ, cellInv ER (sched m ρ) κ (kcell ck))),
    bigSep_congr (s := Finset.univ) (fun (c : Dev nD) _ => bigSep_sep' Finset.univ (fun k : Fin 33 => (atPos ER (kcell (c, k)) 0 ∅ 0 : sProp 𝕄)) (fun k => reached ER (kcell (c, k)) 0)),
    bigSep_sep', ← bigSep_univ_prod (fun ck : Dev nD × Fin 33 => (reached ER (kcell ck) 0 : sProp 𝕄))]
  iintro ⟨HI, ⟨Hat, #HR⟩, Htok⟩
  ihave HK := (BI.bigSep_exists_pi Finset.univ (fun (ck : Dev nD × Fin 33) (κ : ℕ) => (cellInv ER (sched m ρ) κ (kcell ck) : sProp 𝕄))) $$ HI
  icases HK with ⟨%K, #HI⟩
  ihave Htk := (toks_around (F := F)) $$ Htok
  iapply (BI.bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 33 => (atPos ER (kcell (c, k)) 0 ∅ 0 : sProp 𝕄)) payToks).symm).trans
      (bigSep_mono fun c _ => show _ ⊢ linear c from Entails.of_eq (by unfold linear positions; rfl)))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch credit -/

theorem recvS_injective : Function.Injective (recvS : Dev nD → DmaSem sig) := fun a b h =>
  Fin.ext (by have := congrArg Fin.val h; rw [recvS_val, recvS_val] at this; omega)

theorem bar_eq_iff {a b : Dev nD} : Iff (barCell a = barCell b) (a = b) :=
  ⟨fun h => Fin.ext (congrArg (fun g : GSem nD τ sig => g.1.1.val) h), fun h => h ▸ rfl⟩
theorem recv_eq_iff {a b p q : Dev nD} : Iff (recvCell a p = recvCell b q) (a = b ∧ p = q) :=
  ⟨fun h => ⟨Fin.ext (congrArg (fun g : GSem nD τ sig => g.1.1.val) h), recvS_injective (SemLoc.dma.inj (congrArg Prod.snd h))⟩,
    fun ⟨h1, h2⟩ => h1 ▸ h2 ▸ rfl⟩
theorem recv_ne_bar (a p b : Dev nD) : recvCell a p ≠ barCell b := fun h => by
  have h2 : (SemLoc.dma (recvS p) : SemLoc sig) = .reg barS := congrArg Prod.snd h
  cases h2

/-- What `d` owes through its transfer to `e`, read at a cell; -/
theorem arrT_apply (d e : Dev nD) (g : GSem nD τ sig) (u : Unit) : arrT d e g u = if e ≠ d ∧ g = recvCell e d then N else 0 := by
  unfold arrT
  by_cases h : e = d
  · rw [if_pos h, if_neg (fun h' => h'.1 h)]; rfl
  · rw [if_neg h, tallyAt_apply]
    by_cases hg : g = recvCell e d
    · rw [if_pos ⟨hg, rfl⟩, if_pos ⟨h, hg⟩]
    · rw [if_neg (fun h' => hg h'.1), if_neg (fun h' => hg h'.2)]
/-- through its entry signal to `e`. -/
theorem sigT_apply (d e : Dev nD) (g : GSem nD τ sig) (u : Unit) : sigT d e g u = if e ≠ d ∧ g = barCell e then 1 else 0 := by
  unfold sigT
  by_cases h : e = d
  · rw [if_pos h, if_neg (fun h' => h'.1 h)]; rfl
  · rw [if_neg h, tallyAt_apply]
    by_cases hg : g = barCell e
    · rw [if_pos ⟨hg, rfl⟩, if_pos ⟨h, hg⟩]
    · rw [if_neg (fun h' => hg h'.1), if_neg (fun h' => hg h'.2)]

theorem O₀_apply (d : Dev nD) (g : GSem nD τ sig) (u : Unit) :
    O₀ d g u = (∑ e : Dev nD, if e ≠ d ∧ g = recvCell e d then N else 0) + ∑ e : Dev nD, if e ≠ d ∧ g = barCell e then 1 else 0 := by
  unfold O₀
  simp only [Pi.add_apply, Finsupp.add_apply, Finset.sum_apply, Finsupp.finsetSum_apply, arrT_apply, sigT_apply]

/-- What device `d` owes device `c`'s barrier cell: a unit, unless it is `c` itself. -/
theorem owed_bar (d c : Dev nD) : O₀ d (barCell c) () = if c = d then 0 else 1 := by
  rw [O₀_apply, Finset.sum_eq_zero (fun e _ => if_neg (fun h => recv_ne_bar _ _ _ h.2.symm)), Nat.zero_add,
    Finset.sum_eq_single c (fun e _ he => if_neg (fun h => he (bar_eq_iff.mp h.2).symm)) (fun h => absurd (Finset.mem_univ _) h)]
  by_cases h : c = d
  · rw [if_pos h, if_neg (fun h' => h'.1 h)]
  · rw [if_neg h, if_pos ⟨h, rfl⟩]

/-- What device `d` owes device `c`'s receive cell `p`: the row's credit when it is `p`, and not `c`. -/
theorem owed_recv (d c p : Dev nD) : O₀ d (recvCell c p) () = if p = d ∧ c ≠ d then N else 0 := by
  rw [O₀_apply, Finset.sum_eq_zero (s := Finset.univ) (f := fun e : Dev nD => if e ≠ d ∧ recvCell c p = barCell e then 1 else 0)
      (fun e _ => if_neg (fun h => recv_ne_bar _ _ _ h.2)), Nat.add_zero,
    Finset.sum_eq_single c (fun e _ he => if_neg (fun h => he (recv_eq_iff.mp h.2).1.symm)) (fun h => absurd (Finset.mem_univ _) h)]
  by_cases h : p = d ∧ c ≠ d
  · rw [if_pos h, if_pos ⟨h.2, recv_eq_iff.mpr ⟨rfl, h.1⟩⟩]
  · rw [if_neg h, if_neg (fun h' => h ⟨(recv_eq_iff.mp h'.2).2, h'.1⟩)]

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (c p : Dev nD) (hp : p ≠ c) :
    tallyOn (recvCell c p) (launchCredit (Pipeline.owing O₀) 0 (recvCell c p)) = (tallyAt (recvCell c p) () N : CellTallies nD τ sig Unit) := by
  unfold tallyAt; refine congrArg _ (Finsupp.ext fun u => ?_); cases u
  rw [Pipeline.launchCredit_owing, Finsupp.single_eq_same, Finset.sum_congr rfl fun d _ => owed_recv d c p,
    Finset.sum_eq_single p (fun d _ hd => if_neg (fun h => hd h.1.symm)) (fun h => absurd (Finset.mem_univ _) h),
    if_pos ⟨rfl, fun h => hp h.symm⟩]

/-- Row `p`'s receive semaphore as a semaphore of the core. -/
def recvEmb : Dev nD ↪ SemLoc sig := ⟨fun p => .dma (recvS p), fun a b h => recvS_injective (SemLoc.dma.inj h)⟩

theorem creds (c : Dev nD) :
    (Pipeline.launchCred O₀ c : sProp 𝕄)
      ⊢ iprop(cred (tallyAt (barCell c) () 15) ∗ bigSep (Finset.univ.erase c) fun p : Dev nD => cred (tallyAt (recvCell c p) () N)) := by
  unfold Pipeline.launchCred
  rw [bigSep_univ_at _ (SemLoc.reg barS), launch_bar]
  refine sep_mono_right ?_
  refine (bigSep_subset (t := (Finset.univ.erase c).map recvEmb) (fun x hx => ?_)).trans ?_
  · obtain ⟨p, -, rfl⟩ := Finset.mem_map.mp hx
    refine Finset.mem_erase.mpr ⟨fun h => ?_, Finset.mem_univ _⟩
    have h2 : (SemLoc.dma (recvS p) : SemLoc sig) = .reg barS := h
    cases h2
  · rw [bigSep_map]
    exact bigSep_mono fun p hp => Entails.of_eq (congrArg cred (launch_recv c p (Finset.ne_of_mem_erase hp)))

/-! ## The levels at the staging waits -/

theorem L_of_ne (g : GSem nD τ sig) (h : g.1.2 ≠ .tc) : L g = ∅ := if_neg h
theorem L_tc (c : Dev nD) (sm : SemLoc sig) : L ((c : Thread nD τ), sm) = {()} := if_pos rfl

/-- Every cell a device owes at launch is a receive cell of its own row or a barrier cell. -/
theorem O₀_pos {c : Dev nD} {g : GSem nD τ sig} {u : Unit} (h : 0 < O₀ c g u) :
    (∃ e : Dev nD, g = recvCell e c) ∨ ∃ e : Dev nD, g = barCell e := by
  rw [O₀_apply] at h
  rcases Nat.add_pos_iff_pos_or_pos.mp h with h | h
  · obtain ⟨e, -, he⟩ := Finset.exists_ne_zero_of_sum_ne_zero (Nat.ne_of_gt h)
    refine Or.inl ⟨e, ?_⟩
    by_contra hn; exact he (if_neg fun h' => hn h'.2)
  · obtain ⟨e, -, he⟩ := Finset.exists_ne_zero_of_sum_ne_zero (Nat.ne_of_gt h)
    refine Or.inr ⟨e, ?_⟩
    by_contra hn; exact he (if_neg fun h' => hn h'.2)

/-- At a staging wait (level 0) a device owes what it owed at launch or nothing: barrier cells (level 1) and receive
    cells (level 2). -/
theorem mayWait_stage (c : Dev nD) (q : DmaSem sig) (hq : q.val < 18) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    have hl : lv ((c : Thread nD τ), .dma q) () = 0 := by
      show (if 18 ≤ q.val then 2 else 0) = 0
      rw [if_neg (by omega)]
    rw [hl]
    rcases O₀_pos hg with ⟨e, rfl⟩ | ⟨e, rfl⟩
    · refine ⟨by rw [L_tc]; exact Finset.mem_singleton_self _, ?_⟩
      show 0 < (if 18 ≤ (recvS c).val then 2 else 0)
      rw [if_pos (by rw [recvS_val]; omega)]; decide
    · exact ⟨by rw [L_tc]; exact Finset.mem_singleton_self _, Nat.one_pos⟩
  · rw [MayWait_zero]; iintro -; iempintro

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ (F := F) c from rfl, scopedRest0_eq]
  unfold Φ₁
  iintro ⟨Hr, Hz⟩
  isplitr; · iempintro
  isplitl [Hz]; · iexact Hz
  iexact Hr

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of sixteen devices, for any float values, from any memory with zero counters, given each
    device's body proved from its start state: every weakly fair execution of @main — the sixteen kernels handshaking
    on the runtime's barrier semaphore, then exchanging their rows all-to-all — terminates, and every final state has
    each windowed array at the contents the proof data names. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result array after the run, read through its one block: what the body left in the staging buffer. -/
theorem final_out (c : Dev nD) :
    ((cfg0.win (1 : Fin 2)).blk t0_0).view.read (Elt F) ((dats (F := F) m ρ 0 c).arrAt (1 : Fin 2) cfg0.N)
      = (dats (F := F) m ρ 0 c).flushed (1 : Fin 2) t0_0 := by
  rw [show cfg0.N = (t0_0 : Fin cfg0.N).val + 1 from rfl, (dats (F := F) m ρ 0 c).arrAt_succ (1 : Fin 2) t0_0, flush0_1 t0_0, if_pos rfl]
  exact View.read_write_univ _ _

/-- The result array after the run holds the mean's row. -/
theorem finalA_out (c : Dev nD) : finalA m ρ c (1 : Fin 2) = outAt m ρ := by
  have ho := final_out m ρ c
  have hz : (fun a => (win0_1.index t0_0) a * main_v1.ty.shape.size a) = fun _ => 0 := funext fun a => by fin_cases a <;> decide
  have hr := Memref.read_access_unit_zero (Elt F) main_v1 hz (fun a => by fin_cases a <;> decide) ((dats (F := F) m ρ 0 c).arrAt (1 : Fin 2) cfg0.N)
  exact hr.symm.trans ho

/-- At the compiled mesh of sixteen devices, from any memory with zero counters, given each device's body proved:
    every weakly fair execution of @main terminates, and in every final state every device's result array holds the
    mean's row — the sum of the sixteen devices' column sums, scaled — and its argument array is unchanged. -/
theorem run_value (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outAt m ρ
      ∧ r.2.mem ((c.tc : Thread nD τ).loc main_arg0) = m ((c.tc : Thread nD τ).loc main_arg0)) :=
  (θ_run defs _ _).mono (fun r h c => ⟨(h c (1 : Fin 2)).trans (finalA_out m ρ c), (h c (0 : Fin 2)).trans (finalA_x m ρ c)⟩) (run_main m ρ hbody)

/-- info: 'Cert.Kernel.Mean.run_value' depends on axioms: [propext, Classical.choice, Quot.sound] -/
#guard_msgs in #print axioms run_value

end Cert.Kernel.Mean

end
-- ==== Proof.MeanValue.lean ====
/-
  The column mean of a 16384 × 512 array, computed in sixteen row blocks, is the mean of the whole array.

  Block p (rows 1024·p … 1024·p + 1023) is summed down its rows; the sixteen partial row sums are then summed and
  the total is multiplied by 2⁻¹⁴. The specification sums all 16384 rows and divides by 16384. On the extended
  reals the two agree: addition is a commutative monoid, so the sum over the rows regroups along the bijection
  (p, r) ↦ 1024·p + r with no finiteness assumption, and division by the nonzero real 16384 is multiplication by
  its reciprocal 1/16384 = 2⁻¹⁴ at every extended real, the infinities included.
-/
import proofs.«900935_g7700000000000936_dist_mean_ax0_shard0_i_m1024_n512_v7x_i16_f32_1_alg».proof.Proof.Gen.KernelIdeal.Skeleton
import proofs.«900935_g7700000000000936_dist_mean_ax0_shard0_i_m1024_n512_v7x_i16_f32_1_alg».proof.Proof.Gen.ReferenceIdeal.Read
import Idealize.ShloMosaic.Lib.Layout
import Idealize.ShloMosaic.Lib.ValueIdx
import Idealize.ShloMosaic.Lib.ValueLayout
import Idealize.ShloMosaic.PureOps.Ideal.Laws
import Mathlib.Algebra.BigOperators.Fin
import Mathlib.Logic.Equiv.Fin.Basic

noncomputable section

namespace Cert.MeanValue

open Idealize.ShloMosaic Idealize.ShloMosaic.ValueIdx

/-! ## The float literals -/

/-- The pattern of the kernel's scale factor denotes the real 2⁻¹⁴ = 1/16384. -/
theorem ofBits_inv16384 : Ideal.ofBits .f32 0x38800000#32 = ((1 / 16384 : ℝ) : EReal) := by
  simp [Ideal.ofBits, Ideal.ieee, -EReal.coe_mul]; norm_num

/-- The pattern of the specification's divisor denotes the real 16384. -/
theorem ofBits_16384 : Ideal.ofBits .f32 0x46800000#32 = ((16384 : ℝ) : EReal) := by
  simp [Ideal.ofBits, Ideal.ieee, -EReal.coe_mul]; norm_num

/-! ## The two payloads and the specification read at a column -/

/-- The row sum of one 1024 × 512 block, read at column j: the sum of the block's entries of that column. The casts
    around the reduction only add unit axes, and the cast in front of it is to the same shape. -/
theorem pay1_at (v : Vec Ideal Cert.KernelIdeal.S1024x512 .f32) (j : Fin 512) :
    Cert.KernelIdeal.Gen.k0_pay1 (F := Ideal) v (ix3 (0 : Fin 1) (0 : Fin 1) j) = ∑ r : Fin 1024, v (ix2 r j) := by
  unfold Cert.KernelIdeal.Gen.k0_pay1
  refine (shapeCast_ab_1ab_apply _ _ 0 0 j).trans ?_
  refine (shapeCast_a_1a_apply _ _ 0 j).trans ?_
  refine (Ideal.multiReduction_add_single _ _ _ _ _ (ix1 j)).trans ?_
  show ∑ r : Fin 1024, _ = ∑ r : Fin 1024, _
  refine Finset.sum_congr rfl fun r _ => ?_
  rw [shapeCast_self]
  refine congrArg v (funext fun a => Fin.ext ?_)
  match a with
  | ⟨0, _⟩ => rfl
  | ⟨1, _⟩ => rfl

/-- The final payload read at column j: the sum of the sixteen partial row sums of that column, times the scale
    factor. The cast in front of the reduction drops the middle unit axis: entry (p, j) of the 16 × 512 view is entry
    (p, 0, j) of the 16 × 1 × 512 array, the two having the same row-major position. -/
theorem pay2_at (cm : Vec Ideal Cert.KernelIdeal.S16x1x512 .f32) (j : Fin 512) :
    Cert.KernelIdeal.Gen.k0_pay2 (F := Ideal) cm (ix2 (0 : Fin 1) j)
      = (∑ p : Fin 16, cm (ix3 p (0 : Fin 1) j)) * Ideal.ofBits .f32 0x38800000#32 := by
  unfold Cert.KernelIdeal.Gen.k0_pay2
  refine (mulf_apply _ _ _).trans ?_
  refine congrArg₂ (· * ·) ?_ rfl
  refine (shapeCast_a_1a_apply _ _ 0 j).trans ?_
  refine (Ideal.multiReduction_add_single _ _ _ _ _ (ix1 j)).trans ?_
  show ∑ p : Fin 16, _ = ∑ p : Fin 16, _
  refine Finset.sum_congr rfl fun p _ => ?_
  refine shapeCast_apply cm _ _ (ix3 p (0 : Fin 1) j) ?_
  rw [Shape.rowMajor_val_three, Shape.rowMajor_val_two]
  show (p.val * 1 + 0) * 512 + j.val = p.val * 512 + j.val
  omega

/-- The specification read at column j: zero plus the sum of all 16384 entries of the column, divided by the
    divisor. -/
theorem ref_at (X : Vec Ideal Cert.ReferenceIdeal.S16384x512 .f32) (j : Fin 512) :
    Cert.ReferenceIdeal.Read.val_main_v3 (F := Ideal) X (ix2 (0 : Fin 1) j)
      = Ideal.div (Ideal.ofBits .f32 0x00000000#32 + ∑ R : Fin 16384, X (ix2 R j))
          (Ideal.ofBits .f32 0x46800000#32) := by
  have hidx : ∀ k : Fin 16384,
      Cert.ReferenceIdeal.Read.idx_main_v0 (Cert.ReferenceIdeal.Read.idx_main_v1 (ix2 (0 : Fin 1) j)) k = ix2 k j :=
    fun k => funext fun a => Fin.ext (by match a with | ⟨0, _⟩ => rfl | ⟨1, _⟩ => rfl)
  rw [Cert.ReferenceIdeal.Read.val_main_v3_apply, Cert.ReferenceIdeal.Read.val_main_v1_apply,
    Cert.ReferenceIdeal.Read.val_main_v0_apply, Cert.ReferenceIdeal.Read.val_main_v2_apply,
    Cert.ReferenceIdeal.Read.val_main_cst_0_apply, Cert.ReferenceIdeal.Read.val_main_cst_apply]
  refine congrArg₂ Ideal.div (congrArg (_ + ·) (Finset.sum_congr rfl fun k _ => congrArg X (hidx k))) rfl

/-! ## Regrouping the rows into sixteen blocks -/

/-- A sum over the 16384 rows is the sum over the sixteen blocks of the sums over each block's 1024 rows: row
    1024·p + r is row r of block p, and (p, r) ↦ 1024·p + r is a bijection. In any commutative monoid. -/
theorem sum_rows_blocks {M : Type*} [AddCommMonoid M] (f : Fin 16384 → M) :
    ∑ R : Fin 16384, f R
      = ∑ p : Fin 16, ∑ r : Fin 1024, f ⟨p.val * 1024 + r.val, by have := p.isLt; have := r.isLt; omega⟩ := by
  rw [← Equiv.sum_comp (finProdFinEquiv : Fin 16 × Fin 1024 ≃ Fin (16 * 1024)) f, Fintype.sum_prod_type]
  refine Finset.sum_congr rfl fun p _ => Finset.sum_congr rfl fun r _ => congrArg f (Fin.ext ?_)
  show r.val + 1024 * p.val = p.val * 1024 + r.val
  omega

/-! ## The bridge -/

/-- The mean computed blockwise is the mean of the whole array. At column j the kernel's side is the sum over the
    blocks p of the sums over the rows r of X (1024·p + r, j), times 2⁻¹⁴; the specification's is zero plus the sum
    over all rows, divided by 16384. The sums agree by regrouping and the quotient is the product with the
    reciprocal. -/
theorem mean_bridge
    (X : Vec Ideal Cert.ReferenceIdeal.S16384x512 .f32)
    (cm : Vec Ideal Cert.KernelIdeal.S16x1x512 .f32)
    (hcm : ∀ (p : Fin 16) (j : Fin 512), cm (Idealize.ShloMosaic.ValueIdx.ix3 p (0 : Fin 1) j)
        = Cert.KernelIdeal.Gen.k0_pay1 (F := Ideal)
            (Idealize.ShloMosaic.Layout.block ⟨2, ![1024, 512]⟩ ⟨2, ![16384, 512]⟩ 0 16 p X)
            (Idealize.ShloMosaic.ValueIdx.ix3 (0 : Fin 1) (0 : Fin 1) j)) :
    Cert.KernelIdeal.Gen.k0_pay2 (F := Ideal) cm = Cert.ReferenceIdeal.Read.val_main_v3 (F := Ideal) X := by
  funext i
  obtain ⟨u, j, rfl⟩ : ∃ (u : Fin 1) (j : Fin 512), i = ix2 u j := ⟨i 0, i 1, eq_ix2 i⟩
  obtain rfl : u = 0 := Subsingleton.elim _ _
  rw [pay2_at, ref_at, ofBits_inv16384, ofBits_16384, Ideal.ofBits_zero_f32, zero_add,
    Ideal.div_coe (by norm_num : (16384 : ℝ) ≠ 0), sum_rows_blocks]
  refine congrArg (· * _) (Finset.sum_congr rfl fun p _ => ?_)
  rw [hcm p j, pay1_at]
  refine Finset.sum_congr rfl fun r _ => ?_
  rw [Layout.block_apply]
  refine congrArg X (funext fun a => Fin.ext ?_)
  match a with
  | ⟨0, _⟩ => rfl
  | ⟨1, _⟩ => rfl

/-- info: 'Cert.MeanValue.mean_bridge' depends on axioms: [propext, Classical.choice, Quot.sound] -/
#guard_msgs in #print axioms Cert.MeanValue.mean_bridge

end Cert.MeanValue

end
-- ==== Proof.Bridge.lean ====
import proofs.«900935_g7700000000000936_dist_mean_ax0_shard0_i_m1024_n512_v7x_i16_f32_1_alg».proof.Proof.Proto
import proofs.«900935_g7700000000000936_dist_mean_ax0_shard0_i_m1024_n512_v7x_i16_f32_1_alg».proof.Proof.MeanValue

/-!
# From the common valuation to the mean of the whole array

Every device's result is the sum of the sixteen rows of the common valuation times 2⁻¹⁴, and row p of that valuation
holds the column sums of what device p finds staged. Device p finds block p of the whole array staged: its window
on a grid of one point is the whole of its input, read as it lies. So row p holds the column sums of block p, and
the blockwise mean is the mean of the whole array.
-/

noncomputable section

namespace Cert.KernelIdeal.Mean

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- What device c finds staged is its input as it lies in memory: the window's one block sits at offsets 0 · size,
    which are zero, and has the input's own sizes, so reading through it reads everything. -/
theorem xstg_eq (m : (ℓ : Loc nD τ sig) → Buf (Elt Ideal) ℓ) (ρ : Dev nD → PrngReg) (c : Dev nD) :
    xstg (F := Ideal) m ρ c = m ((c.tc : Thread nD τ).loc main_arg0) := by
  unfold xstg
  exact Memref.read_access_unit_zero (Elt Ideal) main_arg0 (funext fun a => Nat.zero_mul _) _ _

/-- Row p of the common valuation at column j is the column sum, at j, of what device p finds staged. -/
theorem comm_at (m : (ℓ : Loc nD τ sig) → Buf (Elt Ideal) ℓ) (ρ : Dev nD → PrngReg) (p : Dev nD) (j : Fin 512) :
    comm (F := Ideal) m ρ (ValueIdx.ix3 p (0 : Fin 1) j)
      = k0_pay1 (F := Ideal) (xstg (F := Ideal) m ρ p) (ValueIdx.ix3 (0 : Fin 1) (0 : Fin 1) j) := by
  unfold comm
  refine congrArg (k0_pay1 (F := Ideal) (xstg (F := Ideal) m ρ p)) (funext fun a => ?_)
  match a with
  | ⟨0, _⟩ => rfl
  | ⟨1, _⟩ => rfl
  | ⟨2, _⟩ => rfl

/-- When every device's input is its block of the whole array, every device's result is the column mean of the
    whole array. -/
theorem out_eq_ref (m : (ℓ : Loc nD τ sig) → Buf (Elt Ideal) ℓ) (ρ : Dev nD → PrngReg)
    (X : Vec Ideal Cert.ReferenceIdeal.S16384x512 .f32)
    (hX : ∀ c : Dev nD, m ((c.tc : Thread nD τ).loc main_arg0) = Idealize.ShloMosaic.Layout.block ⟨2, ![1024, 512]⟩ ⟨2, ![16384, 512]⟩ 0 16 c X) :
    outAt (F := Ideal) m ρ = Cert.ReferenceIdeal.Read.val_main_v3 (F := Ideal) X := by
  unfold outAt
  refine Cert.MeanValue.mean_bridge X (comm (F := Ideal) m ρ) fun p j => ?_
  rw [comm_at, xstg_eq, hX p]

/-- info: 'Cert.KernelIdeal.Mean.out_eq_ref' depends on axioms: [propext, Classical.choice, Quot.sound] -/
#guard_msgs in #print axioms out_eq_ref

end Cert.KernelIdeal.Mean

end
-- ==== Proof.lean ====
/-
  The column mean of `x : f32[16384, 512]` on sixteen devices against `jnp.mean(x, axis=0, keepdims=True)` on one.

  Device `c` holds rows `1024·c … 1024·c + 1023` of `x`. It tells every other device it has entered (one unit on that
  device's barrier cell, with which it hands over the row of its scratch that device will write), sums its 1024 rows
  into row `c` of a 16-row scratch, waits for the fifteen entry signals of the others, sends row `c` into row `c` of
  every other device's scratch, waits for the fifteen rows of the others, multiplies the sum of the sixteen rows by
  2^-14, and waits until its fifteen transfers have left. No row is written while it is read and no row is read before
  it has landed: each landing row is owned by its one writer from the entry signal to the receive wait, and the own
  row is read by the fifteen transfers and by the final sum at shares of one full share, never written meanwhile.
  A device waits on its barrier cell (level 1) owing only arrivals (receive cells, level 2) and on its receive and
  send cells owing nothing, so no wait can close a cycle.

  Over the extended reals the result is, at column `j`, `(0 + Σ_p (0 + Σ_r x[1024·p + r, j])) · 2^-14`, and the
  reference's is `(0 + Σ_R x[R, j]) / 16384`: the double sum is the single one regrouped (addition is commutative and
  associative there, infinities included), and dividing by the real 16384 is multiplying by its inverse on every
  extended real. The word-level program is the same text read at words; its frame is the same run.
-/
import proofs.«900935_g7700000000000936_dist_mean_ax0_shard0_i_m1024_n512_v7x_i16_f32_1_alg».proof.Defs
import proofs.«900935_g7700000000000936_dist_mean_ax0_shard0_i_m1024_n512_v7x_i16_f32_1_alg».proof.Proof.Gen.Kernel
import proofs.«900935_g7700000000000936_dist_mean_ax0_shard0_i_m1024_n512_v7x_i16_f32_1_alg».proof.Proof.Gen.KernelIdeal
import proofs.«900935_g7700000000000936_dist_mean_ax0_shard0_i_m1024_n512_v7x_i16_f32_1_alg».proof.Proof.Gen.ReferenceIdeal
import proofs.«900935_g7700000000000936_dist_mean_ax0_shard0_i_m1024_n512_v7x_i16_f32_1_alg».proof.Proof.Gen.Pre_finite_inputs_Kernel
import proofs.«900935_g7700000000000936_dist_mean_ax0_shard0_i_m1024_n512_v7x_i16_f32_1_alg».proof.Proof.Gen.Pre_finite_inputs_ReferenceIdeal
import proofs.«900935_g7700000000000936_dist_mean_ax0_shard0_i_m1024_n512_v7x_i16_f32_1_alg».proof.Proof.RefRun
import proofs.«900935_g7700000000000936_dist_mean_ax0_shard0_i_m1024_n512_v7x_i16_f32_1_alg».proof.Proof.Body
import proofs.«900935_g7700000000000936_dist_mean_ax0_shard0_i_m1024_n512_v7x_i16_f32_1_alg».proof.Proof.Launch
import proofs.«900935_g7700000000000936_dist_mean_ax0_shard0_i_m1024_n512_v7x_i16_f32_1_alg».proof.Proof.WBody
import proofs.«900935_g7700000000000936_dist_mean_ax0_shard0_i_m1024_n512_v7x_i16_f32_1_alg».proof.Proof.WLaunch
import proofs.«900935_g7700000000000936_dist_mean_ax0_shard0_i_m1024_n512_v7x_i16_f32_1_alg».proof.Proof.Bridge
import Idealize.ShloMosaic.Adequacy
import Idealize.ShloMosaic.Init

noncomputable section

namespace Cert.Proof

open Idealize.ShloMosaic Idealize.SL.Sem

/-- The word-level kernel runs to the end and leaves `x` as it was: the run of the protocol, its result dropped. -/
theorem frame_kernel : Cert.frame_Kernel := fun m ρ _ =>
  (θ_run (Cert.Kernel.defs (F := Bits)) _ _).mono (fun _ h c => (h c).2)
    (Cert.Kernel.Mean.run_value (F := Bits) m ρ (Cert.Kernel.Mean.body_obligation m ρ))

/-- The same run at the extended reals. -/
theorem frame_kernelIdeal : Cert.frame_KernelIdeal := fun m ρ _ =>
  (θ_run (Cert.KernelIdeal.defs (F := Ideal)) _ _).mono (fun _ h c => (h c).2)
    (Cert.KernelIdeal.Mean.run_value (F := Ideal) m ρ (Cert.KernelIdeal.Mean.body_obligation m ρ))

/-- The reference is six host operations in a line: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Every device ends with `(Σ_p Σ_r x[1024·p + r, ·]) · 2^-14`, which is the reference's `(Σ_R x[R, ·]) / 16384` when
    each device's argument is its block of the reference's. -/
theorem algebraic : Cert.algebraic_KernelIdeal_ReferenceIdeal := by
  intro m ρ m' ρ' _ hagree
  refine ⟨Cert.ReferenceIdeal.Read.val_main_v3 (F := Ideal)
    (m' (((0 : Dev Cert.ReferenceIdeal.nD).tc : Thread Cert.ReferenceIdeal.nD Cert.ReferenceIdeal.τ).loc Cert.ReferenceIdeal.main_arg0)), ?_, ?_⟩
  · refine (θ_run (Cert.KernelIdeal.defs (F := Ideal)) _ _).mono (fun _ h c => ⟨(h c).1.trans ?_, (h c).2⟩)
      (Cert.KernelIdeal.Mean.run_value (F := Ideal) m ρ (Cert.KernelIdeal.Mean.body_obligation m ρ))
    exact Cert.KernelIdeal.Mean.out_eq_ref m ρ _ hagree
  · exact (θ_run Cert.ReferenceIdeal.defs _ _).mono
      (fun _ h => ⟨(h 0).1.trans (Cert.ReferenceIdeal.Read.val_main_v3_eq _), (h 0).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_kernel, frame_kernelIdeal, frame_referenceIdeal, preserves, algebraic⟩

end Cert.Proof

end
